-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S2x2048x1024 : Shape := ⟨3, ![2, 2048, 1024]⟩
abbrev S4x2048x1024 : Shape := ⟨3, ![4, 2048, 1024]⟩
abbrev S2 : Shape := ⟨1, ![2]⟩
abbrev S4 : Shape := ⟨1, ![4]⟩
abbrev S16 : Shape := ⟨1, ![16]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 2
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S2x2048x1024, .f32⟩
  | .local _ .vmem, ⟨1, _⟩ => ⟨S4x2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_30 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c32768_i32 : BitVec 32 := 32768#32
  let v38 : BitVec 32 := Scalar.muli v2 c32768_i32
  let v39 : BitVec 32 := Scalar.addi v38 c0_i32_30
  let c0_i32_38 : BitVec 32 := 0#32
  ![v39.toNat, 0]
def k0_dev2 (d0 : Dev nD) : Nat :=
  let c0_i32_35 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_34 : BitVec 32 := 16#32
  let v40 : BitVec 32 := Scalar.muli v9 c16_i32_34
  let v41 : BitVec 32 := Scalar.addi c0_i32_35 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v42 : BitVec 32 := Scalar.muli v5 c4_i32_36
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v44 : BitVec 32 := Scalar.muli v8 c1_i32_37
  let v45 : BitVec 32 := Scalar.addi v43 v44
  v45.toNat
def k0_dev3 (d0 : Dev nD) : Nat :=
  let c0_i32_70 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_69 : BitVec 32 := 16#32
  let v78 : BitVec 32 := Scalar.muli v9 c16_i32_69
  let v79 : BitVec 32 := Scalar.addi c0_i32_70 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v80 : BitVec 32 := Scalar.muli v5 c4_i32_71
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v82 : BitVec 32 := Scalar.muli v8 c1_i32_72
  let v83 : BitVec 32 := Scalar.addi v81 v82
  v83.toNat
def k0_dev4 (d0 : Dev nD) : Nat :=
  let c0_i32_105 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_104 : BitVec 32 := 16#32
  let v116 : BitVec 32 := Scalar.muli v9 c16_i32_104
  let v117 : BitVec 32 := Scalar.addi c0_i32_105 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v118 : BitVec 32 := Scalar.muli v5 c4_i32_106
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v120 : BitVec 32 := Scalar.muli v8 c1_i32_107
  let v121 : BitVec 32 := Scalar.addi v119 v120
  v121.toNat
def k0_dev5 (d0 : Dev nD) : Nat :=
  let c0_i32_139 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_138 : BitVec 32 := 16#32
  let v154 : BitVec 32 := Scalar.muli v9 c16_i32_138
  let v155 : BitVec 32 := Scalar.addi c0_i32_139 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v156 : BitVec 32 := Scalar.muli v5 c4_i32_140
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v158 : BitVec 32 := Scalar.muli v8 c1_i32_141
  let v159 : BitVec 32 := Scalar.addi v157 v158
  v159.toNat
def k0_dev6 (d0 : Dev nD) : Nat :=
  let c0_i32_199 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_198 : BitVec 32 := 16#32
  let v215 : BitVec 32 := Scalar.muli v9 c16_i32_198
  let v216 : BitVec 32 := Scalar.addi c0_i32_199 v215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v217 : BitVec 32 := Scalar.muli v5 c4_i32_200
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v219 : BitVec 32 := Scalar.muli v8 c1_i32_201
  let v220 : BitVec 32 := Scalar.addi v218 v219
  v220.toNat
def k0_dev7 (d0 : Dev nD) : Nat :=
  let c0_i32_258 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_257 : BitVec 32 := 16#32
  let v276 : BitVec 32 := Scalar.muli v9 c16_i32_257
  let v277 : BitVec 32 := Scalar.addi c0_i32_258 v276
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_259 : BitVec 32 := 4#32
  let v278 : BitVec 32 := Scalar.muli v5 c4_i32_259
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v280 : BitVec 32 := Scalar.muli v8 c1_i32_260
  let v281 : BitVec 32 := Scalar.addi v279 v280
  v281.toNat
def k0_dev8 (d0 : Dev nD) : Nat :=
  let c0_i32_317 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_316 : BitVec 32 := 16#32
  let v337 : BitVec 32 := Scalar.muli v9 c16_i32_316
  let v338 : BitVec 32 := Scalar.addi c0_i32_317 v337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_318 : BitVec 32 := 4#32
  let v339 : BitVec 32 := Scalar.muli v5 c4_i32_318
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v341 : BitVec 32 := Scalar.muli v8 c1_i32_319
  let v342 : BitVec 32 := Scalar.addi v340 v341
  v342.toNat
def k0_dev9 (d0 : Dev nD) : Nat :=
  let c0_i32_376 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_375 : BitVec 32 := 16#32
  let v398 : BitVec 32 := Scalar.muli v9 c16_i32_375
  let v399 : BitVec 32 := Scalar.addi c0_i32_376 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_377 : BitVec 32 := 4#32
  let v400 : BitVec 32 := Scalar.muli v5 c4_i32_377
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v402 : BitVec 32 := Scalar.muli v8 c1_i32_378
  let v403 : BitVec 32 := Scalar.addi v401 v402
  v403.toNat
def k0_dev10 (d0 : Dev nD) : Nat :=
  let c0_i32_435 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_434 : BitVec 32 := 16#32
  let v459 : BitVec 32 := Scalar.muli v9 c16_i32_434
  let v460 : BitVec 32 := Scalar.addi c0_i32_435 v459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_436 : BitVec 32 := 4#32
  let v461 : BitVec 32 := Scalar.muli v5 c4_i32_436
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v463 : BitVec 32 := Scalar.muli v8 c1_i32_437
  let v464 : BitVec 32 := Scalar.addi v462 v463
  v464.toNat
def k0_dev11 (d0 : Dev nD) : Nat :=
  let c0_i32_494 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_493 : BitVec 32 := 16#32
  let v520 : BitVec 32 := Scalar.muli v9 c16_i32_493
  let v521 : BitVec 32 := Scalar.addi c0_i32_494 v520
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_495 : BitVec 32 := 4#32
  let v522 : BitVec 32 := Scalar.muli v5 c4_i32_495
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v524 : BitVec 32 := Scalar.muli v8 c1_i32_496
  let v525 : BitVec 32 := Scalar.addi v523 v524
  v525.toNat
def k0_dev12 (d0 : Dev nD) : Nat :=
  let c0_i32_553 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_552 : BitVec 32 := 16#32
  let v581 : BitVec 32 := Scalar.muli v9 c16_i32_552
  let v582 : BitVec 32 := Scalar.addi c0_i32_553 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_554 : BitVec 32 := 4#32
  let v583 : BitVec 32 := Scalar.muli v5 c4_i32_554
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_555 : BitVec 32 := 1#32
  let v585 : BitVec 32 := Scalar.muli v8 c1_i32_555
  let v586 : BitVec 32 := Scalar.addi v584 v585
  v586.toNat
def k0_dev13 (d0 : Dev nD) : Nat :=
  let c0_i32_612 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_611 : BitVec 32 := 16#32
  let v642 : BitVec 32 := Scalar.muli v9 c16_i32_611
  let v643 : BitVec 32 := Scalar.addi c0_i32_612 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_613 : BitVec 32 := 4#32
  let v644 : BitVec 32 := Scalar.muli v5 c4_i32_613
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_614 : BitVec 32 := 1#32
  let v646 : BitVec 32 := Scalar.muli v8 c1_i32_614
  let v647 : BitVec 32 := Scalar.addi v645 v646
  v647.toNat
def k0_dev14 (d0 : Dev nD) : Nat :=
  let c0_i32_671 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_670 : BitVec 32 := 16#32
  let v703 : BitVec 32 := Scalar.muli v9 c16_i32_670
  let v704 : BitVec 32 := Scalar.addi c0_i32_671 v703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_672 : BitVec 32 := 4#32
  let v705 : BitVec 32 := Scalar.muli v5 c4_i32_672
  let v706 : BitVec 32 := Scalar.addi v704 v705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_673 : BitVec 32 := 1#32
  let v707 : BitVec 32 := Scalar.muli v8 c1_i32_673
  let v708 : BitVec 32 := Scalar.addi v706 v707
  v708.toNat
def k0_dev15 (d0 : Dev nD) : Nat :=
  let c0_i32_730 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_729 : BitVec 32 := 16#32
  let v764 : BitVec 32 := Scalar.muli v9 c16_i32_729
  let v765 : BitVec 32 := Scalar.addi c0_i32_730 v764
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_731 : BitVec 32 := 4#32
  let v766 : BitVec 32 := Scalar.muli v5 c4_i32_731
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v768 : BitVec 32 := Scalar.muli v8 c1_i32_732
  let v769 : BitVec 32 := Scalar.addi v767 v768
  v769.toNat
def k0_dev16 (d0 : Dev nD) : Nat :=
  let c0_i32_789 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_788 : BitVec 32 := 16#32
  let v825 : BitVec 32 := Scalar.muli v9 c16_i32_788
  let v826 : BitVec 32 := Scalar.addi c0_i32_789 v825
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_790 : BitVec 32 := 4#32
  let v827 : BitVec 32 := Scalar.muli v5 c4_i32_790
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_791 : BitVec 32 := 1#32
  let v829 : BitVec 32 := Scalar.muli v8 c1_i32_791
  let v830 : BitVec 32 := Scalar.addi v828 v829
  v830.toNat
def k0_dev17 (d0 : Dev nD) : Nat :=
  let c0_i32_843 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_842 : BitVec 32 := 16#32
  let v881 : BitVec 32 := Scalar.muli v9 c16_i32_842
  let v882 : BitVec 32 := Scalar.addi c0_i32_843 v881
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_844 : BitVec 32 := 4#32
  let v883 : BitVec 32 := Scalar.muli v5 c4_i32_844
  let v884 : BitVec 32 := Scalar.addi v882 v883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_845 : BitVec 32 := 1#32
  let v885 : BitVec 32 := Scalar.muli v8 c1_i32_845
  let v886 : BitVec 32 := Scalar.addi v884 v885
  v886.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S32768x1024_S2048x1024_0_0 : ∀ a, (![0, 0] : Fin 2 → Nat) a + S2048x1024.size a ≤ S32768x1024.size a
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  inb_S32768x1024_S2048x1024_2048_0 : ∀ a, (![2048, 0] : Fin 2 → Nat) a + S2048x1024.size a ≤ S32768x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S4x2048x1024_S1x2048x1024_0_0_0 : ∀ a, (![0, 0, 0] : Fin 3 → Nat) a + S1x2048x1024.size a ≤ S4x2048x1024.size a
  shapeCasts_S2048x1024_S1x2048x1024 : S2048x1024.ShapeCasts S1x2048x1024
  packedbf16_S4x2048x1024_S1x2048x1024_0_0_0 : (Rect.unit (s := S4x2048x1024) ![0, 0, 0] S1x2048x1024.size inb_S4x2048x1024_S1x2048x1024_0_0_0).PackedRows (EltTy.packing .bf16)
  inb_S16_S1_0 : ∀ a, (![0] : Fin 1 → Nat) a + S1.size a ≤ S16.size a
  wordsbf16_S4x2048x1024_S1x2048x1024_0_0_0 : (Rect.unit (s := S4x2048x1024) ![0, 0, 0] S1x2048x1024.size inb_S4x2048x1024_S1x2048x1024_0_0_0).WholeWords (EltTy.packing .bf16)
  inb_S4_S1_0 : ∀ a, (![0] : Fin 1 → Nat) a + S1.size a ≤ S4.size a
  inb_S32768x1024_S2048x1024_4096_0 : ∀ a, (![4096, 0] : Fin 2 → Nat) a + S2048x1024.size a ≤ S32768x1024.size a
  inb_S4x2048x1024_S1x2048x1024_1_0_0 : ∀ a, (![1, 0, 0] : Fin 3 → Nat) a + S1x2048x1024.size a ≤ S4x2048x1024.size a
  packedbf16_S4x2048x1024_S1x2048x1024_1_0_0 : (Rect.unit (s := S4x2048x1024) ![1, 0, 0] S1x2048x1024.size inb_S4x2048x1024_S1x2048x1024_1_0_0).PackedRows (EltTy.packing .bf16)
  inb_S16_S1_1 : ∀ a, (![1] : Fin 1 → Nat) a + S1.size a ≤ S16.size a
  wordsbf16_S4x2048x1024_S1x2048x1024_1_0_0 : (Rect.unit (s := S4x2048x1024) ![1, 0, 0] S1x2048x1024.size inb_S4x2048x1024_S1x2048x1024_1_0_0).WholeWords (EltTy.packing .bf16)
  inb_S4_S1_1 : ∀ a, (![1] : Fin 1 → Nat) a + S1.size a ≤ S4.size a
  inb_S32768x1024_S2048x1024_6144_0 : ∀ a, (![6144, 0] : Fin 2 → Nat) a + S2048x1024.size a ≤ S32768x1024.size a
  inb_S4x2048x1024_S1x2048x1024_2_0_0 : ∀ a, (![2, 0, 0] : Fin 3 → Nat) a + S1x2048x1024.size a ≤ S4x2048x1024.size a
  packedbf16_S4x2048x1024_S1x2048x1024_2_0_0 : (Rect.unit (s := S4x2048x1024) ![2, 0, 0] S1x2048x1024.size inb_S4x2048x1024_S1x2048x1024_2_0_0).PackedRows (EltTy.packing .bf16)
  inb_S16_S1_2 : ∀ a, (![2] : Fin 1 → Nat) a + S1.size a ≤ S16.size a
  wordsbf16_S4x2048x1024_S1x2048x1024_2_0_0 : (Rect.unit (s := S4x2048x1024) ![2, 0, 0] S1x2048x1024.size inb_S4x2048x1024_S1x2048x1024_2_0_0).WholeWords (EltTy.packing .bf16)
  inb_S4_S1_2 : ∀ a, (![2] : Fin 1 → Nat) a + S1.size a ≤ S4.size a
  inb_S32768x1024_S2048x1024_8192_0 : ∀ a, (![8192, 0] : Fin 2 → Nat) a + S2048x1024.size a ≤ S32768x1024.size a
  inb_S4x2048x1024_S1x2048x1024_3_0_0 : ∀ a, (![3, 0, 0] : Fin 3 → Nat) a + S1x2048x1024.size a ≤ S4x2048x1024.size a
  packedbf16_S4x2048x1024_S1x2048x1024_3_0_0 : (Rect.unit (s := S4x2048x1024) ![3, 0, 0] S1x2048x1024.size inb_S4x2048x1024_S1x2048x1024_3_0_0).PackedRows (EltTy.packing .bf16)
  inb_S16_S1_3 : ∀ a, (![3] : Fin 1 → Nat) a + S1.size a ≤ S16.size a
  wordsbf16_S4x2048x1024_S1x2048x1024_3_0_0 : (Rect.unit (s := S4x2048x1024) ![3, 0, 0] S1x2048x1024.size inb_S4x2048x1024_S1x2048x1024_3_0_0).WholeWords (EltTy.packing .bf16)
  inb_S4_S1_3 : ∀ a, (![3] : Fin 1 → Nat) a + S1.size a ≤ S4.size a
  inb_S32768x1024_S2048x1024_10240_0 : ∀ a, (![10240, 0] : Fin 2 → Nat) a + S2048x1024.size a ≤ S32768x1024.size a
  inb_S16_S1_4 : ∀ a, (![4] : Fin 1 → Nat) a + S1.size a ≤ S16.size a
  inb_S32768x1024_S2048x1024_12288_0 : ∀ a, (![12288, 0] : Fin 2 → Nat) a + S2048x1024.size a ≤ S32768x1024.size a
  inb_S16_S1_5 : ∀ a, (![5] : Fin 1 → Nat) a + S1.size a ≤ S16.size a
  inb_S32768x1024_S2048x1024_14336_0 : ∀ a, (![14336, 0] : Fin 2 → Nat) a + S2048x1024.size a ≤ S32768x1024.size a
  inb_S16_S1_6 : ∀ a, (![6] : Fin 1 → Nat) a + S1.size a ≤ S16.size a
  inb_S32768x1024_S2048x1024_16384_0 : ∀ a, (![16384, 0] : Fin 2 → Nat) a + S2048x1024.size a ≤ S32768x1024.size a
  inb_S16_S1_7 : ∀ a, (![7] : Fin 1 → Nat) a + S1.size a ≤ S16.size a
  inb_S32768x1024_S2048x1024_18432_0 : ∀ a, (![18432, 0] : Fin 2 → Nat) a + S2048x1024.size a ≤ S32768x1024.size a
  inb_S16_S1_8 : ∀ a, (![8] : Fin 1 → Nat) a + S1.size a ≤ S16.size a
  inb_S32768x1024_S2048x1024_20480_0 : ∀ a, (![20480, 0] : Fin 2 → Nat) a + S2048x1024.size a ≤ S32768x1024.size a
  inb_S16_S1_9 : ∀ a, (![9] : Fin 1 → Nat) a + S1.size a ≤ S16.size a
  inb_S32768x1024_S2048x1024_22528_0 : ∀ a, (![22528, 0] : Fin 2 → Nat) a + S2048x1024.size a ≤ S32768x1024.size a
  inb_S16_S1_10 : ∀ a, (![10] : Fin 1 → Nat) a + S1.size a ≤ S16.size a
  inb_S32768x1024_S2048x1024_24576_0 : ∀ a, (![24576, 0] : Fin 2 → Nat) a + S2048x1024.size a ≤ S32768x1024.size a
  inb_S16_S1_11 : ∀ a, (![11] : Fin 1 → Nat) a + S1.size a ≤ S16.size a
  inb_S32768x1024_S2048x1024_26624_0 : ∀ a, (![26624, 0] : Fin 2 → Nat) a + S2048x1024.size a ≤ S32768x1024.size a
  inb_S16_S1_12 : ∀ a, (![12] : Fin 1 → Nat) a + S1.size a ≤ S16.size a
  inb_S32768x1024_S2048x1024_28672_0 : ∀ a, (![28672, 0] : Fin 2 → Nat) a + S2048x1024.size a ≤ S32768x1024.size a
  inb_S16_S1_13 : ∀ a, (![13] : Fin 1 → Nat) a + S1.size a ≤ S16.size a
  inb_S32768x1024_S2048x1024_30720_0 : ∀ a, (![30720, 0] : Fin 2 → Nat) a + S2048x1024.size a ≤ S32768x1024.size a
  inb_S16_S1_14 : ∀ a, (![14] : Fin 1 → Nat) a + S1.size a ≤ S16.size a
  inb_S16_S1_15 : ∀ a, (![15] : Fin 1 → Nat) a + S1.size a ≤ S16.size a
  hcc0_scratch2 : 0 + S2.numel ≤ 38
  hcc0_scratch3 : 2 + S4.numel ≤ 38
  hcc0_scratch4 : 6 + S16.numel ≤ 38
  hcc0_scratch5 : 22 + S16.numel ≤ 38
  k0_dev1_lt : ∀ d0 : Dev nD, (k0_dev1 d0) < nD
  k0_off1_inb : ∀ d0 : Dev nD, ∀ (r : Fin 16), ∀ a, (k0_off1 d0 (BitVec.ofNat 32 (2048 * r.val))) a + S2048x1024.size a ≤ S65536x1024.size a
  k0_off1_wordsbf16 : ∀ d0 : Dev nD, ∀ (r : Fin 16), (Rect.unit (s := S65536x1024) (k0_off1 d0 (BitVec.ofNat 32 (2048 * r.val))) S2048x1024.size (k0_off1_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch2 : DmaSems sig S2 := SemArray.consecutive 0 S2 hcc0_scratch2
abbrev cc0_scratch3 : DmaSems sig S4 := SemArray.consecutive 2 S4 hcc0_scratch3
abbrev cc0_scratch4 : DmaSems sig S16 := SemArray.consecutive 6 S16 hcc0_scratch4
abbrev cc0_scratch5 : DmaSems sig S16 := SemArray.consecutive 22 S16 hcc0_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.AG.Cells.lean ====
/-
  The all-gather over the mesh's x axis, device by device: the cells, the views and the schedule.

  Device `c` holds rows `[32768·(c/16), 32768·(c/16) + 32768)` of the gathered array `x` (its block), and its
  partner `pr c` — the device at the other x coordinate, same y and z, `(c + 16) mod 32` — holds the other half.
  The kernel cuts the block into 16 chunks of 2048 rows. For chunk `k` it copies the f32 chunk from HBM into slot
  `k mod 2` of a two-slot f32 buffer, narrows it into slot `k mod 4` of a four-slot bf16 buffer, and sends that
  slot twice: to rows `32768·(c/16) + 2048·k` of its OWN result and, by a remote copy, to the same rows of the
  PARTNER's result. Before its first remote copy a device signals the partner's barrier semaphore and waits for
  the partner's signal on its own.

  Every semaphore is a cell of one schedule (one duty, `()`, a round):
  * the barrier cell: round 0, one unit, paid by the partner's signal; its payload is the partner's 16 result
    chunks this device is to fill, and that the partner's 16 receive cells are at round 0;
  * load cell `j < 2`: round `r < 8` is the copy of chunk `2r + j` into f32 slot `j`;
  * store cell `j < 4`: round `r < 4` is the local copy of chunk `4r + j` out of bf16 slot `j`;
  * send cell `k`, receive cell `k` (`k < 16`): round 0, the remote copy of chunk `k` (the send cell credited
    on the sender as the source is read, the receive cell on the partner as its rows are written).
-/
import proofs.«900687_g7700000000000688_dist_ag_v7x_xyz2x4x4_x_m32768_n1024_bf16_1_alg».proof.Proof.Gen.KernelIdeal
import proofs.«900687_g7700000000000688_dist_ag_v7x_xyz2x4x4_x_m32768_n1024_bf16_1_alg».proof.Proof.Gen.KernelIdeal.Skeleton
import proofs.«900687_g7700000000000688_dist_ag_v7x_xyz2x4x4_x_m32768_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The partner -/

/-- The device at the other x coordinate and the same y and z. -/
def pr (c : Dev nD) : Dev nD := ⟨(c.val + 16) % 32, Nat.mod_lt _ (by decide)⟩

theorem pr_pr (c : Dev nD) : pr (pr c) = c := by revert c; decide
theorem pr_ne (c : Dev nD) : pr c ≠ c := by revert c; decide
theorem pr_x (c : Dev nD) : (pr c).val / 16 = 1 - c.val / 16 := by revert c; decide

/-- Each of the kernel's seventeen device chains (the signal's and the sixteen remote copies') names the partner. -/
theorem chain_eq (c : Dev nD) : (4 * ((c.val / 4) % 4) + (c.val % 4) + 16) - 16 * (c.val / 16) = (pr c).val := by revert c; decide

theorem dev1_eq (c : Dev nD) : (⟨k0_dev1 c, k0_dev1_lt c⟩ : Dev nD) = pr c := Fin.ext ((k0_dev1_eq c).trans (chain_eq c))
theorem dev2_eq (c : Dev nD) : (⟨k0_dev2 c, k0_dev2_lt c⟩ : Dev nD) = pr c := Fin.ext ((k0_dev2_eq c).trans (chain_eq c))
theorem dev3_eq (c : Dev nD) : (⟨k0_dev3 c, k0_dev3_lt c⟩ : Dev nD) = pr c := Fin.ext ((k0_dev3_eq c).trans (chain_eq c))
theorem dev4_eq (c : Dev nD) : (⟨k0_dev4 c, k0_dev4_lt c⟩ : Dev nD) = pr c := Fin.ext ((k0_dev4_eq c).trans (chain_eq c))
theorem dev5_eq (c : Dev nD) : (⟨k0_dev5 c, k0_dev5_lt c⟩ : Dev nD) = pr c := Fin.ext ((k0_dev5_eq c).trans (chain_eq c))
theorem dev6_eq (c : Dev nD) : (⟨k0_dev6 c, k0_dev6_lt c⟩ : Dev nD) = pr c := Fin.ext ((k0_dev6_eq c).trans (chain_eq c))
theorem dev7_eq (c : Dev nD) : (⟨k0_dev7 c, k0_dev7_lt c⟩ : Dev nD) = pr c := Fin.ext ((k0_dev7_eq c).trans (chain_eq c))
theorem dev8_eq (c : Dev nD) : (⟨k0_dev8 c, k0_dev8_lt c⟩ : Dev nD) = pr c := Fin.ext ((k0_dev8_eq c).trans (chain_eq c))
theorem dev9_eq (c : Dev nD) : (⟨k0_dev9 c, k0_dev9_lt c⟩ : Dev nD) = pr c := Fin.ext ((k0_dev9_eq c).trans (chain_eq c))
theorem dev10_eq (c : Dev nD) : (⟨k0_dev10 c, k0_dev10_lt c⟩ : Dev nD) = pr c := Fin.ext ((k0_dev10_eq c).trans (chain_eq c))
theorem dev11_eq (c : Dev nD) : (⟨k0_dev11 c, k0_dev11_lt c⟩ : Dev nD) = pr c := Fin.ext ((k0_dev11_eq c).trans (chain_eq c))
theorem dev12_eq (c : Dev nD) : (⟨k0_dev12 c, k0_dev12_lt c⟩ : Dev nD) = pr c := Fin.ext ((k0_dev12_eq c).trans (chain_eq c))
theorem dev13_eq (c : Dev nD) : (⟨k0_dev13 c, k0_dev13_lt c⟩ : Dev nD) = pr c := Fin.ext ((k0_dev13_eq c).trans (chain_eq c))
theorem dev14_eq (c : Dev nD) : (⟨k0_dev14 c, k0_dev14_lt c⟩ : Dev nD) = pr c := Fin.ext ((k0_dev14_eq c).trans (chain_eq c))
theorem dev15_eq (c : Dev nD) : (⟨k0_dev15 c, k0_dev15_lt c⟩ : Dev nD) = pr c := Fin.ext ((k0_dev15_eq c).trans (chain_eq c))
theorem dev16_eq (c : Dev nD) : (⟨k0_dev16 c, k0_dev16_lt c⟩ : Dev nD) = pr c := Fin.ext ((k0_dev16_eq c).trans (chain_eq c))
theorem dev17_eq (c : Dev nD) : (⟨k0_dev17 c, k0_dev17_lt c⟩ : Dev nD) = pr c := Fin.ext ((k0_dev17_eq c).trans (chain_eq c))

/-- The pairing as a permutation of the mesh (its own inverse). -/
def pair : Dev nD ≃ Dev nD := ⟨pr, pr, pr_pr, pr_pr⟩

/-! ## The buffers, their slots and chunks -/

abbrev xM : Memref sig .tc .hbm S32768x1024 .f32 := Memref.whole main_arg0
abbrev oM : Memref sig .tc .hbm S65536x1024 .bf16 := Memref.whole main_v1
abbrev fM : Memref sig .tc .vmem S2x2048x1024 .f32 := Memref.whole cc0_scratch0
abbrev bM : Memref sig .tc .vmem S4x2048x1024 .bf16 := Memref.whole cc0_scratch1

theorem inb_f (j : Fin 2) : ∀ a, (![j.val, 0, 0] : Fin 3 → Nat) a + S1x2048x1024.size a ≤ S2x2048x1024.size a := by revert j; decide
theorem inb_b (j : Fin 4) : ∀ a, (![j.val, 0, 0] : Fin 3 → Nat) a + S1x2048x1024.size a ≤ S4x2048x1024.size a := by revert j; decide
theorem inb_x (k : Fin 16) : ∀ a, (![2048 * k.val, 0] : Fin 2 → Nat) a + S2048x1024.size a ≤ S32768x1024.size a := by revert k; decide

/-- Slot `j` of the f32 buffer, as a rectangle of it (what a vector load goes through) -/
abbrev fRect (j : Fin 2) : Rect S2x2048x1024 := Rect.unit (s := S2x2048x1024) ![j.val, 0, 0] S1x2048x1024.size (inb_f j)
/-- and slot `j` of the bf16 buffer. -/
abbrev bRect (j : Fin 4) : Rect S4x2048x1024 := Rect.unit (s := S4x2048x1024) ![j.val, 0, 0] S1x2048x1024.size (inb_b j)

/-- The slots as the copies name them: the slice, squeezed to a 2048 × 1024 matrix. -/
abbrev fSl (j : Fin 2) : Memref sig .tc .vmem S2048x1024 .f32 :=
  (fM.slice (fRect j) (fun _ => rfl)).squeeze S2048x1024 squeezes_S1x2048x1024_S2048x1024
abbrev bSl (j : Fin 4) : Memref sig .tc .vmem S2048x1024 .bf16 :=
  (bM.slice (bRect j) (fun _ => rfl)).squeeze S2048x1024 squeezes_S1x2048x1024_S2048x1024

/-- Chunk `k` of a device's block of `x`: rows `[2048k, 2048k + 2048)`. -/
abbrev xCh (k : Fin 16) : Memref sig .tc .hbm S2048x1024 .f32 :=
  xM.slice (Rect.unit (s := S32768x1024) ![2048 * k.val, 0] S2048x1024.size (inb_x k)) (fun _ => rfl)

/-- Chunk `k` of the half of the result that device `d`'s block fills: rows `[32768·(d/16) + 2048k, … + 2048)`,
    the offset as the kernel computes it. -/
abbrev oCh (d : Dev nD) (k : Fin 16) : Memref sig .tc .hbm S2048x1024 .bf16 :=
  oM.slice (Rect.unit (s := S65536x1024) (k0_off1 d (BitVec.ofNat 32 (2048 * k.val))) S2048x1024.size (k0_off1_inb d k)) (fun _ => rfl)

/-- The slot a chunk goes through. -/
def f2 (k : Fin 16) : Fin 2 := ⟨k.val % 2, Nat.mod_lt _ (by decide)⟩
def b4 (k : Fin 16) : Fin 4 := ⟨k.val % 4, Nat.mod_lt _ (by decide)⟩

/-! ## The semaphores and their cells -/

theorem inb_s2 (j : Fin 2) : ∀ a, (![j.val] : Fin 1 → Nat) a + S1.size a ≤ S2.size a := by revert j; decide
theorem inb_s4 (j : Fin 4) : ∀ a, (![j.val] : Fin 1 → Nat) a + S1.size a ≤ S4.size a := by revert j; decide
theorem inb_s16 (k : Fin 16) : ∀ a, (![k.val] : Fin 1 → Nat) a + S1.size a ≤ S16.size a := by revert k; decide

/-- The runtime's barrier semaphore of collective id 0 (not scoped). -/
abbrev barS : Sem sig := (SemArray.scalar (sig.barrier 0 rfl) : Sems sig S_).sem
/-- The kernel's own DMA semaphores, as its slices of the four arrays name them. -/
abbrev loadS (j : Fin 2) : DmaSem sig := ((cc0_scratch2.slice (Rect.unit (s := S2) ![j.val] S1.size (inb_s2 j))).squeeze S_ squeezes_S1_S_).sem
abbrev storeS (j : Fin 4) : DmaSem sig := ((cc0_scratch3.slice (Rect.unit (s := S4) ![j.val] S1.size (inb_s4 j))).squeeze S_ squeezes_S1_S_).sem
abbrev sendS (k : Fin 16) : DmaSem sig := ((cc0_scratch4.slice (Rect.unit (s := S16) ![k.val] S1.size (inb_s16 k))).squeeze S_ squeezes_S1_S_).sem
abbrev recvS (k : Fin 16) : DmaSem sig := ((cc0_scratch5.slice (Rect.unit (s := S16) ![k.val] S1.size (inb_s16 k))).squeeze S_ squeezes_S1_S_).sem

/-- Their places in the pool: loads at 0–1, stores at 2–5, sends at 6–21, receives at 22–37. -/
theorem loadS_val (j : Fin 2) : (loadS j).val = j.val := by revert j; decide
theorem storeS_val (j : Fin 4) : (storeS j).val = 2 + j.val := by revert j; decide
theorem sendS_val (k : Fin 16) : (sendS k).val = 6 + k.val := by revert k; decide
theorem recvS_val (k : Fin 16) : (recvS k).val = 22 + k.val := by revert k; decide

abbrev barCell (c : Dev nD) : GSem nD τ sig := ((c : Thread nD τ), .reg barS)
abbrev loadCell (c : Dev nD) (j : Fin 2) : GSem nD τ sig := ((c : Thread nD τ), .dma (loadS j))
abbrev storeCell (c : Dev nD) (j : Fin 4) : GSem nD τ sig := ((c : Thread nD τ), .dma (storeS j))
abbrev sendCell (c : Dev nD) (k : Fin 16) : GSem nD τ sig := ((c : Thread nD τ), .dma (sendS k))
abbrev recvCell (c : Dev nD) (k : Fin 16) : GSem nD τ sig := ((c : Thread nD τ), .dma (recvS k))

/-- What a copy of a chunk credits its semaphore: the f32 chunk's amount, and the bf16 chunk's. -/
abbrev Nf : ℕ := (fSl 0).view.dmaCredit
abbrev Nb : ℕ := (bSl 0).view.dmaCredit
theorem Nf_pos : 0 < Nf := View.dmaCredit_pos _ (by decide)
theorem Nb_pos : 0 < Nb := View.dmaCredit_pos _ (by decide)

end Cert.KernelIdeal.AG

end
-- ==== Proof.AG.Sched.lean ====
/-
  What the copies carry, and the schedule of every semaphore.

  The values. `xval d k` is chunk `k` of device `d`'s block of `x` (2048 rows, f32), `cval d k` the same chunk
  narrowed to bf16 — what both of chunk `k`'s copies deliver. A buffer is held as "some contents that READ, through
  the view, as that value" (`owns`): what a copy overwrites is then never named.

  What each landing hands the waiting device (the schedule's payloads):
  * a load's: the f32 slot reading the chunk, and the chunk's rows of `x` back, unchanged;
  * a local store's: its own result rows reading the narrowed chunk, and its half share of the bf16 slot back;
  * a remote copy's send cell: the other half share of the bf16 slot back; its receive cell, on the partner: the
    partner's result rows reading the sender's narrowed chunk;
  * the barrier signal's: the signaller's sixteen result chunks the waiter is to fill, and that the signaller's
    sixteen receive cells are at round 0.

  Deadlock freedom is by levels: load, store and send cells at 0, the barrier cell at 1, receive cell `k` at
  `2 + k`. A device waits on its receive cell `k - 4` while it still owes the partner's receive cells `k` and up,
  and on everything else while it owes receive cells only.
-/
import proofs.«900687_g7700000000000688_dist_ag_v7x_xyz2x4x4_x_m32768_n1024_bf16_1_alg».proof.Proof.AG.Cells

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- Device `d`'s block of `x`, as launched. -/
def xblk (d : Dev nD) : Buf (Elt F) ((d : Thread nD τ).loc main_arg0) := m ((d : Thread nD τ).loc main_arg0)
/-- Its result array, as launched (arbitrary). -/
def oblk (d : Dev nD) : Buf (Elt F) ((d : Thread nD τ).loc main_v1) := m ((d : Thread nD τ).loc main_v1)

/-- Chunk `k` of device `d`'s block. -/
def xval (d : Dev nD) (k : Fin 16) : Vec F S2048x1024 .f32 := (xCh k).view.read (Elt F) (xblk m d)
/-- The chunk narrowed to bf16, entry by entry. -/
def cval (d : Dev nD) (k : Fin 16) : Vec F S2048x1024 .bf16 := truncf .bf16 (xval m d k) bitsLt_bf16_f32

/-! ## Holdings -/

/-- The two half shares a bf16 slot is lent at: one to the remote copy, one to the local store. -/
abbrev hL : PosShare TreeShare := fullShare.left
abbrev hR : PosShare TreeShare := fullShare.right

/-- Chunk `k`'s rows of `x` on device `c`, at what they held at launch. -/
def xPts (c : Dev nD) (k : Fin 16) : sProp 𝕄 :=
  (xCh k).view.loc (c : Thread nD τ) ↦[(xCh k).view.set]{fullShare} xblk m c
/-- The result rows `oCh d k` on device `c` at some contents. -/
def oAny (c d : Dev nD) (k : Fin 16) : sProp 𝕄 :=
  iprop(∃ f, (oCh d k).view.loc (c : Thread nD τ) ↦[(oCh d k).view.set]{fullShare} f)
/-- A share of bf16 slot `j` at some contents. -/
def bAny (c : Dev nD) (j : Fin 4) (q : PosShare TreeShare) : sProp 𝕄 :=
  iprop(∃ f, (bSl j).view.loc (c : Thread nD τ) ↦[(bSl j).view.set]{q} f)
/-- f32 slot `j` at some contents. -/
def fAny (c : Dev nD) (j : Fin 2) : sProp 𝕄 :=
  iprop(∃ f, (fSl j).view.loc (c : Thread nD τ) ↦[(fSl j).view.set]{fullShare} f)

/-! ## The payloads -/

def loadPay (c : Dev nD) (k : Fin 16) : sProp 𝕄 :=
  iprop(owns (c : Thread nD τ) (fSl (f2 k)) fullShare (xval m c k) ∗ xPts m c k)
def storePay (c : Dev nD) (k : Fin 16) : sProp 𝕄 :=
  iprop(owns (c : Thread nD τ) (oCh c k) fullShare (cval m c k) ∗ bAny c (b4 k) hR)
def sendPay (c : Dev nD) (k : Fin 16) : sProp 𝕄 := bAny c (b4 k) hL
def recvPay (c : Dev nD) (k : Fin 16) : sProp 𝕄 :=
  owns (c : Thread nD τ) (oCh (pr c) k) fullShare (cval m (pr c) k)
/-- What the partner's signal hands `c`: the rows of `c`'s half in the PARTNER's result, chunk by chunk, and that
    the partner's receive cells are at round 0. -/
def barPay (c : Dev nD) : sProp 𝕄 :=
  bigSep Finset.univ fun k : Fin 16 => iprop(oAny (pr c) c k ∗ reached ER (recvCell (pr c) k) 0)

/-! ## The schedule -/

def kOf (n : ℕ) : Fin 16 := ⟨n % 16, Nat.mod_lt _ (by decide)⟩

/-- How many rounds a cell has: the barrier, send and receive cells one; a load cell 8; a store cell 4. -/
def roundsOf : SemLoc sig → ℕ
  | .reg _ => 1
  | .dma i => if i.val < 2 then 8 else if i.val < 6 then 4 else 1
def amountOf : SemLoc sig → ℕ
  | .reg _ => 1
  | .dma i => if i.val < 2 then Nf else Nb
def payloadOf (c : Dev nD) : SemLoc sig → ℕ → sProp 𝕄
  | .reg _, _ => barPay c
  | .dma i, r =>
    if i.val < 2 then loadPay m c (kOf (2 * r + i.val))
    else if i.val < 6 then storePay m c (kOf (4 * r + (i.val - 2)))
    else if i.val < 22 then sendPay c (kOf (i.val - 6))
    else recvPay m c (kOf (i.val - 22))

theorem amountOf_pos (s : SemLoc sig) : 0 < amountOf s := by
  cases s with
  | reg _ => exact Nat.one_pos
  | dma i => dsimp only [amountOf]; split
             · exact Nf_pos
             · exact Nb_pos

def sched : Rounds.Schedule (GSem nD τ sig) Unit 𝕄 where
  duties g r := if g.1.2 = .tc ∧ r < roundsOf g.2 then {()} else ∅
  amount g _ _ := amountOf g.2
  payload g r _ := payloadOf m g.1.1 g.2 r
  amount_pos g _ _ _ := amountOf_pos g.2

instance payloadOf_storable (c : Dev nD) (s : SemLoc sig) (r : ℕ) : BI.Storable (upEmb : UEmb _ 𝕄) (payloadOf (F := F) m c s r) := by
  cases s with
  | reg _ => show BI.Storable upEmb (barPay c); unfold barPay oAny; infer_instance
  | dma i =>
    show BI.Storable upEmb (if i.val < 2 then loadPay m c (kOf (2 * r + i.val)) else if i.val < 6 then storePay m c (kOf (4 * r + (i.val - 2)))
      else if i.val < 22 then sendPay c (kOf (i.val - 6)) else recvPay m c (kOf (i.val - 22)))
    unfold loadPay storePay sendPay recvPay xPts bAny
    (repeat' split) <;> infer_instance

instance sched_payload_storable (g : GSem nD τ sig) (r : ℕ) (d : Unit) :
    BI.Storable (upEmb : UEmb _ 𝕄) ((sched (F := F) m).payload g r d) := payloadOf_storable m g.1.1 g.2 r

section Tables
variable (c : Dev nD)

theorem duties_of (s : SemLoc sig) (r : ℕ) (h : r < roundsOf s) : (sched (F := F) m).duties ((c : Thread nD τ), s) r = {()} := by
  dsimp only [sched]; exact if_pos ⟨rfl, h⟩
theorem duties_later_of (g : GSem nD τ sig) : ∀ r, roundsOf g.2 ≤ r → (sched (F := F) m).duties g r = ∅ :=
  fun r hr => by dsimp only [sched]; exact if_neg fun h => absurd h.2 (Nat.not_lt.mpr hr)

theorem rounds_bar : roundsOf (.reg barS : SemLoc sig) = 1 := rfl
theorem rounds_load (j : Fin 2) : roundsOf (.dma (loadS j) : SemLoc sig) = 8 := by
  dsimp only [roundsOf]; rw [loadS_val]; exact if_pos j.isLt
theorem rounds_store (j : Fin 4) : roundsOf (.dma (storeS j) : SemLoc sig) = 4 := by
  dsimp only [roundsOf]; rw [storeS_val, if_neg (by omega), if_pos (by have := j.isLt; omega)]
theorem rounds_send (k : Fin 16) : roundsOf (.dma (sendS k) : SemLoc sig) = 1 := by
  dsimp only [roundsOf]; rw [sendS_val, if_neg (by omega), if_neg (by omega)]
theorem rounds_recv (k : Fin 16) : roundsOf (.dma (recvS k) : SemLoc sig) = 1 := by
  dsimp only [roundsOf]; rw [recvS_val, if_neg (by omega), if_neg (by omega)]

theorem duties_bar : (sched (F := F) m).duties (barCell c) 0 = {()} := duties_of m c _ 0 (by rw [rounds_bar]; decide)
theorem duties_load (j : Fin 2) (r : ℕ) (hr : r < 8) : (sched (F := F) m).duties (loadCell c j) r = {()} := duties_of m c _ r (by rw [rounds_load]; exact hr)
theorem duties_store (j : Fin 4) (r : ℕ) (hr : r < 4) : (sched (F := F) m).duties (storeCell c j) r = {()} := duties_of m c _ r (by rw [rounds_store]; exact hr)
theorem duties_send (k : Fin 16) : (sched (F := F) m).duties (sendCell c k) 0 = {()} := duties_of m c _ 0 (by rw [rounds_send]; decide)
theorem duties_recv (k : Fin 16) : (sched (F := F) m).duties (recvCell c k) 0 = {()} := duties_of m c _ 0 (by rw [rounds_recv]; decide)

theorem amount_bar (d : Unit) (r : ℕ) : (sched (F := F) m).amount (barCell c) r d = 1 := rfl
theorem amount_load (j : Fin 2) (d : Unit) (r : ℕ) : (sched (F := F) m).amount (loadCell c j) r d = Nf := by
  dsimp only [sched, amountOf]; rw [loadS_val]; exact if_pos j.isLt
theorem amount_store (j : Fin 4) (d : Unit) (r : ℕ) : (sched (F := F) m).amount (storeCell c j) r d = Nb := by
  dsimp only [sched, amountOf]; rw [storeS_val]; exact if_neg (by omega)
theorem amount_send (k : Fin 16) (d : Unit) (r : ℕ) : (sched (F := F) m).amount (sendCell c k) r d = Nb := by
  dsimp only [sched, amountOf]; rw [sendS_val]; exact if_neg (by omega)
theorem amount_recv (k : Fin 16) (d : Unit) (r : ℕ) : (sched (F := F) m).amount (recvCell c k) r d = Nb := by
  dsimp only [sched, amountOf]; rw [recvS_val]; exact if_neg (by omega)

theorem expect_of (s : SemLoc sig) (r : ℕ) (h : r < roundsOf s) : (sched (F := F) m).expect ((c : Thread nD τ), s) r = amountOf s := by
  unfold Schedule.expect Schedule.amountOf; rw [duties_of m c s r h, Finset.sum_singleton]; rfl
theorem expect_bar : (sched (F := F) m).expect (barCell c) 0 = 1 := expect_of m c _ 0 (by rw [rounds_bar]; decide)
theorem expect_load (j : Fin 2) (r : ℕ) (hr : r < 8) : (sched (F := F) m).expect (loadCell c j) r = Nf :=
  (expect_of m c _ r (by rw [rounds_load]; exact hr)).trans (amount_load m c j () r)
theorem expect_store (j : Fin 4) (r : ℕ) (hr : r < 4) : (sched (F := F) m).expect (storeCell c j) r = Nb :=
  (expect_of m c _ r (by rw [rounds_store]; exact hr)).trans (amount_store m c j () r)
theorem expect_send (k : Fin 16) : (sched (F := F) m).expect (sendCell c k) 0 = Nb :=
  (expect_of m c _ 0 (by rw [rounds_send]; decide)).trans (amount_send m c k () 0)
theorem expect_recv (k : Fin 16) : (sched (F := F) m).expect (recvCell c k) 0 = Nb :=
  (expect_of m c _ 0 (by rw [rounds_recv]; decide)).trans (amount_recv m c k () 0)

/-- The chunk a load cell's round is the copy of, and a store cell's. -/
theorem kOf_load (k : Fin 16) : kOf (2 * (k.val / 2) + (f2 k).val) = k := Fin.ext (by simp only [kOf, f2]; have := k.isLt; omega)
theorem kOf_store (k : Fin 16) : kOf (4 * (k.val / 4) + ((2 + (b4 k).val) - 2)) = k := Fin.ext (by simp only [kOf, b4]; have := k.isLt; omega)
theorem kOf_send (k : Fin 16) : kOf ((6 + k.val) - 6) = k := Fin.ext (by simp only [kOf]; have := k.isLt; omega)
theorem kOf_recv (k : Fin 16) : kOf ((22 + k.val) - 22) = k := Fin.ext (by simp only [kOf]; have := k.isLt; omega)

theorem payload_bar (d : Unit) : (sched (F := F) m).payload (barCell c) 0 d = barPay c := rfl
theorem payload_load (k : Fin 16) (d : Unit) : (sched (F := F) m).payload (loadCell c (f2 k)) (k.val / 2) d = loadPay m c k := by
  dsimp only [sched, payloadOf]; rw [loadS_val, if_pos (f2 k).isLt, kOf_load]
theorem payload_store (k : Fin 16) (d : Unit) : (sched (F := F) m).payload (storeCell c (b4 k)) (k.val / 4) d = storePay m c k := by
  dsimp only [sched, payloadOf]; rw [storeS_val, if_neg (by omega), if_pos (by have := (b4 k).isLt; omega), kOf_store]
theorem payload_send (k : Fin 16) (d : Unit) : (sched (F := F) m).payload (sendCell c k) 0 d = sendPay c k := by
  dsimp only [sched, payloadOf]; rw [sendS_val, if_neg (by omega), if_neg (by omega), if_pos (by have := k.isLt; omega), kOf_send]
theorem payload_recv (k : Fin 16) (d : Unit) : (sched (F := F) m).payload (recvCell c k) 0 d = recvPay m c k := by
  dsimp only [sched, payloadOf]; rw [recvS_val, if_neg (by omega), if_neg (by omega), if_neg (by omega), kOf_recv]

/-- The rest of a one-duty round, nothing taken: the duty's payload. -/
theorem rest_of (g : GSem nD τ sig) (r : ℕ) (h : (sched (F := F) m).duties g r = {()}) :
    bigSep ((sched (F := F) m).duties g r \ ∅) (fun d => (sched (F := F) m).payload g r d) = (sched (F := F) m).payload g r () := by
  rw [Finset.sdiff_empty, h, bigSep_singleton]

end Tables

/-! ## What each device owes at launch; the levels -/

/-- The receive credit device `c` owes the partner for its LAST `j` chunks, the lowest chunk the last summand (the
    next remote copy peels it). -/
def Oup (c : Dev nD) : ℕ → CellTallies nD τ sig Unit
  | 0 => 0
  | j + 1 => Oup c j + tallyAt (recvCell (pr c) (kOf (15 - j))) () Nb
/-- At launch: all sixteen, and one unit to the partner's barrier cell (the signal comes first). -/
def O₀ (c : Dev nD) : CellTallies nD τ sig Unit := Oup c 16 + tallyAt (barCell (pr c)) () 1

def L (g : GSem nD τ sig) : Finset Unit := if g.1.2 = .tc then {()} else ∅
def lvOf : SemLoc sig → ℕ
  | .reg _ => 1
  | .dma i => if 22 ≤ i.val then 2 + (i.val - 22) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 16) : lv (recvCell c k) () = 2 + k.val := by
  dsimp only [lv, lvOf]; rw [recvS_val, if_pos (by omega)]; omega
theorem lv_bar (c : Dev nD) : lv (barCell c) () = 1 := rfl

/-- A cell device `c` still owes while its last `j` chunks are unsent is the partner's receive cell of one of them. -/
theorem Oup_pos {c : Dev nD} {j : ℕ} (hj : j ≤ 16) {g : GSem nD τ sig} {u : Unit} (h : 0 < Oup c j g u) :
    ∃ n : Fin 16, 16 - j ≤ n.val ∧ g = recvCell (pr c) n := by
  induction j with
  | zero => exact absurd h (Nat.lt_irrefl 0)
  | succ j ih =>
    unfold Oup at h
    rw [Pi.add_apply, Finsupp.add_apply, tallyAt_apply] at h
    by_cases hg : g = recvCell (pr c) (kOf (15 - j)) ∧ u = ()
    · exact ⟨kOf (15 - j), by simp only [kOf]; omega, hg.1⟩
    · rw [if_neg hg, Nat.add_zero] at h
      obtain ⟨n, hn, rfl⟩ := ih (by omega) h
      exact ⟨n, by omega, rfl⟩

/-- Waiting on a cell of level at most `1` (a load, store or send cell, the barrier) is allowed whatever receive
    credit is still owed: every receive cell is at level 2 or more. -/
theorem mayWait_low (c : Dev nD) (sm : SemLoc sig) (hsm : lvOf sm ≤ 1) (j : ℕ) (hj : j ≤ 16) :
    (levAts L lv : sProp 𝕄) ⊢ MayWait (c : Thread nD τ) sm () (Oup c j) :=
  MayOwe.of_cut (L := L) (lev := lv) 1 (fun p hp => by rw [Finset.mem_singleton.mp hp, L_tc]; exact Finset.mem_singleton_self _)
    (fun g u hg => by obtain ⟨n, -, rfl⟩ := Oup_pos hj hg; rw [L_tc]; exact Finset.mem_singleton_self _)
    (fun p hp => by rw [Finset.mem_singleton.mp hp]; exact hsm)
    (fun g u hg => by obtain ⟨n, -, rfl⟩ := Oup_pos hj hg; cases u; rw [lv_recv]; omega)

/-- Waiting on its receive cell `k` is allowed while the chunks still unsent are all later than `k`. -/
theorem mayWait_recv (c : Dev nD) (k : Fin 16) (j : ℕ) (hj : j ≤ 16) (hk : k.val < 16 - j) :
    (levAts L lv : sProp 𝕄) ⊢ MayWait (c : Thread nD τ) (.dma (recvS k)) () (Oup c j) :=
  MayOwe.of_cut (L := L) (lev := lv) (2 + k.val) (fun p hp => by rw [Finset.mem_singleton.mp hp, L_tc]; exact Finset.mem_singleton_self _)
    (fun g u hg => by obtain ⟨n, -, rfl⟩ := Oup_pos hj hg; rw [L_tc]; exact Finset.mem_singleton_self _)
    (fun p hp => by rw [Finset.mem_singleton.mp hp]; exact le_of_eq (lv_recv c k))
    (fun g u hg => by obtain ⟨n, hn, rfl⟩ := Oup_pos hj hg; cases u; rw [lv_recv]; omega)

end Cert.KernelIdeal.AG

end
-- ==== Proof.AG.Data.lean ====
/-
  What one device's body starts from and what it leaves: the proof data of the launch.

  At entry a device holds, beside its block of `x`, its result array and its two scratch buffers: every cell of
  its own at round 0 (its position), the invariants of its own cells and of the partner's, the token of every duty
  it pays — the partner's barrier signal; per chunk the load's, the local store's, its send cell's and the partner's
  receive cell's —, the credit to wait with on its barrier cell (one unit) and on each receive cell (a chunk), and
  what it owes: the partner's sixteen receive cells a chunk each, and the partner's barrier cell a unit.

  At exit: `x` unchanged; a result array whose 32 chunks read as the narrowed chunks of the two blocks
  (`Res`); the scratch buffers; and every semaphore of its own closed, its counter at zero.
-/
import proofs.«900687_g7700000000000688_dist_ag_v7x_xyz2x4x4_x_m32768_n1024_bf16_1_alg».proof.Proof.AG.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A device's 39 cells, numbered: the barrier cell, then the DMA semaphores in pool order -/

theorem nDma : sig.nDmaSem = 38 := rfl

def ix : SemLoc sig → Fin 39
  | .reg _ => 0
  | .dma i => ⟨i.val + 1, by have : i.val < 38 := i.isLt; omega⟩
def csem (i : Fin 39) : SemLoc sig :=
  if h : i.val = 0 then .reg barS else .dma ⟨i.val - 1, by show i.val - 1 < 38; have := i.isLt; omega⟩
abbrev kcell (ck : Dev nD × Fin 39) : GSem nD τ sig := ((ck.1 : Thread nD τ), csem ck.2)

theorem csem_ix (s : SemLoc sig) : csem (ix s) = s := by
  cases s with
  | reg s => have : s = barS := Subsingleton.elim _ _
             subst this; rfl
  | dma i =>
    unfold csem
    have h : ¬ ((ix (SemLoc.dma i : SemLoc sig)).val = 0) := Nat.succ_ne_zero _
    rw [dif_neg h]
    exact congrArg SemLoc.dma (Fin.ext (Nat.add_sub_cancel (n := i.val) (m := 1)))
theorem kcell_ix (c : Dev nD) (s : SemLoc sig) : kcell (c, ix s) = ((c : Thread nD τ), s) := by
  show ((c : Thread nD τ), csem (ix s)) = _; rw [csem_ix]

/-- The invariant of cell `s` of device `d`, under the names `K` the launch allocated the invariants at. -/
def Iv (K : Dev nD × Fin 39 → ℕ) (d : Dev nD) (s : SemLoc sig) : sProp 𝕄 :=
  cellInv ER (sched m) (K (d, ix s)) ((d : Thread nD τ), s)

/-! ## The ghost state a device starts from -/

/-- Persistent: the invariants of the device's cells and of its partner's, that round 0 of each is reached, and
    the levels. -/
def pers (K : Dev nD × Fin 39 → ℕ) (c : Dev nD) : sProp 𝕄 :=
  iprop((bigSep Finset.univ fun i : Fin 39 => cellInv ER (sched m) (K (c, i)) (kcell (c, i)))
    ∗ (bigSep Finset.univ fun i : Fin 39 => cellInv ER (sched m) (K (pr c, i)) (kcell (pr c, i)))
    ∗ (bigSep Finset.univ fun i : Fin 39 => reached ER (kcell (c, i)) 0)
    ∗ (bigSep Finset.univ fun i : Fin 39 => reached ER (kcell (pr c, i)) 0)
    ∗ levAts L lv)

instance pers_persistent (K : Dev nD × Fin 39 → ℕ) (c : Dev nD) : BI.Persistent (pers m K c) := by unfold pers; infer_instance

/-- Chunk `k`'s tokens: the load's, the local store's, the send cell's, the partner's receive cell's. -/
def chunkToks (c : Dev nD) (k : Fin 16) : sProp 𝕄 :=
  iprop(dutyTok ER (loadCell c (f2 k)) (k.val / 2) () ∗ dutyTok ER (storeCell c (b4 k)) (k.val / 4) ()
    ∗ dutyTok ER (sendCell c k) 0 () ∗ dutyTok ER (recvCell (pr c) k) 0 ())
/-- Chunk `k`'s own send and receive cells at round 0, and the credit to wait on the receive cell with. -/
def chunkPos (c : Dev nD) (k : Fin 16) : sProp 𝕄 :=
  iprop(atPos ER (sendCell c k) 0 ∅ 0 ∗ atPos ER (recvCell c k) 0 ∅ 0 ∗ cred (tallyAt (recvCell c k) () Nb))

/-- Linear: the barrier cell's position and credit and the token of the partner's barrier duty; the load and store
    cells' positions; per chunk the tokens and positions. -/
def lin (c : Dev nD) : sProp 𝕄 :=
  iprop(atPos ER (barCell c) 0 ∅ 0 ∗ cred (tallyAt (barCell c) () 1) ∗ dutyTok ER (barCell (pr c)) 0 ()
    ∗ (bigSep Finset.univ fun j : Fin 2 => atPos ER (loadCell c j) 0 ∅ 0)
    ∗ (bigSep Finset.univ fun j : Fin 4 => atPos ER (storeCell c j) 0 ∅ 0)
    ∗ (bigSep Finset.univ fun k : Fin 16 => iprop(chunkToks c k ∗ chunkPos c k)))

/-- The unscoped buffers as launched. -/
def bufs (c : Dev nD) : sProp 𝕄 :=
  iprop((((c : Thread nD τ).loc main_arg0) ↦{fullShare} xblk m c) ∗ (((c : Thread nD τ).loc main_v1) ↦{fullShare} oblk m c))
/-- The scratch buffers, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the launch hands device `c` (the launch theorem's `X`). -/
def start (c : Dev nD) : sProp 𝕄 := iprop((∃ K, iprop(pers m K c ∗ lin c)) ∗ bufs m c)

def Φ₀ (c : Dev nD) : sProp 𝕄 := iprop(start m c ∗ scr c)

/-- The result array `g` of device `c` reads, chunk by chunk, as the narrowed chunks of its own block (its half) and
    of the partner's (the other half). -/
def Res (c : Dev nD) (g : Buf (Elt F) ((c : Thread nD τ).loc main_v1)) : Prop :=
  ∀ k : Fin 16, (oCh c k).view.read (Elt F) g = cval m c k ∧ (oCh (pr c) k).view.read (Elt F) g = cval m (pr c) k

/-- The kernel's own semaphores, every counter at zero. -/
def sems0 (c : Dev nD) : sProp 𝕄 := bigSep Finset.univ fun i : DmaSem sig => semVal ((c : Thread nD τ), SemLoc.dma i) 0

def Φ₁ (c : Dev nD) : sProp 𝕄 :=
  iprop((((c : Thread nD τ).loc main_arg0) ↦{fullShare} xblk m c)
    ∗ (∃ g, iprop(⌜Res m c g⌝ ∗ (((c : Thread nD τ).loc main_v1) ↦{fullShare} g)))
    ∗ scr c ∗ sems0 c)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body is proved from, and to. -/
def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.KernelIdeal.AG

end
-- ==== Proof.AG.Ops.lean ====
/-
  One thread's operations, each once, at a symbolic device `c` and a symbolic chunk `k`.

  * `wp_loadStart`: the copy of chunk `k` of `x` into its f32 slot, paying round `k / 2` of the slot's load cell.
  * `wp_waitCell`: a DMA wait for the whole of a one-duty round of one of the device's own cells: it hands over
    the round's payload, the cell at the next round, and that the next round is reached.
  * `wp_core`: what is done with a loaded chunk: the f32 slot is read, narrowed entry by entry, stored whole into the
    chunk's bf16 slot; then the slot is sent twice, half a share each: to the partner's result rows (the remote
    copy: send cell `k` here, receive cell `k` there) and to the device's own (the local copy: round `k / 4` of the
    slot's store cell). Both landings' payloads say what the rows then READ as: the narrowed chunk.
-/
import proofs.«900687_g7700000000000688_dist_ag_v7x_xyz2x4x4_x_m32768_n1024_bf16_1_alg».proof.Proof.AG.Data

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the kernel stores for a loaded f32 slot `v`: `v` as a matrix, narrowed to bf16, as a one-slot block again. -/
def narrow (v : Vec F S1x2048x1024 .f32) : FVec F S1x2048x1024 .bf16 :=
  shapeCast S1x2048x1024 (truncf .bf16 (shapeCast S2048x1024 v shapeCasts_S1x2048x1024_S2048x1024) bitsLt_bf16_f32) shapeCasts_S2048x1024_S1x2048x1024

/-! ## What a copy credits

A transfer's credit depends on the destination's shape and element type only: every 2048 × 1024 f32 view credits
`Nf`, every 2048 × 1024 bf16 view `Nb`, whichever buffer it is a view of. -/

theorem credit_fSl (j : Fin 2) : (fSl j).view.dmaCredit = Nf := rfl
theorem credit_bSl (j : Fin 4) : (bSl j).view.dmaCredit = Nb := rfl
theorem credit_oCh (d : Dev nD) (k : Fin 16) : (oCh d k).view.dmaCredit = Nb := rfl
theorem amount_fSl (j : Fin 2) (i : DmaSem sig) : (fSl j).view.amount (.dma i) = Nf := rfl
theorem amount_bSl (j : Fin 4) (i : DmaSem sig) : (bSl j).view.amount (.dma i) = Nb := rfl
theorem amount_oCh (d : Dev nD) (k : Fin 16) (i : DmaSem sig) : (oCh d k).view.amount (.dma i) = Nb := rfl

/-- The amount of a round of each of the kernel's DMA cells. -/
theorem amountOf_load (j : Fin 2) : amountOf (.dma (loadS j) : SemLoc sig) = Nf := by
  dsimp only [amountOf]; rw [loadS_val]; exact if_pos j.isLt
theorem amountOf_store (j : Fin 4) : amountOf (.dma (storeS j) : SemLoc sig) = Nb := by
  dsimp only [amountOf]; rw [storeS_val]; exact if_neg (by omega)
theorem amountOf_send (k : Fin 16) : amountOf (.dma (sendS k) : SemLoc sig) = Nb := by
  dsimp only [amountOf]; rw [sendS_val]; exact if_neg (by omega)
theorem amountOf_recv (k : Fin 16) : amountOf (.dma (recvS k) : SemLoc sig) = Nb := by
  dsimp only [amountOf]; rw [recvS_val]; exact if_neg (by omega)

/-! ## The load of a chunk -/

/-- The f32 slot written all over with what the chunk's rows read, whatever it held (`fd`), reads the chunk; with
    the chunk's rows back unchanged that is the load's payload. -/
theorem loadPay_intro (c : Dev nD) (k : Fin 16) (fd : Buf (Elt F) ((fSl (f2 k)).view.loc (c : Thread nD τ))) :
    iprop(((fSl (f2 k)).view.loc (c : Thread nD τ) ↦[(fSl (f2 k)).view.set]{fullShare}
          ((fSl (f2 k)).view.write (Elt F) fd ((xCh k).view.read (Elt F) (xblk m c)) Finset.univ))
        ∗ ((xCh k).view.loc (c : Thread nD τ) ↦[(xCh k).view.set]{fullShare} xblk m c))
      ⊢ (sched m).payload (loadCell c (f2 k)) (k.val / 2) () := by
  rw [payload_load m c k ()]
  unfold loadPay xPts owns
  iintro ⟨Hd, Hs⟩
  isplitl [Hd]
  · iexists ((fSl (f2 k)).view.write (Elt F) fd ((xCh k).view.read (Elt F) (xblk m c)) Finset.univ)
    isplitr
    · ipureintro; exact View.read_write_univ _ _
    · iexact Hd
  · iexact Hs

theorem wp_loadStart (κ : ℕ) (c : Dev nD) (k : Fin 16)
    {hsrc : (xCh k).view.WordExact} {hdst : (fSl (f2 k)).view.WordExact}
    {hsem : DmaTarget.Typed (nD := nD) (τ := τ) (p := .tc) .hbm (SemLoc.dma (loadS (f2 k))) (.here (fSl (f2 k)))}
    {α : Type} {Q : α → sProp 𝕄} {K : PUnit → Prog (TpuEff nD τ sig (Elt F) Λ₀ .tc) α} :
    iprop(cellInv ER (sched m) κ (loadCell c (f2 k)) ∗ xPts m c k ∗ fAny c (f2 k)
        ∗ dutyTok ER (loadCell c (f2 k)) (k.val / 2) () ∗ reached ER (loadCell c (f2 k)) (k.val / 2))
      ⊢ iprop((cred (tallyAt (loadCell c (f2 k)) () Nf) -∗ WP c (K ⟨⟩) Q)
          -∗ WP c (.op (.enqueueDma (xCh k) (.here (fSl (f2 k))) (.dma (loadS (f2 k))) hsrc hdst hsem) K) Q) := by
  unfold fAny xPts
  iintro ⟨Hg, Hx, ⟨%fd, Hf⟩, Htok, Hr⟩ Hk
  have R := wp_copy_pointsTo (defs := defs₀ (F := F)) (Γ := .empty) 𝒱₀ ER (sched m) (c : Thread nD τ) none (κ := κ) (q := fullShare) (fs := xblk m c) (fd := fd)
    (src := xCh k) (dst := fSl (f2 k)) (sem := .dma (loadS (f2 k))) (hsrc := hsrc) (hdst := hdst) (hsem := hsem) (k := K) (Q := Q) (Es := Set.univ)
    (r := k.val / 2) (d := ())
    (by rw [duties_load m c (f2 k) (k.val / 2) (by have := k.isLt; omega)]; exact Finset.mem_singleton_self _)
    () Nf (amount_fSl (f2 k) (loadS (f2 k))) (amount_load m c (f2 k) () (k.val / 2)) (loadPay_intro m c k fd)
  iapply R $$ [Hg Hx Hf Htok Hr]
  · isplitl [Hg]; · iexact Hg
    isplitl [Hx]; · iexact Hx
    isplitl [Hf]; · iexact Hf
    isplitl [Htok]; · iexact Htok
    iexact Hr
  iexact Hk

/-! ## A wait for the whole of a round -/

theorem wp_waitCell (κ : ℕ) (c : Dev nD) (s : DmaSem sig) (r : ℕ) (hr : r < roundsOf (.dma s))
    {sp' : Space} {s' : Shape} {e' : EltTy} {κk : Kind} {sp : Space} {sh : Shape} {e : EltTy}
    {src : Memref sig .tc sp' s' e'} {dst : Memref sig κk sp sh e} {h1 : src.view.WordExact} {h2 : dst.view.WordExact}
    (hamt : dst.view.dmaCredit = amountOf (.dma s))
    (O : CellTallies nD τ sig Unit) (W : Waits sig Unit)
    (hmw : (levAts L lv : sProp 𝕄) ⊢ MayWait (c : Thread nD τ) (.dma s) () O)
    {α : Type} {Q : α → sProp 𝕄} {K : PUnit → Prog (TpuEff nD τ sig (Elt F) Λ₀ .tc) α} :
    iprop(cellInv ER (sched m) κ ((c : Thread nD τ), .dma s) ∗ cred (tallyAt ((c : Thread nD τ), .dma s) () (amountOf (.dma s)))
        ∗ owes (c : Thread nD τ) O W ∗ levAts L lv ∗ atPos ER ((c : Thread nD τ), .dma s) r ∅ 0)
      ⊢ iprop((iprop(owes (c : Thread nD τ) O (insert (SemLoc.dma s, ()) W) ∗ atPos ER ((c : Thread nD τ), .dma s) (r + 1) ∅ 0
                ∗ reached ER ((c : Thread nD τ), .dma s) (r + 1) ∗ (sched m).payload ((c : Thread nD τ), .dma s) r ()) -∗ WP c (K ⟨⟩) Q)
          -∗ WP c (.op (.waitDma2 s src dst h1 h2) K) Q) := by
  rw [← hamt]
  iintro ⟨Hg, Hc, HL, Hlev, Hat⟩ Hk
  iapply (wp_wait_rest_token 𝒱₀ ER (sched m) (c : Thread nD τ) none (κ := κ)
    (w := .waitDma2 s src dst h1 h2)
    (wpE_waitDma2_eq 𝒱₀ (c : Thread nD τ) none Set.univ) (Set.mem_univ _) () (O := O) (W := W)
    (R := r) (T := ∅) (m := 0)
    (by rw [Nat.zero_add, hamt]; exact (expect_of m c (.dma s) r hr).symm)) $$ [Hg Hc HL Hlev Hat]
  · isplitl [Hg]; · iexact Hg
    isplitl [Hc]; · iexact Hc
    isplitl [HL]; · iexact HL
    isplitl [Hlev]; · iapply hmw; iexact Hlev
    iexact Hat
  rw [rest_of m ((c : Thread nD τ), SemLoc.dma s) r (duties_of m c (.dma s) r hr)]
  iexact Hk

/-! ## Closing a cell whose rounds are all done -/

/-- A DMA cell of the device at the round after its last, nothing of it taken or consumed: no later round has a
    duty, so the cell closes and its counter is handed back at zero. -/
theorem cell_done (κ : ℕ) (c : Dev nD) (s : DmaSem sig) :
    iprop(cellInv ER (sched m) κ ((c : Thread nD τ), .dma s) ∗ atPos ER ((c : Thread nD τ), .dma s) (roundsOf (.dma s)) ∅ 0)
      ⊢ iprop(|={Set.univ}=> semVal ((c : Thread nD τ), SemLoc.dma s) 0) :=
  cell_close ER (sched m) (Set.mem_univ _) (fun h => h) (duties_later_of m ((c : Thread nD τ), SemLoc.dma s))

end Cert.KernelIdeal.AG

end
-- ==== Proof.AG.Core.lean ====
/-
  What is done with a loaded chunk, once, at a symbolic device `c` and chunk `k`: the f32 slot is read, narrowed
  entry by entry and stored whole into the chunk's bf16 slot; then the slot is sent twice, half a share each: to the
  partner's result rows by the remote copy (send cell `k` here, receive cell `k` on the partner) and to the device's
  own rows by the local copy (round `k / 4` of the slot's store cell). Each landing's payload says what the rows then
  READ as: the narrowed chunk, because a copy writes what its source reads and a read of what was just written whole
  is what was written.
-/
import proofs.«900687_g7700000000000688_dist_ag_v7x_xyz2x4x4_x_m32768_n1024_bf16_1_alg».proof.Proof.AG.Ops
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Holdings at named contents, and what the slot reads after the narrowed store -/

/-- An f32 slot at named contents is the slot at some contents. -/
theorem fAny_intro (c : Dev nD) (j : Fin 2) (f : Buf (Elt F) ((fSl j).view.loc (c : Thread nD τ))) :
    ((fSl j).view.loc (c : Thread nD τ) ↦[(fSl j).view.set]{fullShare} f : sProp 𝕄) ⊢ fAny c j := by
  unfold fAny; iintro H; iexists f; iexact H

/-- A share of a bf16 slot at named contents is that share at some contents. -/
theorem bAny_intro (c : Dev nD) (j : Fin 4) (q : PosShare TreeShare) (f : Buf (Elt F) ((bSl j).view.loc (c : Thread nD τ))) :
    ((bSl j).view.loc (c : Thread nD τ) ↦[(bSl j).view.set]{q} f : sProp 𝕄) ⊢ bAny c j q := by
  unfold bAny; iintro H; iexists f; iexact H

/-- The elements a slot's rectangle of the whole f32 buffer names are the elements the squeezed slot names. -/
theorem fSl_set (j : Fin 2) : (fSl j).view.set = (fM.access (fRect j)).set := View.set_reshape _ _
/-- The same for a bf16 slot. -/
theorem bSl_set (j : Fin 4) : (bSl j).view.set = (bM.access (bRect j)).set := View.set_reshape _ _

theorem fSl_loads (j : Fin 2) : fM.view.setOn (fRect j).toLoadRect.set ⊆ (fSl j).view.set := by
  rw [fSl_set, View.set_slice]; exact Finset.Subset.refl _
theorem bSl_loads (j : Fin 4) : bM.view.setOn (bRect j).toLoadRect.set ⊆ (bSl j).view.set := by
  rw [bSl_set, View.set_slice]; exact Finset.Subset.refl _
theorem bSl_stores (j : Fin 4) : (bM.access (bRect j)).setOn Finset.univ ⊆ (bSl j).view.set := by
  rw [bSl_set]; exact Finset.Subset.refl _

/-- What a chunk's bf16 slot reads once a vector that reads, as a matrix, the chunk is stored, narrowed, whole into
    it: the squeezed slot reads the stored vector as a matrix (a read of what was just written whole is what was
    written), and that is the narrowed matrix (a shape cast there and back is the identity; narrowing is entry by
    entry). -/
theorem read_stored (c : Dev nD) (k : Fin 16) (pay : Vec F S1x2048x1024 .f32 → FVec F S1x2048x1024 .bf16) (hpay : ∀ v, pay v = narrow v)
    (v : Vec F S1x2048x1024 .f32) (hv : shapeCast S2048x1024 v shapeCasts_S1x2048x1024_S2048x1024 = xval m c k)
    (g : Buf (Elt F) (bM.view.loc (c : Thread nD τ))) :
    (bSl (b4 k)).view.read (Elt F) ((bM.access (bRect (b4 k))).write (Elt F) g (pay v) Finset.univ) = cval m c k := by
  have h1 : (bSl (b4 k)).view.read (Elt F) ((bM.access (bRect (b4 k))).write (Elt F) g (pay v) Finset.univ)
      = shapeCast S2048x1024 (pay v) shapeCasts_S1x2048x1024_S2048x1024 :=
    (Memref.read_squeeze_slice bM (bRect (b4 k)) (fun _ => rfl) squeezes_S1x2048x1024_S2048x1024 shapeCasts_S1x2048x1024_S2048x1024 _).trans
      (congrArg (fun w : Vec F S1x2048x1024 .bf16 => shapeCast S2048x1024 w shapeCasts_S1x2048x1024_S2048x1024)
        (View.read_write_univ (v := bM.access (bRect (b4 k))) g (pay v)))
  rw [h1, hpay]
  show shapeCast S2048x1024 (narrow v) shapeCasts_S1x2048x1024_S2048x1024 = truncf .bf16 (xval m c k) bitsLt_bf16_f32
  rw [← hv]
  exact shapeCast_shapeCast _ _ _

/-! ## The three payloads -/

/-- The send cell's: the remote copy's half share of the slot, back. -/
theorem send_pay (c : Dev nD) (k : Fin 16) (G : Buf (Elt F) ((bSl (b4 k)).view.loc (c : Thread nD τ))) :
    ((bSl (b4 k)).view.loc (c : Thread nD τ) ↦[(bSl (b4 k)).view.set]{hL} G : sProp 𝕄) ⊢ (sched m).payload (sendCell c k) 0 () := by
  rw [payload_send m c k ()]; exact bAny_intro c (b4 k) hL G

/-- The partner's receive cell's: the partner's rows of the sender's half, rewritten whole by what the slot reads,
    read the narrowed chunk. -/
theorem recv_pay (c : Dev nD) (k : Fin 16) (o : Buf (Elt F) ((oCh c k).view.loc (pr c : Thread nD τ))) (w : Vec F S2048x1024 .bf16)
    (hw : w = cval m c k) :
    ((oCh c k).view.loc (pr c : Thread nD τ) ↦[(oCh c k).view.set]{fullShare} ((oCh c k).view.write (Elt F) o w Finset.univ) : sProp 𝕄)
      ⊢ (sched m).payload (recvCell (pr c) k) 0 () := by
  rw [payload_recv m (pr c) k (), recvPay, pr_pr]
  exact (owns_intro (pr c : Thread nD τ) (oCh c k) fullShare _).trans (Entails.of_eq (by rw [View.read_write_univ, hw]))

/-- The store cell's: the device's own rows, rewritten whole by what the slot reads, read the narrowed chunk; and the
    local copy's half share of the slot, back. -/
theorem store_pay (c : Dev nD) (k : Fin 16) (o : Buf (Elt F) ((oCh c k).view.loc (c : Thread nD τ))) (w : Vec F S2048x1024 .bf16)
    (hw : w = cval m c k) (G : Buf (Elt F) ((bSl (b4 k)).view.loc (c : Thread nD τ))) :
    iprop(((oCh c k).view.loc (c : Thread nD τ) ↦[(oCh c k).view.set]{fullShare} ((oCh c k).view.write (Elt F) o w Finset.univ))
        ∗ ((bSl (b4 k)).view.loc (c : Thread nD τ) ↦[(bSl (b4 k)).view.set]{hR} G) : sProp 𝕄)
      ⊢ (sched m).payload (storeCell c (b4 k)) (k.val / 4) () := by
  rw [payload_store m c k (), storePay]
  exact BIClass.sep_mono ((owns_intro (c : Thread nD τ) (oCh c k) fullShare _).trans (Entails.of_eq (by rw [View.read_write_univ, hw])))
    (bAny_intro c (b4 k) hR G)

/-! ## A loaded chunk narrowed and sent twice -/

theorem wp_core (κs κr κt : ℕ) (c n : Dev nD) (hn : n = pr c) (k : Fin 16) (j : ℕ) (hj : j + k.val = 15)
    (pay : Vec F S1x2048x1024 .f32 → FVec F S1x2048x1024 .bf16) (hpay : ∀ v, pay v = narrow v) (W : Waits sig Unit)
    {hl1 : fM.view.LoadsAt (fRect (f2 k)).toLoadRect} {hl2 : bM.view.LoadsAt (bRect (b4 k)).toLoadRect}
    {hst : (bM.access (bRect (b4 k))).Stores Finset.univ} {hm : (Finset.univ : Finset (bRect (b4 k)).shape.Idx) = Finset.univ ∨ ∀ a, (bRect (b4 k)).stride a = 1}
    {hsc : (oCh c k : Memref sig (Dev.tc n : Thread nD τ).2.kind .hbm S2048x1024 .bf16).view.ref.isScScratch = false}
    {hs1 : (bSl (b4 k)).view.WordExact} {hd1 : (oCh c k).view.WordExact}
    {hsem1 : DmaTarget.Typed .vmem (SemLoc.dma (recvS k)) (DmaTarget.remote (Dev.tc n : Thread nD τ) (oCh c k) (SemLoc.dma (sendS k)) hsc : DmaTarget nD τ sig .tc .hbm S2048x1024 .bf16)}
    {hs2 : (bSl (b4 k)).view.WordExact} {hd2 : (oCh c k).view.WordExact}
    {hsem2 : DmaTarget.Typed .vmem (SemLoc.dma (storeS (b4 k))) (DmaTarget.here (oCh c k) : DmaTarget nD τ sig .tc .hbm S2048x1024 .bf16)}
    {α : Type} {Q : α → sProp 𝕄} {K : PUnit → Prog (TpuEff nD τ sig (Elt F) Λ₀ .tc) α} :
    iprop(cellInv ER (sched m) κs (sendCell c k) ∗ cellInv ER (sched m) κr (recvCell (pr c) k) ∗ cellInv ER (sched m) κt (storeCell c (b4 k))
        ∗ owns (c : Thread nD τ) (fSl (f2 k)) fullShare (xval m c k) ∗ bAny c (b4 k) fullShare
        ∗ oAny (pr c) c k ∗ oAny c c k
        ∗ dutyTok ER (sendCell c k) 0 () ∗ reached ER (sendCell c k) 0
        ∗ dutyTok ER (recvCell (pr c) k) 0 () ∗ reached ER (recvCell (pr c) k) 0
        ∗ dutyTok ER (storeCell c (b4 k)) (k.val / 4) () ∗ reached ER (storeCell c (b4 k)) (k.val / 4)
        ∗ owes (c : Thread nD τ) (Oup c (j + 1)) W)
      ⊢ iprop((iprop(fAny c (f2 k) ∗ cred (tallyAt (sendCell c k) () Nb) ∗ cred (tallyAt (storeCell c (b4 k)) () Nb)
                ∗ owes (c : Thread nD τ) (Oup c j) W) -∗ WP c (K ⟨⟩) Q)
          -∗ WP c (.op (.load fM (fRect (f2 k)).toLoadRect hl1) fun v =>
                   .op (.load bM (bRect (b4 k)).toLoadRect hl2) fun _ =>
                   .op (.store bM (bRect (b4 k)) (pay v) Finset.univ hst hm) fun _ =>
                   .op (.enqueueDma (bSl (b4 k)) (.remote (Dev.tc n : Thread nD τ) (oCh c k) (SemLoc.dma (sendS k)) hsc) (SemLoc.dma (recvS k)) hs1 hd1 hsem1) fun _ =>
                   .op (.enqueueDma (bSl (b4 k)) (.here (oCh c k)) (SemLoc.dma (storeS (b4 k))) hs2 hd2 hsem2) K) Q) := by
  subst hn
  -- the chunk whose receive credit the next remote copy peels off what is owed is chunk k
  have hk15 : kOf (15 - j) = k := Fin.ext (by show (15 - j) % 16 = k.val; have := k.isLt; omega)
  have hO : Oup c (j + 1) = Oup c j + tallyAt (recvCell (pr c) k) () Nb :=
    (show Oup c (j + 1) = Oup c j + tallyAt (recvCell (pr c) (kOf (15 - j))) () Nb from rfl).trans (by rw [hk15])
  have hk4 : k.val / 4 < 4 := by have := k.isLt; omega
  have hd1' : () ∈ (sched m).duties (sendCell c k) 0 := by rw [duties_send m c k]; exact Finset.mem_singleton_self _
  have hd2' : () ∈ (sched m).duties (recvCell (pr c) k) 0 := by rw [duties_recv m (pr c) k]; exact Finset.mem_singleton_self _
  have hd3' : () ∈ (sched m).duties (storeCell c (b4 k)) (k.val / 4) := by
    rw [duties_store m c (b4 k) (k.val / 4) hk4]; exact Finset.mem_singleton_self _
  unfold owns bAny oAny
  iintro ⟨Is, Ir, It, ⟨%f, %hf, Hf⟩, ⟨%g, Hb⟩, ⟨%o1, Ho1⟩, ⟨%o2, Ho2⟩, Ts, Rs, Tr, Rr, Tt, Rt, HO⟩ Hk
  -- what the bf16 slot reads after the store
  have hval := read_stored m c k pay hpay (fM.view.readAt (Elt F) (fRect (f2 k)).toLoadRect f) hf g
  -- the vector load of the f32 slot, through its rectangle of the whole buffer
  iapply (wp_load (defs := defs₀ (F := F)) (Γ := .empty) 𝒱₀ (c : Thread nD τ) none Set.univ (m := fM) (r := (fRect (f2 k)).toLoadRect)
    (S := (fSl (f2 k)).view.set) (q := fullShare) (f := f) (fSl_loads (f2 k))) $$ Hf
  iintro Hf
  -- the load of the bf16 slot, whose answer nothing reads
  iapply (wp_load (defs := defs₀ (F := F)) (Γ := .empty) 𝒱₀ (c : Thread nD τ) none Set.univ (m := bM) (r := (bRect (b4 k)).toLoadRect)
    (S := (bSl (b4 k)).view.set) (q := fullShare) (f := g) (bSl_loads (b4 k))) $$ Hb
  iintro Hb
  -- the store of the narrowed vector, whole, into the bf16 slot
  iapply (wp_store (defs := defs₀ (F := F)) (Γ := .empty) 𝒱₀ (c : Thread nD τ) none Set.univ (m := bM) (r := bRect (b4 k))
    (S := (bSl (b4 k)).view.set) (f := g) (bSl_stores (b4 k))) $$ Hb
  iintro Hb
  -- the slot is lent half a share to each copy
  ihave Hb2 := (pointsTo_share (PosShare.mem_left_op_right fullShare)).1 $$ Hb
  icases Hb2 with ⟨HbL, HbR⟩
  -- the remote copy: send cell k here, receive cell k on the partner
  iapply (wp_send_pointsTo (defs := defs₀ (F := F)) (Γ := .empty) 𝒱₀ ER (sched m) (c : Thread nD τ) none
      (c' := (Dev.tc (pr c) : Thread nD τ)) (src := bSl (b4 k)) (dst := oCh c k) (sS := SemLoc.dma (sendS k)) (sem := SemLoc.dma (recvS k))
      (q := hL) (fd := o1) (r₁ := 0) (r₂ := 0) (d₁ := ()) (d₂ := ()) (κ₁ := κs) (κ₂ := κr) (W := W) (Es := Set.univ)
      hd1' hd2' () () Nb rfl (amount_send m c k () 0) (amount_recv m (pr c) k () 0)
      (O₀ := Oup c (j + 1)) (Oup c j) hO (send_pay m c k _) (recv_pay m c k o1 _ hval) (Topo.routes_tc _ _)) $$ [Is Ir HbL Ho1 HO Ts Rs Tr Rr]
  · isplitl [Is]; · iexact Is
    isplitl [Ir]; · iexact Ir
    isplitl [HbL]; · iexact HbL
    isplitl [Ho1]; · iexact Ho1
    isplitl [HO]; · iexact HO
    isplitl [Ts]; · iexact Ts
    isplitl [Rs]; · iexact Rs
    isplitl [Tr]; · iexact Tr
    iexact Rr
  iintro ⟨Cs, HO⟩
  -- the local copy: round k / 4 of the slot's store cell
  iapply (wp_copy_pointsTo (defs := defs₀ (F := F)) (Γ := .empty) 𝒱₀ ER (sched m) (c : Thread nD τ) none
      (src := bSl (b4 k)) (dst := oCh c k) (sem := SemLoc.dma (storeS (b4 k))) (q := hR) (fd := o2) (r := k.val / 4) (d := ()) (κ := κt)
      (Es := Set.univ) hd3' () Nb rfl (amount_store m c (b4 k) () (k.val / 4)) (store_pay m c k o2 _ hval _)) $$ [It HbR Ho2 Tt Rt]
  · isplitl [It]; · iexact It
    isplitl [HbR]; · iexact HbR
    isplitl [Ho2]; · iexact Ho2
    isplitl [Tt]; · iexact Tt
    iexact Rt
  iintro Ct
  iapply Hk
  isplitl [Hf]
  · iapply (fAny_intro c (f2 k) f); iexact Hf
  isplitl [Cs]; · iexact Cs
  isplitl [Ct]; · iexact Ct
  iexact HO

end Cert.KernelIdeal.AG

end
-- ==== Proof.AG.Regions.lean ====
/-
  Cutting the buffers along the chunks and slots, and putting them back.

  `x`'s 32768 rows are sixteen chunks of 2048; the result's 65536 rows are the sixteen chunks of the device's own half
  and the sixteen of the partner's (the two halves are rows `[32768·(d/16), 32768·(d/16) + 32768)` for `d` the device
  and its partner, which sit at the two x coordinates); the f32 scratch is two slots, the bf16 scratch four.
  Points-to assertions split and join along these pairwise disjoint element sets; a slot's full share is two halves.
-/
import proofs.«900687_g7700000000000688_dist_ag_v7x_xyz2x4x4_x_m32768_n1024_bf16_1_alg».proof.Proof.AG.Data

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Rg

/-! ## A buffer along a family of pairwise disjoint element sets

  A points-to of a union of pairwise disjoint sets is the points-tos of the sets; forgetting the contents of each
  is one direction, and choosing contents that agree with each piece on its own set is the other. -/

section General
variable {ℓ : Loc nD τ sig} {q : PosShare TreeShare} {T : Type}

/-- The union at contents `f`: each set at some contents (namely `f`). -/
theorem pts_split_any (S : Finset T) (K : T → Finset (Idx ℓ)) (hd : ∀ t t', t ≠ t' → Disjoint (K t) (K t'))
    (f : Buf (Elt F) ℓ) :
    (ℓ ↦[S.biUnion K]{q} f : sProp 𝕄) ⊢ bigSep S fun t => iprop(∃ g, ℓ ↦[K t]{q} g) := by
  rw [pointsTo_biUnion S K fun t _ t' _ h => hd t t' h]
  have h1 : ∀ t, (ℓ ↦[K t]{q} f : sProp 𝕄) ⊢ iprop(∃ g, ℓ ↦[K t]{q} g) := by
    intro t; iintro H; iexists f; iexact H
  exact bigSep_mono fun t _ => h1 t

/-- Each set of a nonempty family at contents satisfying a property that only looks at the set: the union at contents
    satisfying all of them (the contents agree with each piece's on its set). -/
theorem pts_join_any (S : Finset T) (hS : S.Nonempty) (K : T → Finset (Idx ℓ))
    (hd : ∀ t t', t ≠ t' → Disjoint (K t) (K t')) (P : T → Buf (Elt F) ℓ → Prop)
    (hP : ∀ t f g, (∀ i ∈ K t, g i = f i) → P t f → P t g) :
    bigSep S (fun t => iprop(∃ f, ⌜P t f⌝ ∗ ℓ ↦[K t]{q} f))
      ⊢ (iprop(∃ g, ⌜∀ t ∈ S, P t g⌝ ∗ ℓ ↦[S.biUnion K]{q} g) : sProp 𝕄) := by
  classical
  induction hS using Finset.Nonempty.cons_induction with
  | singleton a =>
    rw [bigSep_singleton, Finset.singleton_biUnion]
    iintro ⟨%f, %hf, H⟩
    iexists f
    isplitr
    · ipureintro; intro t ht; rw [Finset.mem_singleton.mp ht]; exact hf
    · iexact H
  | cons a s ha hs ih =>
    rw [Finset.cons_eq_insert, bigSep_insert ha, Finset.biUnion_insert]
    have hdS : Disjoint (K a) (s.biUnion K) :=
      (Finset.disjoint_biUnion_right _ _ _).mpr fun t' ht' => hd a t' fun e => ha (e ▸ ht')
    refine (show iprop((∃ f, ⌜P a f⌝ ∗ ℓ ↦[K a]{q} f) ∗ bigSep s (fun t => iprop(∃ f, ⌜P t f⌝ ∗ ℓ ↦[K t]{q} f))) ⊢ _ from ?_)
    iintro ⟨⟨%fa, %hfa, Ha⟩, HS⟩
    ihave H := ih $$ HS
    icases H with ⟨%g, %hg, HS⟩
    iexists (s.biUnion K).piecewise g fa
    isplitr
    · ipureintro
      intro t ht
      rcases Finset.mem_insert.mp ht with e | ht
      · rw [e]
        exact hP a fa _ (fun i hi => Finset.piecewise_eq_of_notMem _ _ _ (Finset.disjoint_left.mp hdS hi)) hfa
      · exact hP t g _ (fun i hi => Finset.piecewise_eq_of_mem _ _ _ (Finset.mem_biUnion.mpr ⟨t, ht, hi⟩)) (hg t ht)
    · iapply (pointsTo_join hdS)
      isplitl [Ha]; · iexact Ha
      iexact HS

/-- The same with nothing asked of the contents. -/
theorem pts_join_any' (S : Finset T) (hS : S.Nonempty) (K : T → Finset (Idx ℓ))
    (hd : ∀ t t', t ≠ t' → Disjoint (K t) (K t')) :
    bigSep S (fun t => iprop(∃ f : Buf (Elt F) ℓ, ℓ ↦[K t]{q} f))
      ⊢ (iprop(∃ g, ℓ ↦[S.biUnion K]{q} g) : sProp 𝕄) := by
  have h1 : bigSep S (fun t => iprop(∃ f : Buf (Elt F) ℓ, ℓ ↦[K t]{q} f))
      ⊢ (bigSep S (fun t => iprop(∃ f : Buf (Elt F) ℓ, ⌜True⌝ ∗ ℓ ↦[K t]{q} f)) : sProp 𝕄) := by
    have h0 : ∀ t, (iprop(∃ f : Buf (Elt F) ℓ, ℓ ↦[K t]{q} f) : sProp 𝕄) ⊢ iprop(∃ f : Buf (Elt F) ℓ, ⌜True⌝ ∗ ℓ ↦[K t]{q} f) := by
      intro t
      iintro ⟨%f, H⟩; iexists f; isplitr
      · ipureintro; trivial
      · iexact H
    exact bigSep_mono fun t _ => h0 t
  refine h1.trans ((pts_join_any S hS K hd (fun _ _ => True) (fun _ _ _ _ _ => trivial)).trans ?_)
  iintro ⟨%g, -, H⟩; iexists g; iexact H

/-- A buffer at some contents is, along a cover by pairwise disjoint sets, each set at some contents. -/
theorem any_cover [Fintype T] [Nonempty T] (K : T → Finset (Idx ℓ))
    (hd : ∀ t t', t ≠ t' → Disjoint (K t) (K t')) (hcov : (Finset.univ : Finset T).biUnion K = Finset.univ) :
    (iprop(∃ f : Buf (Elt F) ℓ, ℓ ↦{q} f) : sProp 𝕄)
      ⊣⊢ bigSep Finset.univ fun t : T => iprop(∃ f : Buf (Elt F) ℓ, ℓ ↦[K t]{q} f) := by
  constructor
  · iintro ⟨%f, H⟩
    iapply (pts_split_any Finset.univ K hd f)
    rw [hcov]; iexact H
  · refine (pts_join_any' Finset.univ Finset.univ_nonempty K hd).trans ?_
    rw [hcov]

end General

/-! ## The element sets: which rows (or which slot) each piece is -/

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev bL (c : Dev nD) : Loc nD τ sig := (c : Thread nD τ).loc cc0_scratch1

/-- Chunk `k` of `x` is the elements whose row is in `[2048k, 2048k + 2048)` (every column). -/
theorem mem_xSet (k : Fin 16) (i : S32768x1024.Idx) :
    i ∈ (xCh k).view.set ↔ 2048 * k.val ≤ (i (0 : Fin 2)).val ∧ (i (0 : Fin 2)).val < 2048 * k.val + 2048 := by
  have h : (xCh k).view.set = (Rect.unit (s := S32768x1024) ![2048 * k.val, 0] S2048x1024.size (inb_x k)).set :=
    View.set_slice_whole main_arg0 _
  have h1 : (i (1 : Fin 2)).val < 1024 := (i (1 : Fin 2)).isLt
  rw [h]
  refine Rect.mem_set_unit.trans ⟨fun H => H (0 : Fin 2), fun H => Fin.forall_fin_two.mpr ⟨H, Nat.zero_le _, ?_⟩⟩
  show (i (1 : Fin 2)).val < 0 + 1024
  omega

/-- Chunk `k` of the half of the result that device `d`'s block fills: the rows
    `[32768·(d/16) + 2048k, 32768·(d/16) + 2048k + 2048)`. -/
theorem mem_oSet (d : Dev nD) (k : Fin 16) (i : S65536x1024.Idx) :
    i ∈ (oCh d k).view.set ↔ 32768 * (d.val / 16) + 2048 * k.val ≤ (i (0 : Fin 2)).val
      ∧ (i (0 : Fin 2)).val < 32768 * (d.val / 16) + 2048 * k.val + 2048 := by
  have h : (oCh d k).view.set
      = (Rect.unit (s := S65536x1024) (k0_off1 d (BitVec.ofNat 32 (2048 * k.val))) S2048x1024.size (k0_off1_inb d k)).set :=
    View.set_slice_whole main_v1 _
  have h1 : (i (1 : Fin 2)).val < 1024 := (i (1 : Fin 2)).isLt
  rw [h]
  refine Rect.mem_set_unit.trans ?_
  rw [k0_off1_eq d k]
  refine ⟨fun H => H (0 : Fin 2), fun H => Fin.forall_fin_two.mpr ⟨H, Nat.zero_le _, ?_⟩⟩
  show (i (1 : Fin 2)).val < 0 + 1024
  omega

/-- Slot `j` of the f32 scratch is the elements whose leading coordinate is `j`. -/
theorem mem_fSet (j : Fin 2) (i : S2x2048x1024.Idx) : i ∈ (fSl j).view.set ↔ (i (0 : Fin 3)).val = j.val := by
  have h : (fSl j).view.set = (fRect j).set :=
    (View.set_reshape _ _).trans (View.set_slice_whole cc0_scratch0 _)
  have h1 : (i (1 : Fin 3)).val < 2048 := (i (1 : Fin 3)).isLt
  have h2 : (i (2 : Fin 3)).val < 1024 := (i (2 : Fin 3)).isLt
  rw [h]
  refine Rect.mem_set_unit.trans ⟨fun H => ?_, fun H =>
    Fin.forall_fin_succ.mpr ⟨?_, Fin.forall_fin_two.mpr ⟨⟨Nat.zero_le _, ?_⟩, ⟨Nat.zero_le _, ?_⟩⟩⟩⟩
  · have H0 : j.val ≤ (i (0 : Fin 3)).val ∧ (i (0 : Fin 3)).val < j.val + 1 := H (0 : Fin 3)
    omega
  · show j.val ≤ (i (0 : Fin 3)).val ∧ (i (0 : Fin 3)).val < j.val + 1
    omega
  · show (i (1 : Fin 3)).val < 0 + 2048
    omega
  · show (i (2 : Fin 3)).val < 0 + 1024
    omega

/-- Slot `j` of the bf16 scratch likewise. -/
theorem mem_bSet (j : Fin 4) (i : S4x2048x1024.Idx) : i ∈ (bSl j).view.set ↔ (i (0 : Fin 3)).val = j.val := by
  have h : (bSl j).view.set = (bRect j).set :=
    (View.set_reshape _ _).trans (View.set_slice_whole cc0_scratch1 _)
  have h1 : (i (1 : Fin 3)).val < 2048 := (i (1 : Fin 3)).isLt
  have h2 : (i (2 : Fin 3)).val < 1024 := (i (2 : Fin 3)).isLt
  rw [h]
  refine Rect.mem_set_unit.trans ⟨fun H => ?_, fun H =>
    Fin.forall_fin_succ.mpr ⟨?_, Fin.forall_fin_two.mpr ⟨⟨Nat.zero_le _, ?_⟩, ⟨Nat.zero_le _, ?_⟩⟩⟩⟩
  · have H0 : j.val ≤ (i (0 : Fin 3)).val ∧ (i (0 : Fin 3)).val < j.val + 1 := H (0 : Fin 3)
    omega
  · show j.val ≤ (i (0 : Fin 3)).val ∧ (i (0 : Fin 3)).val < j.val + 1
    omega
  · show (i (1 : Fin 3)).val < 0 + 2048
    omega
  · show (i (2 : Fin 3)).val < 0 + 1024
    omega

/-! ### `x`: sixteen chunks -/

def xSet (c : Dev nD) (k : Fin 16) : Finset (Idx (xL c)) := (xCh k).view.set

theorem xSet_disj (c : Dev nD) : ∀ k k' : Fin 16, k ≠ k' → Disjoint (xSet c k) (xSet c k') := by
  intro k k' h
  rw [Finset.disjoint_left]
  intro i hi hi'
  have a := (mem_xSet k i).mp hi
  have b := (mem_xSet k' i).mp hi'
  have : k.val ≠ k'.val := fun e => h (Fin.ext e)
  omega

theorem xSet_cover (c : Dev nD) : (Finset.univ : Finset (Fin 16)).biUnion (xSet c) = Finset.univ := by
  refine Finset.eq_univ_of_forall fun i => Finset.mem_biUnion.mpr ?_
  have hi : (i (0 : Fin 2)).val < 32768 := (i (0 : Fin 2)).isLt
  obtain ⟨k, hk⟩ : ∃ k : Fin 16, k.val = (i (0 : Fin 2)).val / 2048 := ⟨⟨_, by omega⟩, rfl⟩
  exact ⟨k, Finset.mem_univ _, (mem_xSet k i).mpr ⟨by omega, by omega⟩⟩

/-! ### The result: the sixteen chunks of the device's half, then the sixteen of the partner's -/

def oSet (c : Dev nD) : Fin 16 ⊕ Fin 16 → Finset (Idx (oL c)) :=
  Sum.elim (fun k => (oCh c k).view.set) (fun k => (oCh (pr c) k).view.set)

theorem oSet_disj (c : Dev nD) : ∀ t t' : Fin 16 ⊕ Fin 16, t ≠ t' → Disjoint (oSet c t) (oSet c t') := by
  have hx := pr_x c
  have hc : c.val < 32 := c.isLt
  intro t t' h
  rw [Finset.disjoint_left]
  intro i hi hi'
  rcases t with k | k <;> rcases t' with k' | k'
  · have a := (mem_oSet c k i).mp hi
    have b := (mem_oSet c k' i).mp hi'
    have : k.val ≠ k'.val := fun e => h (congrArg Sum.inl (Fin.ext e))
    omega
  · have a := (mem_oSet c k i).mp hi
    have b := (mem_oSet (pr c) k' i).mp hi'
    have := k.isLt; have := k'.isLt
    omega
  · have a := (mem_oSet (pr c) k i).mp hi
    have b := (mem_oSet c k' i).mp hi'
    have := k.isLt; have := k'.isLt
    omega
  · have a := (mem_oSet (pr c) k i).mp hi
    have b := (mem_oSet (pr c) k' i).mp hi'
    have : k.val ≠ k'.val := fun e => h (congrArg Sum.inr (Fin.ext e))
    omega

theorem oSet_cover (c : Dev nD) : (Finset.univ : Finset (Fin 16 ⊕ Fin 16)).biUnion (oSet c) = Finset.univ := by
  have hx := pr_x c
  have hc : c.val < 32 := c.isLt
  refine Finset.eq_univ_of_forall fun i => Finset.mem_biUnion.mpr ?_
  have hi : (i (0 : Fin 2)).val < 65536 := (i (0 : Fin 2)).isLt
  obtain ⟨k, hk⟩ : ∃ k : Fin 16, k.val = ((i (0 : Fin 2)).val % 32768) / 2048 := ⟨⟨_, by omega⟩, rfl⟩
  by_cases hh : (i (0 : Fin 2)).val / 32768 = c.val / 16
  · exact ⟨Sum.inl k, Finset.mem_univ _, (mem_oSet c k i).mpr ⟨by omega, by omega⟩⟩
  · exact ⟨Sum.inr k, Finset.mem_univ _, (mem_oSet (pr c) k i).mpr ⟨by omega, by omega⟩⟩

/-- What a chunk's contents are asked to read as. -/
def oP (c : Dev nD) : Fin 16 ⊕ Fin 16 → Buf (Elt F) (oL c) → Prop :=
  Sum.elim (fun k f => (oCh c k).view.read (Elt F) f = cval m c k)
    (fun k f => (oCh (pr c) k).view.read (Elt F) f = cval m (pr c) k)

/-- A chunk's reading depends on the contents on the chunk's rows only. -/
theorem oP_congr (c : Dev nD) : ∀ (t : Fin 16 ⊕ Fin 16) (f g : Buf (Elt F) (oL c)),
    (∀ i ∈ oSet c t, g i = f i) → oP m c t f → oP m c t g := by
  rintro (k | k) f g h hf
  · exact (View.read_congr (v := (oCh c k).view) (fun i hi => h i hi)).trans hf
  · exact (View.read_congr (v := (oCh (pr c) k).view) (fun i hi => h i hi)).trans hf

/-! ### The scratch buffers: their slots -/

def fSet (c : Dev nD) (j : Fin 2) : Finset (Idx (fL c)) := (fSl j).view.set
def bSet (c : Dev nD) (j : Fin 4) : Finset (Idx (bL c)) := (bSl j).view.set

theorem fSet_disj (c : Dev nD) : ∀ j j' : Fin 2, j ≠ j' → Disjoint (fSet c j) (fSet c j') := by
  intro j j' h
  rw [Finset.disjoint_left]
  intro i hi hi'
  exact h (Fin.ext (((mem_fSet j i).mp hi).symm.trans ((mem_fSet j' i).mp hi')))

theorem fSet_cover (c : Dev nD) : (Finset.univ : Finset (Fin 2)).biUnion (fSet c) = Finset.univ := by
  refine Finset.eq_univ_of_forall fun i => Finset.mem_biUnion.mpr ?_
  have hi : (i (0 : Fin 3)).val < 2 := (i (0 : Fin 3)).isLt
  exact ⟨⟨(i (0 : Fin 3)).val, hi⟩, Finset.mem_univ _, (mem_fSet ⟨(i (0 : Fin 3)).val, hi⟩ i).mpr rfl⟩

theorem bSet_disj (c : Dev nD) : ∀ j j' : Fin 4, j ≠ j' → Disjoint (bSet c j) (bSet c j') := by
  intro j j' h
  rw [Finset.disjoint_left]
  intro i hi hi'
  exact h (Fin.ext (((mem_bSet j i).mp hi).symm.trans ((mem_bSet j' i).mp hi')))

theorem bSet_cover (c : Dev nD) : (Finset.univ : Finset (Fin 4)).biUnion (bSet c) = Finset.univ := by
  refine Finset.eq_univ_of_forall fun i => Finset.mem_biUnion.mpr ?_
  have hi : (i (0 : Fin 3)).val < 4 := (i (0 : Fin 3)).isLt
  exact ⟨⟨(i (0 : Fin 3)).val, hi⟩, Finset.mem_univ _, (mem_bSet ⟨(i (0 : Fin 3)).val, hi⟩ i).mpr rfl⟩

/-! ### The kernel's DMA semaphores: two, four, sixteen and sixteen make the pool of 38 -/

def semOf : Fin 2 ⊕ Fin 4 ⊕ Fin 16 ⊕ Fin 16 → DmaSem sig :=
  Sum.elim loadS (Sum.elim storeS (Sum.elim sendS recvS))

/-- Where each sits in the pool. -/
theorem semOf_val (x : Fin 2 ⊕ Fin 4 ⊕ Fin 16 ⊕ Fin 16) :
    (semOf x).val = Sum.elim (fun j : Fin 2 => j.val) (Sum.elim (fun j : Fin 4 => 2 + j.val) (Sum.elim (fun k : Fin 16 => 6 + k.val) (fun k : Fin 16 => 22 + k.val))) x := by
  rcases x with j | j | k | k
  · exact loadS_val j
  · exact storeS_val j
  · exact sendS_val k
  · exact recvS_val k

theorem semOf_inj : Function.Injective semOf := by
  intro x y h
  have hv := congrArg Fin.val h
  rw [semOf_val, semOf_val] at hv
  rcases x with a | a | a | a <;> rcases y with b | b | b | b <;>
    simp only [Sum.elim_inl, Sum.elim_inr] at hv <;>
    first
      | (have := a.isLt; have := b.isLt; omega)
      | (have e : a = b := Fin.ext (by omega); rw [e])

theorem semOf_card : Fintype.card (Fin 2 ⊕ Fin 4 ⊕ Fin 16 ⊕ Fin 16) = Fintype.card (DmaSem sig) := by
  have h : Fintype.card (DmaSem sig) = 38 := Fintype.card_fin 38
  rw [h]
  simp

def semEquiv : (Fin 2 ⊕ Fin 4 ⊕ Fin 16 ⊕ Fin 16) ≃ DmaSem sig :=
  Equiv.ofBijective semOf ((Fintype.bijective_iff_injective_and_card semOf).mpr ⟨semOf_inj, semOf_card⟩)

end Rg

open Rg in
/-- `x` whole is its sixteen chunks. -/
theorem x_split (c : Dev nD) :
    ((((c : Thread nD τ).loc main_arg0) ↦{fullShare} xblk m c : sProp 𝕄)) ⊣⊢ bigSep Finset.univ fun k : Fin 16 => xPts m c k := by
  have h : ((xL c) ↦[(Finset.univ : Finset (Fin 16)).biUnion (xSet c)]{fullShare} xblk m c : sProp 𝕄)
      = bigSep Finset.univ fun k : Fin 16 => (xL c) ↦[xSet c k]{fullShare} xblk m c :=
    pointsTo_biUnion Finset.univ (xSet c) fun k _ k' _ hk => xSet_disj c k k' hk
  rw [xSet_cover c] at h
  exact BiEntails.of_eq h

open Rg in
/-- The result array whole, at its launch contents, is the sixteen chunks of the device's half and the sixteen of
    the partner's, each at some contents. (One direction: the contents are forgotten.) -/
theorem o_split (c : Dev nD) (f : Buf (Elt F) ((c : Thread nD τ).loc main_v1)) :
    ((((c : Thread nD τ).loc main_v1) ↦{fullShare} f : sProp 𝕄))
      ⊢ iprop((bigSep Finset.univ fun k : Fin 16 => oAny c c k) ∗ (bigSep Finset.univ fun k : Fin 16 => oAny c (pr c) k)) := by
  have h1 : ((oL c) ↦{fullShare} f : sProp 𝕄) = (oL c) ↦[(Finset.univ : Finset (Fin 16 ⊕ Fin 16)).biUnion (oSet c)]{fullShare} f := by
    rw [oSet_cover c]
  have h2 : ((oL c) ↦[(Finset.univ : Finset (Fin 16 ⊕ Fin 16)).biUnion (oSet c)]{fullShare} f : sProp 𝕄)
      ⊢ bigSep Finset.univ fun t : Fin 16 ⊕ Fin 16 => iprop(∃ g, (oL c) ↦[oSet c t]{fullShare} g) :=
    pts_split_any Finset.univ (oSet c) (oSet_disj c) f
  have h3 : (bigSep Finset.univ fun t : Fin 16 ⊕ Fin 16 => iprop(∃ g : Buf (Elt F) (oL c), (oL c) ↦[oSet c t]{fullShare} g) : sProp 𝕄)
      = iprop((bigSep Finset.univ fun k : Fin 16 => oAny c c k) ∗ (bigSep Finset.univ fun k : Fin 16 => oAny c (pr c) k)) :=
    bigSep_univ_sum _
  exact (Entails.of_eq h1).trans (h2.trans (Entails.of_eq h3))

open Rg in
/-- Thirty-two chunks, each reading as its narrowed chunk, are a whole result array satisfying `Res`. -/
theorem o_join (c : Dev nD) :
    iprop((bigSep Finset.univ fun k : Fin 16 => owns (c : Thread nD τ) (oCh c k) fullShare (cval m c k))
        ∗ (bigSep Finset.univ fun k : Fin 16 => owns (c : Thread nD τ) (oCh (pr c) k) fullShare (cval m (pr c) k)))
      ⊢ (iprop(∃ g, iprop(⌜Res m c g⌝ ∗ (((c : Thread nD τ).loc main_v1) ↦{fullShare} g))) : sProp 𝕄) := by
  have h0 : (bigSep Finset.univ fun t : Fin 16 ⊕ Fin 16 =>
          iprop(∃ f : Buf (Elt F) (oL c), ⌜oP m c t f⌝ ∗ (oL c) ↦[oSet c t]{fullShare} f) : sProp 𝕄)
      = iprop((bigSep Finset.univ fun k : Fin 16 => owns (c : Thread nD τ) (oCh c k) fullShare (cval m c k))
        ∗ (bigSep Finset.univ fun k : Fin 16 => owns (c : Thread nD τ) (oCh (pr c) k) fullShare (cval m (pr c) k))) :=
    bigSep_univ_sum _
  have h1 := pts_join_any (F := F) (q := fullShare) Finset.univ Finset.univ_nonempty (oSet c) (oSet_disj c) (oP m c) (oP_congr m c)
  refine (Entails.of_eq h0.symm).trans (h1.trans ?_)
  iintro ⟨%g, %hg, H⟩
  iexists g
  isplitr
  · ipureintro
    intro k
    exact ⟨hg (Sum.inl k) (Finset.mem_univ _), hg (Sum.inr k) (Finset.mem_univ _)⟩
  · rw [oSet_cover c]; iexact H

open Rg in
/-- The f32 scratch is its two slots, -/
theorem f_split (c : Dev nD) :
    (iprop(∃ f : Buf (Elt F) ((c : Thread nD τ).loc cc0_scratch0), ((c : Thread nD τ).loc cc0_scratch0) ↦{fullShare} f) : sProp 𝕄)
      ⊣⊢ iprop(fAny c 0 ∗ fAny c 1) := by
  have h := any_cover (F := F) (q := fullShare) (fSet c) (fSet_disj c) (fSet_cover c)
  rw [bigSep_univ_two] at h
  exact h
open Rg in
/-- the bf16 scratch its four. -/
theorem b_split (c : Dev nD) :
    (iprop(∃ f : Buf (Elt F) ((c : Thread nD τ).loc cc0_scratch1), ((c : Thread nD τ).loc cc0_scratch1) ↦{fullShare} f) : sProp 𝕄)
      ⊣⊢ iprop(bAny c 0 fullShare ∗ bAny c 1 fullShare ∗ bAny c 2 fullShare ∗ bAny c 3 fullShare) := by
  have h := any_cover (F := F) (q := fullShare) (bSet c) (bSet_disj c) (bSet_cover c)
  rw [bigSep_univ_eq_bigSepL ([0, 1, 2, 3] : List (Fin 4)) (by decide) (by decide)] at h
  exact h

/-- A bf16 slot's two half shares, each at some contents, are the slot. -/
theorem b_join (c : Dev nD) (j : Fin 4) : iprop(bAny c j hL ∗ bAny c j hR) ⊢ (bAny c j fullShare : sProp 𝕄) := by
  unfold bAny
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share (PosShare.mem_left_op_right fullShare)).2
  isplitl [H₁]; · iexact H₁
  iexact H₂'

open Rg in
/-- The kernel's own semaphores are the two load, four store, sixteen send and sixteen receive semaphores. -/
theorem sems0_join (c : Dev nD) :
    iprop((bigSep Finset.univ fun j : Fin 2 => semVal (loadCell c j) 0) ∗ (bigSep Finset.univ fun j : Fin 4 => semVal (storeCell c j) 0)
        ∗ (bigSep Finset.univ fun k : Fin 16 => semVal (sendCell c k) 0) ∗ (bigSep Finset.univ fun k : Fin 16 => semVal (recvCell c k) 0))
      ⊢ (sems0 c : sProp 𝕄) := by
  have e : (sems0 c : sProp 𝕄)
      = iprop((bigSep Finset.univ fun j : Fin 2 => semVal (loadCell c j) 0) ∗ (bigSep Finset.univ fun j : Fin 4 => semVal (storeCell c j) 0)
        ∗ (bigSep Finset.univ fun k : Fin 16 => semVal (sendCell c k) 0) ∗ (bigSep Finset.univ fun k : Fin 16 => semVal (recvCell c k) 0)) := by
    unfold sems0
    rw [bigSep_univ_equiv semEquiv (fun i : DmaSem sig => (semVal ((c : Thread nD τ), SemLoc.dma i) 0 : sProp 𝕄)),
      bigSep_univ_sum, bigSep_univ_sum, bigSep_univ_sum]
    rfl
  exact Entails.of_eq e.symm

end Cert.KernelIdeal.AG

end
-- ==== Proof.AG.Inv.lean ====
/-
  The invariant between two chunks: where every chunk of a device stands once `n` of them have been started.

  Chunk `k`'s LOAD is not yet issued while `n < k` (its rows of `x` and the load's token wait), in flight when
  `n = k` (the credit to wait with and the load cell's position), and over after (`x`'s rows are back).
  Its two COPIES OUT are not yet issued while `n ≤ k` (the three tokens, the positions of its send and receive
  cells with the receive credit, the partner's rows and its own rows to be written), in flight while `k < n ≤ k + 4`
  (the send and store credits, the store cell's position), and over after: both landings' rows read as the narrowed
  chunks, and its send and receive cells are past their one round.

  The f32 slots and the bf16 slots travel as tickets. `FFor i` is the f32 slot `i mod 2` free, its load cell at round
  `i / 2` and that round reached: what the load of chunk `i` takes; the wait of load `i` and the read of the slot give
  back `FFor (i + 2)`. `BFor i` likewise for bf16 slot `i mod 4` and round `i / 4` of its store cell: what the copies
  out of chunk `i` take; the three waits of chunk `i` give back `BFor (i + 4)`.
-/
import proofs.«900687_g7700000000000688_dist_ag_v7x_xyz2x4x4_x_m32768_n1024_bf16_1_alg».proof.Proof.AG.Core
import proofs.«900687_g7700000000000688_dist_ag_v7x_xyz2x4x4_x_m32768_n1024_bf16_1_alg».proof.Proof.AG.Regions

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

def f2n (i : ℕ) : Fin 2 := ⟨i % 2, Nat.mod_lt _ (by decide)⟩
def b4n (i : ℕ) : Fin 4 := ⟨i % 4, Nat.mod_lt _ (by decide)⟩

/-- f32 slot `i mod 2` ready for the load of chunk `i`. -/
def FFor (i : ℕ) : sProp 𝕄 :=
  iprop(fAny c (f2n i) ∗ atPos ER (loadCell c (f2n i)) (i / 2) ∅ 0 ∗ reached ER (loadCell c (f2n i)) (i / 2))
/-- bf16 slot `i mod 4` ready for the copies out of chunk `i`. -/
def BFor (i : ℕ) : sProp 𝕄 :=
  iprop(bAny c (b4n i) fullShare ∗ atPos ER (storeCell c (b4n i)) (i / 4) ∅ 0 ∗ reached ER (storeCell c (b4n i)) (i / 4))

def LFresh (k : Fin 16) : sProp 𝕄 := iprop(xPts m c k ∗ dutyTok ER (loadCell c (f2 k)) (k.val / 2) ())
def LFly (k : Fin 16) : sProp 𝕄 :=
  iprop(cred (tallyAt (loadCell c (f2 k)) () Nf) ∗ atPos ER (loadCell c (f2 k)) (k.val / 2) ∅ 0)

def SFresh (k : Fin 16) : sProp 𝕄 :=
  iprop(dutyTok ER (storeCell c (b4 k)) (k.val / 4) () ∗ dutyTok ER (sendCell c k) 0 () ∗ dutyTok ER (recvCell (pr c) k) 0 ()
    ∗ chunkPos c k ∗ oAny (pr c) c k ∗ oAny c c k)
def SFly (k : Fin 16) : sProp 𝕄 :=
  iprop(cred (tallyAt (sendCell c k) () Nb) ∗ cred (tallyAt (storeCell c (b4 k)) () Nb)
    ∗ atPos ER (storeCell c (b4 k)) (k.val / 4) ∅ 0 ∗ chunkPos c k)
def SDone (k : Fin 16) : sProp 𝕄 :=
  iprop(owns (c : Thread nD τ) (oCh c k) fullShare (cval m c k) ∗ owns (c : Thread nD τ) (oCh (pr c) k) fullShare (cval m (pr c) k)
    ∗ atPos ER (sendCell c k) 1 ∅ 0 ∗ atPos ER (recvCell c k) 1 ∅ 0)

/-- Where chunk `k` stands once `n` chunks have been started. -/
def chunkSt (n : ℕ) (k : Fin 16) : sProp 𝕄 :=
  iprop((if n < k.val then LFresh m c k else if n = k.val then LFly c k else xPts m c k)
    ∗ (if n ≤ k.val then SFresh c k else if n ≤ k.val + 4 then SFly c k else SDone m c k))

/-- The f32 tickets held between chunks: the next load's while a load is still to come, both slots' at the end. -/
def fpart (n : ℕ) : sProp 𝕄 := if n < 16 then FFor c (n + 1) else iprop(FFor c 16 ∗ FFor c 17)
/-- The bf16 tickets held between chunks: the first four chunks' until each is used, the last four waits' at the end. -/
def bpart (n : ℕ) : sProp 𝕄 :=
  bigSep ((Finset.range 20).filter fun i => (n ≤ i ∧ i < 4) ∨ (16 ≤ i ∧ i < n)) (BFor c)

/-- Once `n` chunks have been started (`n ≤ 16`), and, for `16 < n ≤ 20`, once the waits of chunk `n - 5` are over. -/
def Inv (n : ℕ) : sProp 𝕄 :=
  iprop((∃ W, owes (c : Thread nD τ) (Oup c (16 - n)) W) ∗ (bigSep Finset.univ (chunkSt m c n)) ∗ fpart c n ∗ bpart c n
    ∗ atPos ER (barCell c) 1 ∅ 0)

/-- One summand out of a big separating conjunction, at this model. -/
theorem bigSep_elim' {I : Type} [DecidableEq I] {s : Finset I} {i : I} (hi : i ∈ s) {Φ : I → sProp 𝕄} : bigSep s Φ ⊢ Φ i := bigSep_elim hi

/-- A cell's invariant, out of the persistent part. -/
theorem iv_own (s : SemLoc sig) : pers m K c ⊢ Iv m K c s := by
  unfold pers Iv
  iintro ⟨HI, -⟩
  ihave H := (bigSep_elim' (Finset.mem_univ (ix s))) $$ HI
  rw [kcell_ix]; iexact H
theorem iv_peer (s : SemLoc sig) : pers m K c ⊢ Iv m K (pr c) s := by
  unfold pers Iv
  iintro ⟨-, HI, -⟩
  ihave H := (bigSep_elim' (Finset.mem_univ (ix s))) $$ HI
  rw [kcell_ix]; iexact H
theorem reached_own (s : SemLoc sig) : pers m K c ⊢ reached ER ((c : Thread nD τ), s) 0 := by
  unfold pers
  iintro ⟨-, -, HR, -⟩
  ihave H := (bigSep_elim' (Finset.mem_univ (ix s))) $$ HR
  rw [kcell_ix]; iexact H
theorem reached_peer (s : SemLoc sig) : pers m K c ⊢ reached ER ((pr c : Thread nD τ), s) 0 := by
  unfold pers
  iintro ⟨-, -, -, HR, -⟩
  ihave H := (bigSep_elim' (Finset.mem_univ (ix s))) $$ HR
  rw [kcell_ix]; iexact H
theorem lev_of : pers m K c ⊢ (levAts L lv : sProp 𝕄) := by
  unfold pers; iintro ⟨-, -, -, -, H⟩; iexact H

end Cert.KernelIdeal.AG

end
-- ==== Proof.AG.Frags.lean ====
/-
  The four pieces a chunk's iteration is made of, over the invariant's parts, at a symbolic chunk.

  * the wait for chunk `k`'s load: the load in flight becomes the f32 slot reading the chunk, `x`'s rows back, and the
    load cell one round on;
  * the start of chunk `k`'s load: the rows of `x`, the load's token and the slot's ticket become the load in flight;
  * the three waits that end chunk `k`'s copies out (send, receive, store): the copies in flight become both
    landings' rows reading the narrowed chunks, and the bf16 slot's ticket for chunk `k + 4`;
  * chunk `k` narrowed and sent twice: the loaded slot, the bf16 ticket and the chunk's tokens become the copies in
    flight and the f32 ticket for chunk `k + 2`; the device owes one chunk less.
-/
import proofs.«900687_g7700000000000688_dist_ag_v7x_xyz2x4x4_x_m32768_n1024_bf16_1_alg».proof.Proof.AG.Inv

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Arithmetic of slots and rounds -/

theorem f2n_eq (k : Fin 16) : f2n k.val = f2 k := rfl
theorem b4n_eq (k : Fin 16) : b4n k.val = b4 k := rfl
theorem f2n_add2 (i : ℕ) : f2n (i + 2) = f2n i := Fin.ext (by simp only [f2n]; omega)
theorem b4n_add4 (i : ℕ) : b4n (i + 4) = b4n i := Fin.ext (by simp only [b4n]; omega)

/-- What a wait's destination credits is what the cell's round expects. -/
theorem amt_load (j : Fin 2) : (fSl j).view.dmaCredit = amountOf (SemLoc.dma (loadS j) : SemLoc sig) :=
  (credit_fSl j).trans (amountOf_load j).symm
theorem amt_send (k : Fin 16) (j : Fin 4) : (bSl j).view.dmaCredit = amountOf (SemLoc.dma (sendS k) : SemLoc sig) :=
  (credit_bSl j).trans (amountOf_send k).symm
theorem amt_recv (k : Fin 16) (d : Dev nD) (k' : Fin 16) : (oCh d k').view.dmaCredit = amountOf (SemLoc.dma (recvS k) : SemLoc sig) :=
  (credit_oCh d k').trans (amountOf_recv k).symm
theorem amt_store (j : Fin 4) (d : Dev nD) (k' : Fin 16) : (oCh d k').view.dmaCredit = amountOf (SemLoc.dma (storeS j) : SemLoc sig) :=
  (credit_oCh d k').trans (amountOf_store j).symm

theorem lvOf_load (j : Fin 2) : lvOf (SemLoc.dma (loadS j) : SemLoc sig) ≤ 1 := by
  dsimp only [lvOf]; rw [loadS_val, if_neg (by have := j.isLt; omega)]; exact Nat.zero_le _
theorem lvOf_store (j : Fin 4) : lvOf (SemLoc.dma (storeS j) : SemLoc sig) ≤ 1 := by
  dsimp only [lvOf]; rw [storeS_val, if_neg (by have := j.isLt; omega)]; exact Nat.zero_le _
theorem lvOf_send (k : Fin 16) : lvOf (SemLoc.dma (sendS k) : SemLoc sig) ≤ 1 := by
  dsimp only [lvOf]; rw [sendS_val, if_neg (by have := k.isLt; omega)]; exact Nat.zero_le _

/-- A cell's invariant out of the persistent part, spelt as the rules take it: the device's own cell's, and the partner's. -/
theorem iv_own' (s : SemLoc sig) : pers m K c ⊢ cellInv ER (sched m) (K (c, ix s)) ((c : Thread nD τ), s) := iv_own m K c s
theorem iv_peer' (s : SemLoc sig) : pers m K c ⊢ cellInv ER (sched m) (K (pr c, ix s)) ((pr c : Thread nD τ), s) := iv_peer m K c s

/-! ## The wait for a chunk's load -/

theorem frag_loadWait (k : Fin 16) (j : ℕ) (hj : j ≤ 16) (W : Waits sig Unit)
    {h1 : (xCh k).view.WordExact} {h2 : (fSl (f2 k)).view.WordExact}
    {α : Type} {Q : α → sProp 𝕄} {Kt : PUnit → Prog (TpuEff nD τ sig (Elt F) Λ₀ .tc) α} :
    iprop(pers m K c ∗ LFly c k ∗ owes (c : Thread nD τ) (Oup c j) W
        ∗ ((∃ W', iprop(owes (c : Thread nD τ) (Oup c j) W' ∗ xPts m c k ∗ owns (c : Thread nD τ) (fSl (f2 k)) fullShare (xval m c k)
              ∗ atPos ER (loadCell c (f2 k)) (k.val / 2 + 1) ∅ 0 ∗ reached ER (loadCell c (f2 k)) (k.val / 2 + 1))) -∗ WP c (Kt ⟨⟩) Q))
      ⊢ WP c (.op (.waitDma2 (loadS (f2 k)) (xCh k) (fSl (f2 k)) h1 h2) Kt) Q := by
  unfold LFly
  iintro ⟨#HP, ⟨Hc, Hat⟩, HO, HK⟩
  iapply (wp_waitCell m (K (c, ix (.dma (loadS (f2 k))))) c (loadS (f2 k)) (k.val / 2) (by rw [rounds_load]; have := k.isLt; omega)
      (amt_load (f2 k)) (Oup c j) W (mayWait_low c _ (lvOf_load _) j hj)) $$ [Hc HO Hat]
  · isplitr; · iapply (iv_own' m K c (.dma (loadS (f2 k)))); iexact HP
    isplitl [Hc]; · rw [amountOf_load]; iexact Hc
    isplitl [HO]; · iexact HO
    isplitr; · iapply (lev_of m K c); iexact HP
    iexact Hat
  iintro ⟨HO, Hat, #Hr, Hpay⟩
  ihave Hp := (Entails.of_eq (payload_load m c k ())) $$ Hpay
  unfold loadPay
  icases Hp with ⟨Hf, Hx⟩
  iapply HK
  iexists _
  isplitl [HO]; · iexact HO
  isplitl [Hx]; · iexact Hx
  isplitl [Hf]; · iexact Hf
  isplitl [Hat]; · iexact Hat
  iexact Hr

/-! ## The start of a chunk's load -/

theorem frag_loadStart (k : Fin 16)
    {hsrc : (xCh k).view.WordExact} {hdst : (fSl (f2 k)).view.WordExact}
    {hsem : DmaTarget.Typed .hbm (SemLoc.dma (loadS (f2 k))) (DmaTarget.here (fSl (f2 k)) : DmaTarget nD τ sig .tc .vmem S2048x1024 .f32)}
    {α : Type} {Q : α → sProp 𝕄} {Kt : PUnit → Prog (TpuEff nD τ sig (Elt F) Λ₀ .tc) α} :
    iprop(pers m K c ∗ LFresh m c k ∗ FFor c k.val ∗ (LFly c k -∗ WP c (Kt ⟨⟩) Q))
      ⊢ WP c (.op (.enqueueDma (xCh k) (.here (fSl (f2 k))) (.dma (loadS (f2 k))) hsrc hdst hsem) Kt) Q := by
  unfold LFresh FFor LFly
  rw [f2n_eq]
  iintro ⟨#HP, ⟨Hx, Htok⟩, ⟨Hf, Hat, #Hr⟩, HK⟩
  iapply (wp_loadStart m (K (c, ix (.dma (loadS (f2 k))))) c k) $$ [Hx Htok Hf]
  · isplitr; · iapply (iv_own' m K c (.dma (loadS (f2 k)))); iexact HP
    isplitl [Hx]; · iexact Hx
    isplitl [Hf]; · iexact Hf
    isplitl [Htok]; · iexact Htok
    iexact Hr
  iintro Hc
  iapply HK
  isplitl [Hc]; · iexact Hc
  iexact Hat

/-! ## The three waits that end a chunk's copies out -/

theorem frag_waits (k : Fin 16) (j : ℕ) (hj : j ≤ 16) (hk : k.val < 16 - j) (W : Waits sig Unit)
    {a1 : (oCh c k).view.WordExact} {a2 : (bSl (b4 k)).view.WordExact}
    {b1 : (bSl (b4 k)).view.WordExact} {b2 : (oCh c k).view.WordExact}
    {c1 : (bSl (b4 k)).view.WordExact} {c2 : (oCh c k).view.WordExact}
    {α : Type} {Q : α → sProp 𝕄} {Kt : PUnit → Prog (TpuEff nD τ sig (Elt F) Λ₀ .tc) α} :
    iprop(pers m K c ∗ SFly c k ∗ owes (c : Thread nD τ) (Oup c j) W
        ∗ ((∃ W', iprop(owes (c : Thread nD τ) (Oup c j) W' ∗ SDone m c k ∗ BFor c (k.val + 4))) -∗ WP c (Kt ⟨⟩) Q))
      ⊢ WP c (.op (.waitDma2 (sendS k) (oCh c k) (bSl (b4 k)) a1 a2) fun _ =>
              .op (.waitDma2 (recvS k) (bSl (b4 k)) (oCh c k) b1 b2) fun _ =>
              .op (.waitDma2 (storeS (b4 k)) (bSl (b4 k)) (oCh c k) c1 c2) Kt) Q := by
  unfold SFly chunkPos
  iintro ⟨#HP, ⟨Hcs, Hct, Hatt, Hats, Hatr, Hcr⟩, HO, HK⟩
  -- the send cell: the half share of the bf16 slot lent to the remote copy comes back
  iapply (wp_waitCell m (K (c, ix (.dma (sendS k)))) c (sendS k) 0 (by rw [rounds_send]; decide)
      (amt_send k (b4 k)) (Oup c j) W (mayWait_low c _ (lvOf_send _) j hj)) $$ [Hcs HO Hats]
  · isplitr; · iapply (iv_own' m K c (.dma (sendS k))); iexact HP
    isplitl [Hcs]; · rw [amountOf_send]; iexact Hcs
    isplitl [HO]; · iexact HO
    isplitr; · iapply (lev_of m K c); iexact HP
    iexact Hats
  iintro ⟨HO, Hats, -, Hpay⟩
  ihave HbL := (Entails.of_eq (payload_send m c k ())) $$ Hpay
  unfold sendPay
  -- the receive cell: the partner's copy has landed; its rows read as the partner's narrowed chunk
  iapply (wp_waitCell m (K (c, ix (.dma (recvS k)))) c (recvS k) 0 (by rw [rounds_recv]; decide)
      (amt_recv k c k) (Oup c j) _ (mayWait_recv c k j hj hk)) $$ [Hcr HO Hatr]
  · isplitr; · iapply (iv_own' m K c (.dma (recvS k))); iexact HP
    isplitl [Hcr]; · rw [amountOf_recv]; iexact Hcr
    isplitl [HO]; · iexact HO
    isplitr; · iapply (lev_of m K c); iexact HP
    iexact Hatr
  iintro ⟨HO, Hatr, -, Hpay⟩
  ihave Hland := (Entails.of_eq (payload_recv m c k ())) $$ Hpay
  unfold recvPay
  -- the store cell: the local copy has landed; the device's own rows read as its narrowed chunk, the other half share is back
  iapply (wp_waitCell m (K (c, ix (.dma (storeS (b4 k))))) c (storeS (b4 k)) (k.val / 4) (by rw [rounds_store]; have := k.isLt; omega)
      (amt_store (b4 k) c k) (Oup c j) _ (mayWait_low c _ (lvOf_store _) j hj)) $$ [Hct HO Hatt]
  · isplitr; · iapply (iv_own' m K c (.dma (storeS (b4 k)))); iexact HP
    isplitl [Hct]; · rw [amountOf_store]; iexact Hct
    isplitl [HO]; · iexact HO
    isplitr; · iapply (lev_of m K c); iexact HP
    iexact Hatt
  iintro ⟨HO, Hatt, #Hrt, Hpay⟩
  ihave Hst := (Entails.of_eq (payload_store m c k ())) $$ Hpay
  unfold storePay
  icases Hst with ⟨Hown, HbR⟩
  ihave Hb := (b_join c (b4 k)) $$ [HbL HbR]
  · isplitl [HbL] <;> iassumption
  iapply HK
  iexists _
  isplitl [HO]; · iexact HO
  isplitl [Hown Hland Hats Hatr]
  · unfold SDone
    isplitl [Hown]; · iexact Hown
    isplitl [Hland]; · iexact Hland
    isplitl [Hats] <;> iassumption
  · unfold BFor
    rw [b4n_add4, b4n_eq, show (k.val + 4) / 4 = k.val / 4 + 1 from by omega]
    isplitl [Hb]; · iexact Hb
    isplitl [Hatt]; · iexact Hatt
    iexact Hrt

/-! ## A chunk narrowed and sent twice -/

theorem frag_core (n : Dev nD) (hn : n = pr c) (k : Fin 16) (j : ℕ) (hj : j + k.val = 15)
    (pay : Vec F S1x2048x1024 .f32 → FVec F S1x2048x1024 .bf16) (hpay : ∀ v, pay v = narrow v) (W : Waits sig Unit)
    {hl1 : fM.view.LoadsAt (fRect (f2 k)).toLoadRect} {hl2 : bM.view.LoadsAt (bRect (b4 k)).toLoadRect}
    {hst : (bM.access (bRect (b4 k))).Stores Finset.univ} {hm : (Finset.univ : Finset (bRect (b4 k)).shape.Idx) = Finset.univ ∨ ∀ a, (bRect (b4 k)).stride a = 1}
    {hsc : (oCh c k : Memref sig (Dev.tc n : Thread nD τ).2.kind .hbm S2048x1024 .bf16).view.ref.isScScratch = false}
    {hs1 : (bSl (b4 k)).view.WordExact} {hd1 : (oCh c k).view.WordExact}
    {hsem1 : DmaTarget.Typed .vmem (SemLoc.dma (recvS k)) (DmaTarget.remote (Dev.tc n : Thread nD τ) (oCh c k) (SemLoc.dma (sendS k)) hsc : DmaTarget nD τ sig .tc .hbm S2048x1024 .bf16)}
    {hs2 : (bSl (b4 k)).view.WordExact} {hd2 : (oCh c k).view.WordExact}
    {hsem2 : DmaTarget.Typed .vmem (SemLoc.dma (storeS (b4 k))) (DmaTarget.here (oCh c k) : DmaTarget nD τ sig .tc .hbm S2048x1024 .bf16)}
    {α : Type} {Q : α → sProp 𝕄} {Kt : PUnit → Prog (TpuEff nD τ sig (Elt F) Λ₀ .tc) α} :
    iprop(pers m K c ∗ owns (c : Thread nD τ) (fSl (f2 k)) fullShare (xval m c k)
        ∗ atPos ER (loadCell c (f2 k)) (k.val / 2 + 1) ∅ 0 ∗ reached ER (loadCell c (f2 k)) (k.val / 2 + 1)
        ∗ BFor c k.val ∗ SFresh c k ∗ owes (c : Thread nD τ) (Oup c (j + 1)) W
        ∗ (iprop(SFly c k ∗ FFor c (k.val + 2) ∗ owes (c : Thread nD τ) (Oup c j) W) -∗ WP c (Kt ⟨⟩) Q))
      ⊢ WP c (.op (.load fM (fRect (f2 k)).toLoadRect hl1) fun v =>
              .op (.load bM (bRect (b4 k)).toLoadRect hl2) fun _ =>
              .op (.store bM (bRect (b4 k)) (pay v) Finset.univ hst hm) fun _ =>
              .op (.enqueueDma (bSl (b4 k)) (.remote (Dev.tc n : Thread nD τ) (oCh c k) (SemLoc.dma (sendS k)) hsc) (SemLoc.dma (recvS k)) hs1 hd1 hsem1) fun _ =>
              .op (.enqueueDma (bSl (b4 k)) (.here (oCh c k)) (SemLoc.dma (storeS (b4 k))) hs2 hd2 hsem2) Kt) Q := by
  unfold BFor SFresh
  rw [b4n_eq]
  iintro ⟨#HP, Hf, Hatl, #Hrl, ⟨Hb, Hatt, #Hrt⟩, ⟨Htt, Hts, Htr, Hpos, Hop, Hoo⟩, HO, HK⟩
  iapply (wp_core m (K (c, ix (.dma (sendS k)))) (K (pr c, ix (.dma (recvS k)))) (K (c, ix (.dma (storeS (b4 k))))) c n hn k j hj pay hpay W)
    $$ [Hf Hb Hop Hoo Htt Hts Htr HO]
  · isplitr; · iapply (iv_own' m K c (.dma (sendS k))); iexact HP
    isplitr; · iapply (iv_peer' m K c (.dma (recvS k))); iexact HP
    isplitr; · iapply (iv_own' m K c (.dma (storeS (b4 k)))); iexact HP
    isplitl [Hf]; · iexact Hf
    isplitl [Hb]; · iexact Hb
    isplitl [Hop]; · iexact Hop
    isplitl [Hoo]; · iexact Hoo
    isplitl [Hts]; · iexact Hts
    isplitr; · iapply (reached_own m K c (.dma (sendS k))); iexact HP
    isplitl [Htr]; · iexact Htr
    isplitr; · iapply (reached_peer m K c (.dma (recvS k))); iexact HP
    isplitl [Htt]; · iexact Htt
    isplitr; · iexact Hrt
    iexact HO
  iintro ⟨Hfa, Hcs, Hct, HO⟩
  iapply HK
  isplitl [Hcs Hct Hatt Hpos]
  · unfold SFly
    isplitl [Hcs]; · iexact Hcs
    isplitl [Hct]; · iexact Hct
    isplitl [Hatt]; · iexact Hatt
    iexact Hpos
  isplitl [Hfa Hatl]
  · unfold FFor
    rw [f2n_add2, f2n_eq, show (k.val + 2) / 2 = k.val / 2 + 1 from by omega]
    isplitl [Hfa]; · iexact Hfa
    isplitl [Hatl]; · iexact Hatl
    iexact Hrl
  iexact HO

end Cert.KernelIdeal.AG

end
-- ==== Proof.AG.Steps.lean ====
/-
  One chunk's iteration over the invariant, at a symbolic chunk number `n`: the invariant after `n` chunks, the
  iteration's operations in program order, the invariant after `n + 1`.

  An iteration touches at most three chunks' states: chunk `n` (its load is waited, it is narrowed and sent), chunk
  `n + 1` (its load is started) and chunk `n - 4` (its copies out are waited for, freeing chunk `n`'s bf16 slot);
  every other chunk stands where it stood. The first four iterations wait for no copies (their bf16 slots are
  the initial tickets), the last starts no load, and after the sixteenth the last four chunks' copies are waited.
-/
import proofs.«900687_g7700000000000688_dist_ag_v7x_xyz2x4x4_x_m32768_n1024_bf16_1_alg».proof.Proof.AG.Frags

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Focusing chunks -/

theorem focus1 (a : Fin 16) (f : Fin 16 → sProp 𝕄) :
    bigSep Finset.univ f = iprop(f a ∗ bigSep (Finset.univ.erase a) f) := bigSep_erase (Finset.mem_univ a)
theorem focus2 {a b : Fin 16} (hab : a ≠ b) (f : Fin 16 → sProp 𝕄) :
    bigSep Finset.univ f = iprop(f a ∗ f b ∗ bigSep ((Finset.univ.erase a).erase b) f) := by
  rw [bigSep_erase (Finset.mem_univ a), bigSep_erase (Finset.mem_erase.mpr ⟨hab.symm, Finset.mem_univ b⟩)]
  rfl
theorem focus3 {a b d : Fin 16} (hab : a ≠ b) (had : a ≠ d) (hbd : b ≠ d) (f : Fin 16 → sProp 𝕄) :
    bigSep Finset.univ f = iprop(f a ∗ f b ∗ f d ∗ bigSep (((Finset.univ.erase a).erase b).erase d) f) := by
  rw [bigSep_erase (Finset.mem_univ a), bigSep_erase (Finset.mem_erase.mpr ⟨hab.symm, Finset.mem_univ b⟩),
    bigSep_erase (Finset.mem_erase.mpr ⟨hbd.symm, Finset.mem_erase.mpr ⟨had.symm, Finset.mem_univ d⟩⟩)]
  rfl

/-- A chunk other than `n`, `n + 1` and `n - 4` stands after `n + 1` chunks where it stood after `n`. -/
theorem chunkSt_succ_of_ne (n : ℕ) (k : Fin 16) (h0 : k.val ≠ n) (h1 : k.val ≠ n + 1) (h4 : k.val + 4 ≠ n) :
    chunkSt m c n k = chunkSt m c (n + 1) k := by
  unfold chunkSt
  congr 1
  · by_cases h : n < k.val
    · rw [if_pos h, if_pos (show n + 1 < k.val from by omega)]
    · rw [if_neg h, if_neg (show ¬ n = k.val from by omega), if_neg (show ¬ n + 1 < k.val from by omega),
        if_neg (show ¬ n + 1 = k.val from by omega)]
  · by_cases h : n ≤ k.val
    · rw [if_pos h, if_pos (show n + 1 ≤ k.val from by omega)]
    · rw [if_neg h, if_neg (show ¬ n + 1 ≤ k.val from by omega)]
      by_cases h' : n ≤ k.val + 4
      · rw [if_pos h', if_pos (show n + 1 ≤ k.val + 4 from by omega)]
      · rw [if_neg h', if_neg (show ¬ n + 1 ≤ k.val + 4 from by omega)]

theorem st_cur (n : ℕ) (k : Fin 16) (hk : k.val = n) : chunkSt m c n k = iprop(LFly c k ∗ SFresh c k) := by
  unfold chunkSt
  rw [if_neg (show ¬ n < k.val from by omega), if_pos hk.symm, if_pos (show n ≤ k.val from by omega)]
theorem st_nxt (n : ℕ) (k : Fin 16) (hk : k.val = n + 1) : chunkSt m c n k = iprop(LFresh m c k ∗ SFresh c k) := by
  unfold chunkSt
  rw [if_pos (show n < k.val from by omega), if_pos (show n ≤ k.val from by omega)]
theorem st_fly (n : ℕ) (k : Fin 16) (h1 : k.val < n) (h2 : n ≤ k.val + 4) : chunkSt m c n k = iprop(xPts m c k ∗ SFly c k) := by
  unfold chunkSt
  rw [if_neg (show ¬ n < k.val from by omega), if_neg (show ¬ n = k.val from by omega), if_neg (show ¬ n ≤ k.val from by omega), if_pos h2]
theorem st_done (n : ℕ) (k : Fin 16) (h : k.val + 4 < n) : chunkSt m c n k = iprop(xPts m c k ∗ SDone m c k) := by
  unfold chunkSt
  rw [if_neg (show ¬ n < k.val from by omega), if_neg (show ¬ n = k.val from by omega), if_neg (show ¬ n ≤ k.val from by omega),
    if_neg (show ¬ n ≤ k.val + 4 from by omega)]

theorem bpart_mid (n : ℕ) (h4 : 4 ≤ n) (h16 : n ≤ 16) : bpart c n = (iprop(emp) : sProp 𝕄) := by
  unfold bpart
  rw [show ((Finset.range 20).filter fun i => (n ≤ i ∧ i < 4) ∨ (16 ≤ i ∧ i < n)) = ∅ from
    Finset.filter_eq_empty_iff.mpr fun i _ h => by omega]
  rfl
/-- Using the ticket of one of the first four chunks. -/
theorem bpart_take (n : ℕ) (h : n < 4) : (bpart c n : sProp 𝕄) = iprop(BFor c n ∗ bpart c (n + 1)) := by
  unfold bpart
  rw [show ((Finset.range 20).filter fun i => (n ≤ i ∧ i < 4) ∨ (16 ≤ i ∧ i < n))
      = insert n ((Finset.range 20).filter fun i => (n + 1 ≤ i ∧ i < 4) ∨ (16 ≤ i ∧ i < n + 1)) from by
    ext i; simp only [Finset.mem_filter, Finset.mem_range, Finset.mem_insert]; omega]
  exact bigSep_insert (by simp only [Finset.mem_filter, Finset.mem_range]; omega)
/-- Keeping the ticket one of the last four waits returns. -/
theorem bpart_put (n : ℕ) (h16 : 16 ≤ n) (h20 : n < 20) : (bpart c (n + 1) : sProp 𝕄) = iprop(BFor c n ∗ bpart c n) := by
  unfold bpart
  rw [show ((Finset.range 20).filter fun i => (n + 1 ≤ i ∧ i < 4) ∨ (16 ≤ i ∧ i < n + 1))
      = insert n ((Finset.range 20).filter fun i => (n ≤ i ∧ i < 4) ∨ (16 ≤ i ∧ i < n)) from by
    ext i; simp only [Finset.mem_filter, Finset.mem_range, Finset.mem_insert]; omega]
  exact bigSep_insert (by simp only [Finset.mem_filter, Finset.mem_range]; omega)

/-- The invariant, spelt out. -/
theorem Inv_eq (n : ℕ) : Inv m c n = iprop((∃ W, owes (c : Thread nD τ) (Oup c (16 - n)) W) ∗ (bigSep Finset.univ (chunkSt m c n))
    ∗ fpart c n ∗ bpart c n ∗ atPos ER (barCell c) 1 ∅ 0) := rfl
theorem fpart_lt (n : ℕ) (h : n < 16) : (fpart c n : sProp 𝕄) = FFor c (n + 1) := if_pos h
theorem fpart_ge (n : ℕ) (h : ¬ n < 16) : (fpart c n : sProp 𝕄) = iprop(FFor c 16 ∗ FFor c 17) := if_neg h

/-! ## Chunks 4 to 14 -/

theorem stepB (n : ℕ) (h4 : 4 ≤ n) (h14 : n ≤ 14) (kn kn1 k4 : Fin 16) (hkn : kn.val = n) (hkn1 : kn1.val = n + 1) (hk4 : k4.val + 4 = n)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {e1 : (xCh kn1).view.WordExact} {e2 : (fSl (f2 kn1)).view.WordExact}
    {e3 : DmaTarget.Typed .hbm (SemLoc.dma (loadS (f2 kn1))) (DmaTarget.here (fSl (f2 kn1)) : DmaTarget nD τ sig .tc .vmem S2048x1024 .f32)}
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (loadS (f2 kn)) (xCh kn) (fSl (f2 kn)) w1 w2) fun _ =>
              .op (.enqueueDma (xCh kn1) (.here (fSl (f2 kn1))) (.dma (loadS (f2 kn1))) e1 e2 e3) fun _ =>
              .op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne1 : k4 ≠ kn := fun h => by have := congrArg Fin.val h; omega
  have hne2 : k4 ≠ kn1 := fun h => by have := congrArg Fin.val h; omega
  have hne3 : kn ≠ kn1 := fun h => by have := congrArg Fin.val h; omega
  obtain ⟨j, hj⟩ : ∃ j : ℕ, j + kn.val = 15 := ⟨15 - kn.val, by omega⟩
  -- the invariant's parts before the iteration, and after
  have e16 : 16 - n = j + 1 := by omega
  have e16' : 16 - (n + 1) = j := by omega
  have eC : bigSep Finset.univ (chunkSt m c n) = iprop((xPts m c k4 ∗ SFly c k4) ∗ (LFly c kn ∗ SFresh c kn)
      ∗ (LFresh m c kn1 ∗ SFresh c kn1) ∗ bigSep (((Finset.univ.erase k4).erase kn).erase kn1) (chunkSt m c n)) := by
    rw [focus3 hne1 hne2 hne3 (chunkSt m c n), st_fly m c n k4 (by omega) (by omega), st_cur m c n kn hkn, st_nxt m c n kn1 hkn1]
  have eC' : bigSep Finset.univ (chunkSt m c (n + 1)) = iprop((xPts m c k4 ∗ SDone m c k4) ∗ (xPts m c kn ∗ SFly c kn)
      ∗ (LFly c kn1 ∗ SFresh c kn1) ∗ bigSep (((Finset.univ.erase k4).erase kn).erase kn1) (chunkSt m c n)) := by
    rw [focus3 hne1 hne2 hne3 (chunkSt m c (n + 1)), st_done m c (n + 1) k4 (by omega), st_fly m c (n + 1) kn (by omega) (by omega),
      st_cur m c (n + 1) kn1 hkn1]
    rw [bigSep_congr fun k hk => (chunkSt_succ_of_ne m c n k
      (fun h => (Finset.mem_erase.mp (Finset.mem_erase.mp hk).2).1 (Fin.ext (h.trans hkn.symm)))
      (fun h => (Finset.mem_erase.mp hk).1 (Fin.ext (h.trans hkn1.symm)))
      (fun h => (Finset.mem_erase.mp (Finset.mem_erase.mp (Finset.mem_erase.mp hk).2).2).1 (Fin.ext (by omega)))).symm]
  have eF : (fpart c n : sProp 𝕄) = FFor c kn1.val := by rw [fpart_lt c n (by omega), hkn1]
  have eF' : (fpart c (n + 1) : sProp 𝕄) = FFor c (kn.val + 2) := by
    rw [fpart_lt c (n + 1) (by omega), show n + 1 + 1 = kn.val + 2 from by omega]
  have eB : (bpart c n : sProp 𝕄) = bpart c (n + 1) := by
    rw [bpart_mid c n h4 (by omega), bpart_mid c (n + 1) (by omega) (by omega)]
  have eT : (BFor c (k4.val + 4) : sProp 𝕄) = BFor c kn.val := by rw [show k4.val + 4 = kn.val from by omega]
  rw [Inv_eq m c n, Inv_eq m c (n + 1), e16, e16', eC, eC', eF, eF', eB]
  iintro ⟨#HP, ⟨⟨%W, HO⟩, ⟨⟨Hx4, Hfly4⟩, ⟨Hlfly, Hsfresh⟩, ⟨Hlfresh, Hsfresh1⟩, Hrest⟩, HF, HB, Hbar⟩, HK⟩
  -- the load of chunk n is waited for
  iapply (frag_loadWait m K c kn (j + 1) (by omega) W)
  isplitr; · iexact HP
  isplitl [Hlfly]; · iexact Hlfly
  isplitl [HO]; · iexact HO
  iintro ⟨%W1, HO, Hxn, Hfn, Hatl, #Hrl⟩
  -- the load of chunk n + 1 is started
  iapply (frag_loadStart m K c kn1)
  isplitr; · iexact HP
  isplitl [Hlfresh]; · iexact Hlfresh
  isplitl [HF]; · iexact HF
  iintro Hlfly1
  -- the copies out of chunk n - 4 are waited for
  iapply (frag_waits m K c k4 (j + 1) (by omega) (by omega) W1)
  isplitr; · iexact HP
  isplitl [Hfly4]; · iexact Hfly4
  isplitl [HO]; · iexact HO
  iintro ⟨%W2, HO, Hdone4, Hbt⟩
  ihave Hbt := (Entails.of_eq eT) $$ Hbt
  -- chunk n is narrowed and sent twice
  iapply (frag_core m K c pd hpd kn j hj pay hpay W2)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after n + 1 chunks
  iapply HK
  isplitl [HO]; · iexists W2; iexact HO
  isplitl [Hx4 Hdone4 Hxn Hsfly Hlfly1 Hsfresh1 Hrest]
  · isplitl [Hx4 Hdone4]; · isplitl [Hx4] <;> iassumption
    isplitl [Hxn Hsfly]; · isplitl [Hxn] <;> iassumption
    isplitl [Hlfly1 Hsfresh1]; · isplitl [Hlfly1] <;> iassumption
    iexact Hrest
  isplitl [Hft]; · iexact Hft
  isplitl [HB]; · iexact HB
  iexact Hbar

/-! ## Chunks 0 to 3: no copies to wait for; the bf16 slot is one of the initial tickets -/

theorem stepA (n : ℕ) (h3 : n ≤ 3) (kn kn1 : Fin 16) (hkn : kn.val = n) (hkn1 : kn1.val = n + 1)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {e1 : (xCh kn1).view.WordExact} {e2 : (fSl (f2 kn1)).view.WordExact}
    {e3 : DmaTarget.Typed .hbm (SemLoc.dma (loadS (f2 kn1))) (DmaTarget.here (fSl (f2 kn1)) : DmaTarget nD τ sig .tc .vmem S2048x1024 .f32)}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (loadS (f2 kn)) (xCh kn) (fSl (f2 kn)) w1 w2) fun _ =>
              .op (.enqueueDma (xCh kn1) (.here (fSl (f2 kn1))) (.dma (loadS (f2 kn1))) e1 e2 e3) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne3 : kn ≠ kn1 := fun h => by have := congrArg Fin.val h; omega
  obtain ⟨j, hj⟩ : ∃ j : ℕ, j + kn.val = 15 := ⟨15 - kn.val, by omega⟩
  have e16 : 16 - n = j + 1 := by omega
  have e16' : 16 - (n + 1) = j := by omega
  have eC : bigSep Finset.univ (chunkSt m c n) = iprop((LFly c kn ∗ SFresh c kn)
      ∗ (LFresh m c kn1 ∗ SFresh c kn1) ∗ bigSep ((Finset.univ.erase kn).erase kn1) (chunkSt m c n)) := by
    rw [focus2 hne3 (chunkSt m c n), st_cur m c n kn hkn, st_nxt m c n kn1 hkn1]
  have eC' : bigSep Finset.univ (chunkSt m c (n + 1)) = iprop((xPts m c kn ∗ SFly c kn)
      ∗ (LFly c kn1 ∗ SFresh c kn1) ∗ bigSep ((Finset.univ.erase kn).erase kn1) (chunkSt m c n)) := by
    rw [focus2 hne3 (chunkSt m c (n + 1)), st_fly m c (n + 1) kn (by omega) (by omega), st_cur m c (n + 1) kn1 hkn1]
    rw [bigSep_congr fun k hk => (chunkSt_succ_of_ne m c n k
      (fun h => (Finset.mem_erase.mp (Finset.mem_erase.mp hk).2).1 (Fin.ext (h.trans hkn.symm)))
      (fun h => (Finset.mem_erase.mp hk).1 (Fin.ext (h.trans hkn1.symm)))
      (by omega)).symm]
  have eF : (fpart c n : sProp 𝕄) = FFor c kn1.val := by rw [fpart_lt c n (by omega), hkn1]
  have eF' : (fpart c (n + 1) : sProp 𝕄) = FFor c (kn.val + 2) := by
    rw [fpart_lt c (n + 1) (by omega), show n + 1 + 1 = kn.val + 2 from by omega]
  have eB : (bpart c n : sProp 𝕄) = iprop(BFor c kn.val ∗ bpart c (n + 1)) := by
    rw [hkn]; exact bpart_take c n (by omega)
  rw [Inv_eq m c n, Inv_eq m c (n + 1), e16, e16', eC, eC', eF, eF', eB]
  iintro ⟨#HP, ⟨⟨%W, HO⟩, ⟨⟨Hlfly, Hsfresh⟩, ⟨Hlfresh, Hsfresh1⟩, Hrest⟩, HF, ⟨Hbt, HB⟩, Hbar⟩, HK⟩
  -- the load of chunk n is waited for
  iapply (frag_loadWait m K c kn (j + 1) (by omega) W)
  isplitr; · iexact HP
  isplitl [Hlfly]; · iexact Hlfly
  isplitl [HO]; · iexact HO
  iintro ⟨%W1, HO, Hxn, Hfn, Hatl, #Hrl⟩
  -- the load of chunk n + 1 is started
  iapply (frag_loadStart m K c kn1)
  isplitr; · iexact HP
  isplitl [Hlfresh]; · iexact Hlfresh
  isplitl [HF]; · iexact HF
  iintro Hlfly1
  -- chunk n is narrowed and sent twice
  iapply (frag_core m K c pd hpd kn j hj pay hpay W1)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after n + 1 chunks
  iapply HK
  isplitl [HO]; · iexists W1; iexact HO
  isplitl [Hxn Hsfly Hlfly1 Hsfresh1 Hrest]
  · isplitl [Hxn Hsfly]; · isplitl [Hxn] <;> iassumption
    isplitl [Hlfly1 Hsfresh1]; · isplitl [Hlfly1] <;> iassumption
    iexact Hrest
  isplitl [Hft]; · iexact Hft
  isplitl [HB]; · iexact HB
  iexact Hbar

/-! ## Chunk 15: no load to start -/

theorem stepC (kn k4 : Fin 16) (hkn : kn.val = 15) (hk4 : k4.val = 11)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c 15 ∗ (Inv m c 16 -∗ WP c (Kt ⟨⟩) Q))
      ⊢ WP c (.op (.waitDma2 (loadS (f2 kn)) (xCh kn) (fSl (f2 kn)) w1 w2) fun _ =>
              .op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne1 : k4 ≠ kn := fun h => by have := congrArg Fin.val h; omega
  have hj : 0 + kn.val = 15 := by omega
  have eC : bigSep Finset.univ (chunkSt m c 15) = iprop((xPts m c k4 ∗ SFly c k4) ∗ (LFly c kn ∗ SFresh c kn)
      ∗ bigSep ((Finset.univ.erase k4).erase kn) (chunkSt m c 15)) := by
    rw [focus2 hne1 (chunkSt m c 15), st_fly m c 15 k4 (by omega) (by omega), st_cur m c 15 kn hkn]
  have eC' : bigSep Finset.univ (chunkSt m c 16) = iprop((xPts m c k4 ∗ SDone m c k4) ∗ (xPts m c kn ∗ SFly c kn)
      ∗ bigSep ((Finset.univ.erase k4).erase kn) (chunkSt m c 15)) := by
    rw [focus2 hne1 (chunkSt m c 16), st_done m c 16 k4 (by omega), st_fly m c 16 kn (by omega) (by omega)]
    rw [bigSep_congr fun k hk => (chunkSt_succ_of_ne m c 15 k
      (fun h => (Finset.mem_erase.mp hk).1 (Fin.ext (h.trans hkn.symm)))
      (by have := k.isLt; omega)
      (fun h => (Finset.mem_erase.mp (Finset.mem_erase.mp hk).2).1 (Fin.ext (by omega)))).symm]
  have eF : (fpart c 15 : sProp 𝕄) = FFor c 16 := fpart_lt c 15 (by decide)
  have eF' : (fpart c 16 : sProp 𝕄) = iprop(FFor c 16 ∗ FFor c (kn.val + 2)) := by
    rw [fpart_ge c 16 (by decide), show kn.val + 2 = 17 from by omega]
  have eB : (bpart c 15 : sProp 𝕄) = bpart c 16 := by
    rw [bpart_mid c 15 (by decide) (by decide), bpart_mid c 16 (by decide) (by decide)]
  have eT : (BFor c (k4.val + 4) : sProp 𝕄) = BFor c kn.val := by rw [show k4.val + 4 = kn.val from by omega]
  rw [Inv_eq m c 15, Inv_eq m c 16, show 16 - 15 = 0 + 1 from rfl, show 16 - 16 = 0 from rfl, eC, eC', eF, eF', eB]
  iintro ⟨#HP, ⟨⟨%W, HO⟩, ⟨⟨Hx4, Hfly4⟩, ⟨Hlfly, Hsfresh⟩, Hrest⟩, HF, HB, Hbar⟩, HK⟩
  -- the load of chunk 15 is waited for
  iapply (frag_loadWait m K c kn (0 + 1) (by decide) W)
  isplitr; · iexact HP
  isplitl [Hlfly]; · iexact Hlfly
  isplitl [HO]; · iexact HO
  iintro ⟨%W1, HO, Hxn, Hfn, Hatl, #Hrl⟩
  -- the copies out of chunk 11 are waited for
  iapply (frag_waits m K c k4 (0 + 1) (by decide) (by omega) W1)
  isplitr; · iexact HP
  isplitl [Hfly4]; · iexact Hfly4
  isplitl [HO]; · iexact HO
  iintro ⟨%W2, HO, Hdone4, Hbt⟩
  ihave Hbt := (Entails.of_eq eT) $$ Hbt
  -- chunk 15 is narrowed and sent twice
  iapply (frag_core m K c pd hpd kn 0 hj pay hpay W2)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after the sixteen chunks
  iapply HK
  isplitl [HO]; · iexists W2; iexact HO
  isplitl [Hx4 Hdone4 Hxn Hsfly Hrest]
  · isplitl [Hx4 Hdone4]; · isplitl [Hx4] <;> iassumption
    isplitl [Hxn Hsfly]; · isplitl [Hxn] <;> iassumption
    iexact Hrest
  isplitl [Hft HF]; · isplitl [HF] <;> iassumption
  isplitl [HB]; · iexact HB
  iexact Hbar

/-! ## After the sixteenth chunk: the waits of chunks 12 to 15 -/

theorem stepF (n : ℕ) (h16 : 16 ≤ n) (h19 : n ≤ 19) (k4 : Fin 16) (hk4 : k4.val + 4 = n)
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) Kt) Q := by
  have eC : bigSep Finset.univ (chunkSt m c n) = iprop((xPts m c k4 ∗ SFly c k4)
      ∗ bigSep (Finset.univ.erase k4) (chunkSt m c n)) := by
    rw [focus1 k4 (chunkSt m c n), st_fly m c n k4 (by omega) (by omega)]
  have eC' : bigSep Finset.univ (chunkSt m c (n + 1)) = iprop((xPts m c k4 ∗ SDone m c k4)
      ∗ bigSep (Finset.univ.erase k4) (chunkSt m c n)) := by
    rw [focus1 k4 (chunkSt m c (n + 1)), st_done m c (n + 1) k4 (by omega)]
    rw [bigSep_congr fun k hk => (chunkSt_succ_of_ne m c n k
      (by have := k.isLt; omega) (by have := k.isLt; omega)
      (fun h => (Finset.mem_erase.mp hk).1 (Fin.ext (by omega)))).symm]
  have eF : (fpart c n : sProp 𝕄) = fpart c (n + 1) := by
    rw [fpart_ge c n (by omega), fpart_ge c (n + 1) (by omega)]
  have eB : (bpart c (n + 1) : sProp 𝕄) = iprop(BFor c (k4.val + 4) ∗ bpart c n) := by
    rw [hk4]; exact bpart_put c n h16 (by omega)
  rw [Inv_eq m c n, Inv_eq m c (n + 1), show 16 - n = 0 from by omega, show 16 - (n + 1) = 0 from by omega, eC, eC', eF, eB]
  iintro ⟨#HP, ⟨⟨%W, HO⟩, ⟨⟨Hx4, Hfly4⟩, Hrest⟩, HF, HB, Hbar⟩, HK⟩
  iapply (frag_waits m K c k4 0 (by decide) (by have := k4.isLt; omega) W)
  isplitr; · iexact HP
  isplitl [Hfly4]; · iexact Hfly4
  isplitl [HO]; · iexact HO
  iintro ⟨%W2, HO, Hdone4, Hbt⟩
  iapply HK
  isplitl [HO]; · iexists W2; iexact HO
  isplitl [Hx4 Hdone4 Hrest]
  · isplitl [Hx4 Hdone4]; · isplitl [Hx4] <;> iassumption
    iexact Hrest
  isplitl [HF]; · iexact HF
  isplitl [HB Hbt]; · isplitl [Hbt] <;> iassumption
  iexact Hbar

end Cert.KernelIdeal.AG

end
-- ==== Proof.AG.Final.lean ====
/-
  After the last wait: every chunk's copies have landed, both f32 slots and all four bf16 slots are back, and every
  cell of the device's own is past its last round. The cells are closed (their counters, at zero, are the device's
  again), the sixteen chunks of `x` are put back together, the 32 chunks of the result are joined into one array that
  reads, chunk by chunk, as the narrowed chunks, and the scratch buffers are made whole.
-/
import proofs.«900687_g7700000000000688_dist_ag_v7x_xyz2x4x4_x_m32768_n1024_bf16_1_alg».proof.Proof.AG.Steps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Small unfoldings -/

/-- Nothing is owed once every chunk has been sent. -/
theorem Oup_final : Oup c (16 - 20) = 0 := rfl

theorem fin4_chain (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-! ## Closing cells -/

/-- One DMA cell of the device past its last round closes: its counter comes back at zero. -/
theorem close_cell (s : DmaSem sig) (r : ℕ) (hr : r = roundsOf (SemLoc.dma s)) :
    iprop(pers m K c ∗ atPos ER ((c : Thread nD τ), SemLoc.dma s) r ∅ 0)
      ⊢ (iprop(|={Set.univ}=> semVal ((c : Thread nD τ), SemLoc.dma s) 0) : sProp 𝕄) := by
  subst hr
  iintro ⟨#HP, Hat⟩
  iapply (cell_done m (K (c, ix (SemLoc.dma s))) c s)
  isplitr
  · iapply (iv_own' m K c (SemLoc.dma s)); iexact HP
  · iexact Hat

/-- A family of DMA cells of the device, each past its last round, closes under one update. -/
theorem close_all {I : Type} [Fintype I] [DecidableEq I] (s : I → DmaSem sig) (r : ℕ)
    (hr : ∀ i, r = roundsOf (SemLoc.dma (s i))) :
    iprop(pers m K c ∗ bigSep Finset.univ fun i : I => (atPos ER ((c : Thread nD τ), SemLoc.dma (s i)) r ∅ 0 : sProp 𝕄))
      ⊢ (iprop(|={Set.univ}=> bigSep Finset.univ fun i : I => (semVal ((c : Thread nD τ), SemLoc.dma (s i)) 0 : sProp 𝕄)) : sProp 𝕄) :=
  (bigSep_with_persistent (S := Finset.univ) (R := pers m K c)
      (Φ := fun i : I => (atPos ER ((c : Thread nD τ), SemLoc.dma (s i)) r ∅ 0 : sProp 𝕄))
      (Ψ := fun i : I => (iprop(|={Set.univ}=> semVal ((c : Thread nD τ), SemLoc.dma (s i)) 0) : sProp 𝕄))
      fun i _ => close_cell m K c (s i) r (hr i)).trans
    (bigSep_fupd Finset.univ fun i : I => (semVal ((c : Thread nD τ), SemLoc.dma (s i)) 0 : sProp 𝕄))

/-! ## The invariant after the last wait, piece by piece -/

/-- Every chunk is over: its rows of x are back, both landings read as the narrowed chunk, its send and receive
    cells are past their one round. -/
theorem chunks_final :
    bigSep Finset.univ (chunkSt m c 20)
      ⊢ (iprop((bigSep Finset.univ fun k : Fin 16 => xPts m c k)
        ∗ (bigSep Finset.univ fun k : Fin 16 => owns (c : Thread nD τ) (oCh c k) fullShare (cval m c k))
        ∗ (bigSep Finset.univ fun k : Fin 16 => owns (c : Thread nD τ) (oCh (pr c) k) fullShare (cval m (pr c) k))
        ∗ (bigSep Finset.univ fun k : Fin 16 => atPos ER (sendCell c k) 1 ∅ 0)
        ∗ (bigSep Finset.univ fun k : Fin 16 => atPos ER (recvCell c k) 1 ∅ 0)) : sProp 𝕄) := by
  have e : bigSep Finset.univ (chunkSt m c 20) = bigSep Finset.univ fun k : Fin 16 =>
      (iprop(xPts m c k ∗ owns (c : Thread nD τ) (oCh c k) fullShare (cval m c k)
        ∗ owns (c : Thread nD τ) (oCh (pr c) k) fullShare (cval m (pr c) k)
        ∗ atPos ER (sendCell c k) 1 ∅ 0 ∗ atPos ER (recvCell c k) 1 ∅ 0) : sProp 𝕄) :=
    bigSep_congr fun k _ => st_done m c 20 k (by have := k.isLt; omega)
  rw [e, bigSep_sep', bigSep_sep', bigSep_sep', bigSep_sep']
  all_goals exact .rfl

/-- An f32 ticket is its slot and its load cell's position (that the round is reached is dropped). -/
theorem FFor_out (i : ℕ) (j : Fin 2) (hj : f2n i = j) (r : ℕ) (hr : i / 2 = r) :
    FFor c i ⊢ (iprop(fAny c j ∗ atPos ER (loadCell c j) r ∅ 0) : sProp 𝕄) := by
  subst hj; subst hr
  unfold FFor
  iintro ⟨Hf, Ha, -⟩
  isplitl [Hf]; · iexact Hf
  iexact Ha

/-- A bf16 ticket is its slot and its store cell's position. -/
theorem BFor_out (i : ℕ) (j : Fin 4) (hj : b4n i = j) (r : ℕ) (hr : i / 4 = r) :
    BFor c i ⊢ (iprop(bAny c j fullShare ∗ atPos ER (storeCell c j) r ∅ 0) : sProp 𝕄) := by
  subst hj; subst hr
  unfold BFor
  iintro ⟨Hb, Ha, -⟩
  isplitl [Hb]; · iexact Hb
  iexact Ha

/-- Both f32 slots are free and both load cells are past their eight rounds. -/
theorem fpart_final :
    fpart c 20 ⊢ (iprop((fAny c 0 ∗ fAny c 1)
      ∗ bigSep Finset.univ fun j : Fin 2 => (atPos ER (loadCell c j) 8 ∅ 0 : sProp 𝕄)) : sProp 𝕄) := by
  unfold fpart
  rw [if_neg (by decide), bigSep_univ_two]
  iintro ⟨H0, H1⟩
  ihave H0' := (FFor_out (F := F) c 16 0 rfl 8 rfl) $$ H0
  ihave H1' := (FFor_out (F := F) c 17 1 rfl 8 rfl) $$ H1
  icases H0' with ⟨Hf0, Ha0⟩
  icases H1' with ⟨Hf1, Ha1⟩
  isplitl [Hf0 Hf1]
  · isplitl [Hf0]; · iexact Hf0
    iexact Hf1
  isplitl [Ha0]; · iexact Ha0
  iexact Ha1

/-- The tickets held at the end are those of chunks 16 to 19: all four bf16 slots are free and all four store cells
    are past their four rounds. -/
theorem bpart_final :
    bpart c 20 ⊢ (iprop((bAny c 0 fullShare ∗ bAny c 1 fullShare ∗ bAny c 2 fullShare ∗ bAny c 3 fullShare)
      ∗ bigSep Finset.univ fun j : Fin 4 => (atPos ER (storeCell c j) 4 ∅ 0 : sProp 𝕄)) : sProp 𝕄) := by
  have e : bpart c 20 = (iprop(BFor c 16 ∗ BFor c 17 ∗ BFor c 18 ∗ BFor c 19) : sProp 𝕄) := by
    unfold bpart
    rw [show ((Finset.range 20).filter fun i => (20 ≤ i ∧ i < 4) ∨ (16 ≤ i ∧ i < 20)) = {16, 17, 18, 19} from by
      ext i; simp only [Finset.mem_filter, Finset.mem_range, Finset.mem_insert, Finset.mem_singleton]; omega]
    rw [bigSep_insert (by decide), bigSep_insert (by decide), bigSep_insert (by decide), bigSep_singleton]
    rfl
  rw [e, fin4_chain]
  iintro ⟨H0, H1, H2, H3⟩
  ihave H0' := (BFor_out (F := F) c 16 0 rfl 4 rfl) $$ H0
  ihave H1' := (BFor_out (F := F) c 17 1 rfl 4 rfl) $$ H1
  ihave H2' := (BFor_out (F := F) c 18 2 rfl 4 rfl) $$ H2
  ihave H3' := (BFor_out (F := F) c 19 3 rfl 4 rfl) $$ H3
  icases H0' with ⟨Hb0, Ha0⟩
  icases H1' with ⟨Hb1, Ha1⟩
  icases H2' with ⟨Hb2, Ha2⟩
  icases H3' with ⟨Hb3, Ha3⟩
  isplitl [Hb0 Hb1 Hb2 Hb3]
  · isplitl [Hb0]; · iexact Hb0
    isplitl [Hb1]; · iexact Hb1
    isplitl [Hb2]; · iexact Hb2
    iexact Hb3
  isplitl [Ha0]; · iexact Ha0
  isplitl [Ha1]; · iexact Ha1
  isplitl [Ha2]; · iexact Ha2
  iexact Ha3

/-! ## The end of the body -/

theorem inv_final :
    iprop(pers m K c ∗ Inv m c 20) ⊢ (iprop(|={Set.univ}=> iprop(Φ₁ m c ∗ ∃ W, owes (c : Thread nD τ) 0 W)) : sProp 𝕄) := by
  unfold Inv Φ₁ scr
  rw [Oup_final c]
  iintro ⟨#HP, ⟨%W, HO⟩, HC, HF, HB, -⟩
  ihave HC' := (chunks_final m c) $$ HC
  icases HC' with ⟨Hx, Ho1, Ho2, Hsend, Hrecv⟩
  ihave HF' := (fpart_final (F := F) c) $$ HF
  icases HF' with ⟨Hf, Hload⟩
  ihave HB' := (bpart_final (F := F) c) $$ HB
  icases HB' with ⟨Hb, Hstore⟩
  -- the 38 cells close, family by family
  imod (close_all m K c loadS 8 fun j => (rounds_load j).symm) $$ [Hload] with Hl
  · isplitr; · iexact HP
    iexact Hload
  imod (close_all m K c storeS 4 fun j => (rounds_store j).symm) $$ [Hstore] with Hs
  · isplitr; · iexact HP
    iexact Hstore
  imod (close_all m K c sendS 1 fun k => (rounds_send k).symm) $$ [Hsend] with Hsn
  · isplitr; · iexact HP
    iexact Hsend
  imod (close_all m K c recvS 1 fun k => (rounds_recv k).symm) $$ [Hrecv] with Hrc
  · isplitr; · iexact HP
    iexact Hrecv
  imodintro
  isplitr [HO]
  · -- x is its sixteen chunks again
    isplitl [Hx]
    · iapply (x_split m c).mpr; iexact Hx
    -- the 32 chunks of the result are one array reading as the narrowed chunks
    isplitl [Ho1 Ho2]
    · iapply (o_join m c)
      isplitl [Ho1]; · iexact Ho1
      iexact Ho2
    -- the scratch buffers are whole
    isplitl [Hf Hb]
    · isplitl [Hf]
      · iapply (f_split (F := F) c).mpr; iexact Hf
      · iapply (b_split (F := F) c).mpr; iexact Hb
    -- every semaphore of the kernel's own is at zero
    iapply (sems0_join (F := F) c)
    isplitl [Hl]; · iexact Hl
    isplitl [Hs]; · iexact Hs
    isplitl [Hsn]; · iexact Hsn
    iexact Hrc
  · iexists W; iexact HO

end Cert.KernelIdeal.AG

end
-- ==== Proof.AG.Body.lean ====
/-
  One device's body, from what the launch hands it to what it leaves, in program order.

  The handshake: the device signals the partner's barrier cell, handing over the rows of the PARTNER's half in its own
  result (the partner's remote copies will fill them) and that its receive cells are at round 0; it waits on its own
  barrier cell for the partner's signal, which brings the rows of its own half in the partner's result. Then the first
  load is started, and the invariant holds with no chunk done. Sixteen iterations and the last four chunks' waits
  follow, each a step of the invariant; at the end the cells are closed and the buffers made whole.
-/
import proofs.«900687_g7700000000000688_dist_ag_v7x_xyz2x4x4_x_m32768_n1024_bf16_1_alg».proof.Proof.AG.Final

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-- A chunk before anything is issued: its load's holdings and its copies' holdings, from what the launch dealt (the
    tokens, the positions and the receive credit), its rows of `x`, its own result rows and the partner's. -/
theorem fresh_intro (k : Fin 16) :
    iprop(iprop(chunkToks c k ∗ chunkPos c k) ∗ xPts m c k ∗ oAny c c k ∗ iprop(oAny (pr c) c k ∗ reached ER (recvCell (pr c) k) 0))
      ⊢ (iprop(LFresh m c k ∗ SFresh c k) : sProp 𝕄) := by
  unfold chunkToks LFresh SFresh
  iintro ⟨⟨⟨Htl, Htt, Hts, Htr⟩, Hpos⟩, Hx, Hoo, ⟨Hop, -⟩⟩
  isplitl [Hx Htl]; · isplitl [Hx] <;> iassumption
  isplitl [Htt]; · iexact Htt
  isplitl [Hts]; · iexact Hts
  isplitl [Htr]; · iexact Htr
  isplitl [Hpos]; · iexact Hpos
  isplitl [Hop] <;> iassumption

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! One chunk's step applied to the invariant `HI` under the persistent part `HP`: the step lemma at the chunk's
    literals, then its two premises, then the invariant after the chunk under the same name. -/
set_option hygiene false in
local macro "chunk_a " n:num n1:num dv:term:max py:term:max : tactic => `(tactic| (
  iapply (stepA m K c $n (by decide) ($n : Fin 16) ($n1 : Fin 16) rfl rfl _ $dv $py (fun _ => rfl))
  isplitr
  · iexact HP
  isplitl [HI]
  · iexact HI
  iintro HI))
set_option hygiene false in
local macro "chunk_b " n:num n1:num n4:num dv:term:max py:term:max : tactic => `(tactic| (
  iapply (stepB m K c $n (by decide) (by decide) ($n : Fin 16) ($n1 : Fin 16) ($n4 : Fin 16) rfl rfl rfl _ $dv $py (fun _ => rfl))
  isplitr
  · iexact HP
  isplitl [HI]
  · iexact HI
  iintro HI))
set_option hygiene false in
local macro "chunk_c " dv:term:max py:term:max : tactic => `(tactic| (
  iapply (stepC m K c (15 : Fin 16) (11 : Fin 16) rfl rfl _ $dv $py (fun _ => rfl))
  isplitr
  · iexact HP
  isplitl [HI]
  · iexact HI
  iintro HI))
set_option hygiene false in
local macro "chunk_f " n:num n4:num : tactic => `(tactic| (
  iapply (stepF m K c $n (by decide) (by decide) ($n4 : Fin 16) rfl)
  isplitr
  · iexact HP
  isplitl [HI]
  · iexact HI
  iintro HI))

set_option maxHeartbeats 4000000 in
set_option maxRecDepth 65536 in
/-- The body, from the launch's holdings to the invariant's end, one step per chunk. -/
theorem sound_body (W : Waits sig Unit) (Kt : PUnit → sProp 𝕄) :
    iprop(pers m K c ∗ lin c ∗ bufs m c ∗ scr c ∗ owes (c : Thread nD τ) (O₀ c) W
        ∗ (iprop(Φ₁ m c ∗ ∃ W', owes (c : Thread nD τ) 0 W') -∗ Kt ⟨⟩))
      ⊢ WP c (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [semSignalWord, semWaitWord, Prog.lift, Prog.bind_op, Prog.bind_ret, Prog.pure_eq_ret, wp_deviceId]
  unfold lin bufs scr
  iintro ⟨#HP, ⟨HatB, HcB, HtB, HatL, HatS, Hch⟩, ⟨Hx, Ho⟩, ⟨Hf, Hb⟩, HO, HK⟩
  -- the buffers along their chunks and slots
  ihave Hxs := (x_split m c).1 $$ Hx
  ihave Hos := (o_split c (oblk m c)) $$ Ho
  icases Hos with ⟨Hoo, Hop⟩
  ihave Hfs := (f_split c).1 $$ Hf
  icases Hfs with ⟨Hf0, Hf1⟩
  ihave Hbs := (b_split c).1 $$ Hb
  icases Hbs with ⟨Hb0, Hb1, Hb2, Hb3⟩
  ihave HatL' := (Entails.of_eq (bigSep_univ_two fun j : Fin 2 => (atPos ER (loadCell c j) 0 ∅ 0 : sProp 𝕄))) $$ HatL
  icases HatL' with ⟨HatL0, HatL1⟩
  ihave HatS' := (Entails.of_eq (bigSep_fin4 fun j : Fin 4 => (atPos ER (storeCell c j) 0 ∅ 0 : sProp 𝕄))) $$ HatS
  icases HatS' with ⟨HatS0, HatS1, HatS2, HatS3⟩
  -- the signal to the partner's barrier cell: its rows of the partner's half, and that its receive cells are at round 0
  simp only [dev1_eq c]
  unfold O₀
  iapply (Rounds.wp_signal 𝒱₀ ER (sched m) (c : Thread nD τ) none (dst := (pr c : Thread nD τ)) (κ := K (pr c, ix (.reg barS)))
      (d := ()) (by rw [duties_bar]; exact Finset.mem_singleton_self _) ((amount_bar m (pr c) () 0).trans (by decide)) () (Oup c 16) rfl)
    $$ [HO HtB Hop]
  · isplitr; · iapply (iv_peer' m K c (.reg barS)); iexact HP
    isplitl [HO]; · iexact HO
    isplitl [HtB]; · iexact HtB
    isplitl [Hop]
    · rw [payload_bar]; unfold barPay; rw [pr_pr]
      iapply (Entails.of_eq (bigSep_sep' Finset.univ (fun k : Fin 16 => oAny c (pr c) k) (fun k : Fin 16 => reached ER (recvCell c k) 0)).symm)
      isplitl [Hop]; · iexact Hop
      iapply (BI.bigSep_of_persistent Finset.univ (pers m K c) |>.trans (bigSep_mono fun k _ => reached_own m K c (.dma (recvS k))))
      iexact HP
    · iapply (reached_peer m K c (.reg barS)); iexact HP
  iintro HO
  -- the wait on its own barrier cell: the rows of its own half in the partner's result come with the partner's signal
  iapply (Rounds.wp_wait_rest_token 𝒱₀ ER (sched m) (c : Thread nD τ) none (κ := K (c, ix (.reg barS)))
      (wpE_semWait_eq 𝒱₀ (c : Thread nD τ) none Set.univ) (Set.mem_univ _) () (O := Oup c 16) (W := W) (R := 0) (m := 0) (T := ∅)
      (by rw [expect_bar]; rfl)) $$ [HcB HO HatB]
  · isplitr; · iapply (iv_own' m K c (.reg barS)); iexact HP
    isplitl [HcB]; · iexact HcB
    isplitl [HO]; · iexact HO
    isplitr; · iapply (mayWait_low c (.reg barS) (le_refl 1) 16 (le_refl 16)); iapply (lev_of m K c); iexact HP
    iexact HatB
  iintro ⟨HO, HatB, -, Hpay⟩
  ihave Hp := (Entails.of_eq ((rest_of m (barCell c) 0 (duties_bar m c)).trans (payload_bar m c ()))) $$ Hpay
  unfold barPay
  -- every chunk's holdings before anything is issued
  ihave Hall := (show iprop((bigSep Finset.univ fun k : Fin 16 => iprop(chunkToks c k ∗ chunkPos c k)) ∗ (bigSep Finset.univ fun k : Fin 16 => xPts m c k)
        ∗ (bigSep Finset.univ fun k : Fin 16 => oAny c c k) ∗ (bigSep Finset.univ fun k : Fin 16 => iprop(oAny (pr c) c k ∗ reached ER (recvCell (pr c) k) 0)))
      ⊢ (bigSep Finset.univ fun k : Fin 16 => iprop(LFresh m c k ∗ SFresh c k) : sProp 𝕄) from by
        rw [← bigSep_sep', ← bigSep_sep', ← bigSep_sep']
        exact bigSep_mono fun k _ => fresh_intro m c k) $$ [Hch Hxs Hoo Hp]
  · isplitl [Hch]; · iexact Hch
    isplitl [Hxs]; · iexact Hxs
    isplitl [Hoo] <;> iassumption
  ihave Hall' := (Entails.of_eq (focus1 (0 : Fin 16) fun k : Fin 16 => iprop(LFresh m c k ∗ SFresh c k))) $$ Hall
  icases Hall' with ⟨⟨Hl0, Hs0⟩, Hrest⟩
  -- the first load
  iapply (frag_loadStart m K c (0 : Fin 16))
  isplitr; · iexact HP
  isplitl [Hl0]; · iexact Hl0
  isplitl [Hf0 HatL0]
  · unfold FFor
    isplitl [Hf0]; · iexact Hf0
    isplitl [HatL0]; · iexact HatL0
    iapply (reached_own m K c (.dma (loadS 0))); iexact HP
  iintro Hlf0
  -- the invariant with no chunk done
  ihave HI := (show iprop(owes (c : Thread nD τ) (Oup c 16) (insert (SemLoc.reg barS, ()) W)
        ∗ iprop(LFly c (0 : Fin 16) ∗ SFresh c (0 : Fin 16)) ∗ (bigSep (Finset.univ.erase (0 : Fin 16)) fun k : Fin 16 => iprop(LFresh m c k ∗ SFresh c k))
        ∗ FFor c 1 ∗ iprop(BFor c 0 ∗ BFor c 1 ∗ BFor c 2 ∗ BFor c 3) ∗ atPos ER (barCell c) 1 ∅ 0)
      ⊢ (Inv m c 0 : sProp 𝕄) from by
        unfold Inv
        iintro ⟨HO, H0, Hrest, HF, ⟨B0, B1, B2, B3⟩, Hbar⟩
        isplitl [HO]; · iexists _; iexact HO
        isplitl [H0 Hrest]
        · iapply (Entails.of_eq (focus1 (0 : Fin 16) (chunkSt m c 0)).symm)
          rw [st_cur m c 0 (0 : Fin 16) rfl]
          isplitl [H0]; · iexact H0
          iapply (Entails.of_eq (bigSep_congr fun k hk => by
            have hk0 : k.val ≠ 0 := fun h => (Finset.mem_erase.mp hk).1 (Fin.ext h)
            unfold chunkSt; rw [if_pos (by omega), if_pos (by omega)]).symm)
          iexact Hrest
        isplitl [HF]; · unfold fpart; rw [if_pos (by decide : 0 < 16)]; iexact HF
        isplitl [B0 B1 B2 B3]
        · rw [bpart_take c 0 (by decide), bpart_take c 1 (by decide), bpart_take c 2 (by decide), bpart_take c 3 (by decide), bpart_mid c 4 (by decide) (by decide)]
          isplitl [B0]; · iexact B0
          isplitl [B1]; · iexact B1
          isplitl [B2]; · iexact B2
          isplitl [B3]; · iexact B3
          iempintro
        iexact Hbar) $$ [HO Hlf0 Hs0 Hrest Hf1 HatL1 Hb0 Hb1 Hb2 Hb3 HatS0 HatS1 HatS2 HatS3 HatB]
  · isplitl [HO]; · iexact HO
    isplitl [Hlf0 Hs0]; · isplitl [Hlf0] <;> iassumption
    isplitl [Hrest]; · iexact Hrest
    isplitl [Hf1 HatL1]
    · unfold FFor
      isplitl [Hf1]; · iexact Hf1
      isplitl [HatL1]; · iexact HatL1
      iapply (reached_own m K c (.dma (loadS 1))); iexact HP
    isplitl [Hb0 Hb1 Hb2 Hb3 HatS0 HatS1 HatS2 HatS3]
    · unfold BFor
      isplitl [Hb0 HatS0]
      · isplitl [Hb0]; · iexact Hb0
        isplitl [HatS0]; · iexact HatS0
        iapply (reached_own m K c (.dma (storeS 0))); iexact HP
      isplitl [Hb1 HatS1]
      · isplitl [Hb1]; · iexact Hb1
        isplitl [HatS1]; · iexact HatS1
        iapply (reached_own m K c (.dma (storeS 1))); iexact HP
      isplitl [Hb2 HatS2]
      · isplitl [Hb2]; · iexact Hb2
        isplitl [HatS2]; · iexact HatS2
        iapply (reached_own m K c (.dma (storeS 2))); iexact HP
      · isplitl [Hb3]; · iexact Hb3
        isplitl [HatS3]; · iexact HatS3
        iapply (reached_own m K c (.dma (storeS 3))); iexact HP
    iexact HatB
  -- the sixteen chunks, in order (chunk, next chunk, [the chunk whose copies end], the remote copy's device chain, the narrowing)
  chunk_a 0 1 (dev2_eq c) k0_pay1
  chunk_a 1 2 (dev3_eq c) k0_pay2
  chunk_a 2 3 (dev4_eq c) (fun v => k0_pay4 (k0_pay3 v))
  chunk_a 3 4 (dev5_eq c) k0_pay5
  chunk_b 4 5 0 (dev6_eq c) k0_pay6
  chunk_b 5 6 1 (dev7_eq c) k0_pay7
  chunk_b 6 7 2 (dev8_eq c) k0_pay8
  chunk_b 7 8 3 (dev9_eq c) (fun v => k0_pay10 (k0_pay9 v))
  chunk_b 8 9 4 (dev10_eq c) k0_pay11
  chunk_b 9 10 5 (dev11_eq c) k0_pay12
  chunk_b 10 11 6 (dev12_eq c) k0_pay13
  chunk_b 11 12 7 (dev13_eq c) k0_pay14
  chunk_b 12 13 8 (dev14_eq c) k0_pay15
  chunk_b 13 14 9 (dev15_eq c) (fun v => k0_pay17 (k0_pay16 v))
  chunk_b 14 15 10 (dev16_eq c) k0_pay18
  chunk_c (dev17_eq c) k0_pay19
  -- the last four chunks' copies end
  chunk_f 16 12
  chunk_f 17 13
  chunk_f 18 14
  chunk_f 19 15
  -- the end: the cells closed, the buffers whole
  iapply (Entails.of_eq (wp_ret _ _ _ PUnit.unit Kt).symm)
  imod (inv_final m K c) $$ [HI] with Hfin
  · isplitr; · iexact HP
    iexact HI
  imodintro
  iapply HK
  iexact Hfin

/-- The library's body obligation on device `c`. -/
theorem body_obligation (c : Dev nD) : BodyObligation (dats (F := F) m 0 c) (defs₀ (F := F)) 𝒱₀ () Set.univ := fun t => by
  rw [fin_N t]
  have e0 (Φ : Fin cfg0.W → sProp 𝕄) : bigSep Finset.univ Φ = (iprop(emp) : sProp 𝕄) := rfl
  rw [e0, e0]
  show iprop(Φ₀ m c ∗ (dats m 0 c).owesAt () t₀.castSucc ∗ emp)
    ⊢ WP c (cc0_body (Memref.whole main_arg0) (Memref.isWhole_whole _) (Memref.whole main_v1) (Memref.isWhole_whole _)
        (Memref.whole cc0_scratch0) (Memref.isWhole_whole _) (Memref.whole cc0_scratch1) (Memref.isWhole_whole _)
        cc0_scratch2 cc0_scratch3 cc0_scratch4 cc0_scratch5) (fun _ => iprop(Φ₁ m c ∗ (dats m 0 c).owesAt () t₀.succ ∗ emp))
  unfold Φ₀ start Dat.owesAt Pipeline.owesWithin
  rw [show (dats m 0 c).owed t₀.castSucc = O₀ c from rfl, show (dats m 0 c).owed t₀.succ = 0 from rfl]
  iintro ⟨⟨⟨⟨%K, HP, Hlin⟩, Hbufs⟩, Hscr⟩, ⟨%W, %hW, HO⟩, -⟩
  iapply (sound_body m K c W _)
  isplitl [HP]; · iexact HP
  isplitl [Hlin]; · iexact Hlin
  isplitl [Hbufs]; · iexact Hbufs
  isplitl [Hscr]; · iexact Hscr
  isplitl [HO]; · iexact HO
  iintro ⟨HΦ, ⟨%W', HO⟩⟩
  isplitl [HΦ]; · iexact HΦ
  isplitl [HO]
  · iexists W'
    isplitr; · ipureintro; exact fun _ _ => Or.inl trivial
    iexact HO
  iempintro

end Cert.KernelIdeal.AG

end
-- ==== Proof.AG.Launch.lean ====
/-
  The launch: from every device's body to the run of the whole mesh.

  The ghost state is dealt in three steps. The launch element funds every cell of every device at round 0 — its round
  state, its position, the mark that round 0 is reached — and mints the token of every duty of the schedule: per
  device one for its barrier cell, and per chunk `k` the load's (cell `k mod 2`, round `k / 2`), the local store's
  (cell `k mod 4`, round `k / 4`), the send cell's and the receive cell's. Each cell's round state and its counter at
  zero then make its invariant. Last the tokens travel to the devices that pay the duties: a barrier token and the
  sixteen receive tokens go to the partner (the pairing is a permutation of the mesh, its own inverse), the rest stay.
  The credit a device waits with is what the mesh owes its cells: the partner's unit on its barrier cell, the
  partner's sixteen chunks on its receive cells.
-/
import proofs.«900687_g7700000000000688_dist_ag_v7x_xyz2x4x4_x_m32768_n1024_bf16_1_alg».proof.Proof.AG.Body

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The kernel's own semaphores and the cells' numbering -/

/-- The kernel's own (scoped) semaphores, as the launch theorem indexes them: the whole DMA pool. -/
abbrev osem : DmaSem sig → SemLoc sig := SemLoc.dma

theorem dma_scoped : ∀ i : DmaSem sig, (SemLoc.dma i : SemLoc sig).isScoped .tc = true := by decide

theorem ownSemFacts : Pipeline.OwnSemFacts cfg0.spec osem :=
  ⟨dma_scoped, fun a b h => SemLoc.dma.inj h, fun _ w _ => w.elim0⟩

theorem share_eq (c : Dev nD) (w : Fin cfg0.W) : (dats m 0 c).share w = fullShare := w.elim0

theorem ix_csem (i : Fin 39) : ix (csem i) = i := by
  unfold csem
  split
  · next h => exact Fin.ext (by show (0 : ℕ) = i.val; omega)
  · next h => exact Fin.ext (by show i.val - 1 + 1 = i.val; omega)

/-- The numbering is a bijection between a device's semaphores and `Fin 39`. -/
def cellEquiv : SemLoc sig ≃ Fin 39 := ⟨ix, csem, csem_ix, ix_csem⟩

theorem kcell_injective : Function.Injective (kcell : Dev nD × Fin 39 → GSem nD τ sig) := by
  rintro ⟨c, i⟩ ⟨c', i'⟩ h
  have h1 : c = c' := congrArg (fun g : GSem nD τ sig => g.1.1) h
  subst h1
  have h2 : csem i = csem i' := congrArg Prod.snd h
  have h3 : i = i' := (ix_csem i).symm.trans ((congrArg ix h2).trans (ix_csem i'))
  subst h3; rfl

/-- Every cell of every device. -/
def agCells : Finset (GSem nD τ sig) := Finset.univ.map ⟨kcell, kcell_injective⟩

/-- A family over a device's semaphores, read through the numbering. -/
theorem bigSep_cells (Φ : SemLoc sig → sProp 𝕄) :
    (bigSep Finset.univ fun i : Fin 39 => Φ (csem i)) = bigSep Finset.univ Φ := by
  rw [bigSep_univ_equiv cellEquiv (fun i : Fin 39 => Φ (csem i))]
  exact bigSep_congr fun s _ => by show Φ (csem (ix s)) = Φ s; rw [csem_ix]

/-! ## The duty tokens -/

/-- A device's duties: the barrier's, and per chunk the receive's, the load's, the local store's and the send's. -/
abbrev TokIx : Type := Unit ⊕ (Fin 16 × Fin 4)

/-- The cell and the round of a duty. -/
def tokSem : TokIx → SemLoc sig × ℕ
  | .inl _ => (.reg barS, 0)
  | .inr (k, j) => match j with
    | 0 => (.dma (recvS k), 0)
    | 1 => (.dma (loadS (f2 k)), k.val / 2)
    | 2 => (.dma (storeS (b4 k)), k.val / 4)
    | 3 => (.dma (sendS k), 0)

/-- The same in numbers: the cell's place among the 39, and the round. -/
def tokNum : TokIx → ℕ × ℕ
  | .inl _ => (0, 0)
  | .inr (k, j) => match j with
    | 0 => (22 + k.val + 1, 0)
    | 1 => (k.val % 2 + 1, k.val / 2)
    | 2 => (2 + k.val % 4 + 1, k.val / 4)
    | 3 => (6 + k.val + 1, 0)

set_option maxRecDepth 16384 in
theorem tokNum_injective : Function.Injective tokNum := by decide

theorem tokSem_num (x : TokIx) : ((ix (tokSem x).1).val, (tokSem x).2) = tokNum x := by
  rcases x with u | ⟨k, j⟩
  · rfl
  · fin_cases j
    · show ((recvS k).val + 1, 0) = (22 + k.val + 1, 0); rw [recvS_val]
    · show ((loadS (f2 k)).val + 1, k.val / 2) = (k.val % 2 + 1, k.val / 2); rw [loadS_val]; rfl
    · show ((storeS (b4 k)).val + 1, k.val / 4) = (2 + k.val % 4 + 1, k.val / 4); rw [storeS_val]; rfl
    · show ((sendS k).val + 1, 0) = (6 + k.val + 1, 0); rw [sendS_val]

abbrev tokOf (cx : Dev nD × TokIx) : GSem nD τ sig × ℕ × Unit :=
  (((cx.1 : Thread nD τ), (tokSem cx.2).1), (tokSem cx.2).2, ())

theorem tokOf_injective : Function.Injective (tokOf : Dev nD × TokIx → GSem nD τ sig × ℕ × Unit) := by
  rintro ⟨c, x⟩ ⟨c', y⟩ h
  have h1 : c = c' := congrArg (fun t : GSem nD τ sig × ℕ × Unit => t.1.1.1) h
  subst h1
  have h2 : (tokSem x).1 = (tokSem y).1 := congrArg (fun t : GSem nD τ sig × ℕ × Unit => t.1.2) h
  have h3 : (tokSem x).2 = (tokSem y).2 := congrArg (fun t : GSem nD τ sig × ℕ × Unit => t.2.1) h
  have h4 : x = y := tokNum_injective (by rw [← tokSem_num x, ← tokSem_num y, h2, h3])
  subst h4; rfl

/-- Every duty token of the schedule. -/
def agToks : Finset (GSem nD τ sig × ℕ × Unit) := Finset.univ.map ⟨tokOf, tokOf_injective⟩

/-- One duty's token. -/
def tokP (c : Dev nD) (b : TokIx) : sProp 𝕄 := dutyTok ER ((c : Thread nD τ), (tokSem b).1) (tokSem b).2 ()

/-- Chunk `k`'s tokens on the sender's own cells: the load's, the local store's, the send cell's. -/
def own3 (c : Dev nD) (k : Fin 16) : sProp 𝕄 :=
  iprop(dutyTok ER (loadCell c (f2 k)) (k.val / 2) () ∗ dutyTok ER (storeCell c (b4 k)) (k.val / 4) () ∗ dutyTok ER (sendCell c k) 0 ())

/-- The tokens of device `c`'s own cells. -/
def toks (c : Dev nD) : sProp 𝕄 :=
  iprop(dutyTok ER (barCell c) 0 () ∗ bigSep Finset.univ fun k : Fin 16 => iprop(dutyTok ER (recvCell c k) 0 () ∗ own3 c k))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem toks_eq :
    bigSep agToks (fun x => (dutyTok ER x.1 x.2.1 x.2.2 : sProp 𝕄)) = bigSep Finset.univ fun c : Dev nD => (toks c : sProp 𝕄) := by
  unfold agToks; rw [bigSep_map, bigSep_univ_prod]
  refine bigSep_congr fun c _ => ?_
  show bigSep Finset.univ (tokP (F := F) c) = toks c
  rw [bigSep_univ_sum, bigSep_univ_of_subsingleton (), bigSep_univ_prod]
  show iprop(tokP c (Sum.inl ()) ∗ bigSep Finset.univ fun k : Fin 16 => bigSep Finset.univ fun j : Fin 4 => tokP c (Sum.inr (k, j))) = _
  rw [bigSep_congr (s := Finset.univ) (fun (k : Fin 16) _ => bigSep_four (fun j : Fin 4 => tokP (F := F) c (Sum.inr (k, j))))]
  rfl

/-! ## The launch element and what it funds -/

def u₀ : UU :=
  (initOf (Pipeline.cells cfgs cellOf_inj) (Pipeline.launchToks cfgs cellOf_inj), initOf agCells agToks)

/-- What the launch element deals device `c` (the theorem's `G`): its cells' round states, positions and
    reached-marks, and the tokens of its own cells' duties. -/
def G (c : Dev nD) : sProp 𝕄 :=
  iprop((bigSep Finset.univ fun i : Fin 39 => roundState ER (sched m) (kcell (c, i)) 0)
    ∗ (bigSep Finset.univ fun i : Fin 39 => iprop(atPos ER (kcell (c, i)) 0 ∅ 0 ∗ reached ER (kcell (c, i)) 0)) ∗ toks c)

theorem fund_ag : BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun i : Fin 39 => Φ (kcell (c, i)) := by
    unfold agCells; rw [bigSep_map, bigSep_univ_prod]; rfl
  iintro HX
  imod (Rounds.fund ER (sched m) agCells agToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The counters at zero, cell by cell; the invariants -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's semaphores: the barrier semaphore's member and the DMA pool's. -/
theorem sems_all (Φ : SemLoc sig → sProp 𝕄) :
    bigSep Finset.univ Φ = iprop(Φ (.reg barS) ∗ bigSep Finset.univ fun i : DmaSem sig => Φ (.dma i)) := by
  haveI : Subsingleton (Sem sig) := (inferInstance : Subsingleton (Fin 1))
  rw [bigSep_univ_equiv (SemLoc.equivSum sig).symm Φ, bigSep_univ_sum, bigSep_univ_of_subsingleton barS]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 39 => semVal (kcell (c, i)) 0 : sProp 𝕄) := by
  rw [unscopedSems0_eq]
  unfold Pipeline.ownSems0
  refine BIBase.Entails.trans ?_ (Entails.of_eq (bigSep_cells (F := F) (fun s => semVal ((c : Thread nD τ), s) 0)).symm)
  rw [sems_all (fun s => (semVal ((c : Thread nD τ), s) 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 39 => iprop(∃ κ : ℕ, cellInv ER (sched m) κ (kcell (c, i))))
          ∗ (bigSep Finset.univ fun i : Fin 39 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 39 => semVal (kcell (c, i)) 0) ∗ bigSep Finset.univ fun i : Fin 39 => roundState ER (sched m) (kcell (c, i)) 0)
      ⊢ (|={Set.univ}=> bigSep Finset.univ fun i : Fin 39 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The positions, pool by pool -/

/-- The DMA pool as the kernel names it: the loads' semaphores, the stores', the sends', the receives'. -/
abbrev PoolIx : Type := Fin 2 ⊕ (Fin 4 ⊕ (Fin 16 ⊕ Fin 16))

def poolSem : PoolIx → DmaSem sig
  | .inl j => loadS j
  | .inr (.inl j) => storeS j
  | .inr (.inr (.inl k)) => sendS k
  | .inr (.inr (.inr k)) => recvS k

/-- Their places in the pool. -/
def poolNum : PoolIx → ℕ
  | .inl j => j.val
  | .inr (.inl j) => 2 + j.val
  | .inr (.inr (.inl k)) => 6 + k.val
  | .inr (.inr (.inr k)) => 22 + k.val

set_option maxRecDepth 16384 in
theorem poolNum_injective : Function.Injective poolNum := by decide

theorem poolSem_val (x : PoolIx) : (poolSem x).val = poolNum x := by
  rcases x with j | j | k | k
  · exact loadS_val j
  · exact storeS_val j
  · exact sendS_val k
  · exact recvS_val k

theorem poolSem_injective : Function.Injective poolSem := fun x y h =>
  poolNum_injective (by rw [← poolSem_val x, ← poolSem_val y, h])

/-- Of a family over a finite type, the members along an injection (the others let go). -/
theorem bigSep_along_inj {I J : Type} [Fintype I] [DecidableEq I] [Fintype J] (f : J ↪ I) (Φ : I → sProp 𝕄) :
    bigSep Finset.univ Φ ⊢ bigSep Finset.univ fun j => Φ (f j) :=
  (bigSep_subset (Finset.subset_univ (Finset.univ.map f))).trans (Entails.of_eq (bigSep_map f))

/-- A family over a device's 39 cells, by kind of cell. -/
theorem cells_split (Φ : SemLoc sig → sProp 𝕄) :
    (bigSep Finset.univ fun i : Fin 39 => Φ (csem i))
      ⊢ iprop(Φ (.reg barS) ∗ (bigSep Finset.univ fun j : Fin 2 => Φ (.dma (loadS j))) ∗ (bigSep Finset.univ fun j : Fin 4 => Φ (.dma (storeS j)))
          ∗ (bigSep Finset.univ fun k : Fin 16 => Φ (.dma (sendS k))) ∗ (bigSep Finset.univ fun k : Fin 16 => Φ (.dma (recvS k)))) := by
  rw [bigSep_cells Φ, sems_all Φ]
  refine sep_mono_right ?_
  refine (bigSep_along_inj (F := F) ⟨poolSem, poolSem_injective⟩ (fun i : DmaSem sig => Φ (.dma i))).trans (Entails.of_eq ?_)
  rw [bigSep_univ_sum, bigSep_univ_sum, bigSep_univ_sum]
  rfl

/-! ## The tokens travel; the devices' shares -/

/-- Every cell's invariant, under the names `K`, and that round 0 of every cell is reached. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

/-- The tokens device `c` pays with: the partner's barrier duty's, the partner's sixteen receive duties', and its own
    loads', stores' and sends'. -/
def payToks (c : Dev nD) : sProp 𝕄 :=
  iprop(dutyTok ER (barCell (pr c)) 0 () ∗ (bigSep Finset.univ fun k : Fin 16 => dutyTok ER (recvCell (pr c) k) 0 ())
    ∗ bigSep Finset.univ fun k : Fin 16 => own3 c k)

/-- Its positions, by kind of cell. -/
def posns (c : Dev nD) : sProp 𝕄 :=
  iprop(atPos ER (barCell c) 0 ∅ 0 ∗ (bigSep Finset.univ fun j : Fin 2 => atPos ER (loadCell c j) 0 ∅ 0)
    ∗ (bigSep Finset.univ fun j : Fin 4 => atPos ER (storeCell c j) 0 ∅ 0)
    ∗ (bigSep Finset.univ fun k : Fin 16 => atPos ER (sendCell c k) 0 ∅ 0)
    ∗ (bigSep Finset.univ fun k : Fin 16 => atPos ER (recvCell c k) 0 ∅ 0))

/-- What the global step makes of the launch element (`G'`). -/
def G' (c : Dev nD) : sProp 𝕄 := iprop(∃ K, iprop(records m K ∗ posns c ∗ payToks c))

/-- A barrier token and the receive tokens go to the partner. -/
theorem toks_around : (bigSep Finset.univ fun c : Dev nD => (toks c : sProp 𝕄)) ⊢ bigSep Finset.univ fun c : Dev nD => payToks c := by
  unfold toks payToks
  simp only [bigSep_sep']
  rw [bigSep_univ_equiv pair (fun c : Dev nD => (dutyTok ER (barCell c) 0 () : sProp 𝕄)),
    bigSep_univ_equiv pair (fun c : Dev nD => (bigSep Finset.univ fun k : Fin 16 => dutyTok ER (recvCell c k) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Dev nD × Fin 39 → ℕ) (c : Dev nD) :
    iprop(records m K ∗ ((bigSep Finset.univ fun i : Fin 39 => atPos ER (kcell (c, i)) 0 ∅ 0) ∗ payToks c)) ⊢ G' m c := by
  unfold G'
  iintro ⟨#HR, Hat, Htk⟩
  iexists K
  isplitr; · iexact HR
  isplitl [Hat]
  · unfold posns
    iapply (cells_split (F := F) (fun s => atPos ER ((c : Thread nD τ), s) 0 ∅ 0))
    iexact Hat
  · iexact Htk

theorem regroup :
    (bigSep Finset.univ fun c : Dev nD => iprop((bigSep Finset.univ fun i : Fin 39 => iprop(∃ κ : ℕ, cellInv ER (sched m) κ (kcell (c, i))))
          ∗ (bigSep Finset.univ fun i : Fin 39 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun i : Fin 39 => (atPos ER (kcell (c, i)) 0 ∅ 0 : sProp 𝕄)) (fun i => reached ER (kcell (c, i)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => share_intro m K c)
  isplitr
  · unfold records; isplitl; · iexact HI
    iexact HR
  · iapply (Entails.of_eq (bigSep_sep' Finset.univ (fun c : Dev nD => bigSep Finset.univ fun i : Fin 39 => (atPos ER (kcell (c, i)) 0 ∅ 0 : sProp 𝕄)) (payToks (F := F))).symm)
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the mesh owes device `c`'s cells: a unit on its barrier cell, a chunk on each receive cell. -/
def T₀ (c : Dev nD) : CellTallies nD τ sig Unit :=
  tallyAt (barCell c) () 1 + ∑ k : Fin 16, tallyAt (recvCell c k) () Nb

theorem Oup_sum (c : Dev nD) (j : ℕ) :
    Oup c j = ∑ i ∈ Finset.range j, (tallyAt (recvCell (pr c) (kOf (15 - i))) () Nb : CellTallies nD τ sig Unit) := by
  induction j with
  | zero => rw [Finset.sum_range_zero]; rfl
  | succ j ih => rw [Finset.sum_range_succ, ← ih]; rfl

/-- Chunk `15 - i` for chunk `i`: the order the schedule's dues are listed in, reversed. -/
def rev16 : Fin 16 ≃ Fin 16 := ⟨fun i => kOf (15 - i.val), fun i => kOf (15 - i.val), by decide, by decide⟩

/-- The sixteen chunks a device owes the partner's receive cells. -/
theorem Oup_16 (c : Dev nD) : Oup c 16 = ∑ k : Fin 16, (tallyAt (recvCell (pr c) k) () Nb : CellTallies nD τ sig Unit) := by
  rw [Oup_sum, ← Fin.sum_univ_eq_sum_range (fun i => (tallyAt (recvCell (pr c) (kOf (15 - i))) () Nb : CellTallies nD τ sig Unit)) 16]
  exact Fintype.sum_equiv rev16 _ _ (fun i => rfl)

/-- A device owes what the mesh owes its partner's cells. -/
theorem O₀_eq (d : Dev nD) : O₀ d = T₀ (pr d) := by
  unfold O₀ T₀; rw [Oup_16, add_comm]

theorem owed_sum : (∑ d : Dev nD, O₀ d) = ∑ d : Dev nD, T₀ d :=
  Fintype.sum_equiv pair _ _ (fun d => O₀_eq d)

theorem T₀_own (d : Dev nD) (g : GSem nD τ sig) (hg : T₀ d g ≠ 0) : g.1 = (d : Thread nD τ) := by
  by_contra hne
  refine hg ?_
  have hb : g ≠ barCell d := fun h => hne (by rw [h])
  have hr : ∀ k : Fin 16, g ≠ recvCell d k := fun k h => hne (by rw [h])
  unfold T₀
  rw [Pi.add_apply, Finset.sum_apply, tallyAt_ne_cell hb, Finset.sum_eq_zero (fun k _ => tallyAt_ne_cell (hr k) _ _), add_zero]

/-- The credit the launch deals device `c`: the unit to wait on its barrier cell with, a chunk per receive cell. -/
theorem creds (c : Dev nD) :
    (Pipeline.launchCred O₀ c : sProp 𝕄)
      ⊢ iprop(cred (tallyAt (barCell c) () 1) ∗ bigSep Finset.univ fun k : Fin 16 => cred (tallyAt (recvCell c k) () Nb)) := by
  rw [Pipeline.launchCred_of_sum O₀ T₀ owed_sum T₀_own c]
  unfold T₀
  exact (cred_add _ _).1.trans (sep_mono_right (Entails.of_eq (Pipeline.cred_finsetSum Finset.univ _)))

/-! ## The theorem's side conditions -/

/-- One device's row of a family over all cells. -/
theorem row {Φ : Dev nD × Fin 39 → sProp 𝕄} (c : Dev nD) : bigSep Finset.univ Φ ⊢ bigSep Finset.univ fun i : Fin 39 => Φ (c, i) := by
  rw [bigSep_univ_prod]
  exact bigSep_elim (Φ := fun a : Dev nD => bigSep Finset.univ fun i : Fin 39 => Φ (a, i)) (Finset.mem_univ c)

theorem pers_intro (K : Dev nD × Fin 39 → ℕ) (c : Dev nD) : iprop(records m K ∗ levAts L lv) ⊢ pers m K c := by
  unfold records pers
  iintro ⟨⟨#HI, #HR⟩, #Hl⟩
  isplitr; · iapply (row (F := F) (Φ := fun ck => cellInv ER (sched m) (K ck) (kcell ck)) c); iexact HI
  isplitr; · iapply (row (F := F) (Φ := fun ck => cellInv ER (sched m) (K ck) (kcell ck)) (pr c)); iexact HI
  isplitr; · iapply (row (F := F) (Φ := fun ck => reached ER (kcell ck) 0) c); iexact HR
  isplitr; · iapply (row (F := F) (Φ := fun ck => reached ER (kcell ck) 0) (pr c)); iexact HR
  iexact Hl

/-- Chunk by chunk: the tokens, the send and receive cells' positions, the receive credit. -/
theorem chunk_intro (c : Dev nD) :
    iprop((bigSep Finset.univ fun k : Fin 16 => dutyTok ER (recvCell (pr c) k) 0 ()) ∗ (bigSep Finset.univ fun k : Fin 16 => own3 c k)
        ∗ (bigSep Finset.univ fun k : Fin 16 => atPos ER (sendCell c k) 0 ∅ 0) ∗ (bigSep Finset.univ fun k : Fin 16 => atPos ER (recvCell c k) 0 ∅ 0)
        ∗ (bigSep Finset.univ fun k : Fin 16 => cred (tallyAt (recvCell c k) () Nb)))
      ⊢ (bigSep Finset.univ fun k : Fin 16 => iprop(chunkToks c k ∗ chunkPos c k) : sProp 𝕄) := by
  have hk (k : Fin 16) : iprop(dutyTok ER (recvCell (pr c) k) 0 () ∗ own3 c k ∗ atPos ER (sendCell c k) 0 ∅ 0 ∗ atPos ER (recvCell c k) 0 ∅ 0
        ∗ cred (tallyAt (recvCell c k) () Nb))
      ⊢ (iprop(chunkToks c k ∗ chunkPos c k) : sProp 𝕄) := by
    unfold chunkToks chunkPos own3
    iintro ⟨Hr, ⟨Hl, Hs, Hd⟩, Hps, Hpr, Hc⟩
    isplitl [Hr Hl Hs Hd]
    · isplitl [Hl]; · iexact Hl
      isplitl [Hs]; · iexact Hs
      isplitl [Hd]; · iexact Hd
      iexact Hr
    · isplitl [Hps]; · iexact Hps
      isplitl [Hpr]; · iexact Hpr
      iexact Hc
  rw [← bigSep_sep', ← bigSep_sep', ← bigSep_sep', ← bigSep_sep']
  exact bigSep_mono fun k _ => hk k

theorem lin_intro (c : Dev nD) :
    iprop(posns c ∗ payToks c ∗ cred (tallyAt (barCell c) () 1) ∗ bigSep Finset.univ fun k : Fin 16 => cred (tallyAt (recvCell c k) () Nb))
      ⊢ (lin c : sProp 𝕄) := by
  unfold posns payToks lin
  iintro ⟨⟨Hb, Hl, Hs, Hsd, Hrv⟩, ⟨Htb, Htr, Ht3⟩, Hcb, Hcr⟩
  isplitl [Hb]; · iexact Hb
  isplitl [Hcb]; · iexact Hcb
  isplitl [Htb]; · iexact Htb
  isplitl [Hl]; · iexact Hl
  isplitl [Hs]; · iexact Hs
  iapply (chunk_intro (F := F) c)
  isplitl [Htr]; · iexact Htr
  isplitl [Ht3]; · iexact Ht3
  isplitl [Hsd]; · iexact Hsd
  isplitl [Hrv]; · iexact Hrv
  iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, #Hlev, Hcr, -, ⟨%K, #HR, Hpos, Htk⟩⟩
  ihave Hc := (creds (F := F) c) $$ Hcr
  icases Hc with ⟨H1, HN⟩
  imodintro
  isplitl
  · unfold start bufs xblk oblk
    isplitr [Hx Ho]
    · iexists K
      isplitr
      · iapply (pers_intro m K c)
        isplitr; · iexact HR
        iexact Hlev
      · iapply (lin_intro (F := F) c)
        isplitl [Hpos]; · iexact Hpos
        isplitl [Htk]; · iexact Htk
        isplitl [H1]; · iexact H1
        iexact HN
    · isplitl [Hx]; · iexact Hx
      iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device hands back of its unscoped buffers: its block of `x` as launched, and a result array that reads as
    the two blocks' narrowed chunks. -/
def Yc (c : Dev nD) : sProp 𝕄 :=
  iprop((((c : Thread nD τ).loc main_arg0) ↦{fullShare} xblk m c)
    ∗ (∃ g, iprop(⌜Res m c g⌝ ∗ (((c : Thread nD τ).loc main_v1) ↦{fullShare} g))))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc scr sems0 Pipeline.ownSems0
  iintro ⟨Hx, Hg, Hr, Hz⟩
  isplitl [Hx Hg]
  · isplitl [Hx]; · iexact Hx
    iexact Hg
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

end Launch

open Launch

/-! ## The run -/

/-- After the run: every device's result array reads, chunk by chunk, as the narrowed chunks of the two blocks, and
    its block of `x` is what it was. -/
def QC : PUnit × MemSt nD τ sig (Elt F) → Prop := fun r => ∀ c : Dev nD,
  Res m c (r.2.mem ((c : Thread nD τ).loc main_v1))
    ∧ r.2.mem ((c : Thread nD τ).loc main_arg0) = m ((c : Thread nD τ).loc main_arg0)

set_option maxRecDepth 8000 in
/-- At the compiled mesh of 32 devices, for any float values, from any memory with zero counters: every weakly fair
    execution of @main — the devices handshaking pairwise on the runtime's barrier semaphore, then each copying its
    block, chunk by chunk, narrowed, into its own result and its partner's — terminates, and every final state has
    each device's result array reading as the two blocks narrowed and `x` unchanged. -/
theorem run_main : θ_run defs (onTc (τ := τ) (main (F := F))) (st0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => Res m c (s.mem ((c : Thread nD τ).loc main_v1))
      ∧ s.mem ((c : Thread nD τ).loc main_arg0) = m ((c : Thread nD τ).loc main_arg0))
    (hY := fun c s' => by
      unfold Yc
      iintro ⟨⟨Hx, ⟨%g, %hg, Ho⟩⟩, -, HSI⟩
      icombine HSI Hx gives %hx
      icombine HSI Ho gives %ho
      imodintro
      isplitr
      · ipureintro
        have e1 := Buf.eq_of_forall_mem_univ hx
        have e2 := Buf.eq_of_forall_mem_univ ho
        exact ⟨by rw [e2]; exact hg, e1⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.AG.Value.lean ====
/-
  The gathered array, row by row.

  After the run, device `c`'s result array reads, chunk by chunk, as the narrowed chunks of its own block and of its
  partner's. Row `r` of the gathered array `x` lies in the block of the device of `{c, pr c}` whose x coordinate is
  `r / 32768`, in chunk `(r % 32768) / 2048` of that block, at row `r % 2048` of the chunk; and a block is the part of `x`
  its device's x coordinate names. Narrowing is entry by entry, so the result array is `x` narrowed.
-/
import proofs.«900687_g7700000000000688_dist_ag_v7x_xyz2x4x4_x_m32768_n1024_bf16_1_alg».proof.Proof.AG.Data
import proofs.«900687_g7700000000000688_dist_ag_v7x_xyz2x4x4_x_m32768_n1024_bf16_1_alg».proof.Proof.Gen.ReferenceIdeal.Run
import proofs.«900687_g7700000000000688_dist_ag_v7x_xyz2x4x4_x_m32768_n1024_bf16_1_alg».proof.Proof.Gen.ReferenceIdeal.Read
import Idealize.ShloMosaic.Lib.ValueIdx

noncomputable section

namespace Cert.KernelIdeal.AG

open Cert.KernelIdeal Cert.KernelIdeal.Gen

open Idealize.ShloMosaic
open Idealize.ShloMosaic.TcCoe
open Idealize.SL.Sem
open Idealize.ShloMosaic.ValueIdx (ix2)

variable {F : FTy → Type} [FloatOps F]

variable (m : (ℓ : Loc nD τ sig) → Buf (Elt F) ℓ)

/-! ## Which device's block a row belongs to -/

/-- The device of `{c, pr c}` at x coordinate `x`. -/
def owner (c : Dev nD) (x : ℕ) : Dev nD := if c.val / 16 = x then c else pr c

theorem owner_x (c : Dev nD) (x : ℕ) (hx : x < 2) : (owner c x).val / 16 = x := by
  unfold owner
  split
  · assumption
  · rw [pr_x]; have : c.val < 32 := c.isLt; omega

theorem owner_mem (c : Dev nD) (x : ℕ) : owner c x = c ∨ owner c x = pr c := by
  unfold owner
  split
  · exact Or.inl rfl
  · exact Or.inr rfl

/-- The result array reads the narrowed chunks of either device of the pair. -/
theorem res_owner (c : Dev nD) (g : Buf (Elt F) ((c : Thread nD τ).loc main_v1)) (h : Res m c g) (x : ℕ) (k : Fin 16) :
    (oCh (owner c x) k).view.read (Elt F) g = cval m (owner c x) k := by
  rcases owner_mem c x with h' | h'
  · rw [h']; exact (h k).1
  · rw [h']; exact (h k).2

/-! ## The three placements, by coordinates -/

/-- Row `j 0` of result chunk `k` of device `d`'s half is row `32768·(d/16) + 2048·k + j 0` of the result, -/
theorem oCh_emb (d : Dev nD) (k : Fin 16) (j : S2048x1024.Idx) (i : S65536x1024.Idx)
    (h0 : (i 0).val = 32768 * (d.val / 16) + 2048 * k.val + (j 0).val) (h1 : (i 1).val = (j 1).val) :
    ((oCh d k).view.emb j : S65536x1024.Idx) = i := by
  funext a
  apply Fin.ext
  show (k0_off1 d (BitVec.ofNat 32 (2048 * k.val))) a + 1 * (j a).val = (i a).val
  rw [k0_off1_eq d k]
  match a with
  | ⟨0, _⟩ => show 32768 * (d.val / 16) + 2048 * k.val + 1 * (j 0).val = (i 0).val; omega
  | ⟨1, _⟩ => show 0 + 1 * (j 1).val = (i 1).val; omega

/-- so the chunk reads there what the result array holds there. -/
theorem oCh_read (d : Dev nD) (k : Fin 16) (g : Vec F S65536x1024 .bf16) (j : S2048x1024.Idx) (i : S65536x1024.Idx)
    (h0 : (i 0).val = 32768 * (d.val / 16) + 2048 * k.val + (j 0).val) (h1 : (i 1).val = (j 1).val) :
    (oCh d k).view.read (Elt F) g j = g i :=
  congrArg g (oCh_emb d k j i h0 h1)

/-- Row `j 0` of chunk `k` of a block is row `2048·k + j 0` of the block, -/
theorem xCh_emb (k : Fin 16) (j : S2048x1024.Idx) (i : S32768x1024.Idx)
    (h0 : (i 0).val = 2048 * k.val + (j 0).val) (h1 : (i 1).val = (j 1).val) :
    ((xCh k).view.emb j : S32768x1024.Idx) = i := by
  funext a
  apply Fin.ext
  match a with
  | ⟨0, _⟩ => show 2048 * k.val + 1 * (j 0).val = (i 0).val; omega
  | ⟨1, _⟩ => show 0 + 1 * (j 1).val = (i 1).val; omega

/-- and the chunk reads there what the block holds there. -/
theorem xCh_read (k : Fin 16) (f : Vec F S32768x1024 .f32) (j : S2048x1024.Idx) (i : S32768x1024.Idx)
    (h0 : (i 0).val = 2048 * k.val + (j 0).val) (h1 : (i 1).val = (j 1).val) :
    (xCh k).view.read (Elt F) f j = f i :=
  congrArg f (xCh_emb k j i h0 h1)

/-- A device's block coordinate along the rows is its x coordinate. -/
theorem meshLin_x (d : Dev nD) : Layout.meshLin [2, 4, 4] d.val [0] = d.val / 16 := by revert d; decide

/-- Row `i' 0` of device `d`'s block is row `32768·(d/16) + i' 0` of the gathered array. -/
theorem block_read {α : Type} (d : Dev nD) (X : S65536x1024.Idx → α) (i' : S32768x1024.Idx) (i : S65536x1024.Idx)
    (h0 : (i 0).val = 32768 * (d.val / 16) + (i' 0).val) (h1 : (i 1).val = (i' 1).val) :
    (Layout.blockN ⟨2, ![32768, 1024]⟩ ⟨2, ![65536, 1024]⟩ (Layout.meshBlock [2, 4, 4] ![[0], []] d) X) i' = X i := by
  rw [Layout.blockN_apply]
  congr 1
  funext a
  apply Fin.ext
  rw [Layout.TilesN.idx_val]
  match a with
  | ⟨0, _⟩ =>
    show Layout.meshLin [2, 4, 4] d.val [0] * 32768 + (i' 0).val = (i 0).val
    rw [meshLin_x]; omega
  | ⟨1, _⟩ =>
    show 0 * 1024 + (i' 1).val = (i 1).val
    omega

/-! ## The result array is the gathered array narrowed -/

/-- If every device's block is its part of `X`, a result array that reads chunk by chunk as the narrowed chunks of the
    two blocks of a pair is `X` narrowed entry by entry. -/
theorem result_eq (X : Vec F S65536x1024 .f32)
    (hblk : ∀ d : Dev nD, m ((d : Thread nD τ).loc main_arg0)
      = Layout.blockN ⟨2, ![32768, 1024]⟩ ⟨2, ![65536, 1024]⟩ (Layout.meshBlock [2, 4, 4] ![[0], []] d) X)
    (c : Dev nD) (g : Buf (Elt F) ((c : Thread nD τ).loc main_v1)) (hres : Res m c g) :
    g = truncf (F := F) .bf16 X bitsLt_bf16_f32 := by
  have key : ∀ i : S65536x1024.Idx, (g : Vec F S65536x1024 .bf16) i = truncf (F := F) .bf16 X bitsLt_bf16_f32 i := by
    intro i
    have hr : (i 0).val < 65536 := (i 0).isLt
    have hc : (i 1).val < 1024 := (i 1).isLt
    have hx : (i 0).val / 32768 < 2 := by omega
    have hd : (owner c ((i 0).val / 32768)).val / 16 = (i 0).val / 32768 := owner_x c _ hx
    -- the chunk, the row inside the chunk, the row inside the block
    let k : Fin 16 := ⟨(i 0).val % 32768 / 2048, by omega⟩
    let j : S2048x1024.Idx := ix2 (⟨(i 0).val % 2048, by omega⟩ : Fin 2048) (⟨(i 1).val, hc⟩ : Fin 1024)
    let i' : S32768x1024.Idx := ix2 (⟨(i 0).val % 32768, by omega⟩ : Fin 32768) (⟨(i 1).val, hc⟩ : Fin 1024)
    have e0 : (i 0).val = 32768 * ((owner c ((i 0).val / 32768)).val / 16) + 2048 * k.val + (j 0).val := by
      rw [hd]; show (i 0).val = 32768 * ((i 0).val / 32768) + 2048 * ((i 0).val % 32768 / 2048) + (i 0).val % 2048; omega
    have e1 : (i' 0).val = 2048 * k.val + (j 0).val := by
      show (i 0).val % 32768 = 2048 * ((i 0).val % 32768 / 2048) + (i 0).val % 2048; omega
    have e2 : (i 0).val = 32768 * ((owner c ((i 0).val / 32768)).val / 16) + (i' 0).val := by
      rw [hd]; show (i 0).val = 32768 * ((i 0).val / 32768) + (i 0).val % 32768; omega
    have hx0 : xval m (owner c ((i 0).val / 32768)) k j = X i :=
      calc xval m (owner c ((i 0).val / 32768)) k j
          = (m (((owner c ((i 0).val / 32768) : Dev nD) : Thread nD τ).loc main_arg0) : Vec F S32768x1024 .f32) i' :=
            xCh_read k _ j i' e1 rfl
        _ = (Layout.blockN ⟨2, ![32768, 1024]⟩ ⟨2, ![65536, 1024]⟩
              (Layout.meshBlock [2, 4, 4] ![[0], []] (owner c ((i 0).val / 32768))) X) i' := congrFun (hblk _) i'
        _ = X i := block_read _ X i' i e2 rfl
    calc (g : Vec F S65536x1024 .bf16) i
        = (oCh (owner c ((i 0).val / 32768)) k).view.read (Elt F) g j := (oCh_read _ k g j i e0 rfl).symm
      _ = cval m (owner c ((i 0).val / 32768)) k j := congrFun (res_owner m c g hres _ k) j
      _ = FloatOps.truncf (F := F) .bf16 bitsLt_bf16_f32 (xval m (owner c ((i 0).val / 32768)) k j) := rfl
      _ = FloatOps.truncf (F := F) .bf16 bitsLt_bf16_f32 (X i) := by rw [hx0]
      _ = truncf (F := F) .bf16 X bitsLt_bf16_f32 i := rfl
  exact funext key

end Cert.KernelIdeal.AG

end
-- ==== Proof.AGW.Cells.lean ====
/-
  The all-gather over the mesh's x axis, device by device: the cells, the views and the schedule.

  Device `c` holds rows `[32768·(c/16), 32768·(c/16) + 32768)` of the gathered array `x` (its block), and its
  partner `pr c` — the device at the other x coordinate, same y and z, `(c + 16) mod 32` — holds the other half.
  The kernel cuts the block into 16 chunks of 2048 rows. For chunk `k` it copies the f32 chunk from HBM into slot
  `k mod 2` of a two-slot f32 buffer, narrows it into slot `k mod 4` of a four-slot bf16 buffer, and sends that
  slot twice: to rows `32768·(c/16) + 2048·k` of its OWN result and, by a remote copy, to the same rows of the
  PARTNER's result. Before its first remote copy a device signals the partner's barrier semaphore and waits for
  the partner's signal on its own.

  Every semaphore is a cell of one schedule (one duty, `()`, a round):
  * the barrier cell: round 0, one unit, paid by the partner's signal; its payload is the partner's 16 result
    chunks this device is to fill, and that the partner's 16 receive cells are at round 0;
  * load cell `j < 2`: round `r < 8` is the copy of chunk `2r + j` into f32 slot `j`;
  * store cell `j < 4`: round `r < 4` is the local copy of chunk `4r + j` out of bf16 slot `j`;
  * send cell `k`, receive cell `k` (`k < 16`): round 0, the remote copy of chunk `k` (the send cell credited
    on the sender as the source is read, the receive cell on the partner as its rows are written).
-/
import proofs.«900687_g7700000000000688_dist_ag_v7x_xyz2x4x4_x_m32768_n1024_bf16_1_alg».proof.Proof.Gen.Kernel
import proofs.«900687_g7700000000000688_dist_ag_v7x_xyz2x4x4_x_m32768_n1024_bf16_1_alg».proof.Proof.Gen.Kernel.Skeleton
import proofs.«900687_g7700000000000688_dist_ag_v7x_xyz2x4x4_x_m32768_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The partner -/

/-- The device at the other x coordinate and the same y and z. -/
def pr (c : Dev nD) : Dev nD := ⟨(c.val + 16) % 32, Nat.mod_lt _ (by decide)⟩

theorem pr_pr (c : Dev nD) : pr (pr c) = c := by revert c; decide
theorem pr_ne (c : Dev nD) : pr c ≠ c := by revert c; decide
theorem pr_x (c : Dev nD) : (pr c).val / 16 = 1 - c.val / 16 := by revert c; decide

/-- Each of the kernel's seventeen device chains (the signal's and the sixteen remote copies') names the partner. -/
theorem chain_eq (c : Dev nD) : (4 * ((c.val / 4) % 4) + (c.val % 4) + 16) - 16 * (c.val / 16) = (pr c).val := by revert c; decide

theorem dev1_eq (c : Dev nD) : (⟨k0_dev1 c, k0_dev1_lt c⟩ : Dev nD) = pr c := Fin.ext ((k0_dev1_eq c).trans (chain_eq c))
theorem dev2_eq (c : Dev nD) : (⟨k0_dev2 c, k0_dev2_lt c⟩ : Dev nD) = pr c := Fin.ext ((k0_dev2_eq c).trans (chain_eq c))
theorem dev3_eq (c : Dev nD) : (⟨k0_dev3 c, k0_dev3_lt c⟩ : Dev nD) = pr c := Fin.ext ((k0_dev3_eq c).trans (chain_eq c))
theorem dev4_eq (c : Dev nD) : (⟨k0_dev4 c, k0_dev4_lt c⟩ : Dev nD) = pr c := Fin.ext ((k0_dev4_eq c).trans (chain_eq c))
theorem dev5_eq (c : Dev nD) : (⟨k0_dev5 c, k0_dev5_lt c⟩ : Dev nD) = pr c := Fin.ext ((k0_dev5_eq c).trans (chain_eq c))
theorem dev6_eq (c : Dev nD) : (⟨k0_dev6 c, k0_dev6_lt c⟩ : Dev nD) = pr c := Fin.ext ((k0_dev6_eq c).trans (chain_eq c))
theorem dev7_eq (c : Dev nD) : (⟨k0_dev7 c, k0_dev7_lt c⟩ : Dev nD) = pr c := Fin.ext ((k0_dev7_eq c).trans (chain_eq c))
theorem dev8_eq (c : Dev nD) : (⟨k0_dev8 c, k0_dev8_lt c⟩ : Dev nD) = pr c := Fin.ext ((k0_dev8_eq c).trans (chain_eq c))
theorem dev9_eq (c : Dev nD) : (⟨k0_dev9 c, k0_dev9_lt c⟩ : Dev nD) = pr c := Fin.ext ((k0_dev9_eq c).trans (chain_eq c))
theorem dev10_eq (c : Dev nD) : (⟨k0_dev10 c, k0_dev10_lt c⟩ : Dev nD) = pr c := Fin.ext ((k0_dev10_eq c).trans (chain_eq c))
theorem dev11_eq (c : Dev nD) : (⟨k0_dev11 c, k0_dev11_lt c⟩ : Dev nD) = pr c := Fin.ext ((k0_dev11_eq c).trans (chain_eq c))
theorem dev12_eq (c : Dev nD) : (⟨k0_dev12 c, k0_dev12_lt c⟩ : Dev nD) = pr c := Fin.ext ((k0_dev12_eq c).trans (chain_eq c))
theorem dev13_eq (c : Dev nD) : (⟨k0_dev13 c, k0_dev13_lt c⟩ : Dev nD) = pr c := Fin.ext ((k0_dev13_eq c).trans (chain_eq c))
theorem dev14_eq (c : Dev nD) : (⟨k0_dev14 c, k0_dev14_lt c⟩ : Dev nD) = pr c := Fin.ext ((k0_dev14_eq c).trans (chain_eq c))
theorem dev15_eq (c : Dev nD) : (⟨k0_dev15 c, k0_dev15_lt c⟩ : Dev nD) = pr c := Fin.ext ((k0_dev15_eq c).trans (chain_eq c))
theorem dev16_eq (c : Dev nD) : (⟨k0_dev16 c, k0_dev16_lt c⟩ : Dev nD) = pr c := Fin.ext ((k0_dev16_eq c).trans (chain_eq c))
theorem dev17_eq (c : Dev nD) : (⟨k0_dev17 c, k0_dev17_lt c⟩ : Dev nD) = pr c := Fin.ext ((k0_dev17_eq c).trans (chain_eq c))

/-- The pairing as a permutation of the mesh (its own inverse). -/
def pair : Dev nD ≃ Dev nD := ⟨pr, pr, pr_pr, pr_pr⟩

/-! ## The buffers, their slots and chunks -/

abbrev xM : Memref sig .tc .hbm S32768x1024 .f32 := Memref.whole main_arg0
abbrev oM : Memref sig .tc .hbm S65536x1024 .bf16 := Memref.whole main_v1
abbrev fM : Memref sig .tc .vmem S2x2048x1024 .f32 := Memref.whole cc0_scratch0
abbrev bM : Memref sig .tc .vmem S4x2048x1024 .bf16 := Memref.whole cc0_scratch1

theorem inb_f (j : Fin 2) : ∀ a, (![j.val, 0, 0] : Fin 3 → Nat) a + S1x2048x1024.size a ≤ S2x2048x1024.size a := by revert j; decide
theorem inb_b (j : Fin 4) : ∀ a, (![j.val, 0, 0] : Fin 3 → Nat) a + S1x2048x1024.size a ≤ S4x2048x1024.size a := by revert j; decide
theorem inb_x (k : Fin 16) : ∀ a, (![2048 * k.val, 0] : Fin 2 → Nat) a + S2048x1024.size a ≤ S32768x1024.size a := by revert k; decide

/-- Slot `j` of the f32 buffer, as a rectangle of it (what a vector load goes through) -/
abbrev fRect (j : Fin 2) : Rect S2x2048x1024 := Rect.unit (s := S2x2048x1024) ![j.val, 0, 0] S1x2048x1024.size (inb_f j)
/-- and slot `j` of the bf16 buffer. -/
abbrev bRect (j : Fin 4) : Rect S4x2048x1024 := Rect.unit (s := S4x2048x1024) ![j.val, 0, 0] S1x2048x1024.size (inb_b j)

/-- The slots as the copies name them: the slice, squeezed to a 2048 × 1024 matrix. -/
abbrev fSl (j : Fin 2) : Memref sig .tc .vmem S2048x1024 .f32 :=
  (fM.slice (fRect j) (fun _ => rfl)).squeeze S2048x1024 squeezes_S1x2048x1024_S2048x1024
abbrev bSl (j : Fin 4) : Memref sig .tc .vmem S2048x1024 .bf16 :=
  (bM.slice (bRect j) (fun _ => rfl)).squeeze S2048x1024 squeezes_S1x2048x1024_S2048x1024

/-- Chunk `k` of a device's block of `x`: rows `[2048k, 2048k + 2048)`. -/
abbrev xCh (k : Fin 16) : Memref sig .tc .hbm S2048x1024 .f32 :=
  xM.slice (Rect.unit (s := S32768x1024) ![2048 * k.val, 0] S2048x1024.size (inb_x k)) (fun _ => rfl)

/-- Chunk `k` of the half of the result that device `d`'s block fills: rows `[32768·(d/16) + 2048k, … + 2048)`,
    the offset as the kernel computes it. -/
abbrev oCh (d : Dev nD) (k : Fin 16) : Memref sig .tc .hbm S2048x1024 .bf16 :=
  oM.slice (Rect.unit (s := S65536x1024) (k0_off1 d (BitVec.ofNat 32 (2048 * k.val))) S2048x1024.size (k0_off1_inb d k)) (fun _ => rfl)

/-- The slot a chunk goes through. -/
def f2 (k : Fin 16) : Fin 2 := ⟨k.val % 2, Nat.mod_lt _ (by decide)⟩
def b4 (k : Fin 16) : Fin 4 := ⟨k.val % 4, Nat.mod_lt _ (by decide)⟩

/-! ## The semaphores and their cells -/

theorem inb_s2 (j : Fin 2) : ∀ a, (![j.val] : Fin 1 → Nat) a + S1.size a ≤ S2.size a := by revert j; decide
theorem inb_s4 (j : Fin 4) : ∀ a, (![j.val] : Fin 1 → Nat) a + S1.size a ≤ S4.size a := by revert j; decide
theorem inb_s16 (k : Fin 16) : ∀ a, (![k.val] : Fin 1 → Nat) a + S1.size a ≤ S16.size a := by revert k; decide

/-- The runtime's barrier semaphore of collective id 0 (not scoped). -/
abbrev barS : Sem sig := (SemArray.scalar (sig.barrier 0 rfl) : Sems sig S_).sem
/-- The kernel's own DMA semaphores, as its slices of the four arrays name them. -/
abbrev loadS (j : Fin 2) : DmaSem sig := ((cc0_scratch2.slice (Rect.unit (s := S2) ![j.val] S1.size (inb_s2 j))).squeeze S_ squeezes_S1_S_).sem
abbrev storeS (j : Fin 4) : DmaSem sig := ((cc0_scratch3.slice (Rect.unit (s := S4) ![j.val] S1.size (inb_s4 j))).squeeze S_ squeezes_S1_S_).sem
abbrev sendS (k : Fin 16) : DmaSem sig := ((cc0_scratch4.slice (Rect.unit (s := S16) ![k.val] S1.size (inb_s16 k))).squeeze S_ squeezes_S1_S_).sem
abbrev recvS (k : Fin 16) : DmaSem sig := ((cc0_scratch5.slice (Rect.unit (s := S16) ![k.val] S1.size (inb_s16 k))).squeeze S_ squeezes_S1_S_).sem

/-- Their places in the pool: loads at 0–1, stores at 2–5, sends at 6–21, receives at 22–37. -/
theorem loadS_val (j : Fin 2) : (loadS j).val = j.val := by revert j; decide
theorem storeS_val (j : Fin 4) : (storeS j).val = 2 + j.val := by revert j; decide
theorem sendS_val (k : Fin 16) : (sendS k).val = 6 + k.val := by revert k; decide
theorem recvS_val (k : Fin 16) : (recvS k).val = 22 + k.val := by revert k; decide

abbrev barCell (c : Dev nD) : GSem nD τ sig := ((c : Thread nD τ), .reg barS)
abbrev loadCell (c : Dev nD) (j : Fin 2) : GSem nD τ sig := ((c : Thread nD τ), .dma (loadS j))
abbrev storeCell (c : Dev nD) (j : Fin 4) : GSem nD τ sig := ((c : Thread nD τ), .dma (storeS j))
abbrev sendCell (c : Dev nD) (k : Fin 16) : GSem nD τ sig := ((c : Thread nD τ), .dma (sendS k))
abbrev recvCell (c : Dev nD) (k : Fin 16) : GSem nD τ sig := ((c : Thread nD τ), .dma (recvS k))

/-- What a copy of a chunk credits its semaphore: the f32 chunk's amount, and the bf16 chunk's. -/
abbrev Nf : ℕ := (fSl 0).view.dmaCredit
abbrev Nb : ℕ := (bSl 0).view.dmaCredit
theorem Nf_pos : 0 < Nf := View.dmaCredit_pos _ (by decide)
theorem Nb_pos : 0 < Nb := View.dmaCredit_pos _ (by decide)

end Cert.Kernel.AG

end
-- ==== Proof.AGW.Sched.lean ====
/-
  What the copies carry, and the schedule of every semaphore.

  The values. `xval d k` is chunk `k` of device `d`'s block of `x` (2048 rows, f32), `cval d k` the same chunk
  narrowed to bf16 — what both of chunk `k`'s copies deliver. A buffer is held as "some contents that READ, through
  the view, as that value" (`owns`): what a copy overwrites is then never named.

  What each landing hands the waiting device (the schedule's payloads):
  * a load's: the f32 slot reading the chunk, and the chunk's rows of `x` back, unchanged;
  * a local store's: its own result rows reading the narrowed chunk, and its half share of the bf16 slot back;
  * a remote copy's send cell: the other half share of the bf16 slot back; its receive cell, on the partner: the
    partner's result rows reading the sender's narrowed chunk;
  * the barrier signal's: the signaller's sixteen result chunks the waiter is to fill, and that the signaller's
    sixteen receive cells are at round 0.

  Deadlock freedom is by levels: load, store and send cells at 0, the barrier cell at 1, receive cell `k` at
  `2 + k`. A device waits on its receive cell `k - 4` while it still owes the partner's receive cells `k` and up,
  and on everything else while it owes receive cells only.
-/
import proofs.«900687_g7700000000000688_dist_ag_v7x_xyz2x4x4_x_m32768_n1024_bf16_1_alg».proof.Proof.AGW.Cells

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- Device `d`'s block of `x`, as launched. -/
def xblk (d : Dev nD) : Buf (Elt F) ((d : Thread nD τ).loc main_arg0) := m ((d : Thread nD τ).loc main_arg0)
/-- Its result array, as launched (arbitrary). -/
def oblk (d : Dev nD) : Buf (Elt F) ((d : Thread nD τ).loc main_v1) := m ((d : Thread nD τ).loc main_v1)

/-- Chunk `k` of device `d`'s block. -/
def xval (d : Dev nD) (k : Fin 16) : Vec F S2048x1024 .f32 := (xCh k).view.read (Elt F) (xblk m d)
/-- The chunk narrowed to bf16, entry by entry. -/
def cval (d : Dev nD) (k : Fin 16) : Vec F S2048x1024 .bf16 := truncf .bf16 (xval m d k) bitsLt_bf16_f32

/-! ## Holdings -/

/-- The two half shares a bf16 slot is lent at: one to the remote copy, one to the local store. -/
abbrev hL : PosShare TreeShare := fullShare.left
abbrev hR : PosShare TreeShare := fullShare.right

/-- Chunk `k`'s rows of `x` on device `c`, at what they held at launch. -/
def xPts (c : Dev nD) (k : Fin 16) : sProp 𝕄 :=
  (xCh k).view.loc (c : Thread nD τ) ↦[(xCh k).view.set]{fullShare} xblk m c
/-- The result rows `oCh d k` on device `c` at some contents. -/
def oAny (c d : Dev nD) (k : Fin 16) : sProp 𝕄 :=
  iprop(∃ f, (oCh d k).view.loc (c : Thread nD τ) ↦[(oCh d k).view.set]{fullShare} f)
/-- A share of bf16 slot `j` at some contents. -/
def bAny (c : Dev nD) (j : Fin 4) (q : PosShare TreeShare) : sProp 𝕄 :=
  iprop(∃ f, (bSl j).view.loc (c : Thread nD τ) ↦[(bSl j).view.set]{q} f)
/-- f32 slot `j` at some contents. -/
def fAny (c : Dev nD) (j : Fin 2) : sProp 𝕄 :=
  iprop(∃ f, (fSl j).view.loc (c : Thread nD τ) ↦[(fSl j).view.set]{fullShare} f)

/-! ## The payloads -/

def loadPay (c : Dev nD) (k : Fin 16) : sProp 𝕄 :=
  iprop(owns (c : Thread nD τ) (fSl (f2 k)) fullShare (xval m c k) ∗ xPts m c k)
def storePay (c : Dev nD) (k : Fin 16) : sProp 𝕄 :=
  iprop(owns (c : Thread nD τ) (oCh c k) fullShare (cval m c k) ∗ bAny c (b4 k) hR)
def sendPay (c : Dev nD) (k : Fin 16) : sProp 𝕄 := bAny c (b4 k) hL
def recvPay (c : Dev nD) (k : Fin 16) : sProp 𝕄 :=
  owns (c : Thread nD τ) (oCh (pr c) k) fullShare (cval m (pr c) k)
/-- What the partner's signal hands `c`: the rows of `c`'s half in the PARTNER's result, chunk by chunk, and that
    the partner's receive cells are at round 0. -/
def barPay (c : Dev nD) : sProp 𝕄 :=
  bigSep Finset.univ fun k : Fin 16 => iprop(oAny (pr c) c k ∗ reached ER (recvCell (pr c) k) 0)

/-! ## The schedule -/

def kOf (n : ℕ) : Fin 16 := ⟨n % 16, Nat.mod_lt _ (by decide)⟩

/-- How many rounds a cell has: the barrier, send and receive cells one; a load cell 8; a store cell 4. -/
def roundsOf : SemLoc sig → ℕ
  | .reg _ => 1
  | .dma i => if i.val < 2 then 8 else if i.val < 6 then 4 else 1
def amountOf : SemLoc sig → ℕ
  | .reg _ => 1
  | .dma i => if i.val < 2 then Nf else Nb
def payloadOf (c : Dev nD) : SemLoc sig → ℕ → sProp 𝕄
  | .reg _, _ => barPay c
  | .dma i, r =>
    if i.val < 2 then loadPay m c (kOf (2 * r + i.val))
    else if i.val < 6 then storePay m c (kOf (4 * r + (i.val - 2)))
    else if i.val < 22 then sendPay c (kOf (i.val - 6))
    else recvPay m c (kOf (i.val - 22))

theorem amountOf_pos (s : SemLoc sig) : 0 < amountOf s := by
  cases s with
  | reg _ => exact Nat.one_pos
  | dma i => dsimp only [amountOf]; split
             · exact Nf_pos
             · exact Nb_pos

def sched : Rounds.Schedule (GSem nD τ sig) Unit 𝕄 where
  duties g r := if g.1.2 = .tc ∧ r < roundsOf g.2 then {()} else ∅
  amount g _ _ := amountOf g.2
  payload g r _ := payloadOf m g.1.1 g.2 r
  amount_pos g _ _ _ := amountOf_pos g.2

instance payloadOf_storable (c : Dev nD) (s : SemLoc sig) (r : ℕ) : BI.Storable (upEmb : UEmb _ 𝕄) (payloadOf (F := F) m c s r) := by
  cases s with
  | reg _ => show BI.Storable upEmb (barPay c); unfold barPay oAny; infer_instance
  | dma i =>
    show BI.Storable upEmb (if i.val < 2 then loadPay m c (kOf (2 * r + i.val)) else if i.val < 6 then storePay m c (kOf (4 * r + (i.val - 2)))
      else if i.val < 22 then sendPay c (kOf (i.val - 6)) else recvPay m c (kOf (i.val - 22)))
    unfold loadPay storePay sendPay recvPay xPts bAny
    (repeat' split) <;> infer_instance

instance sched_payload_storable (g : GSem nD τ sig) (r : ℕ) (d : Unit) :
    BI.Storable (upEmb : UEmb _ 𝕄) ((sched (F := F) m).payload g r d) := payloadOf_storable m g.1.1 g.2 r

section Tables
variable (c : Dev nD)

theorem duties_of (s : SemLoc sig) (r : ℕ) (h : r < roundsOf s) : (sched (F := F) m).duties ((c : Thread nD τ), s) r = {()} := by
  dsimp only [sched]; exact if_pos ⟨rfl, h⟩
theorem duties_later_of (g : GSem nD τ sig) : ∀ r, roundsOf g.2 ≤ r → (sched (F := F) m).duties g r = ∅ :=
  fun r hr => by dsimp only [sched]; exact if_neg fun h => absurd h.2 (Nat.not_lt.mpr hr)

theorem rounds_bar : roundsOf (.reg barS : SemLoc sig) = 1 := rfl
theorem rounds_load (j : Fin 2) : roundsOf (.dma (loadS j) : SemLoc sig) = 8 := by
  dsimp only [roundsOf]; rw [loadS_val]; exact if_pos j.isLt
theorem rounds_store (j : Fin 4) : roundsOf (.dma (storeS j) : SemLoc sig) = 4 := by
  dsimp only [roundsOf]; rw [storeS_val, if_neg (by omega), if_pos (by have := j.isLt; omega)]
theorem rounds_send (k : Fin 16) : roundsOf (.dma (sendS k) : SemLoc sig) = 1 := by
  dsimp only [roundsOf]; rw [sendS_val, if_neg (by omega), if_neg (by omega)]
theorem rounds_recv (k : Fin 16) : roundsOf (.dma (recvS k) : SemLoc sig) = 1 := by
  dsimp only [roundsOf]; rw [recvS_val, if_neg (by omega), if_neg (by omega)]

theorem duties_bar : (sched (F := F) m).duties (barCell c) 0 = {()} := duties_of m c _ 0 (by rw [rounds_bar]; decide)
theorem duties_load (j : Fin 2) (r : ℕ) (hr : r < 8) : (sched (F := F) m).duties (loadCell c j) r = {()} := duties_of m c _ r (by rw [rounds_load]; exact hr)
theorem duties_store (j : Fin 4) (r : ℕ) (hr : r < 4) : (sched (F := F) m).duties (storeCell c j) r = {()} := duties_of m c _ r (by rw [rounds_store]; exact hr)
theorem duties_send (k : Fin 16) : (sched (F := F) m).duties (sendCell c k) 0 = {()} := duties_of m c _ 0 (by rw [rounds_send]; decide)
theorem duties_recv (k : Fin 16) : (sched (F := F) m).duties (recvCell c k) 0 = {()} := duties_of m c _ 0 (by rw [rounds_recv]; decide)

theorem amount_bar (d : Unit) (r : ℕ) : (sched (F := F) m).amount (barCell c) r d = 1 := rfl
theorem amount_load (j : Fin 2) (d : Unit) (r : ℕ) : (sched (F := F) m).amount (loadCell c j) r d = Nf := by
  dsimp only [sched, amountOf]; rw [loadS_val]; exact if_pos j.isLt
theorem amount_store (j : Fin 4) (d : Unit) (r : ℕ) : (sched (F := F) m).amount (storeCell c j) r d = Nb := by
  dsimp only [sched, amountOf]; rw [storeS_val]; exact if_neg (by omega)
theorem amount_send (k : Fin 16) (d : Unit) (r : ℕ) : (sched (F := F) m).amount (sendCell c k) r d = Nb := by
  dsimp only [sched, amountOf]; rw [sendS_val]; exact if_neg (by omega)
theorem amount_recv (k : Fin 16) (d : Unit) (r : ℕ) : (sched (F := F) m).amount (recvCell c k) r d = Nb := by
  dsimp only [sched, amountOf]; rw [recvS_val]; exact if_neg (by omega)

theorem expect_of (s : SemLoc sig) (r : ℕ) (h : r < roundsOf s) : (sched (F := F) m).expect ((c : Thread nD τ), s) r = amountOf s := by
  unfold Schedule.expect Schedule.amountOf; rw [duties_of m c s r h, Finset.sum_singleton]; rfl
theorem expect_bar : (sched (F := F) m).expect (barCell c) 0 = 1 := expect_of m c _ 0 (by rw [rounds_bar]; decide)
theorem expect_load (j : Fin 2) (r : ℕ) (hr : r < 8) : (sched (F := F) m).expect (loadCell c j) r = Nf :=
  (expect_of m c _ r (by rw [rounds_load]; exact hr)).trans (amount_load m c j () r)
theorem expect_store (j : Fin 4) (r : ℕ) (hr : r < 4) : (sched (F := F) m).expect (storeCell c j) r = Nb :=
  (expect_of m c _ r (by rw [rounds_store]; exact hr)).trans (amount_store m c j () r)
theorem expect_send (k : Fin 16) : (sched (F := F) m).expect (sendCell c k) 0 = Nb :=
  (expect_of m c _ 0 (by rw [rounds_send]; decide)).trans (amount_send m c k () 0)
theorem expect_recv (k : Fin 16) : (sched (F := F) m).expect (recvCell c k) 0 = Nb :=
  (expect_of m c _ 0 (by rw [rounds_recv]; decide)).trans (amount_recv m c k () 0)

/-- The chunk a load cell's round is the copy of, and a store cell's. -/
theorem kOf_load (k : Fin 16) : kOf (2 * (k.val / 2) + (f2 k).val) = k := Fin.ext (by simp only [kOf, f2]; have := k.isLt; omega)
theorem kOf_store (k : Fin 16) : kOf (4 * (k.val / 4) + ((2 + (b4 k).val) - 2)) = k := Fin.ext (by simp only [kOf, b4]; have := k.isLt; omega)
theorem kOf_send (k : Fin 16) : kOf ((6 + k.val) - 6) = k := Fin.ext (by simp only [kOf]; have := k.isLt; omega)
theorem kOf_recv (k : Fin 16) : kOf ((22 + k.val) - 22) = k := Fin.ext (by simp only [kOf]; have := k.isLt; omega)

theorem payload_bar (d : Unit) : (sched (F := F) m).payload (barCell c) 0 d = barPay c := rfl
theorem payload_load (k : Fin 16) (d : Unit) : (sched (F := F) m).payload (loadCell c (f2 k)) (k.val / 2) d = loadPay m c k := by
  dsimp only [sched, payloadOf]; rw [loadS_val, if_pos (f2 k).isLt, kOf_load]
theorem payload_store (k : Fin 16) (d : Unit) : (sched (F := F) m).payload (storeCell c (b4 k)) (k.val / 4) d = storePay m c k := by
  dsimp only [sched, payloadOf]; rw [storeS_val, if_neg (by omega), if_pos (by have := (b4 k).isLt; omega), kOf_store]
theorem payload_send (k : Fin 16) (d : Unit) : (sched (F := F) m).payload (sendCell c k) 0 d = sendPay c k := by
  dsimp only [sched, payloadOf]; rw [sendS_val, if_neg (by omega), if_neg (by omega), if_pos (by have := k.isLt; omega), kOf_send]
theorem payload_recv (k : Fin 16) (d : Unit) : (sched (F := F) m).payload (recvCell c k) 0 d = recvPay m c k := by
  dsimp only [sched, payloadOf]; rw [recvS_val, if_neg (by omega), if_neg (by omega), if_neg (by omega), kOf_recv]

/-- The rest of a one-duty round, nothing taken: the duty's payload. -/
theorem rest_of (g : GSem nD τ sig) (r : ℕ) (h : (sched (F := F) m).duties g r = {()}) :
    bigSep ((sched (F := F) m).duties g r \ ∅) (fun d => (sched (F := F) m).payload g r d) = (sched (F := F) m).payload g r () := by
  rw [Finset.sdiff_empty, h, bigSep_singleton]

end Tables

/-! ## What each device owes at launch; the levels -/

/-- The receive credit device `c` owes the partner for its LAST `j` chunks, the lowest chunk the last summand (the
    next remote copy peels it). -/
def Oup (c : Dev nD) : ℕ → CellTallies nD τ sig Unit
  | 0 => 0
  | j + 1 => Oup c j + tallyAt (recvCell (pr c) (kOf (15 - j))) () Nb
/-- At launch: all sixteen, and one unit to the partner's barrier cell (the signal comes first). -/
def O₀ (c : Dev nD) : CellTallies nD τ sig Unit := Oup c 16 + tallyAt (barCell (pr c)) () 1

def L (g : GSem nD τ sig) : Finset Unit := if g.1.2 = .tc then {()} else ∅
def lvOf : SemLoc sig → ℕ
  | .reg _ => 1
  | .dma i => if 22 ≤ i.val then 2 + (i.val - 22) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 16) : lv (recvCell c k) () = 2 + k.val := by
  dsimp only [lv, lvOf]; rw [recvS_val, if_pos (by omega)]; omega
theorem lv_bar (c : Dev nD) : lv (barCell c) () = 1 := rfl

/-- A cell device `c` still owes while its last `j` chunks are unsent is the partner's receive cell of one of them. -/
theorem Oup_pos {c : Dev nD} {j : ℕ} (hj : j ≤ 16) {g : GSem nD τ sig} {u : Unit} (h : 0 < Oup c j g u) :
    ∃ n : Fin 16, 16 - j ≤ n.val ∧ g = recvCell (pr c) n := by
  induction j with
  | zero => exact absurd h (Nat.lt_irrefl 0)
  | succ j ih =>
    unfold Oup at h
    rw [Pi.add_apply, Finsupp.add_apply, tallyAt_apply] at h
    by_cases hg : g = recvCell (pr c) (kOf (15 - j)) ∧ u = ()
    · exact ⟨kOf (15 - j), by simp only [kOf]; omega, hg.1⟩
    · rw [if_neg hg, Nat.add_zero] at h
      obtain ⟨n, hn, rfl⟩ := ih (by omega) h
      exact ⟨n, by omega, rfl⟩

/-- Waiting on a cell of level at most `1` (a load, store or send cell, the barrier) is allowed whatever receive
    credit is still owed: every receive cell is at level 2 or more. -/
theorem mayWait_low (c : Dev nD) (sm : SemLoc sig) (hsm : lvOf sm ≤ 1) (j : ℕ) (hj : j ≤ 16) :
    (levAts L lv : sProp 𝕄) ⊢ MayWait (c : Thread nD τ) sm () (Oup c j) :=
  MayOwe.of_cut (L := L) (lev := lv) 1 (fun p hp => by rw [Finset.mem_singleton.mp hp, L_tc]; exact Finset.mem_singleton_self _)
    (fun g u hg => by obtain ⟨n, -, rfl⟩ := Oup_pos hj hg; rw [L_tc]; exact Finset.mem_singleton_self _)
    (fun p hp => by rw [Finset.mem_singleton.mp hp]; exact hsm)
    (fun g u hg => by obtain ⟨n, -, rfl⟩ := Oup_pos hj hg; cases u; rw [lv_recv]; omega)

/-- Waiting on its receive cell `k` is allowed while the chunks still unsent are all later than `k`. -/
theorem mayWait_recv (c : Dev nD) (k : Fin 16) (j : ℕ) (hj : j ≤ 16) (hk : k.val < 16 - j) :
    (levAts L lv : sProp 𝕄) ⊢ MayWait (c : Thread nD τ) (.dma (recvS k)) () (Oup c j) :=
  MayOwe.of_cut (L := L) (lev := lv) (2 + k.val) (fun p hp => by rw [Finset.mem_singleton.mp hp, L_tc]; exact Finset.mem_singleton_self _)
    (fun g u hg => by obtain ⟨n, -, rfl⟩ := Oup_pos hj hg; rw [L_tc]; exact Finset.mem_singleton_self _)
    (fun p hp => by rw [Finset.mem_singleton.mp hp]; exact le_of_eq (lv_recv c k))
    (fun g u hg => by obtain ⟨n, hn, rfl⟩ := Oup_pos hj hg; cases u; rw [lv_recv]; omega)

end Cert.Kernel.AG

end
-- ==== Proof.AGW.Data.lean ====
/-
  What one device's body starts from and what it leaves: the proof data of the launch.

  At entry a device holds, beside its block of `x`, its result array and its two scratch buffers: every cell of
  its own at round 0 (its position), the invariants of its own cells and of the partner's, the token of every duty
  it pays — the partner's barrier signal; per chunk the load's, the local store's, its send cell's and the partner's
  receive cell's —, the credit to wait with on its barrier cell (one unit) and on each receive cell (a chunk), and
  what it owes: the partner's sixteen receive cells a chunk each, and the partner's barrier cell a unit.

  At exit: `x` unchanged; a result array whose 32 chunks read as the narrowed chunks of the two blocks
  (`Res`); the scratch buffers; and every semaphore of its own closed, its counter at zero.
-/
import proofs.«900687_g7700000000000688_dist_ag_v7x_xyz2x4x4_x_m32768_n1024_bf16_1_alg».proof.Proof.AGW.Sched

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A device's 39 cells, numbered: the barrier cell, then the DMA semaphores in pool order -/

theorem nDma : sig.nDmaSem = 38 := rfl

def ix : SemLoc sig → Fin 39
  | .reg _ => 0
  | .dma i => ⟨i.val + 1, by have : i.val < 38 := i.isLt; omega⟩
def csem (i : Fin 39) : SemLoc sig :=
  if h : i.val = 0 then .reg barS else .dma ⟨i.val - 1, by show i.val - 1 < 38; have := i.isLt; omega⟩
abbrev kcell (ck : Dev nD × Fin 39) : GSem nD τ sig := ((ck.1 : Thread nD τ), csem ck.2)

theorem csem_ix (s : SemLoc sig) : csem (ix s) = s := by
  cases s with
  | reg s => have : s = barS := Subsingleton.elim _ _
             subst this; rfl
  | dma i =>
    unfold csem
    have h : ¬ ((ix (SemLoc.dma i : SemLoc sig)).val = 0) := Nat.succ_ne_zero _
    rw [dif_neg h]
    exact congrArg SemLoc.dma (Fin.ext (Nat.add_sub_cancel (n := i.val) (m := 1)))
theorem kcell_ix (c : Dev nD) (s : SemLoc sig) : kcell (c, ix s) = ((c : Thread nD τ), s) := by
  show ((c : Thread nD τ), csem (ix s)) = _; rw [csem_ix]

/-- The invariant of cell `s` of device `d`, under the names `K` the launch allocated the invariants at. -/
def Iv (K : Dev nD × Fin 39 → ℕ) (d : Dev nD) (s : SemLoc sig) : sProp 𝕄 :=
  cellInv ER (sched m) (K (d, ix s)) ((d : Thread nD τ), s)

/-! ## The ghost state a device starts from -/

/-- Persistent: the invariants of the device's cells and of its partner's, that round 0 of each is reached, and
    the levels. -/
def pers (K : Dev nD × Fin 39 → ℕ) (c : Dev nD) : sProp 𝕄 :=
  iprop((bigSep Finset.univ fun i : Fin 39 => cellInv ER (sched m) (K (c, i)) (kcell (c, i)))
    ∗ (bigSep Finset.univ fun i : Fin 39 => cellInv ER (sched m) (K (pr c, i)) (kcell (pr c, i)))
    ∗ (bigSep Finset.univ fun i : Fin 39 => reached ER (kcell (c, i)) 0)
    ∗ (bigSep Finset.univ fun i : Fin 39 => reached ER (kcell (pr c, i)) 0)
    ∗ levAts L lv)

instance pers_persistent (K : Dev nD × Fin 39 → ℕ) (c : Dev nD) : BI.Persistent (pers m K c) := by unfold pers; infer_instance

/-- Chunk `k`'s tokens: the load's, the local store's, the send cell's, the partner's receive cell's. -/
def chunkToks (c : Dev nD) (k : Fin 16) : sProp 𝕄 :=
  iprop(dutyTok ER (loadCell c (f2 k)) (k.val / 2) () ∗ dutyTok ER (storeCell c (b4 k)) (k.val / 4) ()
    ∗ dutyTok ER (sendCell c k) 0 () ∗ dutyTok ER (recvCell (pr c) k) 0 ())
/-- Chunk `k`'s own send and receive cells at round 0, and the credit to wait on the receive cell with. -/
def chunkPos (c : Dev nD) (k : Fin 16) : sProp 𝕄 :=
  iprop(atPos ER (sendCell c k) 0 ∅ 0 ∗ atPos ER (recvCell c k) 0 ∅ 0 ∗ cred (tallyAt (recvCell c k) () Nb))

/-- Linear: the barrier cell's position and credit and the token of the partner's barrier duty; the load and store
    cells' positions; per chunk the tokens and positions. -/
def lin (c : Dev nD) : sProp 𝕄 :=
  iprop(atPos ER (barCell c) 0 ∅ 0 ∗ cred (tallyAt (barCell c) () 1) ∗ dutyTok ER (barCell (pr c)) 0 ()
    ∗ (bigSep Finset.univ fun j : Fin 2 => atPos ER (loadCell c j) 0 ∅ 0)
    ∗ (bigSep Finset.univ fun j : Fin 4 => atPos ER (storeCell c j) 0 ∅ 0)
    ∗ (bigSep Finset.univ fun k : Fin 16 => iprop(chunkToks c k ∗ chunkPos c k)))

/-- The unscoped buffers as launched. -/
def bufs (c : Dev nD) : sProp 𝕄 :=
  iprop((((c : Thread nD τ).loc main_arg0) ↦{fullShare} xblk m c) ∗ (((c : Thread nD τ).loc main_v1) ↦{fullShare} oblk m c))
/-- The scratch buffers, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the launch hands device `c` (the launch theorem's `X`). -/
def start (c : Dev nD) : sProp 𝕄 := iprop((∃ K, iprop(pers m K c ∗ lin c)) ∗ bufs m c)

def Φ₀ (c : Dev nD) : sProp 𝕄 := iprop(start m c ∗ scr c)

/-- The result array `g` of device `c` reads, chunk by chunk, as the narrowed chunks of its own block (its half) and
    of the partner's (the other half). -/
def Res (c : Dev nD) (g : Buf (Elt F) ((c : Thread nD τ).loc main_v1)) : Prop :=
  ∀ k : Fin 16, (oCh c k).view.read (Elt F) g = cval m c k ∧ (oCh (pr c) k).view.read (Elt F) g = cval m (pr c) k

/-- The kernel's own semaphores, every counter at zero. -/
def sems0 (c : Dev nD) : sProp 𝕄 := bigSep Finset.univ fun i : DmaSem sig => semVal ((c : Thread nD τ), SemLoc.dma i) 0

def Φ₁ (c : Dev nD) : sProp 𝕄 :=
  iprop((((c : Thread nD τ).loc main_arg0) ↦{fullShare} xblk m c)
    ∗ (∃ g, iprop(⌜Res m c g⌝ ∗ (((c : Thread nD τ).loc main_v1) ↦{fullShare} g)))
    ∗ scr c ∗ sems0 c)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body is proved from, and to. -/
def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.Kernel.AG

end
-- ==== Proof.AGW.Ops.lean ====
/-
  One thread's operations, each once, at a symbolic device `c` and a symbolic chunk `k`.

  * `wp_loadStart`: the copy of chunk `k` of `x` into its f32 slot, paying round `k / 2` of the slot's load cell.
  * `wp_waitCell`: a DMA wait for the whole of a one-duty round of one of the device's own cells: it hands over
    the round's payload, the cell at the next round, and that the next round is reached.
  * `wp_core`: what is done with a loaded chunk: the f32 slot is read, narrowed entry by entry, stored whole into the
    chunk's bf16 slot; then the slot is sent twice, half a share each: to the partner's result rows (the remote
    copy: send cell `k` here, receive cell `k` there) and to the device's own (the local copy: round `k / 4` of the
    slot's store cell). Both landings' payloads say what the rows then READ as: the narrowed chunk.
-/
import proofs.«900687_g7700000000000688_dist_ag_v7x_xyz2x4x4_x_m32768_n1024_bf16_1_alg».proof.Proof.AGW.Data

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the kernel stores for a loaded f32 slot `v`: `v` as a matrix, narrowed to bf16, as a one-slot block again. -/
def narrow (v : Vec F S1x2048x1024 .f32) : FVec F S1x2048x1024 .bf16 :=
  shapeCast S1x2048x1024 (truncf .bf16 (shapeCast S2048x1024 v shapeCasts_S1x2048x1024_S2048x1024) bitsLt_bf16_f32) shapeCasts_S2048x1024_S1x2048x1024

/-! ## What a copy credits

A transfer's credit depends on the destination's shape and element type only: every 2048 × 1024 f32 view credits
`Nf`, every 2048 × 1024 bf16 view `Nb`, whichever buffer it is a view of. -/

theorem credit_fSl (j : Fin 2) : (fSl j).view.dmaCredit = Nf := rfl
theorem credit_bSl (j : Fin 4) : (bSl j).view.dmaCredit = Nb := rfl
theorem credit_oCh (d : Dev nD) (k : Fin 16) : (oCh d k).view.dmaCredit = Nb := rfl
theorem amount_fSl (j : Fin 2) (i : DmaSem sig) : (fSl j).view.amount (.dma i) = Nf := rfl
theorem amount_bSl (j : Fin 4) (i : DmaSem sig) : (bSl j).view.amount (.dma i) = Nb := rfl
theorem amount_oCh (d : Dev nD) (k : Fin 16) (i : DmaSem sig) : (oCh d k).view.amount (.dma i) = Nb := rfl

/-- The amount of a round of each of the kernel's DMA cells. -/
theorem amountOf_load (j : Fin 2) : amountOf (.dma (loadS j) : SemLoc sig) = Nf := by
  dsimp only [amountOf]; rw [loadS_val]; exact if_pos j.isLt
theorem amountOf_store (j : Fin 4) : amountOf (.dma (storeS j) : SemLoc sig) = Nb := by
  dsimp only [amountOf]; rw [storeS_val]; exact if_neg (by omega)
theorem amountOf_send (k : Fin 16) : amountOf (.dma (sendS k) : SemLoc sig) = Nb := by
  dsimp only [amountOf]; rw [sendS_val]; exact if_neg (by omega)
theorem amountOf_recv (k : Fin 16) : amountOf (.dma (recvS k) : SemLoc sig) = Nb := by
  dsimp only [amountOf]; rw [recvS_val]; exact if_neg (by omega)

/-! ## The load of a chunk -/

/-- The f32 slot written all over with what the chunk's rows read, whatever it held (`fd`), reads the chunk; with
    the chunk's rows back unchanged that is the load's payload. -/
theorem loadPay_intro (c : Dev nD) (k : Fin 16) (fd : Buf (Elt F) ((fSl (f2 k)).view.loc (c : Thread nD τ))) :
    iprop(((fSl (f2 k)).view.loc (c : Thread nD τ) ↦[(fSl (f2 k)).view.set]{fullShare}
          ((fSl (f2 k)).view.write (Elt F) fd ((xCh k).view.read (Elt F) (xblk m c)) Finset.univ))
        ∗ ((xCh k).view.loc (c : Thread nD τ) ↦[(xCh k).view.set]{fullShare} xblk m c))
      ⊢ (sched m).payload (loadCell c (f2 k)) (k.val / 2) () := by
  rw [payload_load m c k ()]
  unfold loadPay xPts owns
  iintro ⟨Hd, Hs⟩
  isplitl [Hd]
  · iexists ((fSl (f2 k)).view.write (Elt F) fd ((xCh k).view.read (Elt F) (xblk m c)) Finset.univ)
    isplitr
    · ipureintro; exact View.read_write_univ _ _
    · iexact Hd
  · iexact Hs

theorem wp_loadStart (κ : ℕ) (c : Dev nD) (k : Fin 16)
    {hsrc : (xCh k).view.WordExact} {hdst : (fSl (f2 k)).view.WordExact}
    {hsem : DmaTarget.Typed (nD := nD) (τ := τ) (p := .tc) .hbm (SemLoc.dma (loadS (f2 k))) (.here (fSl (f2 k)))}
    {α : Type} {Q : α → sProp 𝕄} {K : PUnit → Prog (TpuEff nD τ sig (Elt F) Λ₀ .tc) α} :
    iprop(cellInv ER (sched m) κ (loadCell c (f2 k)) ∗ xPts m c k ∗ fAny c (f2 k)
        ∗ dutyTok ER (loadCell c (f2 k)) (k.val / 2) () ∗ reached ER (loadCell c (f2 k)) (k.val / 2))
      ⊢ iprop((cred (tallyAt (loadCell c (f2 k)) () Nf) -∗ WP c (K ⟨⟩) Q)
          -∗ WP c (.op (.enqueueDma (xCh k) (.here (fSl (f2 k))) (.dma (loadS (f2 k))) hsrc hdst hsem) K) Q) := by
  unfold fAny xPts
  iintro ⟨Hg, Hx, ⟨%fd, Hf⟩, Htok, Hr⟩ Hk
  have R := wp_copy_pointsTo (defs := defs₀ (F := F)) (Γ := .empty) 𝒱₀ ER (sched m) (c : Thread nD τ) none (κ := κ) (q := fullShare) (fs := xblk m c) (fd := fd)
    (src := xCh k) (dst := fSl (f2 k)) (sem := .dma (loadS (f2 k))) (hsrc := hsrc) (hdst := hdst) (hsem := hsem) (k := K) (Q := Q) (Es := Set.univ)
    (r := k.val / 2) (d := ())
    (by rw [duties_load m c (f2 k) (k.val / 2) (by have := k.isLt; omega)]; exact Finset.mem_singleton_self _)
    () Nf (amount_fSl (f2 k) (loadS (f2 k))) (amount_load m c (f2 k) () (k.val / 2)) (loadPay_intro m c k fd)
  iapply R $$ [Hg Hx Hf Htok Hr]
  · isplitl [Hg]; · iexact Hg
    isplitl [Hx]; · iexact Hx
    isplitl [Hf]; · iexact Hf
    isplitl [Htok]; · iexact Htok
    iexact Hr
  iexact Hk

/-! ## A wait for the whole of a round -/

theorem wp_waitCell (κ : ℕ) (c : Dev nD) (s : DmaSem sig) (r : ℕ) (hr : r < roundsOf (.dma s))
    {sp' : Space} {s' : Shape} {e' : EltTy} {κk : Kind} {sp : Space} {sh : Shape} {e : EltTy}
    {src : Memref sig .tc sp' s' e'} {dst : Memref sig κk sp sh e} {h1 : src.view.WordExact} {h2 : dst.view.WordExact}
    (hamt : dst.view.dmaCredit = amountOf (.dma s))
    (O : CellTallies nD τ sig Unit) (W : Waits sig Unit)
    (hmw : (levAts L lv : sProp 𝕄) ⊢ MayWait (c : Thread nD τ) (.dma s) () O)
    {α : Type} {Q : α → sProp 𝕄} {K : PUnit → Prog (TpuEff nD τ sig (Elt F) Λ₀ .tc) α} :
    iprop(cellInv ER (sched m) κ ((c : Thread nD τ), .dma s) ∗ cred (tallyAt ((c : Thread nD τ), .dma s) () (amountOf (.dma s)))
        ∗ owes (c : Thread nD τ) O W ∗ levAts L lv ∗ atPos ER ((c : Thread nD τ), .dma s) r ∅ 0)
      ⊢ iprop((iprop(owes (c : Thread nD τ) O (insert (SemLoc.dma s, ()) W) ∗ atPos ER ((c : Thread nD τ), .dma s) (r + 1) ∅ 0
                ∗ reached ER ((c : Thread nD τ), .dma s) (r + 1) ∗ (sched m).payload ((c : Thread nD τ), .dma s) r ()) -∗ WP c (K ⟨⟩) Q)
          -∗ WP c (.op (.waitDma2 s src dst h1 h2) K) Q) := by
  rw [← hamt]
  iintro ⟨Hg, Hc, HL, Hlev, Hat⟩ Hk
  iapply (wp_wait_rest_token 𝒱₀ ER (sched m) (c : Thread nD τ) none (κ := κ)
    (w := .waitDma2 s src dst h1 h2)
    (wpE_waitDma2_eq 𝒱₀ (c : Thread nD τ) none Set.univ) (Set.mem_univ _) () (O := O) (W := W)
    (R := r) (T := ∅) (m := 0)
    (by rw [Nat.zero_add, hamt]; exact (expect_of m c (.dma s) r hr).symm)) $$ [Hg Hc HL Hlev Hat]
  · isplitl [Hg]; · iexact Hg
    isplitl [Hc]; · iexact Hc
    isplitl [HL]; · iexact HL
    isplitl [Hlev]; · iapply hmw; iexact Hlev
    iexact Hat
  rw [rest_of m ((c : Thread nD τ), SemLoc.dma s) r (duties_of m c (.dma s) r hr)]
  iexact Hk

/-! ## Closing a cell whose rounds are all done -/

/-- A DMA cell of the device at the round after its last, nothing of it taken or consumed: no later round has a
    duty, so the cell closes and its counter is handed back at zero. -/
theorem cell_done (κ : ℕ) (c : Dev nD) (s : DmaSem sig) :
    iprop(cellInv ER (sched m) κ ((c : Thread nD τ), .dma s) ∗ atPos ER ((c : Thread nD τ), .dma s) (roundsOf (.dma s)) ∅ 0)
      ⊢ iprop(|={Set.univ}=> semVal ((c : Thread nD τ), SemLoc.dma s) 0) :=
  cell_close ER (sched m) (Set.mem_univ _) (fun h => h) (duties_later_of m ((c : Thread nD τ), SemLoc.dma s))

end Cert.Kernel.AG

end
-- ==== Proof.AGW.Core.lean ====
/-
  What is done with a loaded chunk, once, at a symbolic device `c` and chunk `k`: the f32 slot is read, narrowed
  entry by entry and stored whole into the chunk's bf16 slot; then the slot is sent twice, half a share each: to the
  partner's result rows by the remote copy (send cell `k` here, receive cell `k` on the partner) and to the device's
  own rows by the local copy (round `k / 4` of the slot's store cell). Each landing's payload says what the rows then
  READ as: the narrowed chunk, because a copy writes what its source reads and a read of what was just written whole
  is what was written.
-/
import proofs.«900687_g7700000000000688_dist_ag_v7x_xyz2x4x4_x_m32768_n1024_bf16_1_alg».proof.Proof.AGW.Ops
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Holdings at named contents, and what the slot reads after the narrowed store -/

/-- An f32 slot at named contents is the slot at some contents. -/
theorem fAny_intro (c : Dev nD) (j : Fin 2) (f : Buf (Elt F) ((fSl j).view.loc (c : Thread nD τ))) :
    ((fSl j).view.loc (c : Thread nD τ) ↦[(fSl j).view.set]{fullShare} f : sProp 𝕄) ⊢ fAny c j := by
  unfold fAny; iintro H; iexists f; iexact H

/-- A share of a bf16 slot at named contents is that share at some contents. -/
theorem bAny_intro (c : Dev nD) (j : Fin 4) (q : PosShare TreeShare) (f : Buf (Elt F) ((bSl j).view.loc (c : Thread nD τ))) :
    ((bSl j).view.loc (c : Thread nD τ) ↦[(bSl j).view.set]{q} f : sProp 𝕄) ⊢ bAny c j q := by
  unfold bAny; iintro H; iexists f; iexact H

/-- The elements a slot's rectangle of the whole f32 buffer names are the elements the squeezed slot names. -/
theorem fSl_set (j : Fin 2) : (fSl j).view.set = (fM.access (fRect j)).set := View.set_reshape _ _
/-- The same for a bf16 slot. -/
theorem bSl_set (j : Fin 4) : (bSl j).view.set = (bM.access (bRect j)).set := View.set_reshape _ _

theorem fSl_loads (j : Fin 2) : fM.view.setOn (fRect j).toLoadRect.set ⊆ (fSl j).view.set := by
  rw [fSl_set, View.set_slice]; exact Finset.Subset.refl _
theorem bSl_loads (j : Fin 4) : bM.view.setOn (bRect j).toLoadRect.set ⊆ (bSl j).view.set := by
  rw [bSl_set, View.set_slice]; exact Finset.Subset.refl _
theorem bSl_stores (j : Fin 4) : (bM.access (bRect j)).setOn Finset.univ ⊆ (bSl j).view.set := by
  rw [bSl_set]; exact Finset.Subset.refl _

/-- What a chunk's bf16 slot reads once a vector that reads, as a matrix, the chunk is stored, narrowed, whole into
    it: the squeezed slot reads the stored vector as a matrix (a read of what was just written whole is what was
    written), and that is the narrowed matrix (a shape cast there and back is the identity; narrowing is entry by
    entry). -/
theorem read_stored (c : Dev nD) (k : Fin 16) (pay : Vec F S1x2048x1024 .f32 → FVec F S1x2048x1024 .bf16) (hpay : ∀ v, pay v = narrow v)
    (v : Vec F S1x2048x1024 .f32) (hv : shapeCast S2048x1024 v shapeCasts_S1x2048x1024_S2048x1024 = xval m c k)
    (g : Buf (Elt F) (bM.view.loc (c : Thread nD τ))) :
    (bSl (b4 k)).view.read (Elt F) ((bM.access (bRect (b4 k))).write (Elt F) g (pay v) Finset.univ) = cval m c k := by
  have h1 : (bSl (b4 k)).view.read (Elt F) ((bM.access (bRect (b4 k))).write (Elt F) g (pay v) Finset.univ)
      = shapeCast S2048x1024 (pay v) shapeCasts_S1x2048x1024_S2048x1024 :=
    (Memref.read_squeeze_slice bM (bRect (b4 k)) (fun _ => rfl) squeezes_S1x2048x1024_S2048x1024 shapeCasts_S1x2048x1024_S2048x1024 _).trans
      (congrArg (fun w : Vec F S1x2048x1024 .bf16 => shapeCast S2048x1024 w shapeCasts_S1x2048x1024_S2048x1024)
        (View.read_write_univ (v := bM.access (bRect (b4 k))) g (pay v)))
  rw [h1, hpay]
  show shapeCast S2048x1024 (narrow v) shapeCasts_S1x2048x1024_S2048x1024 = truncf .bf16 (xval m c k) bitsLt_bf16_f32
  rw [← hv]
  exact shapeCast_shapeCast _ _ _

/-! ## The three payloads -/

/-- The send cell's: the remote copy's half share of the slot, back. -/
theorem send_pay (c : Dev nD) (k : Fin 16) (G : Buf (Elt F) ((bSl (b4 k)).view.loc (c : Thread nD τ))) :
    ((bSl (b4 k)).view.loc (c : Thread nD τ) ↦[(bSl (b4 k)).view.set]{hL} G : sProp 𝕄) ⊢ (sched m).payload (sendCell c k) 0 () := by
  rw [payload_send m c k ()]; exact bAny_intro c (b4 k) hL G

/-- The partner's receive cell's: the partner's rows of the sender's half, rewritten whole by what the slot reads,
    read the narrowed chunk. -/
theorem recv_pay (c : Dev nD) (k : Fin 16) (o : Buf (Elt F) ((oCh c k).view.loc (pr c : Thread nD τ))) (w : Vec F S2048x1024 .bf16)
    (hw : w = cval m c k) :
    ((oCh c k).view.loc (pr c : Thread nD τ) ↦[(oCh c k).view.set]{fullShare} ((oCh c k).view.write (Elt F) o w Finset.univ) : sProp 𝕄)
      ⊢ (sched m).payload (recvCell (pr c) k) 0 () := by
  rw [payload_recv m (pr c) k (), recvPay, pr_pr]
  exact (owns_intro (pr c : Thread nD τ) (oCh c k) fullShare _).trans (Entails.of_eq (by rw [View.read_write_univ, hw]))

/-- The store cell's: the device's own rows, rewritten whole by what the slot reads, read the narrowed chunk; and the
    local copy's half share of the slot, back. -/
theorem store_pay (c : Dev nD) (k : Fin 16) (o : Buf (Elt F) ((oCh c k).view.loc (c : Thread nD τ))) (w : Vec F S2048x1024 .bf16)
    (hw : w = cval m c k) (G : Buf (Elt F) ((bSl (b4 k)).view.loc (c : Thread nD τ))) :
    iprop(((oCh c k).view.loc (c : Thread nD τ) ↦[(oCh c k).view.set]{fullShare} ((oCh c k).view.write (Elt F) o w Finset.univ))
        ∗ ((bSl (b4 k)).view.loc (c : Thread nD τ) ↦[(bSl (b4 k)).view.set]{hR} G) : sProp 𝕄)
      ⊢ (sched m).payload (storeCell c (b4 k)) (k.val / 4) () := by
  rw [payload_store m c k (), storePay]
  exact BIClass.sep_mono ((owns_intro (c : Thread nD τ) (oCh c k) fullShare _).trans (Entails.of_eq (by rw [View.read_write_univ, hw])))
    (bAny_intro c (b4 k) hR G)

/-! ## A loaded chunk narrowed and sent twice -/

theorem wp_core (κs κr κt : ℕ) (c n : Dev nD) (hn : n = pr c) (k : Fin 16) (j : ℕ) (hj : j + k.val = 15)
    (pay : Vec F S1x2048x1024 .f32 → FVec F S1x2048x1024 .bf16) (hpay : ∀ v, pay v = narrow v) (W : Waits sig Unit)
    {hl1 : fM.view.LoadsAt (fRect (f2 k)).toLoadRect} {hl2 : bM.view.LoadsAt (bRect (b4 k)).toLoadRect}
    {hst : (bM.access (bRect (b4 k))).Stores Finset.univ} {hm : (Finset.univ : Finset (bRect (b4 k)).shape.Idx) = Finset.univ ∨ ∀ a, (bRect (b4 k)).stride a = 1}
    {hsc : (oCh c k : Memref sig (Dev.tc n : Thread nD τ).2.kind .hbm S2048x1024 .bf16).view.ref.isScScratch = false}
    {hs1 : (bSl (b4 k)).view.WordExact} {hd1 : (oCh c k).view.WordExact}
    {hsem1 : DmaTarget.Typed .vmem (SemLoc.dma (recvS k)) (DmaTarget.remote (Dev.tc n : Thread nD τ) (oCh c k) (SemLoc.dma (sendS k)) hsc : DmaTarget nD τ sig .tc .hbm S2048x1024 .bf16)}
    {hs2 : (bSl (b4 k)).view.WordExact} {hd2 : (oCh c k).view.WordExact}
    {hsem2 : DmaTarget.Typed .vmem (SemLoc.dma (storeS (b4 k))) (DmaTarget.here (oCh c k) : DmaTarget nD τ sig .tc .hbm S2048x1024 .bf16)}
    {α : Type} {Q : α → sProp 𝕄} {K : PUnit → Prog (TpuEff nD τ sig (Elt F) Λ₀ .tc) α} :
    iprop(cellInv ER (sched m) κs (sendCell c k) ∗ cellInv ER (sched m) κr (recvCell (pr c) k) ∗ cellInv ER (sched m) κt (storeCell c (b4 k))
        ∗ owns (c : Thread nD τ) (fSl (f2 k)) fullShare (xval m c k) ∗ bAny c (b4 k) fullShare
        ∗ oAny (pr c) c k ∗ oAny c c k
        ∗ dutyTok ER (sendCell c k) 0 () ∗ reached ER (sendCell c k) 0
        ∗ dutyTok ER (recvCell (pr c) k) 0 () ∗ reached ER (recvCell (pr c) k) 0
        ∗ dutyTok ER (storeCell c (b4 k)) (k.val / 4) () ∗ reached ER (storeCell c (b4 k)) (k.val / 4)
        ∗ owes (c : Thread nD τ) (Oup c (j + 1)) W)
      ⊢ iprop((iprop(fAny c (f2 k) ∗ cred (tallyAt (sendCell c k) () Nb) ∗ cred (tallyAt (storeCell c (b4 k)) () Nb)
                ∗ owes (c : Thread nD τ) (Oup c j) W) -∗ WP c (K ⟨⟩) Q)
          -∗ WP c (.op (.load fM (fRect (f2 k)).toLoadRect hl1) fun v =>
                   .op (.load bM (bRect (b4 k)).toLoadRect hl2) fun _ =>
                   .op (.store bM (bRect (b4 k)) (pay v) Finset.univ hst hm) fun _ =>
                   .op (.enqueueDma (bSl (b4 k)) (.remote (Dev.tc n : Thread nD τ) (oCh c k) (SemLoc.dma (sendS k)) hsc) (SemLoc.dma (recvS k)) hs1 hd1 hsem1) fun _ =>
                   .op (.enqueueDma (bSl (b4 k)) (.here (oCh c k)) (SemLoc.dma (storeS (b4 k))) hs2 hd2 hsem2) K) Q) := by
  subst hn
  -- the chunk whose receive credit the next remote copy peels off what is owed is chunk k
  have hk15 : kOf (15 - j) = k := Fin.ext (by show (15 - j) % 16 = k.val; have := k.isLt; omega)
  have hO : Oup c (j + 1) = Oup c j + tallyAt (recvCell (pr c) k) () Nb :=
    (show Oup c (j + 1) = Oup c j + tallyAt (recvCell (pr c) (kOf (15 - j))) () Nb from rfl).trans (by rw [hk15])
  have hk4 : k.val / 4 < 4 := by have := k.isLt; omega
  have hd1' : () ∈ (sched m).duties (sendCell c k) 0 := by rw [duties_send m c k]; exact Finset.mem_singleton_self _
  have hd2' : () ∈ (sched m).duties (recvCell (pr c) k) 0 := by rw [duties_recv m (pr c) k]; exact Finset.mem_singleton_self _
  have hd3' : () ∈ (sched m).duties (storeCell c (b4 k)) (k.val / 4) := by
    rw [duties_store m c (b4 k) (k.val / 4) hk4]; exact Finset.mem_singleton_self _
  unfold owns bAny oAny
  iintro ⟨Is, Ir, It, ⟨%f, %hf, Hf⟩, ⟨%g, Hb⟩, ⟨%o1, Ho1⟩, ⟨%o2, Ho2⟩, Ts, Rs, Tr, Rr, Tt, Rt, HO⟩ Hk
  -- what the bf16 slot reads after the store
  have hval := read_stored m c k pay hpay (fM.view.readAt (Elt F) (fRect (f2 k)).toLoadRect f) hf g
  -- the vector load of the f32 slot, through its rectangle of the whole buffer
  iapply (wp_load (defs := defs₀ (F := F)) (Γ := .empty) 𝒱₀ (c : Thread nD τ) none Set.univ (m := fM) (r := (fRect (f2 k)).toLoadRect)
    (S := (fSl (f2 k)).view.set) (q := fullShare) (f := f) (fSl_loads (f2 k))) $$ Hf
  iintro Hf
  -- the load of the bf16 slot, whose answer nothing reads
  iapply (wp_load (defs := defs₀ (F := F)) (Γ := .empty) 𝒱₀ (c : Thread nD τ) none Set.univ (m := bM) (r := (bRect (b4 k)).toLoadRect)
    (S := (bSl (b4 k)).view.set) (q := fullShare) (f := g) (bSl_loads (b4 k))) $$ Hb
  iintro Hb
  -- the store of the narrowed vector, whole, into the bf16 slot
  iapply (wp_store (defs := defs₀ (F := F)) (Γ := .empty) 𝒱₀ (c : Thread nD τ) none Set.univ (m := bM) (r := bRect (b4 k))
    (S := (bSl (b4 k)).view.set) (f := g) (bSl_stores (b4 k))) $$ Hb
  iintro Hb
  -- the slot is lent half a share to each copy
  ihave Hb2 := (pointsTo_share (PosShare.mem_left_op_right fullShare)).1 $$ Hb
  icases Hb2 with ⟨HbL, HbR⟩
  -- the remote copy: send cell k here, receive cell k on the partner
  iapply (wp_send_pointsTo (defs := defs₀ (F := F)) (Γ := .empty) 𝒱₀ ER (sched m) (c : Thread nD τ) none
      (c' := (Dev.tc (pr c) : Thread nD τ)) (src := bSl (b4 k)) (dst := oCh c k) (sS := SemLoc.dma (sendS k)) (sem := SemLoc.dma (recvS k))
      (q := hL) (fd := o1) (r₁ := 0) (r₂ := 0) (d₁ := ()) (d₂ := ()) (κ₁ := κs) (κ₂ := κr) (W := W) (Es := Set.univ)
      hd1' hd2' () () Nb rfl (amount_send m c k () 0) (amount_recv m (pr c) k () 0)
      (O₀ := Oup c (j + 1)) (Oup c j) hO (send_pay m c k _) (recv_pay m c k o1 _ hval) (Topo.routes_tc _ _)) $$ [Is Ir HbL Ho1 HO Ts Rs Tr Rr]
  · isplitl [Is]; · iexact Is
    isplitl [Ir]; · iexact Ir
    isplitl [HbL]; · iexact HbL
    isplitl [Ho1]; · iexact Ho1
    isplitl [HO]; · iexact HO
    isplitl [Ts]; · iexact Ts
    isplitl [Rs]; · iexact Rs
    isplitl [Tr]; · iexact Tr
    iexact Rr
  iintro ⟨Cs, HO⟩
  -- the local copy: round k / 4 of the slot's store cell
  iapply (wp_copy_pointsTo (defs := defs₀ (F := F)) (Γ := .empty) 𝒱₀ ER (sched m) (c : Thread nD τ) none
      (src := bSl (b4 k)) (dst := oCh c k) (sem := SemLoc.dma (storeS (b4 k))) (q := hR) (fd := o2) (r := k.val / 4) (d := ()) (κ := κt)
      (Es := Set.univ) hd3' () Nb rfl (amount_store m c (b4 k) () (k.val / 4)) (store_pay m c k o2 _ hval _)) $$ [It HbR Ho2 Tt Rt]
  · isplitl [It]; · iexact It
    isplitl [HbR]; · iexact HbR
    isplitl [Ho2]; · iexact Ho2
    isplitl [Tt]; · iexact Tt
    iexact Rt
  iintro Ct
  iapply Hk
  isplitl [Hf]
  · iapply (fAny_intro c (f2 k) f); iexact Hf
  isplitl [Cs]; · iexact Cs
  isplitl [Ct]; · iexact Ct
  iexact HO

end Cert.Kernel.AG

end
-- ==== Proof.AGW.Regions.lean ====
/-
  Cutting the buffers along the chunks and slots, and putting them back.

  `x`'s 32768 rows are sixteen chunks of 2048; the result's 65536 rows are the sixteen chunks of the device's own half
  and the sixteen of the partner's (the two halves are rows `[32768·(d/16), 32768·(d/16) + 32768)` for `d` the device
  and its partner, which sit at the two x coordinates); the f32 scratch is two slots, the bf16 scratch four.
  Points-to assertions split and join along these pairwise disjoint element sets; a slot's full share is two halves.
-/
import proofs.«900687_g7700000000000688_dist_ag_v7x_xyz2x4x4_x_m32768_n1024_bf16_1_alg».proof.Proof.AGW.Data

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Rg

/-! ## A buffer along a family of pairwise disjoint element sets

  A points-to of a union of pairwise disjoint sets is the points-tos of the sets; forgetting the contents of each
  is one direction, and choosing contents that agree with each piece on its own set is the other. -/

section General
variable {ℓ : Loc nD τ sig} {q : PosShare TreeShare} {T : Type}

/-- The union at contents `f`: each set at some contents (namely `f`). -/
theorem pts_split_any (S : Finset T) (K : T → Finset (Idx ℓ)) (hd : ∀ t t', t ≠ t' → Disjoint (K t) (K t'))
    (f : Buf (Elt F) ℓ) :
    (ℓ ↦[S.biUnion K]{q} f : sProp 𝕄) ⊢ bigSep S fun t => iprop(∃ g, ℓ ↦[K t]{q} g) := by
  rw [pointsTo_biUnion S K fun t _ t' _ h => hd t t' h]
  have h1 : ∀ t, (ℓ ↦[K t]{q} f : sProp 𝕄) ⊢ iprop(∃ g, ℓ ↦[K t]{q} g) := by
    intro t; iintro H; iexists f; iexact H
  exact bigSep_mono fun t _ => h1 t

/-- Each set of a nonempty family at contents satisfying a property that only looks at the set: the union at contents
    satisfying all of them (the contents agree with each piece's on its set). -/
theorem pts_join_any (S : Finset T) (hS : S.Nonempty) (K : T → Finset (Idx ℓ))
    (hd : ∀ t t', t ≠ t' → Disjoint (K t) (K t')) (P : T → Buf (Elt F) ℓ → Prop)
    (hP : ∀ t f g, (∀ i ∈ K t, g i = f i) → P t f → P t g) :
    bigSep S (fun t => iprop(∃ f, ⌜P t f⌝ ∗ ℓ ↦[K t]{q} f))
      ⊢ (iprop(∃ g, ⌜∀ t ∈ S, P t g⌝ ∗ ℓ ↦[S.biUnion K]{q} g) : sProp 𝕄) := by
  classical
  induction hS using Finset.Nonempty.cons_induction with
  | singleton a =>
    rw [bigSep_singleton, Finset.singleton_biUnion]
    iintro ⟨%f, %hf, H⟩
    iexists f
    isplitr
    · ipureintro; intro t ht; rw [Finset.mem_singleton.mp ht]; exact hf
    · iexact H
  | cons a s ha hs ih =>
    rw [Finset.cons_eq_insert, bigSep_insert ha, Finset.biUnion_insert]
    have hdS : Disjoint (K a) (s.biUnion K) :=
      (Finset.disjoint_biUnion_right _ _ _).mpr fun t' ht' => hd a t' fun e => ha (e ▸ ht')
    refine (show iprop((∃ f, ⌜P a f⌝ ∗ ℓ ↦[K a]{q} f) ∗ bigSep s (fun t => iprop(∃ f, ⌜P t f⌝ ∗ ℓ ↦[K t]{q} f))) ⊢ _ from ?_)
    iintro ⟨⟨%fa, %hfa, Ha⟩, HS⟩
    ihave H := ih $$ HS
    icases H with ⟨%g, %hg, HS⟩
    iexists (s.biUnion K).piecewise g fa
    isplitr
    · ipureintro
      intro t ht
      rcases Finset.mem_insert.mp ht with e | ht
      · rw [e]
        exact hP a fa _ (fun i hi => Finset.piecewise_eq_of_notMem _ _ _ (Finset.disjoint_left.mp hdS hi)) hfa
      · exact hP t g _ (fun i hi => Finset.piecewise_eq_of_mem _ _ _ (Finset.mem_biUnion.mpr ⟨t, ht, hi⟩)) (hg t ht)
    · iapply (pointsTo_join hdS)
      isplitl [Ha]; · iexact Ha
      iexact HS

/-- The same with nothing asked of the contents. -/
theorem pts_join_any' (S : Finset T) (hS : S.Nonempty) (K : T → Finset (Idx ℓ))
    (hd : ∀ t t', t ≠ t' → Disjoint (K t) (K t')) :
    bigSep S (fun t => iprop(∃ f : Buf (Elt F) ℓ, ℓ ↦[K t]{q} f))
      ⊢ (iprop(∃ g, ℓ ↦[S.biUnion K]{q} g) : sProp 𝕄) := by
  have h1 : bigSep S (fun t => iprop(∃ f : Buf (Elt F) ℓ, ℓ ↦[K t]{q} f))
      ⊢ (bigSep S (fun t => iprop(∃ f : Buf (Elt F) ℓ, ⌜True⌝ ∗ ℓ ↦[K t]{q} f)) : sProp 𝕄) := by
    have h0 : ∀ t, (iprop(∃ f : Buf (Elt F) ℓ, ℓ ↦[K t]{q} f) : sProp 𝕄) ⊢ iprop(∃ f : Buf (Elt F) ℓ, ⌜True⌝ ∗ ℓ ↦[K t]{q} f) := by
      intro t
      iintro ⟨%f, H⟩; iexists f; isplitr
      · ipureintro; trivial
      · iexact H
    exact bigSep_mono fun t _ => h0 t
  refine h1.trans ((pts_join_any S hS K hd (fun _ _ => True) (fun _ _ _ _ _ => trivial)).trans ?_)
  iintro ⟨%g, -, H⟩; iexists g; iexact H

/-- A buffer at some contents is, along a cover by pairwise disjoint sets, each set at some contents. -/
theorem any_cover [Fintype T] [Nonempty T] (K : T → Finset (Idx ℓ))
    (hd : ∀ t t', t ≠ t' → Disjoint (K t) (K t')) (hcov : (Finset.univ : Finset T).biUnion K = Finset.univ) :
    (iprop(∃ f : Buf (Elt F) ℓ, ℓ ↦{q} f) : sProp 𝕄)
      ⊣⊢ bigSep Finset.univ fun t : T => iprop(∃ f : Buf (Elt F) ℓ, ℓ ↦[K t]{q} f) := by
  constructor
  · iintro ⟨%f, H⟩
    iapply (pts_split_any Finset.univ K hd f)
    rw [hcov]; iexact H
  · refine (pts_join_any' Finset.univ Finset.univ_nonempty K hd).trans ?_
    rw [hcov]

end General

/-! ## The element sets: which rows (or which slot) each piece is -/

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev bL (c : Dev nD) : Loc nD τ sig := (c : Thread nD τ).loc cc0_scratch1

/-- Chunk `k` of `x` is the elements whose row is in `[2048k, 2048k + 2048)` (every column). -/
theorem mem_xSet (k : Fin 16) (i : S32768x1024.Idx) :
    i ∈ (xCh k).view.set ↔ 2048 * k.val ≤ (i (0 : Fin 2)).val ∧ (i (0 : Fin 2)).val < 2048 * k.val + 2048 := by
  have h : (xCh k).view.set = (Rect.unit (s := S32768x1024) ![2048 * k.val, 0] S2048x1024.size (inb_x k)).set :=
    View.set_slice_whole main_arg0 _
  have h1 : (i (1 : Fin 2)).val < 1024 := (i (1 : Fin 2)).isLt
  rw [h]
  refine Rect.mem_set_unit.trans ⟨fun H => H (0 : Fin 2), fun H => Fin.forall_fin_two.mpr ⟨H, Nat.zero_le _, ?_⟩⟩
  show (i (1 : Fin 2)).val < 0 + 1024
  omega

/-- Chunk `k` of the half of the result that device `d`'s block fills: the rows
    `[32768·(d/16) + 2048k, 32768·(d/16) + 2048k + 2048)`. -/
theorem mem_oSet (d : Dev nD) (k : Fin 16) (i : S65536x1024.Idx) :
    i ∈ (oCh d k).view.set ↔ 32768 * (d.val / 16) + 2048 * k.val ≤ (i (0 : Fin 2)).val
      ∧ (i (0 : Fin 2)).val < 32768 * (d.val / 16) + 2048 * k.val + 2048 := by
  have h : (oCh d k).view.set
      = (Rect.unit (s := S65536x1024) (k0_off1 d (BitVec.ofNat 32 (2048 * k.val))) S2048x1024.size (k0_off1_inb d k)).set :=
    View.set_slice_whole main_v1 _
  have h1 : (i (1 : Fin 2)).val < 1024 := (i (1 : Fin 2)).isLt
  rw [h]
  refine Rect.mem_set_unit.trans ?_
  rw [k0_off1_eq d k]
  refine ⟨fun H => H (0 : Fin 2), fun H => Fin.forall_fin_two.mpr ⟨H, Nat.zero_le _, ?_⟩⟩
  show (i (1 : Fin 2)).val < 0 + 1024
  omega

/-- Slot `j` of the f32 scratch is the elements whose leading coordinate is `j`. -/
theorem mem_fSet (j : Fin 2) (i : S2x2048x1024.Idx) : i ∈ (fSl j).view.set ↔ (i (0 : Fin 3)).val = j.val := by
  have h : (fSl j).view.set = (fRect j).set :=
    (View.set_reshape _ _).trans (View.set_slice_whole cc0_scratch0 _)
  have h1 : (i (1 : Fin 3)).val < 2048 := (i (1 : Fin 3)).isLt
  have h2 : (i (2 : Fin 3)).val < 1024 := (i (2 : Fin 3)).isLt
  rw [h]
  refine Rect.mem_set_unit.trans ⟨fun H => ?_, fun H =>
    Fin.forall_fin_succ.mpr ⟨?_, Fin.forall_fin_two.mpr ⟨⟨Nat.zero_le _, ?_⟩, ⟨Nat.zero_le _, ?_⟩⟩⟩⟩
  · have H0 : j.val ≤ (i (0 : Fin 3)).val ∧ (i (0 : Fin 3)).val < j.val + 1 := H (0 : Fin 3)
    omega
  · show j.val ≤ (i (0 : Fin 3)).val ∧ (i (0 : Fin 3)).val < j.val + 1
    omega
  · show (i (1 : Fin 3)).val < 0 + 2048
    omega
  · show (i (2 : Fin 3)).val < 0 + 1024
    omega

/-- Slot `j` of the bf16 scratch likewise. -/
theorem mem_bSet (j : Fin 4) (i : S4x2048x1024.Idx) : i ∈ (bSl j).view.set ↔ (i (0 : Fin 3)).val = j.val := by
  have h : (bSl j).view.set = (bRect j).set :=
    (View.set_reshape _ _).trans (View.set_slice_whole cc0_scratch1 _)
  have h1 : (i (1 : Fin 3)).val < 2048 := (i (1 : Fin 3)).isLt
  have h2 : (i (2 : Fin 3)).val < 1024 := (i (2 : Fin 3)).isLt
  rw [h]
  refine Rect.mem_set_unit.trans ⟨fun H => ?_, fun H =>
    Fin.forall_fin_succ.mpr ⟨?_, Fin.forall_fin_two.mpr ⟨⟨Nat.zero_le _, ?_⟩, ⟨Nat.zero_le _, ?_⟩⟩⟩⟩
  · have H0 : j.val ≤ (i (0 : Fin 3)).val ∧ (i (0 : Fin 3)).val < j.val + 1 := H (0 : Fin 3)
    omega
  · show j.val ≤ (i (0 : Fin 3)).val ∧ (i (0 : Fin 3)).val < j.val + 1
    omega
  · show (i (1 : Fin 3)).val < 0 + 2048
    omega
  · show (i (2 : Fin 3)).val < 0 + 1024
    omega

/-! ### `x`: sixteen chunks -/

def xSet (c : Dev nD) (k : Fin 16) : Finset (Idx (xL c)) := (xCh k).view.set

theorem xSet_disj (c : Dev nD) : ∀ k k' : Fin 16, k ≠ k' → Disjoint (xSet c k) (xSet c k') := by
  intro k k' h
  rw [Finset.disjoint_left]
  intro i hi hi'
  have a := (mem_xSet k i).mp hi
  have b := (mem_xSet k' i).mp hi'
  have : k.val ≠ k'.val := fun e => h (Fin.ext e)
  omega

theorem xSet_cover (c : Dev nD) : (Finset.univ : Finset (Fin 16)).biUnion (xSet c) = Finset.univ := by
  refine Finset.eq_univ_of_forall fun i => Finset.mem_biUnion.mpr ?_
  have hi : (i (0 : Fin 2)).val < 32768 := (i (0 : Fin 2)).isLt
  obtain ⟨k, hk⟩ : ∃ k : Fin 16, k.val = (i (0 : Fin 2)).val / 2048 := ⟨⟨_, by omega⟩, rfl⟩
  exact ⟨k, Finset.mem_univ _, (mem_xSet k i).mpr ⟨by omega, by omega⟩⟩

/-! ### The result: the sixteen chunks of the device's half, then the sixteen of the partner's -/

def oSet (c : Dev nD) : Fin 16 ⊕ Fin 16 → Finset (Idx (oL c)) :=
  Sum.elim (fun k => (oCh c k).view.set) (fun k => (oCh (pr c) k).view.set)

theorem oSet_disj (c : Dev nD) : ∀ t t' : Fin 16 ⊕ Fin 16, t ≠ t' → Disjoint (oSet c t) (oSet c t') := by
  have hx := pr_x c
  have hc : c.val < 32 := c.isLt
  intro t t' h
  rw [Finset.disjoint_left]
  intro i hi hi'
  rcases t with k | k <;> rcases t' with k' | k'
  · have a := (mem_oSet c k i).mp hi
    have b := (mem_oSet c k' i).mp hi'
    have : k.val ≠ k'.val := fun e => h (congrArg Sum.inl (Fin.ext e))
    omega
  · have a := (mem_oSet c k i).mp hi
    have b := (mem_oSet (pr c) k' i).mp hi'
    have := k.isLt; have := k'.isLt
    omega
  · have a := (mem_oSet (pr c) k i).mp hi
    have b := (mem_oSet c k' i).mp hi'
    have := k.isLt; have := k'.isLt
    omega
  · have a := (mem_oSet (pr c) k i).mp hi
    have b := (mem_oSet (pr c) k' i).mp hi'
    have : k.val ≠ k'.val := fun e => h (congrArg Sum.inr (Fin.ext e))
    omega

theorem oSet_cover (c : Dev nD) : (Finset.univ : Finset (Fin 16 ⊕ Fin 16)).biUnion (oSet c) = Finset.univ := by
  have hx := pr_x c
  have hc : c.val < 32 := c.isLt
  refine Finset.eq_univ_of_forall fun i => Finset.mem_biUnion.mpr ?_
  have hi : (i (0 : Fin 2)).val < 65536 := (i (0 : Fin 2)).isLt
  obtain ⟨k, hk⟩ : ∃ k : Fin 16, k.val = ((i (0 : Fin 2)).val % 32768) / 2048 := ⟨⟨_, by omega⟩, rfl⟩
  by_cases hh : (i (0 : Fin 2)).val / 32768 = c.val / 16
  · exact ⟨Sum.inl k, Finset.mem_univ _, (mem_oSet c k i).mpr ⟨by omega, by omega⟩⟩
  · exact ⟨Sum.inr k, Finset.mem_univ _, (mem_oSet (pr c) k i).mpr ⟨by omega, by omega⟩⟩

/-- What a chunk's contents are asked to read as. -/
def oP (c : Dev nD) : Fin 16 ⊕ Fin 16 → Buf (Elt F) (oL c) → Prop :=
  Sum.elim (fun k f => (oCh c k).view.read (Elt F) f = cval m c k)
    (fun k f => (oCh (pr c) k).view.read (Elt F) f = cval m (pr c) k)

/-- A chunk's reading depends on the contents on the chunk's rows only. -/
theorem oP_congr (c : Dev nD) : ∀ (t : Fin 16 ⊕ Fin 16) (f g : Buf (Elt F) (oL c)),
    (∀ i ∈ oSet c t, g i = f i) → oP m c t f → oP m c t g := by
  rintro (k | k) f g h hf
  · exact (View.read_congr (v := (oCh c k).view) (fun i hi => h i hi)).trans hf
  · exact (View.read_congr (v := (oCh (pr c) k).view) (fun i hi => h i hi)).trans hf

/-! ### The scratch buffers: their slots -/

def fSet (c : Dev nD) (j : Fin 2) : Finset (Idx (fL c)) := (fSl j).view.set
def bSet (c : Dev nD) (j : Fin 4) : Finset (Idx (bL c)) := (bSl j).view.set

theorem fSet_disj (c : Dev nD) : ∀ j j' : Fin 2, j ≠ j' → Disjoint (fSet c j) (fSet c j') := by
  intro j j' h
  rw [Finset.disjoint_left]
  intro i hi hi'
  exact h (Fin.ext (((mem_fSet j i).mp hi).symm.trans ((mem_fSet j' i).mp hi')))

theorem fSet_cover (c : Dev nD) : (Finset.univ : Finset (Fin 2)).biUnion (fSet c) = Finset.univ := by
  refine Finset.eq_univ_of_forall fun i => Finset.mem_biUnion.mpr ?_
  have hi : (i (0 : Fin 3)).val < 2 := (i (0 : Fin 3)).isLt
  exact ⟨⟨(i (0 : Fin 3)).val, hi⟩, Finset.mem_univ _, (mem_fSet ⟨(i (0 : Fin 3)).val, hi⟩ i).mpr rfl⟩

theorem bSet_disj (c : Dev nD) : ∀ j j' : Fin 4, j ≠ j' → Disjoint (bSet c j) (bSet c j') := by
  intro j j' h
  rw [Finset.disjoint_left]
  intro i hi hi'
  exact h (Fin.ext (((mem_bSet j i).mp hi).symm.trans ((mem_bSet j' i).mp hi')))

theorem bSet_cover (c : Dev nD) : (Finset.univ : Finset (Fin 4)).biUnion (bSet c) = Finset.univ := by
  refine Finset.eq_univ_of_forall fun i => Finset.mem_biUnion.mpr ?_
  have hi : (i (0 : Fin 3)).val < 4 := (i (0 : Fin 3)).isLt
  exact ⟨⟨(i (0 : Fin 3)).val, hi⟩, Finset.mem_univ _, (mem_bSet ⟨(i (0 : Fin 3)).val, hi⟩ i).mpr rfl⟩

/-! ### The kernel's DMA semaphores: two, four, sixteen and sixteen make the pool of 38 -/

def semOf : Fin 2 ⊕ Fin 4 ⊕ Fin 16 ⊕ Fin 16 → DmaSem sig :=
  Sum.elim loadS (Sum.elim storeS (Sum.elim sendS recvS))

/-- Where each sits in the pool. -/
theorem semOf_val (x : Fin 2 ⊕ Fin 4 ⊕ Fin 16 ⊕ Fin 16) :
    (semOf x).val = Sum.elim (fun j : Fin 2 => j.val) (Sum.elim (fun j : Fin 4 => 2 + j.val) (Sum.elim (fun k : Fin 16 => 6 + k.val) (fun k : Fin 16 => 22 + k.val))) x := by
  rcases x with j | j | k | k
  · exact loadS_val j
  · exact storeS_val j
  · exact sendS_val k
  · exact recvS_val k

theorem semOf_inj : Function.Injective semOf := by
  intro x y h
  have hv := congrArg Fin.val h
  rw [semOf_val, semOf_val] at hv
  rcases x with a | a | a | a <;> rcases y with b | b | b | b <;>
    simp only [Sum.elim_inl, Sum.elim_inr] at hv <;>
    first
      | (have := a.isLt; have := b.isLt; omega)
      | (have e : a = b := Fin.ext (by omega); rw [e])

theorem semOf_card : Fintype.card (Fin 2 ⊕ Fin 4 ⊕ Fin 16 ⊕ Fin 16) = Fintype.card (DmaSem sig) := by
  have h : Fintype.card (DmaSem sig) = 38 := Fintype.card_fin 38
  rw [h]
  simp

def semEquiv : (Fin 2 ⊕ Fin 4 ⊕ Fin 16 ⊕ Fin 16) ≃ DmaSem sig :=
  Equiv.ofBijective semOf ((Fintype.bijective_iff_injective_and_card semOf).mpr ⟨semOf_inj, semOf_card⟩)

end Rg

open Rg in
/-- `x` whole is its sixteen chunks. -/
theorem x_split (c : Dev nD) :
    ((((c : Thread nD τ).loc main_arg0) ↦{fullShare} xblk m c : sProp 𝕄)) ⊣⊢ bigSep Finset.univ fun k : Fin 16 => xPts m c k := by
  have h : ((xL c) ↦[(Finset.univ : Finset (Fin 16)).biUnion (xSet c)]{fullShare} xblk m c : sProp 𝕄)
      = bigSep Finset.univ fun k : Fin 16 => (xL c) ↦[xSet c k]{fullShare} xblk m c :=
    pointsTo_biUnion Finset.univ (xSet c) fun k _ k' _ hk => xSet_disj c k k' hk
  rw [xSet_cover c] at h
  exact BiEntails.of_eq h

open Rg in
/-- The result array whole, at its launch contents, is the sixteen chunks of the device's half and the sixteen of
    the partner's, each at some contents. (One direction: the contents are forgotten.) -/
theorem o_split (c : Dev nD) (f : Buf (Elt F) ((c : Thread nD τ).loc main_v1)) :
    ((((c : Thread nD τ).loc main_v1) ↦{fullShare} f : sProp 𝕄))
      ⊢ iprop((bigSep Finset.univ fun k : Fin 16 => oAny c c k) ∗ (bigSep Finset.univ fun k : Fin 16 => oAny c (pr c) k)) := by
  have h1 : ((oL c) ↦{fullShare} f : sProp 𝕄) = (oL c) ↦[(Finset.univ : Finset (Fin 16 ⊕ Fin 16)).biUnion (oSet c)]{fullShare} f := by
    rw [oSet_cover c]
  have h2 : ((oL c) ↦[(Finset.univ : Finset (Fin 16 ⊕ Fin 16)).biUnion (oSet c)]{fullShare} f : sProp 𝕄)
      ⊢ bigSep Finset.univ fun t : Fin 16 ⊕ Fin 16 => iprop(∃ g, (oL c) ↦[oSet c t]{fullShare} g) :=
    pts_split_any Finset.univ (oSet c) (oSet_disj c) f
  have h3 : (bigSep Finset.univ fun t : Fin 16 ⊕ Fin 16 => iprop(∃ g : Buf (Elt F) (oL c), (oL c) ↦[oSet c t]{fullShare} g) : sProp 𝕄)
      = iprop((bigSep Finset.univ fun k : Fin 16 => oAny c c k) ∗ (bigSep Finset.univ fun k : Fin 16 => oAny c (pr c) k)) :=
    bigSep_univ_sum _
  exact (Entails.of_eq h1).trans (h2.trans (Entails.of_eq h3))

open Rg in
/-- Thirty-two chunks, each reading as its narrowed chunk, are a whole result array satisfying `Res`. -/
theorem o_join (c : Dev nD) :
    iprop((bigSep Finset.univ fun k : Fin 16 => owns (c : Thread nD τ) (oCh c k) fullShare (cval m c k))
        ∗ (bigSep Finset.univ fun k : Fin 16 => owns (c : Thread nD τ) (oCh (pr c) k) fullShare (cval m (pr c) k)))
      ⊢ (iprop(∃ g, iprop(⌜Res m c g⌝ ∗ (((c : Thread nD τ).loc main_v1) ↦{fullShare} g))) : sProp 𝕄) := by
  have h0 : (bigSep Finset.univ fun t : Fin 16 ⊕ Fin 16 =>
          iprop(∃ f : Buf (Elt F) (oL c), ⌜oP m c t f⌝ ∗ (oL c) ↦[oSet c t]{fullShare} f) : sProp 𝕄)
      = iprop((bigSep Finset.univ fun k : Fin 16 => owns (c : Thread nD τ) (oCh c k) fullShare (cval m c k))
        ∗ (bigSep Finset.univ fun k : Fin 16 => owns (c : Thread nD τ) (oCh (pr c) k) fullShare (cval m (pr c) k))) :=
    bigSep_univ_sum _
  have h1 := pts_join_any (F := F) (q := fullShare) Finset.univ Finset.univ_nonempty (oSet c) (oSet_disj c) (oP m c) (oP_congr m c)
  refine (Entails.of_eq h0.symm).trans (h1.trans ?_)
  iintro ⟨%g, %hg, H⟩
  iexists g
  isplitr
  · ipureintro
    intro k
    exact ⟨hg (Sum.inl k) (Finset.mem_univ _), hg (Sum.inr k) (Finset.mem_univ _)⟩
  · rw [oSet_cover c]; iexact H

open Rg in
/-- The f32 scratch is its two slots, -/
theorem f_split (c : Dev nD) :
    (iprop(∃ f : Buf (Elt F) ((c : Thread nD τ).loc cc0_scratch0), ((c : Thread nD τ).loc cc0_scratch0) ↦{fullShare} f) : sProp 𝕄)
      ⊣⊢ iprop(fAny c 0 ∗ fAny c 1) := by
  have h := any_cover (F := F) (q := fullShare) (fSet c) (fSet_disj c) (fSet_cover c)
  rw [bigSep_univ_two] at h
  exact h
open Rg in
/-- the bf16 scratch its four. -/
theorem b_split (c : Dev nD) :
    (iprop(∃ f : Buf (Elt F) ((c : Thread nD τ).loc cc0_scratch1), ((c : Thread nD τ).loc cc0_scratch1) ↦{fullShare} f) : sProp 𝕄)
      ⊣⊢ iprop(bAny c 0 fullShare ∗ bAny c 1 fullShare ∗ bAny c 2 fullShare ∗ bAny c 3 fullShare) := by
  have h := any_cover (F := F) (q := fullShare) (bSet c) (bSet_disj c) (bSet_cover c)
  rw [bigSep_univ_eq_bigSepL ([0, 1, 2, 3] : List (Fin 4)) (by decide) (by decide)] at h
  exact h

/-- A bf16 slot's two half shares, each at some contents, are the slot. -/
theorem b_join (c : Dev nD) (j : Fin 4) : iprop(bAny c j hL ∗ bAny c j hR) ⊢ (bAny c j fullShare : sProp 𝕄) := by
  unfold bAny
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share (PosShare.mem_left_op_right fullShare)).2
  isplitl [H₁]; · iexact H₁
  iexact H₂'

open Rg in
/-- The kernel's own semaphores are the two load, four store, sixteen send and sixteen receive semaphores. -/
theorem sems0_join (c : Dev nD) :
    iprop((bigSep Finset.univ fun j : Fin 2 => semVal (loadCell c j) 0) ∗ (bigSep Finset.univ fun j : Fin 4 => semVal (storeCell c j) 0)
        ∗ (bigSep Finset.univ fun k : Fin 16 => semVal (sendCell c k) 0) ∗ (bigSep Finset.univ fun k : Fin 16 => semVal (recvCell c k) 0))
      ⊢ (sems0 c : sProp 𝕄) := by
  have e : (sems0 c : sProp 𝕄)
      = iprop((bigSep Finset.univ fun j : Fin 2 => semVal (loadCell c j) 0) ∗ (bigSep Finset.univ fun j : Fin 4 => semVal (storeCell c j) 0)
        ∗ (bigSep Finset.univ fun k : Fin 16 => semVal (sendCell c k) 0) ∗ (bigSep Finset.univ fun k : Fin 16 => semVal (recvCell c k) 0)) := by
    unfold sems0
    rw [bigSep_univ_equiv semEquiv (fun i : DmaSem sig => (semVal ((c : Thread nD τ), SemLoc.dma i) 0 : sProp 𝕄)),
      bigSep_univ_sum, bigSep_univ_sum, bigSep_univ_sum]
    rfl
  exact Entails.of_eq e.symm

end Cert.Kernel.AG

end
-- ==== Proof.AGW.Inv.lean ====
/-
  The invariant between two chunks: where every chunk of a device stands once `n` of them have been started.

  Chunk `k`'s LOAD is not yet issued while `n < k` (its rows of `x` and the load's token wait), in flight when
  `n = k` (the credit to wait with and the load cell's position), and over after (`x`'s rows are back).
  Its two COPIES OUT are not yet issued while `n ≤ k` (the three tokens, the positions of its send and receive
  cells with the receive credit, the partner's rows and its own rows to be written), in flight while `k < n ≤ k + 4`
  (the send and store credits, the store cell's position), and over after: both landings' rows read as the narrowed
  chunks, and its send and receive cells are past their one round.

  The f32 slots and the bf16 slots travel as tickets. `FFor i` is the f32 slot `i mod 2` free, its load cell at round
  `i / 2` and that round reached: what the load of chunk `i` takes; the wait of load `i` and the read of the slot give
  back `FFor (i + 2)`. `BFor i` likewise for bf16 slot `i mod 4` and round `i / 4` of its store cell: what the copies
  out of chunk `i` take; the three waits of chunk `i` give back `BFor (i + 4)`.
-/
import proofs.«900687_g7700000000000688_dist_ag_v7x_xyz2x4x4_x_m32768_n1024_bf16_1_alg».proof.Proof.AGW.Core
import proofs.«900687_g7700000000000688_dist_ag_v7x_xyz2x4x4_x_m32768_n1024_bf16_1_alg».proof.Proof.AGW.Regions

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

def f2n (i : ℕ) : Fin 2 := ⟨i % 2, Nat.mod_lt _ (by decide)⟩
def b4n (i : ℕ) : Fin 4 := ⟨i % 4, Nat.mod_lt _ (by decide)⟩

/-- f32 slot `i mod 2` ready for the load of chunk `i`. -/
def FFor (i : ℕ) : sProp 𝕄 :=
  iprop(fAny c (f2n i) ∗ atPos ER (loadCell c (f2n i)) (i / 2) ∅ 0 ∗ reached ER (loadCell c (f2n i)) (i / 2))
/-- bf16 slot `i mod 4` ready for the copies out of chunk `i`. -/
def BFor (i : ℕ) : sProp 𝕄 :=
  iprop(bAny c (b4n i) fullShare ∗ atPos ER (storeCell c (b4n i)) (i / 4) ∅ 0 ∗ reached ER (storeCell c (b4n i)) (i / 4))

def LFresh (k : Fin 16) : sProp 𝕄 := iprop(xPts m c k ∗ dutyTok ER (loadCell c (f2 k)) (k.val / 2) ())
def LFly (k : Fin 16) : sProp 𝕄 :=
  iprop(cred (tallyAt (loadCell c (f2 k)) () Nf) ∗ atPos ER (loadCell c (f2 k)) (k.val / 2) ∅ 0)

def SFresh (k : Fin 16) : sProp 𝕄 :=
  iprop(dutyTok ER (storeCell c (b4 k)) (k.val / 4) () ∗ dutyTok ER (sendCell c k) 0 () ∗ dutyTok ER (recvCell (pr c) k) 0 ()
    ∗ chunkPos c k ∗ oAny (pr c) c k ∗ oAny c c k)
def SFly (k : Fin 16) : sProp 𝕄 :=
  iprop(cred (tallyAt (sendCell c k) () Nb) ∗ cred (tallyAt (storeCell c (b4 k)) () Nb)
    ∗ atPos ER (storeCell c (b4 k)) (k.val / 4) ∅ 0 ∗ chunkPos c k)
def SDone (k : Fin 16) : sProp 𝕄 :=
  iprop(owns (c : Thread nD τ) (oCh c k) fullShare (cval m c k) ∗ owns (c : Thread nD τ) (oCh (pr c) k) fullShare (cval m (pr c) k)
    ∗ atPos ER (sendCell c k) 1 ∅ 0 ∗ atPos ER (recvCell c k) 1 ∅ 0)

/-- Where chunk `k` stands once `n` chunks have been started. -/
def chunkSt (n : ℕ) (k : Fin 16) : sProp 𝕄 :=
  iprop((if n < k.val then LFresh m c k else if n = k.val then LFly c k else xPts m c k)
    ∗ (if n ≤ k.val then SFresh c k else if n ≤ k.val + 4 then SFly c k else SDone m c k))

/-- The f32 tickets held between chunks: the next load's while a load is still to come, both slots' at the end. -/
def fpart (n : ℕ) : sProp 𝕄 := if n < 16 then FFor c (n + 1) else iprop(FFor c 16 ∗ FFor c 17)
/-- The bf16 tickets held between chunks: the first four chunks' until each is used, the last four waits' at the end. -/
def bpart (n : ℕ) : sProp 𝕄 :=
  bigSep ((Finset.range 20).filter fun i => (n ≤ i ∧ i < 4) ∨ (16 ≤ i ∧ i < n)) (BFor c)

/-- Once `n` chunks have been started (`n ≤ 16`), and, for `16 < n ≤ 20`, once the waits of chunk `n - 5` are over. -/
def Inv (n : ℕ) : sProp 𝕄 :=
  iprop((∃ W, owes (c : Thread nD τ) (Oup c (16 - n)) W) ∗ (bigSep Finset.univ (chunkSt m c n)) ∗ fpart c n ∗ bpart c n
    ∗ atPos ER (barCell c) 1 ∅ 0)

/-- One summand out of a big separating conjunction, at this model. -/
theorem bigSep_elim' {I : Type} [DecidableEq I] {s : Finset I} {i : I} (hi : i ∈ s) {Φ : I → sProp 𝕄} : bigSep s Φ ⊢ Φ i := bigSep_elim hi

/-- A cell's invariant, out of the persistent part. -/
theorem iv_own (s : SemLoc sig) : pers m K c ⊢ Iv m K c s := by
  unfold pers Iv
  iintro ⟨HI, -⟩
  ihave H := (bigSep_elim' (Finset.mem_univ (ix s))) $$ HI
  rw [kcell_ix]; iexact H
theorem iv_peer (s : SemLoc sig) : pers m K c ⊢ Iv m K (pr c) s := by
  unfold pers Iv
  iintro ⟨-, HI, -⟩
  ihave H := (bigSep_elim' (Finset.mem_univ (ix s))) $$ HI
  rw [kcell_ix]; iexact H
theorem reached_own (s : SemLoc sig) : pers m K c ⊢ reached ER ((c : Thread nD τ), s) 0 := by
  unfold pers
  iintro ⟨-, -, HR, -⟩
  ihave H := (bigSep_elim' (Finset.mem_univ (ix s))) $$ HR
  rw [kcell_ix]; iexact H
theorem reached_peer (s : SemLoc sig) : pers m K c ⊢ reached ER ((pr c : Thread nD τ), s) 0 := by
  unfold pers
  iintro ⟨-, -, -, HR, -⟩
  ihave H := (bigSep_elim' (Finset.mem_univ (ix s))) $$ HR
  rw [kcell_ix]; iexact H
theorem lev_of : pers m K c ⊢ (levAts L lv : sProp 𝕄) := by
  unfold pers; iintro ⟨-, -, -, -, H⟩; iexact H

end Cert.Kernel.AG

end
-- ==== Proof.AGW.Frags.lean ====
/-
  The four pieces a chunk's iteration is made of, over the invariant's parts, at a symbolic chunk.

  * the wait for chunk `k`'s load: the load in flight becomes the f32 slot reading the chunk, `x`'s rows back, and the
    load cell one round on;
  * the start of chunk `k`'s load: the rows of `x`, the load's token and the slot's ticket become the load in flight;
  * the three waits that end chunk `k`'s copies out (send, receive, store): the copies in flight become both
    landings' rows reading the narrowed chunks, and the bf16 slot's ticket for chunk `k + 4`;
  * chunk `k` narrowed and sent twice: the loaded slot, the bf16 ticket and the chunk's tokens become the copies in
    flight and the f32 ticket for chunk `k + 2`; the device owes one chunk less.
-/
import proofs.«900687_g7700000000000688_dist_ag_v7x_xyz2x4x4_x_m32768_n1024_bf16_1_alg».proof.Proof.AGW.Inv

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Arithmetic of slots and rounds -/

theorem f2n_eq (k : Fin 16) : f2n k.val = f2 k := rfl
theorem b4n_eq (k : Fin 16) : b4n k.val = b4 k := rfl
theorem f2n_add2 (i : ℕ) : f2n (i + 2) = f2n i := Fin.ext (by simp only [f2n]; omega)
theorem b4n_add4 (i : ℕ) : b4n (i + 4) = b4n i := Fin.ext (by simp only [b4n]; omega)

/-- What a wait's destination credits is what the cell's round expects. -/
theorem amt_load (j : Fin 2) : (fSl j).view.dmaCredit = amountOf (SemLoc.dma (loadS j) : SemLoc sig) :=
  (credit_fSl j).trans (amountOf_load j).symm
theorem amt_send (k : Fin 16) (j : Fin 4) : (bSl j).view.dmaCredit = amountOf (SemLoc.dma (sendS k) : SemLoc sig) :=
  (credit_bSl j).trans (amountOf_send k).symm
theorem amt_recv (k : Fin 16) (d : Dev nD) (k' : Fin 16) : (oCh d k').view.dmaCredit = amountOf (SemLoc.dma (recvS k) : SemLoc sig) :=
  (credit_oCh d k').trans (amountOf_recv k).symm
theorem amt_store (j : Fin 4) (d : Dev nD) (k' : Fin 16) : (oCh d k').view.dmaCredit = amountOf (SemLoc.dma (storeS j) : SemLoc sig) :=
  (credit_oCh d k').trans (amountOf_store j).symm

theorem lvOf_load (j : Fin 2) : lvOf (SemLoc.dma (loadS j) : SemLoc sig) ≤ 1 := by
  dsimp only [lvOf]; rw [loadS_val, if_neg (by have := j.isLt; omega)]; exact Nat.zero_le _
theorem lvOf_store (j : Fin 4) : lvOf (SemLoc.dma (storeS j) : SemLoc sig) ≤ 1 := by
  dsimp only [lvOf]; rw [storeS_val, if_neg (by have := j.isLt; omega)]; exact Nat.zero_le _
theorem lvOf_send (k : Fin 16) : lvOf (SemLoc.dma (sendS k) : SemLoc sig) ≤ 1 := by
  dsimp only [lvOf]; rw [sendS_val, if_neg (by have := k.isLt; omega)]; exact Nat.zero_le _

/-- A cell's invariant out of the persistent part, spelt as the rules take it: the device's own cell's, and the partner's. -/
theorem iv_own' (s : SemLoc sig) : pers m K c ⊢ cellInv ER (sched m) (K (c, ix s)) ((c : Thread nD τ), s) := iv_own m K c s
theorem iv_peer' (s : SemLoc sig) : pers m K c ⊢ cellInv ER (sched m) (K (pr c, ix s)) ((pr c : Thread nD τ), s) := iv_peer m K c s

/-! ## The wait for a chunk's load -/

theorem frag_loadWait (k : Fin 16) (j : ℕ) (hj : j ≤ 16) (W : Waits sig Unit)
    {h1 : (xCh k).view.WordExact} {h2 : (fSl (f2 k)).view.WordExact}
    {α : Type} {Q : α → sProp 𝕄} {Kt : PUnit → Prog (TpuEff nD τ sig (Elt F) Λ₀ .tc) α} :
    iprop(pers m K c ∗ LFly c k ∗ owes (c : Thread nD τ) (Oup c j) W
        ∗ ((∃ W', iprop(owes (c : Thread nD τ) (Oup c j) W' ∗ xPts m c k ∗ owns (c : Thread nD τ) (fSl (f2 k)) fullShare (xval m c k)
              ∗ atPos ER (loadCell c (f2 k)) (k.val / 2 + 1) ∅ 0 ∗ reached ER (loadCell c (f2 k)) (k.val / 2 + 1))) -∗ WP c (Kt ⟨⟩) Q))
      ⊢ WP c (.op (.waitDma2 (loadS (f2 k)) (xCh k) (fSl (f2 k)) h1 h2) Kt) Q := by
  unfold LFly
  iintro ⟨#HP, ⟨Hc, Hat⟩, HO, HK⟩
  iapply (wp_waitCell m (K (c, ix (.dma (loadS (f2 k))))) c (loadS (f2 k)) (k.val / 2) (by rw [rounds_load]; have := k.isLt; omega)
      (amt_load (f2 k)) (Oup c j) W (mayWait_low c _ (lvOf_load _) j hj)) $$ [Hc HO Hat]
  · isplitr; · iapply (iv_own' m K c (.dma (loadS (f2 k)))); iexact HP
    isplitl [Hc]; · rw [amountOf_load]; iexact Hc
    isplitl [HO]; · iexact HO
    isplitr; · iapply (lev_of m K c); iexact HP
    iexact Hat
  iintro ⟨HO, Hat, #Hr, Hpay⟩
  ihave Hp := (Entails.of_eq (payload_load m c k ())) $$ Hpay
  unfold loadPay
  icases Hp with ⟨Hf, Hx⟩
  iapply HK
  iexists _
  isplitl [HO]; · iexact HO
  isplitl [Hx]; · iexact Hx
  isplitl [Hf]; · iexact Hf
  isplitl [Hat]; · iexact Hat
  iexact Hr

/-! ## The start of a chunk's load -/

theorem frag_loadStart (k : Fin 16)
    {hsrc : (xCh k).view.WordExact} {hdst : (fSl (f2 k)).view.WordExact}
    {hsem : DmaTarget.Typed .hbm (SemLoc.dma (loadS (f2 k))) (DmaTarget.here (fSl (f2 k)) : DmaTarget nD τ sig .tc .vmem S2048x1024 .f32)}
    {α : Type} {Q : α → sProp 𝕄} {Kt : PUnit → Prog (TpuEff nD τ sig (Elt F) Λ₀ .tc) α} :
    iprop(pers m K c ∗ LFresh m c k ∗ FFor c k.val ∗ (LFly c k -∗ WP c (Kt ⟨⟩) Q))
      ⊢ WP c (.op (.enqueueDma (xCh k) (.here (fSl (f2 k))) (.dma (loadS (f2 k))) hsrc hdst hsem) Kt) Q := by
  unfold LFresh FFor LFly
  rw [f2n_eq]
  iintro ⟨#HP, ⟨Hx, Htok⟩, ⟨Hf, Hat, #Hr⟩, HK⟩
  iapply (wp_loadStart m (K (c, ix (.dma (loadS (f2 k))))) c k) $$ [Hx Htok Hf]
  · isplitr; · iapply (iv_own' m K c (.dma (loadS (f2 k)))); iexact HP
    isplitl [Hx]; · iexact Hx
    isplitl [Hf]; · iexact Hf
    isplitl [Htok]; · iexact Htok
    iexact Hr
  iintro Hc
  iapply HK
  isplitl [Hc]; · iexact Hc
  iexact Hat

/-! ## The three waits that end a chunk's copies out -/

theorem frag_waits (k : Fin 16) (j : ℕ) (hj : j ≤ 16) (hk : k.val < 16 - j) (W : Waits sig Unit)
    {a1 : (oCh c k).view.WordExact} {a2 : (bSl (b4 k)).view.WordExact}
    {b1 : (bSl (b4 k)).view.WordExact} {b2 : (oCh c k).view.WordExact}
    {c1 : (bSl (b4 k)).view.WordExact} {c2 : (oCh c k).view.WordExact}
    {α : Type} {Q : α → sProp 𝕄} {Kt : PUnit → Prog (TpuEff nD τ sig (Elt F) Λ₀ .tc) α} :
    iprop(pers m K c ∗ SFly c k ∗ owes (c : Thread nD τ) (Oup c j) W
        ∗ ((∃ W', iprop(owes (c : Thread nD τ) (Oup c j) W' ∗ SDone m c k ∗ BFor c (k.val + 4))) -∗ WP c (Kt ⟨⟩) Q))
      ⊢ WP c (.op (.waitDma2 (sendS k) (oCh c k) (bSl (b4 k)) a1 a2) fun _ =>
              .op (.waitDma2 (recvS k) (bSl (b4 k)) (oCh c k) b1 b2) fun _ =>
              .op (.waitDma2 (storeS (b4 k)) (bSl (b4 k)) (oCh c k) c1 c2) Kt) Q := by
  unfold SFly chunkPos
  iintro ⟨#HP, ⟨Hcs, Hct, Hatt, Hats, Hatr, Hcr⟩, HO, HK⟩
  -- the send cell: the half share of the bf16 slot lent to the remote copy comes back
  iapply (wp_waitCell m (K (c, ix (.dma (sendS k)))) c (sendS k) 0 (by rw [rounds_send]; decide)
      (amt_send k (b4 k)) (Oup c j) W (mayWait_low c _ (lvOf_send _) j hj)) $$ [Hcs HO Hats]
  · isplitr; · iapply (iv_own' m K c (.dma (sendS k))); iexact HP
    isplitl [Hcs]; · rw [amountOf_send]; iexact Hcs
    isplitl [HO]; · iexact HO
    isplitr; · iapply (lev_of m K c); iexact HP
    iexact Hats
  iintro ⟨HO, Hats, -, Hpay⟩
  ihave HbL := (Entails.of_eq (payload_send m c k ())) $$ Hpay
  unfold sendPay
  -- the receive cell: the partner's copy has landed; its rows read as the partner's narrowed chunk
  iapply (wp_waitCell m (K (c, ix (.dma (recvS k)))) c (recvS k) 0 (by rw [rounds_recv]; decide)
      (amt_recv k c k) (Oup c j) _ (mayWait_recv c k j hj hk)) $$ [Hcr HO Hatr]
  · isplitr; · iapply (iv_own' m K c (.dma (recvS k))); iexact HP
    isplitl [Hcr]; · rw [amountOf_recv]; iexact Hcr
    isplitl [HO]; · iexact HO
    isplitr; · iapply (lev_of m K c); iexact HP
    iexact Hatr
  iintro ⟨HO, Hatr, -, Hpay⟩
  ihave Hland := (Entails.of_eq (payload_recv m c k ())) $$ Hpay
  unfold recvPay
  -- the store cell: the local copy has landed; the device's own rows read as its narrowed chunk, the other half share is back
  iapply (wp_waitCell m (K (c, ix (.dma (storeS (b4 k))))) c (storeS (b4 k)) (k.val / 4) (by rw [rounds_store]; have := k.isLt; omega)
      (amt_store (b4 k) c k) (Oup c j) _ (mayWait_low c _ (lvOf_store _) j hj)) $$ [Hct HO Hatt]
  · isplitr; · iapply (iv_own' m K c (.dma (storeS (b4 k)))); iexact HP
    isplitl [Hct]; · rw [amountOf_store]; iexact Hct
    isplitl [HO]; · iexact HO
    isplitr; · iapply (lev_of m K c); iexact HP
    iexact Hatt
  iintro ⟨HO, Hatt, #Hrt, Hpay⟩
  ihave Hst := (Entails.of_eq (payload_store m c k ())) $$ Hpay
  unfold storePay
  icases Hst with ⟨Hown, HbR⟩
  ihave Hb := (b_join c (b4 k)) $$ [HbL HbR]
  · isplitl [HbL] <;> iassumption
  iapply HK
  iexists _
  isplitl [HO]; · iexact HO
  isplitl [Hown Hland Hats Hatr]
  · unfold SDone
    isplitl [Hown]; · iexact Hown
    isplitl [Hland]; · iexact Hland
    isplitl [Hats] <;> iassumption
  · unfold BFor
    rw [b4n_add4, b4n_eq, show (k.val + 4) / 4 = k.val / 4 + 1 from by omega]
    isplitl [Hb]; · iexact Hb
    isplitl [Hatt]; · iexact Hatt
    iexact Hrt

/-! ## A chunk narrowed and sent twice -/

theorem frag_core (n : Dev nD) (hn : n = pr c) (k : Fin 16) (j : ℕ) (hj : j + k.val = 15)
    (pay : Vec F S1x2048x1024 .f32 → FVec F S1x2048x1024 .bf16) (hpay : ∀ v, pay v = narrow v) (W : Waits sig Unit)
    {hl1 : fM.view.LoadsAt (fRect (f2 k)).toLoadRect} {hl2 : bM.view.LoadsAt (bRect (b4 k)).toLoadRect}
    {hst : (bM.access (bRect (b4 k))).Stores Finset.univ} {hm : (Finset.univ : Finset (bRect (b4 k)).shape.Idx) = Finset.univ ∨ ∀ a, (bRect (b4 k)).stride a = 1}
    {hsc : (oCh c k : Memref sig (Dev.tc n : Thread nD τ).2.kind .hbm S2048x1024 .bf16).view.ref.isScScratch = false}
    {hs1 : (bSl (b4 k)).view.WordExact} {hd1 : (oCh c k).view.WordExact}
    {hsem1 : DmaTarget.Typed .vmem (SemLoc.dma (recvS k)) (DmaTarget.remote (Dev.tc n : Thread nD τ) (oCh c k) (SemLoc.dma (sendS k)) hsc : DmaTarget nD τ sig .tc .hbm S2048x1024 .bf16)}
    {hs2 : (bSl (b4 k)).view.WordExact} {hd2 : (oCh c k).view.WordExact}
    {hsem2 : DmaTarget.Typed .vmem (SemLoc.dma (storeS (b4 k))) (DmaTarget.here (oCh c k) : DmaTarget nD τ sig .tc .hbm S2048x1024 .bf16)}
    {α : Type} {Q : α → sProp 𝕄} {Kt : PUnit → Prog (TpuEff nD τ sig (Elt F) Λ₀ .tc) α} :
    iprop(pers m K c ∗ owns (c : Thread nD τ) (fSl (f2 k)) fullShare (xval m c k)
        ∗ atPos ER (loadCell c (f2 k)) (k.val / 2 + 1) ∅ 0 ∗ reached ER (loadCell c (f2 k)) (k.val / 2 + 1)
        ∗ BFor c k.val ∗ SFresh c k ∗ owes (c : Thread nD τ) (Oup c (j + 1)) W
        ∗ (iprop(SFly c k ∗ FFor c (k.val + 2) ∗ owes (c : Thread nD τ) (Oup c j) W) -∗ WP c (Kt ⟨⟩) Q))
      ⊢ WP c (.op (.load fM (fRect (f2 k)).toLoadRect hl1) fun v =>
              .op (.load bM (bRect (b4 k)).toLoadRect hl2) fun _ =>
              .op (.store bM (bRect (b4 k)) (pay v) Finset.univ hst hm) fun _ =>
              .op (.enqueueDma (bSl (b4 k)) (.remote (Dev.tc n : Thread nD τ) (oCh c k) (SemLoc.dma (sendS k)) hsc) (SemLoc.dma (recvS k)) hs1 hd1 hsem1) fun _ =>
              .op (.enqueueDma (bSl (b4 k)) (.here (oCh c k)) (SemLoc.dma (storeS (b4 k))) hs2 hd2 hsem2) Kt) Q := by
  unfold BFor SFresh
  rw [b4n_eq]
  iintro ⟨#HP, Hf, Hatl, #Hrl, ⟨Hb, Hatt, #Hrt⟩, ⟨Htt, Hts, Htr, Hpos, Hop, Hoo⟩, HO, HK⟩
  iapply (wp_core m (K (c, ix (.dma (sendS k)))) (K (pr c, ix (.dma (recvS k)))) (K (c, ix (.dma (storeS (b4 k))))) c n hn k j hj pay hpay W)
    $$ [Hf Hb Hop Hoo Htt Hts Htr HO]
  · isplitr; · iapply (iv_own' m K c (.dma (sendS k))); iexact HP
    isplitr; · iapply (iv_peer' m K c (.dma (recvS k))); iexact HP
    isplitr; · iapply (iv_own' m K c (.dma (storeS (b4 k)))); iexact HP
    isplitl [Hf]; · iexact Hf
    isplitl [Hb]; · iexact Hb
    isplitl [Hop]; · iexact Hop
    isplitl [Hoo]; · iexact Hoo
    isplitl [Hts]; · iexact Hts
    isplitr; · iapply (reached_own m K c (.dma (sendS k))); iexact HP
    isplitl [Htr]; · iexact Htr
    isplitr; · iapply (reached_peer m K c (.dma (recvS k))); iexact HP
    isplitl [Htt]; · iexact Htt
    isplitr; · iexact Hrt
    iexact HO
  iintro ⟨Hfa, Hcs, Hct, HO⟩
  iapply HK
  isplitl [Hcs Hct Hatt Hpos]
  · unfold SFly
    isplitl [Hcs]; · iexact Hcs
    isplitl [Hct]; · iexact Hct
    isplitl [Hatt]; · iexact Hatt
    iexact Hpos
  isplitl [Hfa Hatl]
  · unfold FFor
    rw [f2n_add2, f2n_eq, show (k.val + 2) / 2 = k.val / 2 + 1 from by omega]
    isplitl [Hfa]; · iexact Hfa
    isplitl [Hatl]; · iexact Hatl
    iexact Hrl
  iexact HO

end Cert.Kernel.AG

end
-- ==== Proof.AGW.Steps.lean ====
/-
  One chunk's iteration over the invariant, at a symbolic chunk number `n`: the invariant after `n` chunks, the
  iteration's operations in program order, the invariant after `n + 1`.

  An iteration touches at most three chunks' states: chunk `n` (its load is waited, it is narrowed and sent), chunk
  `n + 1` (its load is started) and chunk `n - 4` (its copies out are waited for, freeing chunk `n`'s bf16 slot);
  every other chunk stands where it stood. The first four iterations wait for no copies (their bf16 slots are
  the initial tickets), the last starts no load, and after the sixteenth the last four chunks' copies are waited.
-/
import proofs.«900687_g7700000000000688_dist_ag_v7x_xyz2x4x4_x_m32768_n1024_bf16_1_alg».proof.Proof.AGW.Frags

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Focusing chunks -/

theorem focus1 (a : Fin 16) (f : Fin 16 → sProp 𝕄) :
    bigSep Finset.univ f = iprop(f a ∗ bigSep (Finset.univ.erase a) f) := bigSep_erase (Finset.mem_univ a)
theorem focus2 {a b : Fin 16} (hab : a ≠ b) (f : Fin 16 → sProp 𝕄) :
    bigSep Finset.univ f = iprop(f a ∗ f b ∗ bigSep ((Finset.univ.erase a).erase b) f) := by
  rw [bigSep_erase (Finset.mem_univ a), bigSep_erase (Finset.mem_erase.mpr ⟨hab.symm, Finset.mem_univ b⟩)]
  rfl
theorem focus3 {a b d : Fin 16} (hab : a ≠ b) (had : a ≠ d) (hbd : b ≠ d) (f : Fin 16 → sProp 𝕄) :
    bigSep Finset.univ f = iprop(f a ∗ f b ∗ f d ∗ bigSep (((Finset.univ.erase a).erase b).erase d) f) := by
  rw [bigSep_erase (Finset.mem_univ a), bigSep_erase (Finset.mem_erase.mpr ⟨hab.symm, Finset.mem_univ b⟩),
    bigSep_erase (Finset.mem_erase.mpr ⟨hbd.symm, Finset.mem_erase.mpr ⟨had.symm, Finset.mem_univ d⟩⟩)]
  rfl

/-- A chunk other than `n`, `n + 1` and `n - 4` stands after `n + 1` chunks where it stood after `n`. -/
theorem chunkSt_succ_of_ne (n : ℕ) (k : Fin 16) (h0 : k.val ≠ n) (h1 : k.val ≠ n + 1) (h4 : k.val + 4 ≠ n) :
    chunkSt m c n k = chunkSt m c (n + 1) k := by
  unfold chunkSt
  congr 1
  · by_cases h : n < k.val
    · rw [if_pos h, if_pos (show n + 1 < k.val from by omega)]
    · rw [if_neg h, if_neg (show ¬ n = k.val from by omega), if_neg (show ¬ n + 1 < k.val from by omega),
        if_neg (show ¬ n + 1 = k.val from by omega)]
  · by_cases h : n ≤ k.val
    · rw [if_pos h, if_pos (show n + 1 ≤ k.val from by omega)]
    · rw [if_neg h, if_neg (show ¬ n + 1 ≤ k.val from by omega)]
      by_cases h' : n ≤ k.val + 4
      · rw [if_pos h', if_pos (show n + 1 ≤ k.val + 4 from by omega)]
      · rw [if_neg h', if_neg (show ¬ n + 1 ≤ k.val + 4 from by omega)]

theorem st_cur (n : ℕ) (k : Fin 16) (hk : k.val = n) : chunkSt m c n k = iprop(LFly c k ∗ SFresh c k) := by
  unfold chunkSt
  rw [if_neg (show ¬ n < k.val from by omega), if_pos hk.symm, if_pos (show n ≤ k.val from by omega)]
theorem st_nxt (n : ℕ) (k : Fin 16) (hk : k.val = n + 1) : chunkSt m c n k = iprop(LFresh m c k ∗ SFresh c k) := by
  unfold chunkSt
  rw [if_pos (show n < k.val from by omega), if_pos (show n ≤ k.val from by omega)]
theorem st_fly (n : ℕ) (k : Fin 16) (h1 : k.val < n) (h2 : n ≤ k.val + 4) : chunkSt m c n k = iprop(xPts m c k ∗ SFly c k) := by
  unfold chunkSt
  rw [if_neg (show ¬ n < k.val from by omega), if_neg (show ¬ n = k.val from by omega), if_neg (show ¬ n ≤ k.val from by omega), if_pos h2]
theorem st_done (n : ℕ) (k : Fin 16) (h : k.val + 4 < n) : chunkSt m c n k = iprop(xPts m c k ∗ SDone m c k) := by
  unfold chunkSt
  rw [if_neg (show ¬ n < k.val from by omega), if_neg (show ¬ n = k.val from by omega), if_neg (show ¬ n ≤ k.val from by omega),
    if_neg (show ¬ n ≤ k.val + 4 from by omega)]

theorem bpart_mid (n : ℕ) (h4 : 4 ≤ n) (h16 : n ≤ 16) : bpart c n = (iprop(emp) : sProp 𝕄) := by
  unfold bpart
  rw [show ((Finset.range 20).filter fun i => (n ≤ i ∧ i < 4) ∨ (16 ≤ i ∧ i < n)) = ∅ from
    Finset.filter_eq_empty_iff.mpr fun i _ h => by omega]
  rfl
/-- Using the ticket of one of the first four chunks. -/
theorem bpart_take (n : ℕ) (h : n < 4) : (bpart c n : sProp 𝕄) = iprop(BFor c n ∗ bpart c (n + 1)) := by
  unfold bpart
  rw [show ((Finset.range 20).filter fun i => (n ≤ i ∧ i < 4) ∨ (16 ≤ i ∧ i < n))
      = insert n ((Finset.range 20).filter fun i => (n + 1 ≤ i ∧ i < 4) ∨ (16 ≤ i ∧ i < n + 1)) from by
    ext i; simp only [Finset.mem_filter, Finset.mem_range, Finset.mem_insert]; omega]
  exact bigSep_insert (by simp only [Finset.mem_filter, Finset.mem_range]; omega)
/-- Keeping the ticket one of the last four waits returns. -/
theorem bpart_put (n : ℕ) (h16 : 16 ≤ n) (h20 : n < 20) : (bpart c (n + 1) : sProp 𝕄) = iprop(BFor c n ∗ bpart c n) := by
  unfold bpart
  rw [show ((Finset.range 20).filter fun i => (n + 1 ≤ i ∧ i < 4) ∨ (16 ≤ i ∧ i < n + 1))
      = insert n ((Finset.range 20).filter fun i => (n ≤ i ∧ i < 4) ∨ (16 ≤ i ∧ i < n)) from by
    ext i; simp only [Finset.mem_filter, Finset.mem_range, Finset.mem_insert]; omega]
  exact bigSep_insert (by simp only [Finset.mem_filter, Finset.mem_range]; omega)

/-- The invariant, spelt out. -/
theorem Inv_eq (n : ℕ) : Inv m c n = iprop((∃ W, owes (c : Thread nD τ) (Oup c (16 - n)) W) ∗ (bigSep Finset.univ (chunkSt m c n))
    ∗ fpart c n ∗ bpart c n ∗ atPos ER (barCell c) 1 ∅ 0) := rfl
theorem fpart_lt (n : ℕ) (h : n < 16) : (fpart c n : sProp 𝕄) = FFor c (n + 1) := if_pos h
theorem fpart_ge (n : ℕ) (h : ¬ n < 16) : (fpart c n : sProp 𝕄) = iprop(FFor c 16 ∗ FFor c 17) := if_neg h

/-! ## Chunks 4 to 14 -/

theorem stepB (n : ℕ) (h4 : 4 ≤ n) (h14 : n ≤ 14) (kn kn1 k4 : Fin 16) (hkn : kn.val = n) (hkn1 : kn1.val = n + 1) (hk4 : k4.val + 4 = n)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {e1 : (xCh kn1).view.WordExact} {e2 : (fSl (f2 kn1)).view.WordExact}
    {e3 : DmaTarget.Typed .hbm (SemLoc.dma (loadS (f2 kn1))) (DmaTarget.here (fSl (f2 kn1)) : DmaTarget nD τ sig .tc .vmem S2048x1024 .f32)}
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (loadS (f2 kn)) (xCh kn) (fSl (f2 kn)) w1 w2) fun _ =>
              .op (.enqueueDma (xCh kn1) (.here (fSl (f2 kn1))) (.dma (loadS (f2 kn1))) e1 e2 e3) fun _ =>
              .op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne1 : k4 ≠ kn := fun h => by have := congrArg Fin.val h; omega
  have hne2 : k4 ≠ kn1 := fun h => by have := congrArg Fin.val h; omega
  have hne3 : kn ≠ kn1 := fun h => by have := congrArg Fin.val h; omega
  obtain ⟨j, hj⟩ : ∃ j : ℕ, j + kn.val = 15 := ⟨15 - kn.val, by omega⟩
  -- the invariant's parts before the iteration, and after
  have e16 : 16 - n = j + 1 := by omega
  have e16' : 16 - (n + 1) = j := by omega
  have eC : bigSep Finset.univ (chunkSt m c n) = iprop((xPts m c k4 ∗ SFly c k4) ∗ (LFly c kn ∗ SFresh c kn)
      ∗ (LFresh m c kn1 ∗ SFresh c kn1) ∗ bigSep (((Finset.univ.erase k4).erase kn).erase kn1) (chunkSt m c n)) := by
    rw [focus3 hne1 hne2 hne3 (chunkSt m c n), st_fly m c n k4 (by omega) (by omega), st_cur m c n kn hkn, st_nxt m c n kn1 hkn1]
  have eC' : bigSep Finset.univ (chunkSt m c (n + 1)) = iprop((xPts m c k4 ∗ SDone m c k4) ∗ (xPts m c kn ∗ SFly c kn)
      ∗ (LFly c kn1 ∗ SFresh c kn1) ∗ bigSep (((Finset.univ.erase k4).erase kn).erase kn1) (chunkSt m c n)) := by
    rw [focus3 hne1 hne2 hne3 (chunkSt m c (n + 1)), st_done m c (n + 1) k4 (by omega), st_fly m c (n + 1) kn (by omega) (by omega),
      st_cur m c (n + 1) kn1 hkn1]
    rw [bigSep_congr fun k hk => (chunkSt_succ_of_ne m c n k
      (fun h => (Finset.mem_erase.mp (Finset.mem_erase.mp hk).2).1 (Fin.ext (h.trans hkn.symm)))
      (fun h => (Finset.mem_erase.mp hk).1 (Fin.ext (h.trans hkn1.symm)))
      (fun h => (Finset.mem_erase.mp (Finset.mem_erase.mp (Finset.mem_erase.mp hk).2).2).1 (Fin.ext (by omega)))).symm]
  have eF : (fpart c n : sProp 𝕄) = FFor c kn1.val := by rw [fpart_lt c n (by omega), hkn1]
  have eF' : (fpart c (n + 1) : sProp 𝕄) = FFor c (kn.val + 2) := by
    rw [fpart_lt c (n + 1) (by omega), show n + 1 + 1 = kn.val + 2 from by omega]
  have eB : (bpart c n : sProp 𝕄) = bpart c (n + 1) := by
    rw [bpart_mid c n h4 (by omega), bpart_mid c (n + 1) (by omega) (by omega)]
  have eT : (BFor c (k4.val + 4) : sProp 𝕄) = BFor c kn.val := by rw [show k4.val + 4 = kn.val from by omega]
  rw [Inv_eq m c n, Inv_eq m c (n + 1), e16, e16', eC, eC', eF, eF', eB]
  iintro ⟨#HP, ⟨⟨%W, HO⟩, ⟨⟨Hx4, Hfly4⟩, ⟨Hlfly, Hsfresh⟩, ⟨Hlfresh, Hsfresh1⟩, Hrest⟩, HF, HB, Hbar⟩, HK⟩
  -- the load of chunk n is waited for
  iapply (frag_loadWait m K c kn (j + 1) (by omega) W)
  isplitr; · iexact HP
  isplitl [Hlfly]; · iexact Hlfly
  isplitl [HO]; · iexact HO
  iintro ⟨%W1, HO, Hxn, Hfn, Hatl, #Hrl⟩
  -- the load of chunk n + 1 is started
  iapply (frag_loadStart m K c kn1)
  isplitr; · iexact HP
  isplitl [Hlfresh]; · iexact Hlfresh
  isplitl [HF]; · iexact HF
  iintro Hlfly1
  -- the copies out of chunk n - 4 are waited for
  iapply (frag_waits m K c k4 (j + 1) (by omega) (by omega) W1)
  isplitr; · iexact HP
  isplitl [Hfly4]; · iexact Hfly4
  isplitl [HO]; · iexact HO
  iintro ⟨%W2, HO, Hdone4, Hbt⟩
  ihave Hbt := (Entails.of_eq eT) $$ Hbt
  -- chunk n is narrowed and sent twice
  iapply (frag_core m K c pd hpd kn j hj pay hpay W2)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after n + 1 chunks
  iapply HK
  isplitl [HO]; · iexists W2; iexact HO
  isplitl [Hx4 Hdone4 Hxn Hsfly Hlfly1 Hsfresh1 Hrest]
  · isplitl [Hx4 Hdone4]; · isplitl [Hx4] <;> iassumption
    isplitl [Hxn Hsfly]; · isplitl [Hxn] <;> iassumption
    isplitl [Hlfly1 Hsfresh1]; · isplitl [Hlfly1] <;> iassumption
    iexact Hrest
  isplitl [Hft]; · iexact Hft
  isplitl [HB]; · iexact HB
  iexact Hbar

/-! ## Chunks 0 to 3: no copies to wait for; the bf16 slot is one of the initial tickets -/

theorem stepA (n : ℕ) (h3 : n ≤ 3) (kn kn1 : Fin 16) (hkn : kn.val = n) (hkn1 : kn1.val = n + 1)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {e1 : (xCh kn1).view.WordExact} {e2 : (fSl (f2 kn1)).view.WordExact}
    {e3 : DmaTarget.Typed .hbm (SemLoc.dma (loadS (f2 kn1))) (DmaTarget.here (fSl (f2 kn1)) : DmaTarget nD τ sig .tc .vmem S2048x1024 .f32)}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (loadS (f2 kn)) (xCh kn) (fSl (f2 kn)) w1 w2) fun _ =>
              .op (.enqueueDma (xCh kn1) (.here (fSl (f2 kn1))) (.dma (loadS (f2 kn1))) e1 e2 e3) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne3 : kn ≠ kn1 := fun h => by have := congrArg Fin.val h; omega
  obtain ⟨j, hj⟩ : ∃ j : ℕ, j + kn.val = 15 := ⟨15 - kn.val, by omega⟩
  have e16 : 16 - n = j + 1 := by omega
  have e16' : 16 - (n + 1) = j := by omega
  have eC : bigSep Finset.univ (chunkSt m c n) = iprop((LFly c kn ∗ SFresh c kn)
      ∗ (LFresh m c kn1 ∗ SFresh c kn1) ∗ bigSep ((Finset.univ.erase kn).erase kn1) (chunkSt m c n)) := by
    rw [focus2 hne3 (chunkSt m c n), st_cur m c n kn hkn, st_nxt m c n kn1 hkn1]
  have eC' : bigSep Finset.univ (chunkSt m c (n + 1)) = iprop((xPts m c kn ∗ SFly c kn)
      ∗ (LFly c kn1 ∗ SFresh c kn1) ∗ bigSep ((Finset.univ.erase kn).erase kn1) (chunkSt m c n)) := by
    rw [focus2 hne3 (chunkSt m c (n + 1)), st_fly m c (n + 1) kn (by omega) (by omega), st_cur m c (n + 1) kn1 hkn1]
    rw [bigSep_congr fun k hk => (chunkSt_succ_of_ne m c n k
      (fun h => (Finset.mem_erase.mp (Finset.mem_erase.mp hk).2).1 (Fin.ext (h.trans hkn.symm)))
      (fun h => (Finset.mem_erase.mp hk).1 (Fin.ext (h.trans hkn1.symm)))
      (by omega)).symm]
  have eF : (fpart c n : sProp 𝕄) = FFor c kn1.val := by rw [fpart_lt c n (by omega), hkn1]
  have eF' : (fpart c (n + 1) : sProp 𝕄) = FFor c (kn.val + 2) := by
    rw [fpart_lt c (n + 1) (by omega), show n + 1 + 1 = kn.val + 2 from by omega]
  have eB : (bpart c n : sProp 𝕄) = iprop(BFor c kn.val ∗ bpart c (n + 1)) := by
    rw [hkn]; exact bpart_take c n (by omega)
  rw [Inv_eq m c n, Inv_eq m c (n + 1), e16, e16', eC, eC', eF, eF', eB]
  iintro ⟨#HP, ⟨⟨%W, HO⟩, ⟨⟨Hlfly, Hsfresh⟩, ⟨Hlfresh, Hsfresh1⟩, Hrest⟩, HF, ⟨Hbt, HB⟩, Hbar⟩, HK⟩
  -- the load of chunk n is waited for
  iapply (frag_loadWait m K c kn (j + 1) (by omega) W)
  isplitr; · iexact HP
  isplitl [Hlfly]; · iexact Hlfly
  isplitl [HO]; · iexact HO
  iintro ⟨%W1, HO, Hxn, Hfn, Hatl, #Hrl⟩
  -- the load of chunk n + 1 is started
  iapply (frag_loadStart m K c kn1)
  isplitr; · iexact HP
  isplitl [Hlfresh]; · iexact Hlfresh
  isplitl [HF]; · iexact HF
  iintro Hlfly1
  -- chunk n is narrowed and sent twice
  iapply (frag_core m K c pd hpd kn j hj pay hpay W1)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after n + 1 chunks
  iapply HK
  isplitl [HO]; · iexists W1; iexact HO
  isplitl [Hxn Hsfly Hlfly1 Hsfresh1 Hrest]
  · isplitl [Hxn Hsfly]; · isplitl [Hxn] <;> iassumption
    isplitl [Hlfly1 Hsfresh1]; · isplitl [Hlfly1] <;> iassumption
    iexact Hrest
  isplitl [Hft]; · iexact Hft
  isplitl [HB]; · iexact HB
  iexact Hbar

/-! ## Chunk 15: no load to start -/

theorem stepC (kn k4 : Fin 16) (hkn : kn.val = 15) (hk4 : k4.val = 11)
    (pd : Dev nD) (hpd : pd = pr c) (pay : Vec F S1x2048x1024 .f32 → FVec F S1x2048x1024 .bf16) (hpay : ∀ v, pay v = narrow v)
    {w1 : (xCh kn).view.WordExact} {w2 : (fSl (f2 kn)).view.WordExact}
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {hl1 : fM.view.LoadsAt (fRect (f2 kn)).toLoadRect} {hl2 : bM.view.LoadsAt (bRect (b4 kn)).toLoadRect}
    {hst : (bM.access (bRect (b4 kn))).Stores Finset.univ} {hm : (Finset.univ : Finset (bRect (b4 kn)).shape.Idx) = Finset.univ ∨ ∀ a, (bRect (b4 kn)).stride a = 1}
    {hsc : (oCh c kn : Memref sig (Dev.tc pd : Thread nD τ).2.kind .hbm S2048x1024 .bf16).view.ref.isScScratch = false}
    {hs1 : (bSl (b4 kn)).view.WordExact} {hd1 : (oCh c kn).view.WordExact}
    {hsem1 : DmaTarget.Typed .vmem (SemLoc.dma (recvS kn)) (DmaTarget.remote (Dev.tc pd : Thread nD τ) (oCh c kn) (SemLoc.dma (sendS kn)) hsc : DmaTarget nD τ sig .tc .hbm S2048x1024 .bf16)}
    {hs2 : (bSl (b4 kn)).view.WordExact} {hd2 : (oCh c kn).view.WordExact}
    {hsem2 : DmaTarget.Typed .vmem (SemLoc.dma (storeS (b4 kn))) (DmaTarget.here (oCh c kn) : DmaTarget nD τ sig .tc .hbm S2048x1024 .bf16)}
    {α : Type} {Q : α → sProp 𝕄} {Kt : PUnit → Prog (TpuEff nD τ sig (Elt F) Λ₀ .tc) α} :
    iprop(pers m K c ∗ Inv m c 15 ∗ (Inv m c 16 -∗ WP c (Kt ⟨⟩) Q))
      ⊢ WP c (.op (.waitDma2 (loadS (f2 kn)) (xCh kn) (fSl (f2 kn)) w1 w2) fun _ =>
              .op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) fun _ =>
              .op (.load fM (fRect (f2 kn)).toLoadRect hl1) fun v =>
              .op (.load bM (bRect (b4 kn)).toLoadRect hl2) fun _ =>
              .op (.store bM (bRect (b4 kn)) (pay v) Finset.univ hst hm) fun _ =>
              .op (.enqueueDma (bSl (b4 kn)) (.remote (Dev.tc pd : Thread nD τ) (oCh c kn) (SemLoc.dma (sendS kn)) hsc) (SemLoc.dma (recvS kn)) hs1 hd1 hsem1) fun _ =>
              .op (.enqueueDma (bSl (b4 kn)) (.here (oCh c kn)) (SemLoc.dma (storeS (b4 kn))) hs2 hd2 hsem2) Kt) Q := by
  have hne1 : k4 ≠ kn := fun h => by have := congrArg Fin.val h; omega
  have hj : 0 + kn.val = 15 := by omega
  have eC : bigSep Finset.univ (chunkSt m c 15) = iprop((xPts m c k4 ∗ SFly c k4) ∗ (LFly c kn ∗ SFresh c kn)
      ∗ bigSep ((Finset.univ.erase k4).erase kn) (chunkSt m c 15)) := by
    rw [focus2 hne1 (chunkSt m c 15), st_fly m c 15 k4 (by omega) (by omega), st_cur m c 15 kn hkn]
  have eC' : bigSep Finset.univ (chunkSt m c 16) = iprop((xPts m c k4 ∗ SDone m c k4) ∗ (xPts m c kn ∗ SFly c kn)
      ∗ bigSep ((Finset.univ.erase k4).erase kn) (chunkSt m c 15)) := by
    rw [focus2 hne1 (chunkSt m c 16), st_done m c 16 k4 (by omega), st_fly m c 16 kn (by omega) (by omega)]
    rw [bigSep_congr fun k hk => (chunkSt_succ_of_ne m c 15 k
      (fun h => (Finset.mem_erase.mp hk).1 (Fin.ext (h.trans hkn.symm)))
      (by have := k.isLt; omega)
      (fun h => (Finset.mem_erase.mp (Finset.mem_erase.mp hk).2).1 (Fin.ext (by omega)))).symm]
  have eF : (fpart c 15 : sProp 𝕄) = FFor c 16 := fpart_lt c 15 (by decide)
  have eF' : (fpart c 16 : sProp 𝕄) = iprop(FFor c 16 ∗ FFor c (kn.val + 2)) := by
    rw [fpart_ge c 16 (by decide), show kn.val + 2 = 17 from by omega]
  have eB : (bpart c 15 : sProp 𝕄) = bpart c 16 := by
    rw [bpart_mid c 15 (by decide) (by decide), bpart_mid c 16 (by decide) (by decide)]
  have eT : (BFor c (k4.val + 4) : sProp 𝕄) = BFor c kn.val := by rw [show k4.val + 4 = kn.val from by omega]
  rw [Inv_eq m c 15, Inv_eq m c 16, show 16 - 15 = 0 + 1 from rfl, show 16 - 16 = 0 from rfl, eC, eC', eF, eF', eB]
  iintro ⟨#HP, ⟨⟨%W, HO⟩, ⟨⟨Hx4, Hfly4⟩, ⟨Hlfly, Hsfresh⟩, Hrest⟩, HF, HB, Hbar⟩, HK⟩
  -- the load of chunk 15 is waited for
  iapply (frag_loadWait m K c kn (0 + 1) (by decide) W)
  isplitr; · iexact HP
  isplitl [Hlfly]; · iexact Hlfly
  isplitl [HO]; · iexact HO
  iintro ⟨%W1, HO, Hxn, Hfn, Hatl, #Hrl⟩
  -- the copies out of chunk 11 are waited for
  iapply (frag_waits m K c k4 (0 + 1) (by decide) (by omega) W1)
  isplitr; · iexact HP
  isplitl [Hfly4]; · iexact Hfly4
  isplitl [HO]; · iexact HO
  iintro ⟨%W2, HO, Hdone4, Hbt⟩
  ihave Hbt := (Entails.of_eq eT) $$ Hbt
  -- chunk 15 is narrowed and sent twice
  iapply (frag_core m K c pd hpd kn 0 hj pay hpay W2)
  isplitr; · iexact HP
  isplitl [Hfn]; · iexact Hfn
  isplitl [Hatl]; · iexact Hatl
  isplitr; · iexact Hrl
  isplitl [Hbt]; · iexact Hbt
  isplitl [Hsfresh]; · iexact Hsfresh
  isplitl [HO]; · iexact HO
  iintro ⟨Hsfly, Hft, HO⟩
  -- the invariant after the sixteen chunks
  iapply HK
  isplitl [HO]; · iexists W2; iexact HO
  isplitl [Hx4 Hdone4 Hxn Hsfly Hrest]
  · isplitl [Hx4 Hdone4]; · isplitl [Hx4] <;> iassumption
    isplitl [Hxn Hsfly]; · isplitl [Hxn] <;> iassumption
    iexact Hrest
  isplitl [Hft HF]; · isplitl [HF] <;> iassumption
  isplitl [HB]; · iexact HB
  iexact Hbar

/-! ## After the sixteenth chunk: the waits of chunks 12 to 15 -/

theorem stepF (n : ℕ) (h16 : 16 ≤ n) (h19 : n ≤ 19) (k4 : Fin 16) (hk4 : k4.val + 4 = n)
    {a1 : (oCh c k4).view.WordExact} {a2 : (bSl (b4 k4)).view.WordExact}
    {b1 : (bSl (b4 k4)).view.WordExact} {b2 : (oCh c k4).view.WordExact}
    {c1 : (bSl (b4 k4)).view.WordExact} {c2 : (oCh c k4).view.WordExact}
    {α : Type} {Q : α → sProp 𝕄} {Kt : PUnit → Prog (TpuEff nD τ sig (Elt F) Λ₀ .tc) α} :
    iprop(pers m K c ∗ Inv m c n ∗ (Inv m c (n + 1) -∗ WP c (Kt ⟨⟩) Q))
      ⊢ WP c (.op (.waitDma2 (sendS k4) (oCh c k4) (bSl (b4 k4)) a1 a2) fun _ =>
              .op (.waitDma2 (recvS k4) (bSl (b4 k4)) (oCh c k4) b1 b2) fun _ =>
              .op (.waitDma2 (storeS (b4 k4)) (bSl (b4 k4)) (oCh c k4) c1 c2) Kt) Q := by
  have eC : bigSep Finset.univ (chunkSt m c n) = iprop((xPts m c k4 ∗ SFly c k4)
      ∗ bigSep (Finset.univ.erase k4) (chunkSt m c n)) := by
    rw [focus1 k4 (chunkSt m c n), st_fly m c n k4 (by omega) (by omega)]
  have eC' : bigSep Finset.univ (chunkSt m c (n + 1)) = iprop((xPts m c k4 ∗ SDone m c k4)
      ∗ bigSep (Finset.univ.erase k4) (chunkSt m c n)) := by
    rw [focus1 k4 (chunkSt m c (n + 1)), st_done m c (n + 1) k4 (by omega)]
    rw [bigSep_congr fun k hk => (chunkSt_succ_of_ne m c n k
      (by have := k.isLt; omega) (by have := k.isLt; omega)
      (fun h => (Finset.mem_erase.mp hk).1 (Fin.ext (by omega)))).symm]
  have eF : (fpart c n : sProp 𝕄) = fpart c (n + 1) := by
    rw [fpart_ge c n (by omega), fpart_ge c (n + 1) (by omega)]
  have eB : (bpart c (n + 1) : sProp 𝕄) = iprop(BFor c (k4.val + 4) ∗ bpart c n) := by
    rw [hk4]; exact bpart_put c n h16 (by omega)
  rw [Inv_eq m c n, Inv_eq m c (n + 1), show 16 - n = 0 from by omega, show 16 - (n + 1) = 0 from by omega, eC, eC', eF, eB]
  iintro ⟨#HP, ⟨⟨%W, HO⟩, ⟨⟨Hx4, Hfly4⟩, Hrest⟩, HF, HB, Hbar⟩, HK⟩
  iapply (frag_waits m K c k4 0 (by decide) (by have := k4.isLt; omega) W)
  isplitr; · iexact HP
  isplitl [Hfly4]; · iexact Hfly4
  isplitl [HO]; · iexact HO
  iintro ⟨%W2, HO, Hdone4, Hbt⟩
  iapply HK
  isplitl [HO]; · iexists W2; iexact HO
  isplitl [Hx4 Hdone4 Hrest]
  · isplitl [Hx4 Hdone4]; · isplitl [Hx4] <;> iassumption
    iexact Hrest
  isplitl [HF]; · iexact HF
  isplitl [HB Hbt]; · isplitl [Hbt] <;> iassumption
  iexact Hbar

end Cert.Kernel.AG

end
-- ==== Proof.AGW.Final.lean ====
/-
  After the last wait: every chunk's copies have landed, both f32 slots and all four bf16 slots are back, and every
  cell of the device's own is past its last round. The cells are closed (their counters, at zero, are the device's
  again), the sixteen chunks of `x` are put back together, the 32 chunks of the result are joined into one array that
  reads, chunk by chunk, as the narrowed chunks, and the scratch buffers are made whole.
-/
import proofs.«900687_g7700000000000688_dist_ag_v7x_xyz2x4x4_x_m32768_n1024_bf16_1_alg».proof.Proof.AGW.Steps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-! ## Small unfoldings -/

/-- Nothing is owed once every chunk has been sent. -/
theorem Oup_final : Oup c (16 - 20) = 0 := rfl

theorem fin4_chain (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-! ## Closing cells -/

/-- One DMA cell of the device past its last round closes: its counter comes back at zero. -/
theorem close_cell (s : DmaSem sig) (r : ℕ) (hr : r = roundsOf (SemLoc.dma s)) :
    iprop(pers m K c ∗ atPos ER ((c : Thread nD τ), SemLoc.dma s) r ∅ 0)
      ⊢ (iprop(|={Set.univ}=> semVal ((c : Thread nD τ), SemLoc.dma s) 0) : sProp 𝕄) := by
  subst hr
  iintro ⟨#HP, Hat⟩
  iapply (cell_done m (K (c, ix (SemLoc.dma s))) c s)
  isplitr
  · iapply (iv_own' m K c (SemLoc.dma s)); iexact HP
  · iexact Hat

/-- A family of DMA cells of the device, each past its last round, closes under one update. -/
theorem close_all {I : Type} [Fintype I] [DecidableEq I] (s : I → DmaSem sig) (r : ℕ)
    (hr : ∀ i, r = roundsOf (SemLoc.dma (s i))) :
    iprop(pers m K c ∗ bigSep Finset.univ fun i : I => (atPos ER ((c : Thread nD τ), SemLoc.dma (s i)) r ∅ 0 : sProp 𝕄))
      ⊢ (iprop(|={Set.univ}=> bigSep Finset.univ fun i : I => (semVal ((c : Thread nD τ), SemLoc.dma (s i)) 0 : sProp 𝕄)) : sProp 𝕄) :=
  (bigSep_with_persistent (S := Finset.univ) (R := pers m K c)
      (Φ := fun i : I => (atPos ER ((c : Thread nD τ), SemLoc.dma (s i)) r ∅ 0 : sProp 𝕄))
      (Ψ := fun i : I => (iprop(|={Set.univ}=> semVal ((c : Thread nD τ), SemLoc.dma (s i)) 0) : sProp 𝕄))
      fun i _ => close_cell m K c (s i) r (hr i)).trans
    (bigSep_fupd Finset.univ fun i : I => (semVal ((c : Thread nD τ), SemLoc.dma (s i)) 0 : sProp 𝕄))

/-! ## The invariant after the last wait, piece by piece -/

/-- Every chunk is over: its rows of x are back, both landings read as the narrowed chunk, its send and receive
    cells are past their one round. -/
theorem chunks_final :
    bigSep Finset.univ (chunkSt m c 20)
      ⊢ (iprop((bigSep Finset.univ fun k : Fin 16 => xPts m c k)
        ∗ (bigSep Finset.univ fun k : Fin 16 => owns (c : Thread nD τ) (oCh c k) fullShare (cval m c k))
        ∗ (bigSep Finset.univ fun k : Fin 16 => owns (c : Thread nD τ) (oCh (pr c) k) fullShare (cval m (pr c) k))
        ∗ (bigSep Finset.univ fun k : Fin 16 => atPos ER (sendCell c k) 1 ∅ 0)
        ∗ (bigSep Finset.univ fun k : Fin 16 => atPos ER (recvCell c k) 1 ∅ 0)) : sProp 𝕄) := by
  have e : bigSep Finset.univ (chunkSt m c 20) = bigSep Finset.univ fun k : Fin 16 =>
      (iprop(xPts m c k ∗ owns (c : Thread nD τ) (oCh c k) fullShare (cval m c k)
        ∗ owns (c : Thread nD τ) (oCh (pr c) k) fullShare (cval m (pr c) k)
        ∗ atPos ER (sendCell c k) 1 ∅ 0 ∗ atPos ER (recvCell c k) 1 ∅ 0) : sProp 𝕄) :=
    bigSep_congr fun k _ => st_done m c 20 k (by have := k.isLt; omega)
  rw [e, bigSep_sep', bigSep_sep', bigSep_sep', bigSep_sep']
  all_goals exact .rfl

/-- An f32 ticket is its slot and its load cell's position (that the round is reached is dropped). -/
theorem FFor_out (i : ℕ) (j : Fin 2) (hj : f2n i = j) (r : ℕ) (hr : i / 2 = r) :
    FFor c i ⊢ (iprop(fAny c j ∗ atPos ER (loadCell c j) r ∅ 0) : sProp 𝕄) := by
  subst hj; subst hr
  unfold FFor
  iintro ⟨Hf, Ha, -⟩
  isplitl [Hf]; · iexact Hf
  iexact Ha

/-- A bf16 ticket is its slot and its store cell's position. -/
theorem BFor_out (i : ℕ) (j : Fin 4) (hj : b4n i = j) (r : ℕ) (hr : i / 4 = r) :
    BFor c i ⊢ (iprop(bAny c j fullShare ∗ atPos ER (storeCell c j) r ∅ 0) : sProp 𝕄) := by
  subst hj; subst hr
  unfold BFor
  iintro ⟨Hb, Ha, -⟩
  isplitl [Hb]; · iexact Hb
  iexact Ha

/-- Both f32 slots are free and both load cells are past their eight rounds. -/
theorem fpart_final :
    fpart c 20 ⊢ (iprop((fAny c 0 ∗ fAny c 1)
      ∗ bigSep Finset.univ fun j : Fin 2 => (atPos ER (loadCell c j) 8 ∅ 0 : sProp 𝕄)) : sProp 𝕄) := by
  unfold fpart
  rw [if_neg (by decide), bigSep_univ_two]
  iintro ⟨H0, H1⟩
  ihave H0' := (FFor_out (F := F) c 16 0 rfl 8 rfl) $$ H0
  ihave H1' := (FFor_out (F := F) c 17 1 rfl 8 rfl) $$ H1
  icases H0' with ⟨Hf0, Ha0⟩
  icases H1' with ⟨Hf1, Ha1⟩
  isplitl [Hf0 Hf1]
  · isplitl [Hf0]; · iexact Hf0
    iexact Hf1
  isplitl [Ha0]; · iexact Ha0
  iexact Ha1

/-- The tickets held at the end are those of chunks 16 to 19: all four bf16 slots are free and all four store cells
    are past their four rounds. -/
theorem bpart_final :
    bpart c 20 ⊢ (iprop((bAny c 0 fullShare ∗ bAny c 1 fullShare ∗ bAny c 2 fullShare ∗ bAny c 3 fullShare)
      ∗ bigSep Finset.univ fun j : Fin 4 => (atPos ER (storeCell c j) 4 ∅ 0 : sProp 𝕄)) : sProp 𝕄) := by
  have e : bpart c 20 = (iprop(BFor c 16 ∗ BFor c 17 ∗ BFor c 18 ∗ BFor c 19) : sProp 𝕄) := by
    unfold bpart
    rw [show ((Finset.range 20).filter fun i => (20 ≤ i ∧ i < 4) ∨ (16 ≤ i ∧ i < 20)) = {16, 17, 18, 19} from by
      ext i; simp only [Finset.mem_filter, Finset.mem_range, Finset.mem_insert, Finset.mem_singleton]; omega]
    rw [bigSep_insert (by decide), bigSep_insert (by decide), bigSep_insert (by decide), bigSep_singleton]
    rfl
  rw [e, fin4_chain]
  iintro ⟨H0, H1, H2, H3⟩
  ihave H0' := (BFor_out (F := F) c 16 0 rfl 4 rfl) $$ H0
  ihave H1' := (BFor_out (F := F) c 17 1 rfl 4 rfl) $$ H1
  ihave H2' := (BFor_out (F := F) c 18 2 rfl 4 rfl) $$ H2
  ihave H3' := (BFor_out (F := F) c 19 3 rfl 4 rfl) $$ H3
  icases H0' with ⟨Hb0, Ha0⟩
  icases H1' with ⟨Hb1, Ha1⟩
  icases H2' with ⟨Hb2, Ha2⟩
  icases H3' with ⟨Hb3, Ha3⟩
  isplitl [Hb0 Hb1 Hb2 Hb3]
  · isplitl [Hb0]; · iexact Hb0
    isplitl [Hb1]; · iexact Hb1
    isplitl [Hb2]; · iexact Hb2
    iexact Hb3
  isplitl [Ha0]; · iexact Ha0
  isplitl [Ha1]; · iexact Ha1
  isplitl [Ha2]; · iexact Ha2
  iexact Ha3

/-! ## The end of the body -/

theorem inv_final :
    iprop(pers m K c ∗ Inv m c 20) ⊢ (iprop(|={Set.univ}=> iprop(Φ₁ m c ∗ ∃ W, owes (c : Thread nD τ) 0 W)) : sProp 𝕄) := by
  unfold Inv Φ₁ scr
  rw [Oup_final c]
  iintro ⟨#HP, ⟨%W, HO⟩, HC, HF, HB, -⟩
  ihave HC' := (chunks_final m c) $$ HC
  icases HC' with ⟨Hx, Ho1, Ho2, Hsend, Hrecv⟩
  ihave HF' := (fpart_final (F := F) c) $$ HF
  icases HF' with ⟨Hf, Hload⟩
  ihave HB' := (bpart_final (F := F) c) $$ HB
  icases HB' with ⟨Hb, Hstore⟩
  -- the 38 cells close, family by family
  imod (close_all m K c loadS 8 fun j => (rounds_load j).symm) $$ [Hload] with Hl
  · isplitr; · iexact HP
    iexact Hload
  imod (close_all m K c storeS 4 fun j => (rounds_store j).symm) $$ [Hstore] with Hs
  · isplitr; · iexact HP
    iexact Hstore
  imod (close_all m K c sendS 1 fun k => (rounds_send k).symm) $$ [Hsend] with Hsn
  · isplitr; · iexact HP
    iexact Hsend
  imod (close_all m K c recvS 1 fun k => (rounds_recv k).symm) $$ [Hrecv] with Hrc
  · isplitr; · iexact HP
    iexact Hrecv
  imodintro
  isplitr [HO]
  · -- x is its sixteen chunks again
    isplitl [Hx]
    · iapply (x_split m c).mpr; iexact Hx
    -- the 32 chunks of the result are one array reading as the narrowed chunks
    isplitl [Ho1 Ho2]
    · iapply (o_join m c)
      isplitl [Ho1]; · iexact Ho1
      iexact Ho2
    -- the scratch buffers are whole
    isplitl [Hf Hb]
    · isplitl [Hf]
      · iapply (f_split (F := F) c).mpr; iexact Hf
      · iapply (b_split (F := F) c).mpr; iexact Hb
    -- every semaphore of the kernel's own is at zero
    iapply (sems0_join (F := F) c)
    isplitl [Hl]; · iexact Hl
    isplitl [Hs]; · iexact Hs
    isplitl [Hsn]; · iexact Hsn
    iexact Hrc
  · iexists W; iexact HO

end Cert.Kernel.AG

end
-- ==== Proof.AGW.Body.lean ====
/-
  One device's body, from what the launch hands it to what it leaves, in program order.

  The handshake: the device signals the partner's barrier cell, handing over the rows of the PARTNER's half in its own
  result (the partner's remote copies will fill them) and that its receive cells are at round 0; it waits on its own
  barrier cell for the partner's signal, which brings the rows of its own half in the partner's result. Then the first
  load is started, and the invariant holds with no chunk done. Sixteen iterations and the last four chunks' waits
  follow, each a step of the invariant; at the end the cells are closed and the buffers made whole.
-/
import proofs.«900687_g7700000000000688_dist_ag_v7x_xyz2x4x4_x_m32768_n1024_bf16_1_alg».proof.Proof.AGW.Final

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 39 → ℕ) (c : Dev nD)

/-- A chunk before anything is issued: its load's holdings and its copies' holdings, from what the launch dealt (the
    tokens, the positions and the receive credit), its rows of `x`, its own result rows and the partner's. -/
theorem fresh_intro (k : Fin 16) :
    iprop(iprop(chunkToks c k ∗ chunkPos c k) ∗ xPts m c k ∗ oAny c c k ∗ iprop(oAny (pr c) c k ∗ reached ER (recvCell (pr c) k) 0))
      ⊢ (iprop(LFresh m c k ∗ SFresh c k) : sProp 𝕄) := by
  unfold chunkToks LFresh SFresh
  iintro ⟨⟨⟨Htl, Htt, Hts, Htr⟩, Hpos⟩, Hx, Hoo, ⟨Hop, -⟩⟩
  isplitl [Hx Htl]; · isplitl [Hx] <;> iassumption
  isplitl [Htt]; · iexact Htt
  isplitl [Hts]; · iexact Hts
  isplitl [Htr]; · iexact Htr
  isplitl [Hpos]; · iexact Hpos
  isplitl [Hop] <;> iassumption

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! One chunk's step applied to the invariant `HI` under the persistent part `HP`: the step lemma at the chunk's
    literals, then its two premises, then the invariant after the chunk under the same name. -/
set_option hygiene false in
local macro "chunk_a " n:num n1:num dv:term:max py:term:max : tactic => `(tactic| (
  iapply (stepA m K c $n (by decide) ($n : Fin 16) ($n1 : Fin 16) rfl rfl _ $dv $py (fun _ => rfl))
  isplitr
  · iexact HP
  isplitl [HI]
  · iexact HI
  iintro HI))
set_option hygiene false in
local macro "chunk_b " n:num n1:num n4:num dv:term:max py:term:max : tactic => `(tactic| (
  iapply (stepB m K c $n (by decide) (by decide) ($n : Fin 16) ($n1 : Fin 16) ($n4 : Fin 16) rfl rfl rfl _ $dv $py (fun _ => rfl))
  isplitr
  · iexact HP
  isplitl [HI]
  · iexact HI
  iintro HI))
set_option hygiene false in
local macro "chunk_c " dv:term:max py:term:max : tactic => `(tactic| (
  iapply (stepC m K c (15 : Fin 16) (11 : Fin 16) rfl rfl _ $dv $py (fun _ => rfl))
  isplitr
  · iexact HP
  isplitl [HI]
  · iexact HI
  iintro HI))
set_option hygiene false in
local macro "chunk_f " n:num n4:num : tactic => `(tactic| (
  iapply (stepF m K c $n (by decide) (by decide) ($n4 : Fin 16) rfl)
  isplitr
  · iexact HP
  isplitl [HI]
  · iexact HI
  iintro HI))

set_option maxHeartbeats 4000000 in
set_option maxRecDepth 65536 in
/-- The body, from the launch's holdings to the invariant's end, one step per chunk. -/
theorem sound_body (W : Waits sig Unit) (Kt : PUnit → sProp 𝕄) :
    iprop(pers m K c ∗ lin c ∗ bufs m c ∗ scr c ∗ owes (c : Thread nD τ) (O₀ c) W
        ∗ (iprop(Φ₁ m c ∗ ∃ W', owes (c : Thread nD τ) 0 W') -∗ Kt ⟨⟩))
      ⊢ WP c (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [semSignalWord, semWaitWord, Prog.lift, Prog.bind_op, Prog.bind_ret, Prog.pure_eq_ret, wp_deviceId]
  unfold lin bufs scr
  iintro ⟨#HP, ⟨HatB, HcB, HtB, HatL, HatS, Hch⟩, ⟨Hx, Ho⟩, ⟨Hf, Hb⟩, HO, HK⟩
  -- the buffers along their chunks and slots
  ihave Hxs := (x_split m c).1 $$ Hx
  ihave Hos := (o_split c (oblk m c)) $$ Ho
  icases Hos with ⟨Hoo, Hop⟩
  ihave Hfs := (f_split c).1 $$ Hf
  icases Hfs with ⟨Hf0, Hf1⟩
  ihave Hbs := (b_split c).1 $$ Hb
  icases Hbs with ⟨Hb0, Hb1, Hb2, Hb3⟩
  ihave HatL' := (Entails.of_eq (bigSep_univ_two fun j : Fin 2 => (atPos ER (loadCell c j) 0 ∅ 0 : sProp 𝕄))) $$ HatL
  icases HatL' with ⟨HatL0, HatL1⟩
  ihave HatS' := (Entails.of_eq (bigSep_fin4 fun j : Fin 4 => (atPos ER (storeCell c j) 0 ∅ 0 : sProp 𝕄))) $$ HatS
  icases HatS' with ⟨HatS0, HatS1, HatS2, HatS3⟩
  -- the signal to the partner's barrier cell: its rows of the partner's half, and that its receive cells are at round 0
  simp only [dev1_eq c]
  unfold O₀
  iapply (Rounds.wp_signal 𝒱₀ ER (sched m) (c : Thread nD τ) none (dst := (pr c : Thread nD τ)) (κ := K (pr c, ix (.reg barS)))
      (d := ()) (by rw [duties_bar]; exact Finset.mem_singleton_self _) ((amount_bar m (pr c) () 0).trans (by decide)) () (Oup c 16) rfl)
    $$ [HO HtB Hop]
  · isplitr; · iapply (iv_peer' m K c (.reg barS)); iexact HP
    isplitl [HO]; · iexact HO
    isplitl [HtB]; · iexact HtB
    isplitl [Hop]
    · rw [payload_bar]; unfold barPay; rw [pr_pr]
      iapply (Entails.of_eq (bigSep_sep' Finset.univ (fun k : Fin 16 => oAny c (pr c) k) (fun k : Fin 16 => reached ER (recvCell c k) 0)).symm)
      isplitl [Hop]; · iexact Hop
      iapply (BI.bigSep_of_persistent Finset.univ (pers m K c) |>.trans (bigSep_mono fun k _ => reached_own m K c (.dma (recvS k))))
      iexact HP
    · iapply (reached_peer m K c (.reg barS)); iexact HP
  iintro HO
  -- the wait on its own barrier cell: the rows of its own half in the partner's result come with the partner's signal
  iapply (Rounds.wp_wait_rest_token 𝒱₀ ER (sched m) (c : Thread nD τ) none (κ := K (c, ix (.reg barS)))
      (wpE_semWait_eq 𝒱₀ (c : Thread nD τ) none Set.univ) (Set.mem_univ _) () (O := Oup c 16) (W := W) (R := 0) (m := 0) (T := ∅)
      (by rw [expect_bar]; rfl)) $$ [HcB HO HatB]
  · isplitr; · iapply (iv_own' m K c (.reg barS)); iexact HP
    isplitl [HcB]; · iexact HcB
    isplitl [HO]; · iexact HO
    isplitr; · iapply (mayWait_low c (.reg barS) (le_refl 1) 16 (le_refl 16)); iapply (lev_of m K c); iexact HP
    iexact HatB
  iintro ⟨HO, HatB, -, Hpay⟩
  ihave Hp := (Entails.of_eq ((rest_of m (barCell c) 0 (duties_bar m c)).trans (payload_bar m c ()))) $$ Hpay
  unfold barPay
  -- every chunk's holdings before anything is issued
  ihave Hall := (show iprop((bigSep Finset.univ fun k : Fin 16 => iprop(chunkToks c k ∗ chunkPos c k)) ∗ (bigSep Finset.univ fun k : Fin 16 => xPts m c k)
        ∗ (bigSep Finset.univ fun k : Fin 16 => oAny c c k) ∗ (bigSep Finset.univ fun k : Fin 16 => iprop(oAny (pr c) c k ∗ reached ER (recvCell (pr c) k) 0)))
      ⊢ (bigSep Finset.univ fun k : Fin 16 => iprop(LFresh m c k ∗ SFresh c k) : sProp 𝕄) from by
        rw [← bigSep_sep', ← bigSep_sep', ← bigSep_sep']
        exact bigSep_mono fun k _ => fresh_intro m c k) $$ [Hch Hxs Hoo Hp]
  · isplitl [Hch]; · iexact Hch
    isplitl [Hxs]; · iexact Hxs
    isplitl [Hoo] <;> iassumption
  ihave Hall' := (Entails.of_eq (focus1 (0 : Fin 16) fun k : Fin 16 => iprop(LFresh m c k ∗ SFresh c k))) $$ Hall
  icases Hall' with ⟨⟨Hl0, Hs0⟩, Hrest⟩
  -- the first load
  iapply (frag_loadStart m K c (0 : Fin 16))
  isplitr; · iexact HP
  isplitl [Hl0]; · iexact Hl0
  isplitl [Hf0 HatL0]
  · unfold FFor
    isplitl [Hf0]; · iexact Hf0
    isplitl [HatL0]; · iexact HatL0
    iapply (reached_own m K c (.dma (loadS 0))); iexact HP
  iintro Hlf0
  -- the invariant with no chunk done
  ihave HI := (show iprop(owes (c : Thread nD τ) (Oup c 16) (insert (SemLoc.reg barS, ()) W)
        ∗ iprop(LFly c (0 : Fin 16) ∗ SFresh c (0 : Fin 16)) ∗ (bigSep (Finset.univ.erase (0 : Fin 16)) fun k : Fin 16 => iprop(LFresh m c k ∗ SFresh c k))
        ∗ FFor c 1 ∗ iprop(BFor c 0 ∗ BFor c 1 ∗ BFor c 2 ∗ BFor c 3) ∗ atPos ER (barCell c) 1 ∅ 0)
      ⊢ (Inv m c 0 : sProp 𝕄) from by
        unfold Inv
        iintro ⟨HO, H0, Hrest, HF, ⟨B0, B1, B2, B3⟩, Hbar⟩
        isplitl [HO]; · iexists _; iexact HO
        isplitl [H0 Hrest]
        · iapply (Entails.of_eq (focus1 (0 : Fin 16) (chunkSt m c 0)).symm)
          rw [st_cur m c 0 (0 : Fin 16) rfl]
          isplitl [H0]; · iexact H0
          iapply (Entails.of_eq (bigSep_congr fun k hk => by
            have hk0 : k.val ≠ 0 := fun h => (Finset.mem_erase.mp hk).1 (Fin.ext h)
            unfold chunkSt; rw [if_pos (by omega), if_pos (by omega)]).symm)
          iexact Hrest
        isplitl [HF]; · unfold fpart; rw [if_pos (by decide : 0 < 16)]; iexact HF
        isplitl [B0 B1 B2 B3]
        · rw [bpart_take c 0 (by decide), bpart_take c 1 (by decide), bpart_take c 2 (by decide), bpart_take c 3 (by decide), bpart_mid c 4 (by decide) (by decide)]
          isplitl [B0]; · iexact B0
          isplitl [B1]; · iexact B1
          isplitl [B2]; · iexact B2
          isplitl [B3]; · iexact B3
          iempintro
        iexact Hbar) $$ [HO Hlf0 Hs0 Hrest Hf1 HatL1 Hb0 Hb1 Hb2 Hb3 HatS0 HatS1 HatS2 HatS3 HatB]
  · isplitl [HO]; · iexact HO
    isplitl [Hlf0 Hs0]; · isplitl [Hlf0] <;> iassumption
    isplitl [Hrest]; · iexact Hrest
    isplitl [Hf1 HatL1]
    · unfold FFor
      isplitl [Hf1]; · iexact Hf1
      isplitl [HatL1]; · iexact HatL1
      iapply (reached_own m K c (.dma (loadS 1))); iexact HP
    isplitl [Hb0 Hb1 Hb2 Hb3 HatS0 HatS1 HatS2 HatS3]
    · unfold BFor
      isplitl [Hb0 HatS0]
      · isplitl [Hb0]; · iexact Hb0
        isplitl [HatS0]; · iexact HatS0
        iapply (reached_own m K c (.dma (storeS 0))); iexact HP
      isplitl [Hb1 HatS1]
      · isplitl [Hb1]; · iexact Hb1
        isplitl [HatS1]; · iexact HatS1
        iapply (reached_own m K c (.dma (storeS 1))); iexact HP
      isplitl [Hb2 HatS2]
      · isplitl [Hb2]; · iexact Hb2
        isplitl [HatS2]; · iexact HatS2
        iapply (reached_own m K c (.dma (storeS 2))); iexact HP
      · isplitl [Hb3]; · iexact Hb3
        isplitl [HatS3]; · iexact HatS3
        iapply (reached_own m K c (.dma (storeS 3))); iexact HP
    iexact HatB
  -- the sixteen chunks, in order (chunk, next chunk, [the chunk whose copies end], the remote copy's device chain, the narrowing)
  chunk_a 0 1 (dev2_eq c) k0_pay1
  chunk_a 1 2 (dev3_eq c) k0_pay2
  chunk_a 2 3 (dev4_eq c) (fun v => k0_pay4 (k0_pay3 v))
  chunk_a 3 4 (dev5_eq c) k0_pay5
  chunk_b 4 5 0 (dev6_eq c) k0_pay6
  chunk_b 5 6 1 (dev7_eq c) k0_pay7
  chunk_b 6 7 2 (dev8_eq c) k0_pay8
  chunk_b 7 8 3 (dev9_eq c) (fun v => k0_pay10 (k0_pay9 v))
  chunk_b 8 9 4 (dev10_eq c) k0_pay11
  chunk_b 9 10 5 (dev11_eq c) k0_pay12
  chunk_b 10 11 6 (dev12_eq c) k0_pay13
  chunk_b 11 12 7 (dev13_eq c) k0_pay14
  chunk_b 12 13 8 (dev14_eq c) k0_pay15
  chunk_b 13 14 9 (dev15_eq c) (fun v => k0_pay17 (k0_pay16 v))
  chunk_b 14 15 10 (dev16_eq c) k0_pay18
  chunk_c (dev17_eq c) k0_pay19
  -- the last four chunks' copies end
  chunk_f 16 12
  chunk_f 17 13
  chunk_f 18 14
  chunk_f 19 15
  -- the end: the cells closed, the buffers whole
  iapply (Entails.of_eq (wp_ret _ _ _ PUnit.unit Kt).symm)
  imod (inv_final m K c) $$ [HI] with Hfin
  · isplitr; · iexact HP
    iexact HI
  imodintro
  iapply HK
  iexact Hfin

/-- The library's body obligation on device `c`. -/
theorem body_obligation (c : Dev nD) : BodyObligation (dats (F := F) m 0 c) (defs₀ (F := F)) 𝒱₀ () Set.univ := fun t => by
  rw [fin_N t]
  have e0 (Φ : Fin cfg0.W → sProp 𝕄) : bigSep Finset.univ Φ = (iprop(emp) : sProp 𝕄) := rfl
  rw [e0, e0]
  show iprop(Φ₀ m c ∗ (dats m 0 c).owesAt () t₀.castSucc ∗ emp)
    ⊢ WP c (cc0_body (Memref.whole main_arg0) (Memref.isWhole_whole _) (Memref.whole main_v1) (Memref.isWhole_whole _)
        (Memref.whole cc0_scratch0) (Memref.isWhole_whole _) (Memref.whole cc0_scratch1) (Memref.isWhole_whole _)
        cc0_scratch2 cc0_scratch3 cc0_scratch4 cc0_scratch5) (fun _ => iprop(Φ₁ m c ∗ (dats m 0 c).owesAt () t₀.succ ∗ emp))
  unfold Φ₀ start Dat.owesAt Pipeline.owesWithin
  rw [show (dats m 0 c).owed t₀.castSucc = O₀ c from rfl, show (dats m 0 c).owed t₀.succ = 0 from rfl]
  iintro ⟨⟨⟨⟨%K, HP, Hlin⟩, Hbufs⟩, Hscr⟩, ⟨%W, %hW, HO⟩, -⟩
  iapply (sound_body m K c W _)
  isplitl [HP]; · iexact HP
  isplitl [Hlin]; · iexact Hlin
  isplitl [Hbufs]; · iexact Hbufs
  isplitl [Hscr]; · iexact Hscr
  isplitl [HO]; · iexact HO
  iintro ⟨HΦ, ⟨%W', HO⟩⟩
  isplitl [HΦ]; · iexact HΦ
  isplitl [HO]
  · iexists W'
    isplitr; · ipureintro; exact fun _ _ => Or.inl trivial
    iexact HO
  iempintro

end Cert.Kernel.AG

end
-- ==== Proof.AGW.Launch.lean ====
/-
  The launch: from every device's body to the run of the whole mesh.

  The ghost state is dealt in three steps. The launch element funds every cell of every device at round 0 — its round
  state, its position, the mark that round 0 is reached — and mints the token of every duty of the schedule: per
  device one for its barrier cell, and per chunk `k` the load's (cell `k mod 2`, round `k / 2`), the local store's
  (cell `k mod 4`, round `k / 4`), the send cell's and the receive cell's. Each cell's round state and its counter at
  zero then make its invariant. Last the tokens travel to the devices that pay the duties: a barrier token and the
  sixteen receive tokens go to the partner (the pairing is a permutation of the mesh, its own inverse), the rest stay.
  The credit a device waits with is what the mesh owes its cells: the partner's unit on its barrier cell, the
  partner's sixteen chunks on its receive cells.
-/
import proofs.«900687_g7700000000000688_dist_ag_v7x_xyz2x4x4_x_m32768_n1024_bf16_1_alg».proof.Proof.AGW.Body

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The kernel's own semaphores and the cells' numbering -/

/-- The kernel's own (scoped) semaphores, as the launch theorem indexes them: the whole DMA pool. -/
abbrev osem : DmaSem sig → SemLoc sig := SemLoc.dma

theorem dma_scoped : ∀ i : DmaSem sig, (SemLoc.dma i : SemLoc sig).isScoped .tc = true := by decide

theorem ownSemFacts : Pipeline.OwnSemFacts cfg0.spec osem :=
  ⟨dma_scoped, fun a b h => SemLoc.dma.inj h, fun _ w _ => w.elim0⟩

theorem share_eq (c : Dev nD) (w : Fin cfg0.W) : (dats m 0 c).share w = fullShare := w.elim0

theorem ix_csem (i : Fin 39) : ix (csem i) = i := by
  unfold csem
  split
  · next h => exact Fin.ext (by show (0 : ℕ) = i.val; omega)
  · next h => exact Fin.ext (by show i.val - 1 + 1 = i.val; omega)

/-- The numbering is a bijection between a device's semaphores and `Fin 39`. -/
def cellEquiv : SemLoc sig ≃ Fin 39 := ⟨ix, csem, csem_ix, ix_csem⟩

theorem kcell_injective : Function.Injective (kcell : Dev nD × Fin 39 → GSem nD τ sig) := by
  rintro ⟨c, i⟩ ⟨c', i'⟩ h
  have h1 : c = c' := congrArg (fun g : GSem nD τ sig => g.1.1) h
  subst h1
  have h2 : csem i = csem i' := congrArg Prod.snd h
  have h3 : i = i' := (ix_csem i).symm.trans ((congrArg ix h2).trans (ix_csem i'))
  subst h3; rfl

/-- Every cell of every device. -/
def agCells : Finset (GSem nD τ sig) := Finset.univ.map ⟨kcell, kcell_injective⟩

/-- A family over a device's semaphores, read through the numbering. -/
theorem bigSep_cells (Φ : SemLoc sig → sProp 𝕄) :
    (bigSep Finset.univ fun i : Fin 39 => Φ (csem i)) = bigSep Finset.univ Φ := by
  rw [bigSep_univ_equiv cellEquiv (fun i : Fin 39 => Φ (csem i))]
  exact bigSep_congr fun s _ => by show Φ (csem (ix s)) = Φ s; rw [csem_ix]

/-! ## The duty tokens -/

/-- A device's duties: the barrier's, and per chunk the receive's, the load's, the local store's and the send's. -/
abbrev TokIx : Type := Unit ⊕ (Fin 16 × Fin 4)

/-- The cell and the round of a duty. -/
def tokSem : TokIx → SemLoc sig × ℕ
  | .inl _ => (.reg barS, 0)
  | .inr (k, j) => match j with
    | 0 => (.dma (recvS k), 0)
    | 1 => (.dma (loadS (f2 k)), k.val / 2)
    | 2 => (.dma (storeS (b4 k)), k.val / 4)
    | 3 => (.dma (sendS k), 0)

/-- The same in numbers: the cell's place among the 39, and the round. -/
def tokNum : TokIx → ℕ × ℕ
  | .inl _ => (0, 0)
  | .inr (k, j) => match j with
    | 0 => (22 + k.val + 1, 0)
    | 1 => (k.val % 2 + 1, k.val / 2)
    | 2 => (2 + k.val % 4 + 1, k.val / 4)
    | 3 => (6 + k.val + 1, 0)

set_option maxRecDepth 16384 in
theorem tokNum_injective : Function.Injective tokNum := by decide

theorem tokSem_num (x : TokIx) : ((ix (tokSem x).1).val, (tokSem x).2) = tokNum x := by
  rcases x with u | ⟨k, j⟩
  · rfl
  · fin_cases j
    · show ((recvS k).val + 1, 0) = (22 + k.val + 1, 0); rw [recvS_val]
    · show ((loadS (f2 k)).val + 1, k.val / 2) = (k.val % 2 + 1, k.val / 2); rw [loadS_val]; rfl
    · show ((storeS (b4 k)).val + 1, k.val / 4) = (2 + k.val % 4 + 1, k.val / 4); rw [storeS_val]; rfl
    · show ((sendS k).val + 1, 0) = (6 + k.val + 1, 0); rw [sendS_val]

abbrev tokOf (cx : Dev nD × TokIx) : GSem nD τ sig × ℕ × Unit :=
  (((cx.1 : Thread nD τ), (tokSem cx.2).1), (tokSem cx.2).2, ())

theorem tokOf_injective : Function.Injective (tokOf : Dev nD × TokIx → GSem nD τ sig × ℕ × Unit) := by
  rintro ⟨c, x⟩ ⟨c', y⟩ h
  have h1 : c = c' := congrArg (fun t : GSem nD τ sig × ℕ × Unit => t.1.1.1) h
  subst h1
  have h2 : (tokSem x).1 = (tokSem y).1 := congrArg (fun t : GSem nD τ sig × ℕ × Unit => t.1.2) h
  have h3 : (tokSem x).2 = (tokSem y).2 := congrArg (fun t : GSem nD τ sig × ℕ × Unit => t.2.1) h
  have h4 : x = y := tokNum_injective (by rw [← tokSem_num x, ← tokSem_num y, h2, h3])
  subst h4; rfl

/-- Every duty token of the schedule. -/
def agToks : Finset (GSem nD τ sig × ℕ × Unit) := Finset.univ.map ⟨tokOf, tokOf_injective⟩

/-- One duty's token. -/
def tokP (c : Dev nD) (b : TokIx) : sProp 𝕄 := dutyTok ER ((c : Thread nD τ), (tokSem b).1) (tokSem b).2 ()

/-- Chunk `k`'s tokens on the sender's own cells: the load's, the local store's, the send cell's. -/
def own3 (c : Dev nD) (k : Fin 16) : sProp 𝕄 :=
  iprop(dutyTok ER (loadCell c (f2 k)) (k.val / 2) () ∗ dutyTok ER (storeCell c (b4 k)) (k.val / 4) () ∗ dutyTok ER (sendCell c k) 0 ())

/-- The tokens of device `c`'s own cells. -/
def toks (c : Dev nD) : sProp 𝕄 :=
  iprop(dutyTok ER (barCell c) 0 () ∗ bigSep Finset.univ fun k : Fin 16 => iprop(dutyTok ER (recvCell c k) 0 () ∗ own3 c k))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem toks_eq :
    bigSep agToks (fun x => (dutyTok ER x.1 x.2.1 x.2.2 : sProp 𝕄)) = bigSep Finset.univ fun c : Dev nD => (toks c : sProp 𝕄) := by
  unfold agToks; rw [bigSep_map, bigSep_univ_prod]
  refine bigSep_congr fun c _ => ?_
  show bigSep Finset.univ (tokP (F := F) c) = toks c
  rw [bigSep_univ_sum, bigSep_univ_of_subsingleton (), bigSep_univ_prod]
  show iprop(tokP c (Sum.inl ()) ∗ bigSep Finset.univ fun k : Fin 16 => bigSep Finset.univ fun j : Fin 4 => tokP c (Sum.inr (k, j))) = _
  rw [bigSep_congr (s := Finset.univ) (fun (k : Fin 16) _ => bigSep_four (fun j : Fin 4 => tokP (F := F) c (Sum.inr (k, j))))]
  rfl

/-! ## The launch element and what it funds -/

def u₀ : UU :=
  (initOf (Pipeline.cells cfgs cellOf_inj) (Pipeline.launchToks cfgs cellOf_inj), initOf agCells agToks)

/-- What the launch element deals device `c` (the theorem's `G`): its cells' round states, positions and
    reached-marks, and the tokens of its own cells' duties. -/
def G (c : Dev nD) : sProp 𝕄 :=
  iprop((bigSep Finset.univ fun i : Fin 39 => roundState ER (sched m) (kcell (c, i)) 0)
    ∗ (bigSep Finset.univ fun i : Fin 39 => iprop(atPos ER (kcell (c, i)) 0 ∅ 0 ∗ reached ER (kcell (c, i)) 0)) ∗ toks c)

theorem fund_ag : BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun i : Fin 39 => Φ (kcell (c, i)) := by
    unfold agCells; rw [bigSep_map, bigSep_univ_prod]; rfl
  iintro HX
  imod (Rounds.fund ER (sched m) agCells agToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The counters at zero, cell by cell; the invariants -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's semaphores: the barrier semaphore's member and the DMA pool's. -/
theorem sems_all (Φ : SemLoc sig → sProp 𝕄) :
    bigSep Finset.univ Φ = iprop(Φ (.reg barS) ∗ bigSep Finset.univ fun i : DmaSem sig => Φ (.dma i)) := by
  haveI : Subsingleton (Sem sig) := (inferInstance : Subsingleton (Fin 1))
  rw [bigSep_univ_equiv (SemLoc.equivSum sig).symm Φ, bigSep_univ_sum, bigSep_univ_of_subsingleton barS]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 39 => semVal (kcell (c, i)) 0 : sProp 𝕄) := by
  rw [unscopedSems0_eq]
  unfold Pipeline.ownSems0
  refine BIBase.Entails.trans ?_ (Entails.of_eq (bigSep_cells (F := F) (fun s => semVal ((c : Thread nD τ), s) 0)).symm)
  rw [sems_all (fun s => (semVal ((c : Thread nD τ), s) 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 39 => iprop(∃ κ : ℕ, cellInv ER (sched m) κ (kcell (c, i))))
          ∗ (bigSep Finset.univ fun i : Fin 39 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 39 => semVal (kcell (c, i)) 0) ∗ bigSep Finset.univ fun i : Fin 39 => roundState ER (sched m) (kcell (c, i)) 0)
      ⊢ (|={Set.univ}=> bigSep Finset.univ fun i : Fin 39 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The positions, pool by pool -/

/-- The DMA pool as the kernel names it: the loads' semaphores, the stores', the sends', the receives'. -/
abbrev PoolIx : Type := Fin 2 ⊕ (Fin 4 ⊕ (Fin 16 ⊕ Fin 16))

def poolSem : PoolIx → DmaSem sig
  | .inl j => loadS j
  | .inr (.inl j) => storeS j
  | .inr (.inr (.inl k)) => sendS k
  | .inr (.inr (.inr k)) => recvS k

/-- Their places in the pool. -/
def poolNum : PoolIx → ℕ
  | .inl j => j.val
  | .inr (.inl j) => 2 + j.val
  | .inr (.inr (.inl k)) => 6 + k.val
  | .inr (.inr (.inr k)) => 22 + k.val

set_option maxRecDepth 16384 in
theorem poolNum_injective : Function.Injective poolNum := by decide

theorem poolSem_val (x : PoolIx) : (poolSem x).val = poolNum x := by
  rcases x with j | j | k | k
  · exact loadS_val j
  · exact storeS_val j
  · exact sendS_val k
  · exact recvS_val k

theorem poolSem_injective : Function.Injective poolSem := fun x y h =>
  poolNum_injective (by rw [← poolSem_val x, ← poolSem_val y, h])

/-- Of a family over a finite type, the members along an injection (the others let go). -/
theorem bigSep_along_inj {I J : Type} [Fintype I] [DecidableEq I] [Fintype J] (f : J ↪ I) (Φ : I → sProp 𝕄) :
    bigSep Finset.univ Φ ⊢ bigSep Finset.univ fun j => Φ (f j) :=
  (bigSep_subset (Finset.subset_univ (Finset.univ.map f))).trans (Entails.of_eq (bigSep_map f))

/-- A family over a device's 39 cells, by kind of cell. -/
theorem cells_split (Φ : SemLoc sig → sProp 𝕄) :
    (bigSep Finset.univ fun i : Fin 39 => Φ (csem i))
      ⊢ iprop(Φ (.reg barS) ∗ (bigSep Finset.univ fun j : Fin 2 => Φ (.dma (loadS j))) ∗ (bigSep Finset.univ fun j : Fin 4 => Φ (.dma (storeS j)))
          ∗ (bigSep Finset.univ fun k : Fin 16 => Φ (.dma (sendS k))) ∗ (bigSep Finset.univ fun k : Fin 16 => Φ (.dma (recvS k)))) := by
  rw [bigSep_cells Φ, sems_all Φ]
  refine sep_mono_right ?_
  refine (bigSep_along_inj (F := F) ⟨poolSem, poolSem_injective⟩ (fun i : DmaSem sig => Φ (.dma i))).trans (Entails.of_eq ?_)
  rw [bigSep_univ_sum, bigSep_univ_sum, bigSep_univ_sum]
  rfl

/-! ## The tokens travel; the devices' shares -/

/-- Every cell's invariant, under the names `K`, and that round 0 of every cell is reached. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

/-- The tokens device `c` pays with: the partner's barrier duty's, the partner's sixteen receive duties', and its own
    loads', stores' and sends'. -/
def payToks (c : Dev nD) : sProp 𝕄 :=
  iprop(dutyTok ER (barCell (pr c)) 0 () ∗ (bigSep Finset.univ fun k : Fin 16 => dutyTok ER (recvCell (pr c) k) 0 ())
    ∗ bigSep Finset.univ fun k : Fin 16 => own3 c k)

/-- Its positions, by kind of cell. -/
def posns (c : Dev nD) : sProp 𝕄 :=
  iprop(atPos ER (barCell c) 0 ∅ 0 ∗ (bigSep Finset.univ fun j : Fin 2 => atPos ER (loadCell c j) 0 ∅ 0)
    ∗ (bigSep Finset.univ fun j : Fin 4 => atPos ER (storeCell c j) 0 ∅ 0)
    ∗ (bigSep Finset.univ fun k : Fin 16 => atPos ER (sendCell c k) 0 ∅ 0)
    ∗ (bigSep Finset.univ fun k : Fin 16 => atPos ER (recvCell c k) 0 ∅ 0))

/-- What the global step makes of the launch element (`G'`). -/
def G' (c : Dev nD) : sProp 𝕄 := iprop(∃ K, iprop(records m K ∗ posns c ∗ payToks c))

/-- A barrier token and the receive tokens go to the partner. -/
theorem toks_around : (bigSep Finset.univ fun c : Dev nD => (toks c : sProp 𝕄)) ⊢ bigSep Finset.univ fun c : Dev nD => payToks c := by
  unfold toks payToks
  simp only [bigSep_sep']
  rw [bigSep_univ_equiv pair (fun c : Dev nD => (dutyTok ER (barCell c) 0 () : sProp 𝕄)),
    bigSep_univ_equiv pair (fun c : Dev nD => (bigSep Finset.univ fun k : Fin 16 => dutyTok ER (recvCell c k) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Dev nD × Fin 39 → ℕ) (c : Dev nD) :
    iprop(records m K ∗ ((bigSep Finset.univ fun i : Fin 39 => atPos ER (kcell (c, i)) 0 ∅ 0) ∗ payToks c)) ⊢ G' m c := by
  unfold G'
  iintro ⟨#HR, Hat, Htk⟩
  iexists K
  isplitr; · iexact HR
  isplitl [Hat]
  · unfold posns
    iapply (cells_split (F := F) (fun s => atPos ER ((c : Thread nD τ), s) 0 ∅ 0))
    iexact Hat
  · iexact Htk

theorem regroup :
    (bigSep Finset.univ fun c : Dev nD => iprop((bigSep Finset.univ fun i : Fin 39 => iprop(∃ κ : ℕ, cellInv ER (sched m) κ (kcell (c, i))))
          ∗ (bigSep Finset.univ fun i : Fin 39 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun i : Fin 39 => (atPos ER (kcell (c, i)) 0 ∅ 0 : sProp 𝕄)) (fun i => reached ER (kcell (c, i)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => share_intro m K c)
  isplitr
  · unfold records; isplitl; · iexact HI
    iexact HR
  · iapply (Entails.of_eq (bigSep_sep' Finset.univ (fun c : Dev nD => bigSep Finset.univ fun i : Fin 39 => (atPos ER (kcell (c, i)) 0 ∅ 0 : sProp 𝕄)) (payToks (F := F))).symm)
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the mesh owes device `c`'s cells: a unit on its barrier cell, a chunk on each receive cell. -/
def T₀ (c : Dev nD) : CellTallies nD τ sig Unit :=
  tallyAt (barCell c) () 1 + ∑ k : Fin 16, tallyAt (recvCell c k) () Nb

theorem Oup_sum (c : Dev nD) (j : ℕ) :
    Oup c j = ∑ i ∈ Finset.range j, (tallyAt (recvCell (pr c) (kOf (15 - i))) () Nb : CellTallies nD τ sig Unit) := by
  induction j with
  | zero => rw [Finset.sum_range_zero]; rfl
  | succ j ih => rw [Finset.sum_range_succ, ← ih]; rfl

/-- Chunk `15 - i` for chunk `i`: the order the schedule's dues are listed in, reversed. -/
def rev16 : Fin 16 ≃ Fin 16 := ⟨fun i => kOf (15 - i.val), fun i => kOf (15 - i.val), by decide, by decide⟩

/-- The sixteen chunks a device owes the partner's receive cells. -/
theorem Oup_16 (c : Dev nD) : Oup c 16 = ∑ k : Fin 16, (tallyAt (recvCell (pr c) k) () Nb : CellTallies nD τ sig Unit) := by
  rw [Oup_sum, ← Fin.sum_univ_eq_sum_range (fun i => (tallyAt (recvCell (pr c) (kOf (15 - i))) () Nb : CellTallies nD τ sig Unit)) 16]
  exact Fintype.sum_equiv rev16 _ _ (fun i => rfl)

/-- A device owes what the mesh owes its partner's cells. -/
theorem O₀_eq (d : Dev nD) : O₀ d = T₀ (pr d) := by
  unfold O₀ T₀; rw [Oup_16, add_comm]

theorem owed_sum : (∑ d : Dev nD, O₀ d) = ∑ d : Dev nD, T₀ d :=
  Fintype.sum_equiv pair _ _ (fun d => O₀_eq d)

theorem T₀_own (d : Dev nD) (g : GSem nD τ sig) (hg : T₀ d g ≠ 0) : g.1 = (d : Thread nD τ) := by
  by_contra hne
  refine hg ?_
  have hb : g ≠ barCell d := fun h => hne (by rw [h])
  have hr : ∀ k : Fin 16, g ≠ recvCell d k := fun k h => hne (by rw [h])
  unfold T₀
  rw [Pi.add_apply, Finset.sum_apply, tallyAt_ne_cell hb, Finset.sum_eq_zero (fun k _ => tallyAt_ne_cell (hr k) _ _), add_zero]

/-- The credit the launch deals device `c`: the unit to wait on its barrier cell with, a chunk per receive cell. -/
theorem creds (c : Dev nD) :
    (Pipeline.launchCred O₀ c : sProp 𝕄)
      ⊢ iprop(cred (tallyAt (barCell c) () 1) ∗ bigSep Finset.univ fun k : Fin 16 => cred (tallyAt (recvCell c k) () Nb)) := by
  rw [Pipeline.launchCred_of_sum O₀ T₀ owed_sum T₀_own c]
  unfold T₀
  exact (cred_add _ _).1.trans (sep_mono_right (Entails.of_eq (Pipeline.cred_finsetSum Finset.univ _)))

/-! ## The theorem's side conditions -/

/-- One device's row of a family over all cells. -/
theorem row {Φ : Dev nD × Fin 39 → sProp 𝕄} (c : Dev nD) : bigSep Finset.univ Φ ⊢ bigSep Finset.univ fun i : Fin 39 => Φ (c, i) := by
  rw [bigSep_univ_prod]
  exact bigSep_elim (Φ := fun a : Dev nD => bigSep Finset.univ fun i : Fin 39 => Φ (a, i)) (Finset.mem_univ c)

theorem pers_intro (K : Dev nD × Fin 39 → ℕ) (c : Dev nD) : iprop(records m K ∗ levAts L lv) ⊢ pers m K c := by
  unfold records pers
  iintro ⟨⟨#HI, #HR⟩, #Hl⟩
  isplitr; · iapply (row (F := F) (Φ := fun ck => cellInv ER (sched m) (K ck) (kcell ck)) c); iexact HI
  isplitr; · iapply (row (F := F) (Φ := fun ck => cellInv ER (sched m) (K ck) (kcell ck)) (pr c)); iexact HI
  isplitr; · iapply (row (F := F) (Φ := fun ck => reached ER (kcell ck) 0) c); iexact HR
  isplitr; · iapply (row (F := F) (Φ := fun ck => reached ER (kcell ck) 0) (pr c)); iexact HR
  iexact Hl

/-- Chunk by chunk: the tokens, the send and receive cells' positions, the receive credit. -/
theorem chunk_intro (c : Dev nD) :
    iprop((bigSep Finset.univ fun k : Fin 16 => dutyTok ER (recvCell (pr c) k) 0 ()) ∗ (bigSep Finset.univ fun k : Fin 16 => own3 c k)
        ∗ (bigSep Finset.univ fun k : Fin 16 => atPos ER (sendCell c k) 0 ∅ 0) ∗ (bigSep Finset.univ fun k : Fin 16 => atPos ER (recvCell c k) 0 ∅ 0)
        ∗ (bigSep Finset.univ fun k : Fin 16 => cred (tallyAt (recvCell c k) () Nb)))
      ⊢ (bigSep Finset.univ fun k : Fin 16 => iprop(chunkToks c k ∗ chunkPos c k) : sProp 𝕄) := by
  have hk (k : Fin 16) : iprop(dutyTok ER (recvCell (pr c) k) 0 () ∗ own3 c k ∗ atPos ER (sendCell c k) 0 ∅ 0 ∗ atPos ER (recvCell c k) 0 ∅ 0
        ∗ cred (tallyAt (recvCell c k) () Nb))
      ⊢ (iprop(chunkToks c k ∗ chunkPos c k) : sProp 𝕄) := by
    unfold chunkToks chunkPos own3
    iintro ⟨Hr, ⟨Hl, Hs, Hd⟩, Hps, Hpr, Hc⟩
    isplitl [Hr Hl Hs Hd]
    · isplitl [Hl]; · iexact Hl
      isplitl [Hs]; · iexact Hs
      isplitl [Hd]; · iexact Hd
      iexact Hr
    · isplitl [Hps]; · iexact Hps
      isplitl [Hpr]; · iexact Hpr
      iexact Hc
  rw [← bigSep_sep', ← bigSep_sep', ← bigSep_sep', ← bigSep_sep']
  exact bigSep_mono fun k _ => hk k

theorem lin_intro (c : Dev nD) :
    iprop(posns c ∗ payToks c ∗ cred (tallyAt (barCell c) () 1) ∗ bigSep Finset.univ fun k : Fin 16 => cred (tallyAt (recvCell c k) () Nb))
      ⊢ (lin c : sProp 𝕄) := by
  unfold posns payToks lin
  iintro ⟨⟨Hb, Hl, Hs, Hsd, Hrv⟩, ⟨Htb, Htr, Ht3⟩, Hcb, Hcr⟩
  isplitl [Hb]; · iexact Hb
  isplitl [Hcb]; · iexact Hcb
  isplitl [Htb]; · iexact Htb
  isplitl [Hl]; · iexact Hl
  isplitl [Hs]; · iexact Hs
  iapply (chunk_intro (F := F) c)
  isplitl [Htr]; · iexact Htr
  isplitl [Ht3]; · iexact Ht3
  isplitl [Hsd]; · iexact Hsd
  isplitl [Hrv]; · iexact Hrv
  iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, #Hlev, Hcr, -, ⟨%K, #HR, Hpos, Htk⟩⟩
  ihave Hc := (creds (F := F) c) $$ Hcr
  icases Hc with ⟨H1, HN⟩
  imodintro
  isplitl
  · unfold start bufs xblk oblk
    isplitr [Hx Ho]
    · iexists K
      isplitr
      · iapply (pers_intro m K c)
        isplitr; · iexact HR
        iexact Hlev
      · iapply (lin_intro (F := F) c)
        isplitl [Hpos]; · iexact Hpos
        isplitl [Htk]; · iexact Htk
        isplitl [H1]; · iexact H1
        iexact HN
    · isplitl [Hx]; · iexact Hx
      iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device hands back of its unscoped buffers: its block of `x` as launched, and a result array that reads as
    the two blocks' narrowed chunks. -/
def Yc (c : Dev nD) : sProp 𝕄 :=
  iprop((((c : Thread nD τ).loc main_arg0) ↦{fullShare} xblk m c)
    ∗ (∃ g, iprop(⌜Res m c g⌝ ∗ (((c : Thread nD τ).loc main_v1) ↦{fullShare} g))))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc scr sems0 Pipeline.ownSems0
  iintro ⟨Hx, Hg, Hr, Hz⟩
  isplitl [Hx Hg]
  · isplitl [Hx]; · iexact Hx
    iexact Hg
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => w.elim0

end Launch

open Launch

/-! ## The run -/

/-- After the run: every device's result array reads, chunk by chunk, as the narrowed chunks of the two blocks, and
    its block of `x` is what it was. -/
def QC : PUnit × MemSt nD τ sig (Elt F) → Prop := fun r => ∀ c : Dev nD,
  Res m c (r.2.mem ((c : Thread nD τ).loc main_v1))
    ∧ r.2.mem ((c : Thread nD τ).loc main_arg0) = m ((c : Thread nD τ).loc main_arg0)

set_option maxRecDepth 8000 in
/-- At the compiled mesh of 32 devices, for any float values, from any memory with zero counters: every weakly fair
    execution of @main — the devices handshaking pairwise on the runtime's barrier semaphore, then each copying its
    block, chunk by chunk, narrowed, into its own result and its partner's — terminates, and every final state has
    each device's result array reading as the two blocks narrowed and `x` unchanged. -/
theorem run_main : θ_run defs (onTc (τ := τ) (main (F := F))) (st0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => Res m c (s.mem ((c : Thread nD τ).loc main_v1))
      ∧ s.mem ((c : Thread nD τ).loc main_arg0) = m ((c : Thread nD τ).loc main_arg0))
    (hY := fun c s' => by
      unfold Yc
      iintro ⟨⟨Hx, ⟨%g, %hg, Ho⟩⟩, -, HSI⟩
      icombine HSI Hx gives %hx
      icombine HSI Ho gives %ho
      imodintro
      isplitr
      · ipureintro
        have e1 := Buf.eq_of_forall_mem_univ hx
        have e2 := Buf.eq_of_forall_mem_univ ho
        exact ⟨by rw [e2]; exact hg, e1⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.lean ====
/- Every device's result array ends as the gathered array narrowed to bf16 entry by entry, which is the reference's result;
   all three programs run to the end, nothing faulting, and leave their argument arrays unchanged. -/
import proofs.«900687_g7700000000000688_dist_ag_v7x_xyz2x4x4_x_m32768_n1024_bf16_1_alg».proof.Defs
import proofs.«900687_g7700000000000688_dist_ag_v7x_xyz2x4x4_x_m32768_n1024_bf16_1_alg».proof.Proof.Gen.Kernel
import proofs.«900687_g7700000000000688_dist_ag_v7x_xyz2x4x4_x_m32768_n1024_bf16_1_alg».proof.Proof.Gen.Kernel.Skeleton
import proofs.«900687_g7700000000000688_dist_ag_v7x_xyz2x4x4_x_m32768_n1024_bf16_1_alg».proof.Proof.Gen.Kernel.Launch
import proofs.«900687_g7700000000000688_dist_ag_v7x_xyz2x4x4_x_m32768_n1024_bf16_1_alg».proof.Proof.Gen.Kernel.Points
import proofs.«900687_g7700000000000688_dist_ag_v7x_xyz2x4x4_x_m32768_n1024_bf16_1_alg».proof.Proof.Gen.Kernel.Frame
import proofs.«900687_g7700000000000688_dist_ag_v7x_xyz2x4x4_x_m32768_n1024_bf16_1_alg».proof.Proof.Gen.KernelIdeal
import proofs.«900687_g7700000000000688_dist_ag_v7x_xyz2x4x4_x_m32768_n1024_bf16_1_alg».proof.Proof.Gen.KernelIdeal.Skeleton
import proofs.«900687_g7700000000000688_dist_ag_v7x_xyz2x4x4_x_m32768_n1024_bf16_1_alg».proof.Proof.Gen.KernelIdeal.Launch
import proofs.«900687_g7700000000000688_dist_ag_v7x_xyz2x4x4_x_m32768_n1024_bf16_1_alg».proof.Proof.Gen.KernelIdeal.Points
import proofs.«900687_g7700000000000688_dist_ag_v7x_xyz2x4x4_x_m32768_n1024_bf16_1_alg».proof.Proof.Gen.KernelIdeal.Frame
import proofs.«900687_g7700000000000688_dist_ag_v7x_xyz2x4x4_x_m32768_n1024_bf16_1_alg».proof.Proof.Gen.ReferenceIdeal
import proofs.«900687_g7700000000000688_dist_ag_v7x_xyz2x4x4_x_m32768_n1024_bf16_1_alg».proof.Proof.Gen.ReferenceIdeal.Run
import proofs.«900687_g7700000000000688_dist_ag_v7x_xyz2x4x4_x_m32768_n1024_bf16_1_alg».proof.Proof.Gen.Pre_finite_inputs_Kernel
import proofs.«900687_g7700000000000688_dist_ag_v7x_xyz2x4x4_x_m32768_n1024_bf16_1_alg».proof.Proof.Gen.Pre_finite_inputs_ReferenceIdeal
import proofs.«900687_g7700000000000688_dist_ag_v7x_xyz2x4x4_x_m32768_n1024_bf16_1_alg».proof.Proof.AG.Launch
import proofs.«900687_g7700000000000688_dist_ag_v7x_xyz2x4x4_x_m32768_n1024_bf16_1_alg».proof.Proof.AG.Value
import proofs.«900687_g7700000000000688_dist_ag_v7x_xyz2x4x4_x_m32768_n1024_bf16_1_alg».proof.Proof.AGW.Launch
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  refine ⟨?_, ?_, ?_, trivial, ?_⟩
  · exact fun m g _ => (θ_run Cert.Kernel.defs _ _).mono (fun _ h c => (h c).2) (Cert.Kernel.AG.run_main (F := Bits) m g)
  · exact fun m g _ => (θ_run Cert.KernelIdeal.defs _ _).mono (fun _ h c => (h c).2) (Cert.KernelIdeal.AG.run_main (F := Ideal) m g)
  · exact fun m g _ => (θ_run Cert.ReferenceIdeal.defs _ _).mono (fun _ h c => (h c).2) (Cert.ReferenceIdeal.Value.run (F := Ideal) m g)
  · intro m g m' g' _ hblk
    refine ⟨truncf (F := Ideal) .bf16
      (m' (((0 : Dev Cert.ReferenceIdeal.nD).tc : Thread Cert.ReferenceIdeal.nD Cert.ReferenceIdeal.τ).loc Cert.ReferenceIdeal.main_arg0))
      Cert.ReferenceIdeal.Gen.bitsLt_bf16_f32, ?_, ?_⟩
    · exact (θ_run Cert.KernelIdeal.defs _ _).mono
        (fun _ h c => ⟨Cert.KernelIdeal.AG.result_eq m _ hblk c _ (h c).1, (h c).2⟩)
        (Cert.KernelIdeal.AG.run_main (F := Ideal) m g)
    · exact (θ_run Cert.ReferenceIdeal.defs _ _).mono (fun _ h => ⟨(h 0).1, (h 0).2⟩)
        (Cert.ReferenceIdeal.Value.run (F := Ideal) m' g')⟩

end Cert.Proof

end
